-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S1600000 : Shape := ⟨1, ![1600000]⟩
abbrev S100000x1 : Shape := ⟨2, ![100000, 1]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S100000x1 : S_.BroadcastsInDim S100000x1 (![] : Fin 0 → Fin S100000x1.rank)
  reducesTo_S100000x1_S_d0_1 : S100000x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S1600000 .f32) (main_arg4 : FVec F S100000x1 .f32) (main_arg5 : FVec F S128x128 .f32) (main_arg6 : FVec F S128 .f32) (main_arg7 : FVec F S128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S100000x1 .f32 := Host.absf main_arg4
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S1600000 : Shape := ⟨1, ![1600000]⟩
abbrev S100000x1 : Shape := ⟨2, ![100000, 1]⟩
abbrev S128x128 : Shape := ⟨2, ![128, 128]⟩
abbrev S128 : Shape := ⟨1, ![128]⟩
abbrev S1x128 : Shape := ⟨2, ![1, 128]⟩
abbrev S10000x128 : Shape := ⟨2, ![10000, 128]⟩
abbrev S10000x1 : Shape := ⟨2, ![10000, 1]⟩
abbrev S_ : Shape := ⟨0, ![]⟩
abbrev S1x1600000 : Shape := ⟨2, ![1, 1600000]⟩
abbrev S1600000x1 : Shape := ⟨2, ![1600000, 1]⟩
abbrev S1600000x128 : Shape := ⟨2, ![1600000, 128]⟩
abbrev S2x512x128 : Shape := ⟨3, ![2, 512, 128]⟩
abbrev S1x512x128 : Shape := ⟨3, ![1, 512, 128]⟩
abbrev S512x128 : Shape := ⟨2, ![512, 128]⟩
abbrev S1x512 : Shape := ⟨2, ![1, 512]⟩
abbrev S10000x512 : Shape := ⟨2, ![10000, 512]⟩

abbrev nBuf : Space → Nat
  | .hbm => 78
  | .vmem => 25
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S1600000, .f32⟩
  | .hbm, ⟨4, _⟩ => ⟨S100000x1, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1x128, .f32⟩
  | .hbm, ⟨10, _⟩ => ⟨S1x128, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S_, .f32⟩
  | .hbm, ⟨22, _⟩ => ⟨S128, .f32⟩
  | .hbm, ⟨23, _⟩ => ⟨S128, .f32⟩
  | .hbm, ⟨24, _⟩ => ⟨S128, .f32⟩
  | .hbm, ⟨25, _⟩ => ⟨S128, .f32⟩
  | .hbm, ⟨26, _⟩ => ⟨S128, .f32⟩
  | .hbm, ⟨27, _⟩ => ⟨S128, .f32⟩
  | .hbm, ⟨28, _⟩ => ⟨S1x128, .f32⟩
  | .hbm, ⟨29, _⟩ => ⟨S1x128, .f32⟩
  | .hbm, ⟨30, _⟩ => ⟨S100000x128, .f32⟩
  | .hbm, ⟨31, _⟩ => ⟨S1x1600000, .i32⟩
  | .hbm, ⟨32, _⟩ => ⟨S1600000, .i32⟩
  | .hbm, ⟨33, _⟩ => ⟨S1x1600000, .i32⟩
  | .hbm, ⟨34, _⟩ => ⟨S1600000, .i32⟩
  | .hbm, ⟨35, _⟩ => ⟨S_, .f32⟩
  | .hbm, ⟨36, _⟩ => ⟨S100000, .f32⟩
  | .hbm, ⟨37, _⟩ => ⟨S1600000x1, .i32⟩
  | .hbm, ⟨38, _⟩ => ⟨S100000, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S_, .f32⟩
  | .hbm, ⟨43, _⟩ => ⟨S100000, .f32⟩
  | .hbm, ⟨44, _⟩ => ⟨S100000, .f32⟩
  | .hbm, ⟨45, _⟩ => ⟨S100000, .f32⟩
  | .hbm, ⟨46, _⟩ => ⟨S100000x1, .f32⟩
  | .hbm, ⟨47, _⟩ => ⟨S100000x128, .f32⟩
  | .hbm, ⟨48, _⟩ => ⟨S100000x128, .f32⟩
  | .hbm, ⟨49, _⟩ => ⟨S1600000x1, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x128, .f32⟩
  | .hbm, ⟨59, _⟩ => ⟨S1600000x128, .f32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S100000x1, .f32⟩
  | .hbm, ⟨66, _⟩ => ⟨S100000x128, .f32⟩
  | .hbm, ⟨67, _⟩ => ⟨S100000x128, .f32⟩
  | .hbm, ⟨68, _⟩ => ⟨S100000, .f32⟩
  | .hbm, ⟨69, _⟩ => ⟨S100000x1, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S1x128, .f32⟩
  | .hbm, ⟨74, _⟩ => ⟨S100000x1, .i32⟩
  | .hbm, ⟨75, _⟩ => ⟨S2x512x128, .f32⟩
  | .hbm, ⟨76, _⟩ => ⟨S_, .f32⟩
  | .hbm, ⟨77, _⟩ => ⟨S512x128, .f32⟩
  | .local _ .vmem, ⟨0, _⟩ => ⟨S10000x128, .f32⟩
  | .local _ .vmem, ⟨1, _⟩ => ⟨S10000x128, .f32⟩
  | .local _ .vmem, ⟨2, _⟩ => ⟨S10000x1, .f32⟩
  | .local _ .vmem, ⟨3, _⟩ => ⟨S10000x1, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x1, .f32⟩
  | .local _ .vmem, ⟨11, _⟩ => ⟨S10000x1, .f32⟩
  | .local _ .vmem, ⟨12, _⟩ => ⟨S1x128, .f32⟩
  | .local _ .vmem, ⟨13, _⟩ => ⟨S1x128, .f32⟩
  | .local _ .vmem, ⟨14, _⟩ => ⟨S128x128, .f32⟩
  | .local _ .vmem, ⟨15, _⟩ => ⟨S10000x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S1x128, .f32⟩
  | .local _ .vmem, ⟨20, _⟩ => ⟨S10000x1, .i32⟩
  | .local _ .vmem, ⟨21, _⟩ => ⟨S10000x1, .i32⟩
  | .local _ .vmem, ⟨22, _⟩ => ⟨S1x512x128, .f32⟩
  | .local _ .vmem, ⟨23, _⟩ => ⟨S1x512x128, .f32⟩
  | .local _ .vmem, ⟨24, _⟩ => ⟨S512x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c : Ref sig .tc := ⟨.hbm, 50, rfl⟩
abbrev main_v34 : Ref sig .tc := ⟨.hbm, 51, rfl⟩
abbrev main_v35 : Ref sig .tc := ⟨.hbm, 52, rfl⟩
abbrev main_c_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_7 : Ref sig .tc := ⟨.hbm, 76, rfl⟩
abbrev main_v57 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem3_1 : DmaSem sig := 21

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v22 : BitVec 1 := Scalar.cmpi .eq arg0 c9_i32
  let v23 : BitVec 32 := Scalar.extui v22
  let c0_i32_13 : BitVec 32 := 0#32
  let v24 : BitVec 1 := Scalar.cmpi .ne v23 c0_i32_13
  v24

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![2, 5], ![false, false]⟩

def k2_cond2 (i : grid2.Coords) : BitVec 1 :=
  let arg1 : BitVec 32 := BitVec.ofNat 32 (i 1).val
  let c4_i32 : BitVec 32 := 4#32
  let v25 : BitVec 1 := Scalar.cmpi .eq arg1 c4_i32
  let v26 : BitVec 32 := Scalar.extui v25
  let c0_i32_11 : BitVec 32 := 0#32
  let v27 : BitVec 1 := Scalar.cmpi .ne v26 c0_i32_11
  v27

def cc2_transform_0 (i : grid2.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S10000x1 .i32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x512x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S10000x1_S10000x1_0_0 : ∀ a, (![0, 0] : Fin 2 → Nat) a + S10000x1.size a ≤ S10000x1.size a
  h_S10000x1 : 0 < S10000x1.numel
  inb_S10000x128_S10000x128_0_0 : ∀ a, (![0, 0] : Fin 2 → Nat) a + S10000x128.size a ≤ S10000x128.size a
  h_S10000x128 : 0 < S10000x128.numel
  broadcasts_S10000x1_S10000x128 : S10000x1.Broadcasts S10000x128
  reduces_S10000x128_S128 : S10000x128.Reduces [0] S128
  shapeCasts_S128_S1x128 : S128.ShapeCasts S1x128
  shapeCasts_S1x128_S128 : S1x128.ShapeCasts S128
  bcast_S_S128 : S_.BroadcastsInDim S128 (![] : Fin 0 → Fin S128.rank)
  broadcasts_S1x128_S10000x128 : S1x128.Broadcasts S10000x128
  inb_S128x128_S128x128_0_0 : ∀ a, (![0, 0] : Fin 2 → Nat) a + S128x128.size a ≤ S128x128.size a
  h_S128x128 : 0 < S128x128.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S100000_S100000x1 : S100000.ShapeCasts S100000x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  shapeCasts_S10000x128_S10000x128 : S10000x128.ShapeCasts S10000x128
  iota_S1x512_d1_w32 : S1x512.Iotas .tc 32 [1]
  shapeCasts_S10000x1_S10000x1 : S10000x1.ShapeCasts S10000x1
  broadcasts_S10000x1_S10000x512 : S10000x1.Broadcasts S10000x512
  broadcasts_S1x512_S10000x512 : S1x512.Broadcasts S10000x512
  natLt_1_32 : 1 < 32
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  shapeCasts_S512x128_S1x512x128 : S512x128.ShapeCasts S1x512x128
  reducesTo_S2x512x128_S512x128_d0 : S2x512x128.ReducesTo [0] S512x128
  h_S_ : 0 < S_.numel
  dot_S10000x128_S128x128_S10000x128_1_0_0_1_n_n_wf : DotDims.WF S10000x128 S128x128 S10000x128 [1] [0] [0] [1] [] []
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x512_S10000x128_S512x128_0_0_1_1_n_n_wf : DotDims.WF S10000x512 S10000x128 S512x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S100000x128.size a
  hwx1_5 : ∀ i : grid1.Coords, EltTy.bits .f32 = 32 ∨ (Rect.block (s := S100000x128) S10000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S100000x1.size a
  hwx2_2 : ∀ i : grid2.Coords, EltTy.bits .i32 = 32 ∨ (Rect.block (s := S100000x1) S10000x1.size (cc2_transform_2 i) (hinb2_2 i)).WholeWords (EltTy.packing .i32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512x128.size a ≤ S2x512x128.size a
  hwx2_3 : ∀ i : grid2.Coords, EltTy.bits .f32 = 32 ∨ (Rect.block (s := S2x512x128) S1x512x128.size (cc2_transform_3 i) (hinb2_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x512_S10000x128_S512x128_0_0_1_1_n_n : DotDims S10000x512 S10000x128 S512x128 where
  lhsContracting := [0]
  rhsContracting := [0]
  lhsNonContracting := [1]
  rhsNonContracting := [1]
  lhsBatch := []
  rhsBatch := []
  wf := dot_S10000x512_S10000x128_S512x128_0_0_1_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x128.size cc0_transform_2 reads0_2 true true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S10000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v53) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1x512x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S1600000 : Shape := ⟨1, ![1600000]⟩
abbrev S100000x1 : Shape := ⟨2, ![100000, 1]⟩
abbrev S128x128 : Shape := ⟨2, ![128, 128]⟩
abbrev S128 : Shape := ⟨1, ![128]⟩
abbrev S_ : Shape := ⟨0, ![]⟩
abbrev S1x128 : Shape := ⟨2, ![1, 128]⟩
abbrev S1x1600000 : Shape := ⟨2, ![1, 1600000]⟩
abbrev S1700000 : Shape := ⟨1, ![1700000]⟩
abbrev S1700000x1 : Shape := ⟨2, ![1700000, 1]⟩
abbrev S1700000x128 : Shape := ⟨2, ![1700000, 128]⟩
abbrev S512x128 : Shape := ⟨2, ![512, 128]⟩

abbrev nBuf : Space → Nat
  | .hbm => 106
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S1600000, .f32⟩
  | .hbm, ⟨4, _⟩ => ⟨S100000x1, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S100000x128, .f32⟩
  | .hbm, ⟨10, _⟩ => ⟨S100000x128, .f32⟩
  | .hbm, ⟨11, _⟩ => ⟨S_, .f32⟩
  | .hbm, ⟨12, _⟩ => ⟨S128, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S1x128, .f32⟩
  | .hbm, ⟨17, _⟩ => ⟨S100000x128, .f32⟩
  | .hbm, ⟨18, _⟩ => ⟨S100000x128, .f32⟩
  | .hbm, ⟨19, _⟩ => ⟨S100000x128, .f32⟩
  | .hbm, ⟨20, _⟩ => ⟨S_, .f32⟩
  | .hbm, ⟨21, _⟩ => ⟨S128, .f32⟩
  | .hbm, ⟨22, _⟩ => ⟨S_, .f32⟩
  | .hbm, ⟨23, _⟩ => ⟨S128, .f32⟩
  | .hbm, ⟨24, _⟩ => ⟨S128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S128, .f32⟩
  | .hbm, ⟨30, _⟩ => ⟨S128, .f32⟩
  | .hbm, ⟨31, _⟩ => ⟨S128, .f32⟩
  | .hbm, ⟨32, _⟩ => ⟨S1x128, .f32⟩
  | .hbm, ⟨33, _⟩ => ⟨S100000x128, .f32⟩
  | .hbm, ⟨34, _⟩ => ⟨S100000x128, .f32⟩
  | .hbm, ⟨35, _⟩ => ⟨S1x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000, .i32⟩
  | .hbm, ⟨43, _⟩ => ⟨S1x1600000, .i32⟩
  | .hbm, ⟨44, _⟩ => ⟨S1600000, .i32⟩
  | .hbm, ⟨45, _⟩ => ⟨S1700000, .i32⟩
  | .hbm, ⟨46, _⟩ => ⟨S1x1600000, .i32⟩
  | .hbm, ⟨47, _⟩ => ⟨S1600000, .i32⟩
  | .hbm, ⟨48, _⟩ => ⟨S1700000, .i32⟩
  | .hbm, ⟨49, _⟩ => ⟨S_, .f32⟩
  | .hbm, ⟨50, _⟩ => ⟨S100000, .f32⟩
  | .hbm, ⟨51, _⟩ => ⟨S1700000, .f32⟩
  | .hbm, ⟨52, _⟩ => ⟨S_, .f32⟩
  | .hbm, ⟨53, _⟩ => ⟨S100000, .f32⟩
  | .hbm, ⟨54, _⟩ => ⟨S1700000x1, .i32⟩
  | .hbm, ⟨55, _⟩ => ⟨S100000, .f32⟩
  | .hbm, ⟨56, _⟩ => ⟨S_, .f32⟩
  | .hbm, ⟨57, _⟩ => ⟨S100000, .f32⟩
  | .hbm, ⟨58, _⟩ => ⟨S100000, .f32⟩
  | .hbm, ⟨59, _⟩ => ⟨S100000, .f32⟩
  | .hbm, ⟨60, _⟩ => ⟨S_, .i32⟩
  | .hbm, ⟨61, _⟩ => ⟨S1700000, .i32⟩
  | .hbm, ⟨62, _⟩ => ⟨S1700000, .i1⟩
  | .hbm, ⟨63, _⟩ => ⟨S_, .i32⟩
  | .hbm, ⟨64, _⟩ => ⟨S1700000, .i32⟩
  | .hbm, ⟨65, _⟩ => ⟨S1700000, .i32⟩
  | .hbm, ⟨66, _⟩ => ⟨S1700000, .i32⟩
  | .hbm, ⟨67, _⟩ => ⟨S1700000x1, .i32⟩
  | .hbm, ⟨68, _⟩ => ⟨S1700000, .f32⟩
  | .hbm, ⟨69, _⟩ => ⟨S1700000, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000, .f32⟩
  | .hbm, ⟨79, _⟩ => ⟨S1700000, .f32⟩
  | .hbm, ⟨80, _⟩ => ⟨S1700000x1, .f32⟩
  | .hbm, ⟨81, _⟩ => ⟨S_, .i32⟩
  | .hbm, ⟨82, _⟩ => ⟨S1700000, .i32⟩
  | .hbm, ⟨83, _⟩ => ⟨S1700000, .i1⟩
  | .hbm, ⟨84, _⟩ => ⟨S_, .i32⟩
  | .hbm, ⟨85, _⟩ => ⟨S1700000, .i32⟩
  | .hbm, ⟨86, _⟩ => ⟨S1700000, .i32⟩
  | .hbm, ⟨87, _⟩ => ⟨S1700000, .i32⟩
  | .hbm, ⟨88, _⟩ => ⟨S1700000x1, .i32⟩
  | .hbm, ⟨89, _⟩ => ⟨S1700000x128, .f32⟩
  | .hbm, ⟨90, _⟩ => ⟨S1700000x128, .f32⟩
  | .hbm, ⟨91, _⟩ => ⟨S1700000x128, .f32⟩
  | .hbm, ⟨92, _⟩ => ⟨S_, .f32⟩
  | .hbm, ⟨93, _⟩ => ⟨S100000x128, .f32⟩
  | .hbm, ⟨94, _⟩ => ⟨S1700000x1, .i32⟩
  | .hbm, ⟨95, _⟩ => ⟨S100000x128, .f32⟩
  | .hbm, ⟨96, _⟩ => ⟨S1x128, .f32⟩
  | .hbm, ⟨97, _⟩ => ⟨S100000x128, .f32⟩
  | .hbm, ⟨98, _⟩ => ⟨S100000x128, .f32⟩
  | .hbm, ⟨99, _⟩ => ⟨S_, .f32⟩
  | .hbm, ⟨100, _⟩ => ⟨S100000x128, .f32⟩
  | .hbm, ⟨101, _⟩ => ⟨S100000x128, .f32⟩
  | .hbm, ⟨102, _⟩ => ⟨S_, .f32⟩
  | .hbm, ⟨103, _⟩ => ⟨S512x128, .f32⟩
  | .hbm, ⟨104, _⟩ => ⟨S100000x1, .i32⟩
  | .hbm, ⟨105, _⟩ => ⟨S512x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_4 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_c : Ref sig .tc := ⟨.hbm, 60, rfl⟩
abbrev main_v43 : Ref sig .tc := ⟨.hbm, 61, rfl⟩
abbrev main_v44 : Ref sig .tc := ⟨.hbm, 62, rfl⟩
abbrev main_c_7 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_8 : Ref sig .tc := ⟨.hbm, 70, rfl⟩
abbrev main_v51 : Ref sig .tc := ⟨.hbm, 71, rfl⟩
abbrev main_v52 : Ref sig .tc := ⟨.hbm, 72, rfl⟩
abbrev main_c_9 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_c_10 : Ref sig .tc := ⟨.hbm, 81, rfl⟩
abbrev main_v60 : Ref sig .tc := ⟨.hbm, 82, rfl⟩
abbrev main_v61 : Ref sig .tc := ⟨.hbm, 83, rfl⟩
abbrev main_c_11 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_12 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_call0_cst : Ref sig .tc := ⟨.hbm, 99, rfl⟩
abbrev main_call0_v0 : Ref sig .tc := ⟨.hbm, 100, rfl⟩
abbrev main_v75 : Ref sig .tc := ⟨.hbm, 101, rfl⟩
abbrev main_cst_13 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩

abbrev nD : Nat := 1
abbrev τ : Topo := Topo.v7x

variable {F : FTy → Type} [FloatOps F]

class Facts₀ : Prop where
  bcast_S100000x1_S100000x128_0_1 : S100000x1.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S_S512x128 : S_.BroadcastsInDim S512x128 (![] : Fin 0 → Fin S512x128.rank)
  bcast_S100000_S100000x1_0 : S100000.BroadcastsInDim S100000x1 (![0] : Fin 1 → Fin S100000x1.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S512x128_S100000x1_S100000x128_1_0_0_1_wf : ScatterDims.WF S512x128 S100000x1 S100000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf

class Facts : Prop extends Facts₀ where

variable [Facts]
-- ==== Proof.K.Region0Defs.lean ====
import proofs.«413865_j65704409694829_2_alg».proof.Proof.Gen.Kernel.Launch
import proofs.«413865_j65704409694829_2_alg».proof.Proof.Gen.Kernel.Skeleton
import proofs.«413865_j65704409694829_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the column sums of the gated rows and of their squares, accumulated over the ten row blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running column sums: what the first accumulator holds once the blocks below `n` are added (zero, then block
    by block the lane-reduced gated rows added on). -/
def accS0 (c : Dev nD) : Nat → Vec F S1x128 .f32
  | 0 => k0_pay1
  | n + 1 => if h : n < cfg0.N then k0_pay4 (iblk0 V c 1 ⟨n, h⟩) (iblk0 V c 0 ⟨n, h⟩) (accS0 c n) else accS0 c n

/-- The running column sums of squares, the second accumulator. -/
def accQ0 (c : Dev nD) : Nat → Vec F S1x128 .f32
  | 0 => k0_pay2
  | n + 1 => if h : n < cfg0.N then k0_pay5 (iblk0 V c 1 ⟨n, h⟩) (iblk0 V c 0 ⟨n, h⟩) (accQ0 c n) else accQ0 c n

/-- The two accumulators, scoped buffers no window stages. -/
abbrev scratch0 : List (Ref sig .tc) := [cc0_scratch0, cc0_scratch1]

/-- The invariant before point `t`: the two accumulators whole, holding the running sums once a point has run (anything
    before the first point, which resets them); every other scoped buffer at some contents; the generator register. -/
def Phi0 (c : Dev nD) (t : Fin (cfg0.N + 1)) : sProp 𝕄 :=
  iprop((∃ s5 : Vec F S1x128 .f32, owns (c : Thread nD τ) (Memref.whole (sig := sig) cc0_scratch0) fullShare s5 ∗ ⌜t.val ≠ 0 → s5 = accS0 V c t.val⌝)
    ∗ (∃ s6 : Vec F S1x128 .f32, owns (c : Thread nD τ) (Memref.whole (sig := sig) cc0_scratch1) fullShare s6 ∗ ⌜t.val ≠ 0 → s6 = accQ0 V c t.val⌝)
    ∗ Pipeline.scopedRestBut (Ix := Unit) (Name := ℕ) (U := UR sig nD τ) (Lvl := ℕ) (Val := Elt F) spec0 c scratch0
    ∗ ∃ r, prngReg c r)

/-- The proof data of pipeline 0 on core `c`: the inputs' buffers keep their blocks; the two result buffers, stored only
    at the last point, hold the accumulators after that point's block is added. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accS0 V c (t.val + 1)
    | ⟨3, _⟩ => accQ0 V c (t.val + 1)
  Φ t := Phi0 V c t
  q _ := fullShare
  owed _ := 0

theorem A_eq0 (c : Dev nD) (w : Fin cfg0.W) : (dat0 V c).A w = V c (Pipeline.arrRef spec0 w) := by
  dsimp only [dat0]
theorem after0_2 (c : Dev nD) (t : Fin cfg0.N) : (dat0 V c).after 2 t = accS0 V c (t.val + 1) := by dsimp only [dat0]
theorem after0_3 (c : Dev nD) (t : Fin cfg0.N) : (dat0 V c).after 3 t = accQ0 V c (t.val + 1) := by dsimp only [dat0]

end Cert.Kernel.Hand

end
-- ==== Proof.K.Region1Defs.lean ====
import proofs.«413865_j65704409694829_2_alg».proof.Proof.Gen.Kernel.Launch
import proofs.«413865_j65704409694829_2_alg».proof.Proof.Gen.Kernel.Skeleton
import proofs.«413865_j65704409694829_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: the gated, normalised rows times the weight matrix, one block of 10000 rows per grid point -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of pipeline 1 on core `c`: every input's buffer keeps its block; the output's buffer holds the
    body's one stored value, the matrix product of the affine image of the gated rows with the weights. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay1 (iblk1 V c 1 t) (iblk1 V c 0 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) :
    (dat1 V c).after 5 t = k1_pay1 (iblk1 V c 1 t) (iblk1 V c 0 t) (iblk1 V c 2 t) (iblk1 V c 3 t) (iblk1 V c 4 t) := by
  dsimp only [dat1]

end Cert.Kernel.Hand

end
-- ==== Proof.K.Region2Defs.lean ====
import proofs.«413865_j65704409694829_2_alg».proof.Proof.Gen.Kernel.Launch
import proofs.«413865_j65704409694829_2_alg».proof.Proof.Gen.Kernel.Skeleton
import proofs.«413865_j65704409694829_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2: per core, the one-hot pooling of the rectified rows, accumulated over that core's five row blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The running pooled sums: what the accumulator holds once the points below `n` have run. A point whose second
    coordinate is zero (every fifth point) starts again from zero before it adds its block's product. -/
def accP2 (c : Dev nD) : Nat → Vec F S512x128 .f32
  | 0 => k2_pay1
  | n + 1 =>
    if h : n < cfg2.N then
      k2_pay2 (iblk2 V c 0 ⟨n, h⟩) (iblk2 V c 1 ⟨n, h⟩) (iblk2 V c 2 ⟨n, h⟩) (if n % 5 = 0 then k2_pay1 else accP2 c n)
    else accP2 c n

/-- The accumulator, a scoped buffer no window stages. -/
abbrev scratch2 : List (Ref sig .tc) := [cc2_scratch0]

/-- The invariant before point `t`: the accumulator whole, holding the running sums inside a run of five points
    (anything before a point that resets it); every other scoped buffer at some contents; the generator register. -/
def Phi2 (c : Dev nD) (t : Fin (cfg2.N + 1)) : sProp 𝕄 :=
  iprop((∃ s : Vec F S512x128 .f32, owns (c : Thread nD τ) (Memref.whole (sig := sig) cc2_scratch0) fullShare s ∗ ⌜t.val % 5 ≠ 0 → s = accP2 V c t.val⌝)
    ∗ Pipeline.scopedRestBut (Ix := Unit) (Name := ℕ) (U := UR sig nD τ) (Lvl := ℕ) (Val := Elt F) spec2 c scratch2
    ∗ ∃ r, prngReg c r)

/-- The proof data of pipeline 2 on core `c`: the inputs' buffers keep their blocks; the result buffer, stored only at
    a run's last point, holds the accumulator after that point's block is added, as a one-slab array. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (accP2 V c (t.val + 1))
  Φ t := Phi2 V c t
  q _ := fullShare
  owed _ := 0

theorem A_eq2 (c : Dev nD) (w : Fin cfg2.W) : (dat2 V c).A w = V c (Pipeline.arrRef spec2 w) := by
  dsimp only [dat2]
theorem after2_3 (c : Dev nD) (t : Fin cfg2.N) : (dat2 V c).after 3 t = k2_pay3 (accP2 V c (t.val + 1)) := by dsimp only [dat2]

end Cert.Kernel.Hand

end
-- ==== Proof.K.RunDefs.lean ====
import proofs.«413865_j65704409694829_2_alg».proof.Proof.Gen.Kernel.Launch
import proofs.«413865_j65704409694829_2_alg».proof.Proof.Gen.Kernel.Skeleton
import proofs.«413865_j65704409694829_2_alg».proof.Proof.Gen.Kernel.Points
import proofs.«413865_j65704409694829_2_alg».proof.Proof.Gen.Kernel.Regions
import proofs.«413865_j65704409694829_2_alg».proof.Proof.K.Region0Defs
import proofs.«413865_j65704409694829_2_alg».proof.Proof.K.Region1Defs
import proofs.«413865_j65704409694829_2_alg».proof.Proof.K.Region2Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's six items from the launch to the return

The buffer contents at each boundary are a fold from the launch memory: a region leaves its arrays at what its
write-backs make of them and every other buffer as it found it; a host stretch applies its operations. -/

/-- Core `c`'s buffers at launch (region 0's entry). -/
abbrev W0 : Dev nD → Valuation τ sig (Elt F) := fun c b => m (c, b)
/-- The same read at the TensorCore's references. -/
abbrev VR0 : (c : Dev nD) → (b : Ref sig .tc) → Buf (Elt F) ((c : Thread nD τ).loc b) := fun c b => W0 m c b
/-- After region 0. -/
def W1 (c : Dev nD) : Valuation τ sig (Elt F) :=
  Pipeline.withArrays spec0 c (W0 m c) fun w => (dat0 (VR0 m) c).arrAt w cfg0.N
/-- After the first host stretch (region 1's entry). -/
abbrev W2 : Dev nD → Valuation τ sig (Elt F) := fun c => StableHlo.after hostOps1 (W1 m c)
abbrev VR2 : (c : Dev nD) → (b : Ref sig .tc) → Buf (Elt F) ((c : Thread nD τ).loc b) := fun c b => W2 m c b
/-- After region 1. -/
def W3 (c : Dev nD) : Valuation τ sig (Elt F) :=
  Pipeline.withArrays spec1 c (W2 m c) fun w => (dat1 (VR2 m) c).arrAt w cfg1.N
/-- After the second host stretch (region 2's entry). -/
abbrev W4 : Dev nD → Valuation τ sig (Elt F) := fun c => StableHlo.after hostOps2 (W3 m c)
abbrev VR4 : (c : Dev nD) → (b : Ref sig .tc) → Buf (Elt F) ((c : Thread nD τ).loc b) := fun c b => W4 m c b
/-- After region 2. -/
def W5 (c : Dev nD) : Valuation τ sig (Elt F) :=
  Pipeline.withArrays spec2 c (W4 m c) fun w => (dat2 (VR4 m) c).arrAt w cfg2.N
/-- After the last host stretch: the contents at the return. -/
abbrev W6 : Dev nD → Valuation τ sig (Elt F) := fun c => StableHlo.after hostOps3 (W5 m c)

/-- A region's array holds after the region what the write-backs make of it. -/
theorem W1_arr (c : Dev nD) (w : Fin cfg0.W) :
    W1 m c (Proc.devRef .tc (Pipeline.arrRef spec0 w)) = (dat0 (VR0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
theorem W3_arr (c : Dev nD) (w : Fin cfg1.W) :
    W3 m c (Proc.devRef .tc (Pipeline.arrRef spec1 w)) = (dat1 (VR2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
theorem W5_arr (c : Dev nD) (w : Fin cfg2.W) :
    W5 m c (Proc.devRef .tc (Pipeline.arrRef spec2 w)) = (dat2 (VR4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb

end Cert.Kernel.Hand

end
-- ==== Proof.K.Region0.lean ====
import proofs.«413865_j65704409694829_2_alg».proof.Proof.Gen.Kernel.Launch
import proofs.«413865_j65704409694829_2_alg».proof.Proof.Gen.Kernel.Skeleton
import proofs.«413865_j65704409694829_2_alg».proof.Proof.Gen.Kernel.Points
import proofs.«413865_j65704409694829_2_alg».proof.Proof.K.Region0Defs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the column sums of the gated rows and of their squares, accumulated over the ten row blocks -/

/-- The scoped rest split at the two accumulators, each whole at some contents, the remainder left unopened. -/
theorem scopedRest0_split (c : Dev nD) :
    (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f)
            ∗ (∃ f : Buf (Elt F) ((c : Thread nD τ).loc cc0_scratch1), ((c : Thread nD τ).loc cc0_scratch1) ↦{fullShare} f))
          ∗ Pipeline.scopedRestBut (Ix := Unit) (Name := ℕ) (U := UR sig nD τ) (Lvl := ℕ) (Val := Elt F) spec0 c scratch0) :=
  Pipeline.scopedRest_split_of_list spec0 c scratch0 (by decide) (by decide)

/-- Entering: the generator register and the scoped buffers no window stages make the invariant before the first point. -/
theorem Phi0_in (c : Dev nD) :
    iprop((∃ r, prngReg c r) ∗ Pipeline.scopedRest (Ix := Unit) (Name := ℕ) (U := UR sig nD τ) (Lvl := ℕ) (Val := Elt F) spec0 c)
      ⊢ (Phi0 V c 0 : sProp 𝕄) := by
  rw [scopedRest0_split]
  unfold Phi0
  iintro ⟨Hg, ⟨⟨%f5, H5⟩, ⟨%f6, H6⟩⟩, HR⟩
  isplitl [H5]
  · iexists f5; isplitl
    · rw [owns_whole]; iexact H5
    · ipureintro; intro h; exact absurd rfl h
  isplitl [H6]
  · iexists f6; isplitl
    · rw [owns_whole]; iexact H6
    · ipureintro; intro h; exact absurd rfl h
  isplitl [HR]
  · iexact HR
  iexact Hg

/-- Leaving: the invariant after the last point gives them back. -/
theorem Phi0_out (c : Dev nD) :
    (Phi0 V c (Fin.last cfg0.N) : sProp 𝕄)
      ⊢ iprop((∃ r, prngReg c r) ∗ Pipeline.scopedRest (Ix := Unit) (Name := ℕ) (U := UR sig nD τ) (Lvl := ℕ) (Val := Elt F) spec0 c) := by
  rw [scopedRest0_split]
  unfold Phi0
  simp only [owns_whole]
  iintro ⟨⟨%s5, H5, -⟩, ⟨%s6, H6, -⟩, HR, Hg⟩
  isplitl [Hg]
  · iexact Hg
  isplitr [HR]
  · isplitl [H5]
    · iexists s5; iexact H5
    · iexists s6; iexact H6
  iexact HR

/-! ## The body's two branch conditions, decided over the ten points -/

/-- The first conditional's condition (the point is the first), from the grid coordinates. -/
abbrev cond0_1 (i : grid0.Coords) : Prop := (Scalar.cmpi .ne (Scalar.extui (Scalar.cmpi .eq (BitVec.ofNat 32 (i 0).val) 0#32)) 0#32) = 1#1

/-- It holds at the first point only. -/
theorem hcond0_1 : ∀ t : Fin cfg0.N, cond0_1 (grid0.coords t) ↔ t.val = 0 :=
  (by decide +kernel : ∀ t : Fin grid0.N, cond0_1 (grid0.coords t) ↔ t.val = 0)
/-- The second conditional's condition holds at the last point only. -/
theorem hcond0_2 : ∀ t : Fin cfg0.N, k0_cond2 (grid0.coords t) = 1#1 ↔ t.val = 9 :=
  (by decide +kernel : ∀ t : Fin grid0.N, k0_cond2 (grid0.coords t) = 1#1 ↔ t.val = 9)

/-! ## Whole-buffer rectangles -/

/-- The zero offsets of a rank-two rectangle, however spelt. -/
theorem hz2 : (![0, 0] : Fin 2 → Nat) = fun _ => 0 := by funext a; fin_cases a <;> rfl

/-- A store through the whole-buffer rectangle of an accumulator, last, covers the buffer. -/
theorem cover_acc (w : Vec F S1x128 .f32) (L : List (View.Piece (Elt F) S1x128 .f32)) (y : S1x128.Idx) :
    ∃ p ∈ (⟨Rect.unit ![0, 0] S1x128.size inb_S1x128_S1x128_0_0, w⟩ : View.Piece (Elt F) S1x128 .f32) :: L, y ∈ p.1.set :=
  ⟨_, List.mem_cons_self, View.mem_set_unit_zero hz2 inb_S1x128_S1x128_0_0 y⟩

/-! ## The body on any whole memrefs, case by case

`x0`, `x1` are what the two input memrefs hold (the rows' block and the gate column's block); the accumulators end at
the block's lane-reduced gated rows (and their squares) added to what they held. -/

set_option maxHeartbeats 1000000 in
/-- At a point that is neither first nor last: each accumulator, found at `s5` / `s6`, gets the block added; the
    result memrefs are not touched. -/
theorem run0_mid (c : Dev nD) (i : grid0.Coords)
    (arg1 : Memref sig .tc .vmem S10000x128 .f32) (harg1 : arg1.IsWhole) (arg2 : Memref sig .tc .vmem S10000x1 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc1 : ¬cond0_1 i) (hc2 : ¬k0_cond2 i = 1#1)
    (x0 : Vec F S10000x128 .f32) (x1 : Vec F S10000x1 .f32) (s5 s6 : Vec F S1x128 .f32)
    (E : Set ℕ) (K : PUnit → sProp 𝕄) :
    iprop(owns (c : Thread nD τ) arg1 fullShare x0 ∗ owns (c : Thread nD τ) arg2 fullShare x1
        ∗ owns (c : Thread nD τ) arg5 fullShare s5 ∗ owns (c : Thread nD τ) arg6 fullShare s6
        ∗ (iprop(owns (c : Thread nD τ) arg1 fullShare x0 ∗ owns (c : Thread nD τ) arg2 fullShare x1
            ∗ owns (c : Thread nD τ) arg5 fullShare (k0_pay4 x1 x0 s5) ∗ owns (c : Thread nD τ) arg6 fullShare (k0_pay5 x1 x0 s6)) -∗ K ⟨⟩))
      ⊢ wp frame (wpE (defs₀ (F := F)) Variants.none c none) E (cc0__bn_stats_kernel i arg1 harg1 arg2 harg2 arg3 harg3 arg4 harg4 arg5 harg5 arg6 harg6) K := by
  simp only [cc0__bn_stats_kernel_eq_skeleton]; unfold cc0__bn_stats_kernel_skel
  unfold owns
  iintro ⟨⟨%f0, %hf0, H0⟩, ⟨%f1, %hf1, H1⟩, ⟨%f5, %hf5, H5⟩, ⟨%f6, %hf6, H6⟩, Hk⟩
  obtain rfl := harg1.eq_unread hf0; obtain rfl := harg2.eq_unread hf1
  obtain rfl := harg5.eq_unread hf5; obtain rfl := harg6.eq_unread hf6
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H5]
  · iexists _; isplitr
    swap; · iexact H5
    ipureintro
    rw [View.read_writes_eq_canon _ _ _ (cover_acc _ _), View.canon_unit_zero hz2]
    simp only [View.readAt_eq_ld, harg1.read_unread, harg2.read_unread, harg5.read_unread, View.ld_unit_zero (S := S10000x128) hz2, View.ld_unit_zero (S := S10000x1) hz2, View.ld_unit_zero (S := S1x128) hz2]
  · iexists _; isplitr
    swap; · iexact H6
    ipureintro
    rw [View.read_writes_eq_canon _ _ _ (cover_acc _ _), View.canon_unit_zero hz2]
    simp only [View.readAt_eq_ld, harg1.read_unread, harg2.read_unread, harg6.read_unread, View.ld_unit_zero (S := S10000x128) hz2, View.ld_unit_zero (S := S10000x1) hz2, View.ld_unit_zero (S := S1x128) hz2]

set_option maxHeartbeats 1000000 in
/-- At the first point: each accumulator, whatever it held, is zeroed and gets the block added. -/
theorem run0_first (c : Dev nD) (i : grid0.Coords)
    (arg1 : Memref sig .tc .vmem S10000x128 .f32) (harg1 : arg1.IsWhole) (arg2 : Memref sig .tc .vmem S10000x1 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc1 : cond0_1 i) (hc2 : ¬k0_cond2 i = 1#1)
    (x0 : Vec F S10000x128 .f32) (x1 : Vec F S10000x1 .f32) (s5 s6 : Vec F S1x128 .f32)
    (E : Set ℕ) (K : PUnit → sProp 𝕄) :
    iprop(owns (c : Thread nD τ) arg1 fullShare x0 ∗ owns (c : Thread nD τ) arg2 fullShare x1
        ∗ owns (c : Thread nD τ) arg5 fullShare s5 ∗ owns (c : Thread nD τ) arg6 fullShare s6
        ∗ (iprop(owns (c : Thread nD τ) arg1 fullShare x0 ∗ owns (c : Thread nD τ) arg2 fullShare x1
            ∗ owns (c : Thread nD τ) arg5 fullShare (k0_pay4 x1 x0 k0_pay1) ∗ owns (c : Thread nD τ) arg6 fullShare (k0_pay5 x1 x0 k0_pay2)) -∗ K ⟨⟩))
      ⊢ wp frame (wpE (defs₀ (F := F)) Variants.none c none) E (cc0__bn_stats_kernel i arg1 harg1 arg2 harg2 arg3 harg3 arg4 harg4 arg5 harg5 arg6 harg6) K := by
  simp only [cc0__bn_stats_kernel_eq_skeleton]; unfold cc0__bn_stats_kernel_skel
  unfold owns
  iintro ⟨⟨%f0, %hf0, H0⟩, ⟨%f1, %hf1, H1⟩, ⟨%f5, %hf5, H5⟩, ⟨%f6, %hf6, H6⟩, Hk⟩
  obtain rfl := harg1.eq_unread hf0; obtain rfl := harg2.eq_unread hf1
  obtain rfl := harg5.eq_unread hf5; obtain rfl := harg6.eq_unread hf6
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H5]
  · iexists _; isplitr
    swap; · iexact H5
    ipureintro
    rw [View.read_writes_eq_canon _ _ _ (cover_acc _ _), View.canon_cons_unit_zero hz2]
    sl_unfold_words
    simp only [View.readAt_eq_ld, harg1.read_unread, harg2.read_unread, View.ld_unit_zero (S := S10000x128) hz2, View.ld_unit_zero (S := S10000x1) hz2, View.readCov_unit_zero (S := S1x128) _ hz2]
  · iexists _; isplitr
    swap; · iexact H6
    ipureintro
    rw [View.read_writes_eq_canon _ _ _ (cover_acc _ _), View.canon_cons_unit_zero hz2]
    sl_unfold_words
    simp only [View.readAt_eq_ld, harg1.read_unread, harg2.read_unread, View.ld_unit_zero (S := S10000x128) hz2, View.ld_unit_zero (S := S10000x1) hz2, View.readCov_unit_zero (S := S1x128) _ hz2]

set_option maxHeartbeats 1000000 in
/-- At the last point: each accumulator gets the block added and is then copied into its result memref, whatever that held. -/
theorem run0_last (c : Dev nD) (i : grid0.Coords)
    (arg1 : Memref sig .tc .vmem S10000x128 .f32) (harg1 : arg1.IsWhole) (arg2 : Memref sig .tc .vmem S10000x1 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc1 : ¬cond0_1 i) (hc2 : k0_cond2 i = 1#1)
    (x0 : Vec F S10000x128 .f32) (x1 : Vec F S10000x1 .f32) (y3 y4 s5 s6 : Vec F S1x128 .f32)
    (E : Set ℕ) (K : PUnit → sProp 𝕄) :
    iprop(owns (c : Thread nD τ) arg1 fullShare x0 ∗ owns (c : Thread nD τ) arg2 fullShare x1
        ∗ owns (c : Thread nD τ) arg3 fullShare y3 ∗ owns (c : Thread nD τ) arg4 fullShare y4
        ∗ owns (c : Thread nD τ) arg5 fullShare s5 ∗ owns (c : Thread nD τ) arg6 fullShare s6
        ∗ (iprop(owns (c : Thread nD τ) arg1 fullShare x0 ∗ owns (c : Thread nD τ) arg2 fullShare x1
            ∗ owns (c : Thread nD τ) arg3 fullShare (k0_pay4 x1 x0 s5) ∗ owns (c : Thread nD τ) arg4 fullShare (k0_pay5 x1 x0 s6)
            ∗ owns (c : Thread nD τ) arg5 fullShare (k0_pay4 x1 x0 s5) ∗ owns (c : Thread nD τ) arg6 fullShare (k0_pay5 x1 x0 s6)) -∗ K ⟨⟩))
      ⊢ wp frame (wpE (defs₀ (F := F)) Variants.none c none) E (cc0__bn_stats_kernel i arg1 harg1 arg2 harg2 arg3 harg3 arg4 harg4 arg5 harg5 arg6 harg6) K := by
  simp only [cc0__bn_stats_kernel_eq_skeleton]; unfold cc0__bn_stats_kernel_skel
  unfold owns
  iintro ⟨⟨%f0, %hf0, H0⟩, ⟨%f1, %hf1, H1⟩, ⟨%f3, %hf3, H3⟩, ⟨%f4, %hf4, H4⟩, ⟨%f5, %hf5, H5⟩, ⟨%f6, %hf6, H6⟩, Hk⟩
  obtain rfl := harg1.eq_unread hf0; obtain rfl := harg2.eq_unread hf1
  obtain rfl := harg3.eq_unread hf3; obtain rfl := harg4.eq_unread hf4
  obtain rfl := harg5.eq_unread hf5; obtain rfl := harg6.eq_unread hf6
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H3]
  · iexists _; isplitr
    swap; · iexact H3
    ipureintro
    sl_unfold_words
    rw [View.read_writes_eq_canon _ _ _ (cover_acc _ _), View.canon_unit_zero hz2]
    simp only [View.readAt_eq_ld, harg1.read_unread, harg2.read_unread, harg5.read_unread, View.ld_unit_zero (S := S10000x128) hz2, View.ld_unit_zero (S := S10000x1) hz2, View.ld_unit_zero (S := S1x128) hz2, View.readCov_unit_zero (S := S1x128) _ hz2]
  isplitl [H4]
  · iexists _; isplitr
    swap; · iexact H4
    ipureintro
    sl_unfold_words
    rw [View.read_writes_eq_canon _ _ _ (cover_acc _ _), View.canon_unit_zero hz2]
    simp only [View.readAt_eq_ld, harg1.read_unread, harg2.read_unread, harg6.read_unread, View.ld_unit_zero (S := S10000x128) hz2, View.ld_unit_zero (S := S10000x1) hz2, View.ld_unit_zero (S := S1x128) hz2, View.readCov_unit_zero (S := S1x128) _ hz2]
  isplitl [H5]
  · iexists _; isplitr
    swap; · iexact H5
    ipureintro
    sl_unfold_words
    rw [View.read_writes_eq_canon _ _ _ (cover_acc _ _), View.canon_unit_zero hz2]
    simp only [View.readAt_eq_ld, harg1.read_unread, harg2.read_unread, harg5.read_unread, View.ld_unit_zero (S := S10000x128) hz2, View.ld_unit_zero (S := S10000x1) hz2, View.ld_unit_zero (S := S1x128) hz2]
  · iexists _; isplitr
    swap; · iexact H6
    ipureintro
    sl_unfold_words
    rw [View.read_writes_eq_canon _ _ _ (cover_acc _ _), View.canon_unit_zero hz2]
    simp only [View.readAt_eq_ld, harg1.read_unread, harg2.read_unread, harg6.read_unread, View.ld_unit_zero (S := S10000x128) hz2, View.ld_unit_zero (S := S10000x1) hz2, View.ld_unit_zero (S := S1x128) hz2]

/-! ## What the body finds and leaves, window by window -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]

/-- The rows' window is fetched at every point: its buffer holds the point's block. -/
theorem before0_0 (c : Dev nD) (t : Fin cfg0.N) (d) : (dat0 V c).before 0 t d = iblk0 V c 0 t :=
  ((dat0 V c).before_fetched 0 t (fetch0_0 t) d).trans (by unfold Dat.fetched Dat.blockOf iblk0; rw [A_eq0]; try rfl)
/-- So is the gate column's. -/
theorem before0_1 (c : Dev nD) (t : Fin cfg0.N) (d) : (dat0 V c).before 1 t d = iblk0 V c 1 t :=
  ((dat0 V c).before_fetched 1 t (fetch0_1 t) d).trans (by unfold Dat.fetched Dat.blockOf iblk0; rw [A_eq0]; try rfl)

/-- The inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- The two results are idle, and not written back, at every point but the last, where they are stored. -/
theorem idleAt0_2 : ∀ t : Fin cfg0.N, ¬k0_cond2 (grid0.coords t) = 1#1 → cfg0.idle 2 (grid0.coords t) = true := by decide +kernel
theorem idleAt0_3 : ∀ t : Fin cfg0.N, ¬k0_cond2 (grid0.coords t) = 1#1 → cfg0.idle 3 (grid0.coords t) = true := by decide +kernel
theorem noFlush0_2 : ∀ t : Fin cfg0.N, ¬k0_cond2 (grid0.coords t) = 1#1 → (cfg0.win 2).flush t = false := by decide +kernel
theorem noFlush0_3 : ∀ t : Fin cfg0.N, ¬k0_cond2 (grid0.coords t) = 1#1 → (cfg0.win 3).flush t = false := by decide +kernel
theorem liveAt0_2 : ∀ t : Fin cfg0.N, k0_cond2 (grid0.coords t) = 1#1 → cfg0.idle 2 (grid0.coords t) = false := by decide +kernel
theorem liveAt0_3 : ∀ t : Fin cfg0.N, k0_cond2 (grid0.coords t) = 1#1 → cfg0.idle 3 (grid0.coords t) = false := by decide +kernel

/-- One more block added to the running sums. -/
theorem accS0_succ (c : Dev nD) (t : Fin cfg0.N) :
    accS0 V c (t.val + 1) = k0_pay4 (iblk0 V c 1 t) (iblk0 V c 0 t) (accS0 V c t.val) := by
  show (if h : t.val < cfg0.N then k0_pay4 (iblk0 V c 1 ⟨t.val, h⟩) (iblk0 V c 0 ⟨t.val, h⟩) (accS0 V c t.val) else accS0 V c t.val) = _
  rw [dif_pos t.isLt]
theorem accQ0_succ (c : Dev nD) (t : Fin cfg0.N) :
    accQ0 V c (t.val + 1) = k0_pay5 (iblk0 V c 1 t) (iblk0 V c 0 t) (accQ0 V c t.val) := by
  show (if h : t.val < cfg0.N then k0_pay5 (iblk0 V c 1 ⟨t.val, h⟩) (iblk0 V c 0 ⟨t.val, h⟩) (accQ0 V c t.val) else accQ0 V c t.val) = _
  rw [dif_pos t.isLt]

/-! ## The body obligation, at a generic point -/

/-- Each window's current staging memref at point `t`, as the pipeline passes it, and its wholeness. -/
abbrev ms0_0 (t : Fin cfg0.N) : Memref sig .tc .vmem S10000x128 .f32 := win0_0.stage (cfg0.slots t 0)
abbrev ms0_1 (t : Fin cfg0.N) : Memref sig .tc .vmem S10000x1 .f32 := win0_1.stage (cfg0.slots t 1)
abbrev ms0_2 (t : Fin cfg0.N) : Memref sig .tc .vmem S1x128 .f32 := win0_2.stage (cfg0.slots t 2)
abbrev ms0_3 (t : Fin cfg0.N) : Memref sig .tc .vmem S1x128 .f32 := win0_3.stage (cfg0.slots t 3)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

set_option maxHeartbeats 2000000 in
/-- The body at any point: the inputs' memrefs hold their blocks; by the point's place among the ten (first, last,
    between) the matching run applies, the accumulators handed over at the running sums (at anything, at the first
    point) and taken back with the block added, the results' buffers stored at the last point and untouched before. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c t.succ from rfl, show (dat0 V c).Φ t.castSucc = Phi0 V c t.castSucc from rfl]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  unfold Phi0
  simp only [Fin.val_succ, Fin.coe_castSucc]
  rw [accS0_succ V c t, accQ0_succ V c t]
  have hN : t.val < 10 := lt_of_lt_of_eq t.isLt (show cfg0.N = 10 from N_0)
  by_cases h0 : t.val = 0
  · -- the first point: the accumulators are reset, then the block is added
    have hc1 : cond0_1 (grid0.coords t) := (hcond0_1 t).mpr h0
    have hc2 : ¬k0_cond2 (grid0.coords t) = 1#1 := fun h => by have := (hcond0_2 t).mp h; omega
    rw [Dat.leavesExact_idle (dat0 V c) 2 t (idleAt0_2 t hc2) (noFlush0_2 t hc2),
      Dat.leavesExact_idle (dat0 V c) 3 t (idleAt0_3 t hc2) (noFlush0_3 t hc2)]
    have eS : accS0 V c t.val = k0_pay1 := by rw [h0]; rfl
    have eQ : accQ0 V c t.val = k0_pay2 := by rw [h0]; rfl
    rw [eS, eQ]
    iintro ⟨⟨⟨%s5, H5, -⟩, ⟨%s6, H6, -⟩, HR, Hg⟩, Ho, ⟨%d0, H0⟩, ⟨%d1, H1⟩, H2, H3⟩
    iapply (run0_first c (grid0.coords t) _ _ _ _ _ _ _ _ _ _ _ _ hc1 hc2 (iblk0 V c 0 t) (iblk0 V c 1 t) s5 s6 Set.univ _)
    isplitl [H0]; · iexact H0
    isplitl [H1]; · iexact H1
    isplitl [H5]; · iexact H5
    isplitl [H6]; · iexact H6
    iintro ⟨H0, H1, H5, H6⟩
    isplitl [H5 H6 HR Hg]
    · isplitl [H5]
      · iexists _; isplitl; · iexact H5
        ipureintro; exact fun _ => rfl
      isplitl [H6]
      · iexists _; isplitl; · iexact H6
        ipureintro; exact fun _ => rfl
      isplitl [HR]; · iexact HR
      iexact Hg
    isplitl [Ho]; · iexact Ho
    isplitl [H0]; · iexact H0
    isplitl [H1]; · iexact H1
    isplitl [H2]; · iexact H2
    iexact H3
  · by_cases h9 : t.val = 9
    · -- the last point: the block is added and the accumulators are copied into the results
      have hc1 : ¬cond0_1 (grid0.coords t) := fun h => h0 ((hcond0_1 t).mp h)
      have hc2 : k0_cond2 (grid0.coords t) = 1#1 := (hcond0_2 t).mpr h9
      rw [show (dat0 V c).leavesExact 2 t = owns (c : Thread nD τ) (ms0_2 t) fullShare ((dat0 V c).after 2 t) from by
        unfold Dat.leavesExact; rw [liveAt0_2 t hc2], after0_2, accS0_succ V c t]
      rw [show (dat0 V c).leavesExact 3 t = owns (c : Thread nD τ) (ms0_3 t) fullShare ((dat0 V c).after 3 t) from by
        unfold Dat.leavesExact; rw [liveAt0_3 t hc2], after0_3, accQ0_succ V c t]
      iintro ⟨⟨⟨%s5, H5, %h5⟩, ⟨%s6, H6, %h6⟩, HR, Hg⟩, Ho, ⟨%d0, H0⟩, ⟨%d1, H1⟩, ⟨%d2, H2⟩, ⟨%d3, H3⟩⟩
      obtain rfl := h5 h0; obtain rfl := h6 h0
      iapply (run0_last c (grid0.coords t) _ _ _ _ _ _ _ _ _ _ _ _ hc1 hc2 (iblk0 V c 0 t) (iblk0 V c 1 t)
        ((dat0 V c).before 2 t d2) ((dat0 V c).before 3 t d3) (accS0 V c t.val) (accQ0 V c t.val) Set.univ _)
      isplitl [H0]; · iexact H0
      isplitl [H1]; · iexact H1
      isplitl [H2]; · iexact H2
      isplitl [H3]; · iexact H3
      isplitl [H5]; · iexact H5
      isplitl [H6]; · iexact H6
      iintro ⟨H0, H1, H2, H3, H5, H6⟩
      isplitl [H5 H6 HR Hg]
      · isplitl [H5]
        · iexists _; isplitl; · iexact H5
          ipureintro; exact fun _ => rfl
        isplitl [H6]
        · iexists _; isplitl; · iexact H6
          ipureintro; exact fun _ => rfl
        isplitl [HR]; · iexact HR
        iexact Hg
      isplitl [Ho]; · iexact Ho
      isplitl [H0]; · iexact H0
      isplitl [H1]; · iexact H1
      isplitl [H2]; · iexact H2
      iexact H3
    · -- a point between: the block is added; the results' buffers go back as they came
      have hc1 : ¬cond0_1 (grid0.coords t) := fun h => h0 ((hcond0_1 t).mp h)
      have hc2 : ¬k0_cond2 (grid0.coords t) = 1#1 := fun h => h9 ((hcond0_2 t).mp h)
      rw [Dat.leavesExact_idle (dat0 V c) 2 t (idleAt0_2 t hc2) (noFlush0_2 t hc2),
        Dat.leavesExact_idle (dat0 V c) 3 t (idleAt0_3 t hc2) (noFlush0_3 t hc2)]
      iintro ⟨⟨⟨%s5, H5, %h5⟩, ⟨%s6, H6, %h6⟩, HR, Hg⟩, Ho, ⟨%d0, H0⟩, ⟨%d1, H1⟩, H2, H3⟩
      obtain rfl := h5 h0; obtain rfl := h6 h0
      iapply (run0_mid c (grid0.coords t) _ _ _ _ _ _ _ _ _ _ _ _ hc1 hc2 (iblk0 V c 0 t) (iblk0 V c 1 t)
        (accS0 V c t.val) (accQ0 V c t.val) Set.univ _)
      isplitl [H0]; · iexact H0
      isplitl [H1]; · iexact H1
      isplitl [H5]; · iexact H5
      isplitl [H6]; · iexact H6
      iintro ⟨H0, H1, H5, H6⟩
      isplitl [H5 H6 HR Hg]
      · isplitl [H5]
        · iexists _; isplitl; · iexact H5
          ipureintro; exact fun _ => rfl
        isplitl [H6]
        · iexists _; isplitl; · iexact H6
          ipureintro; exact fun _ => rfl
        isplitl [HR]; · iexact HR
        iexact Hg
      isplitl [Ho]; · iexact Ho
      isplitl [H0]; · iexact H0
      isplitl [H1]; · iexact H1
      isplitl [H2]; · iexact H2
      iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Region1.lean ====
import proofs.«413865_j65704409694829_2_alg».proof.Proof.Gen.Kernel.Launch
import proofs.«413865_j65704409694829_2_alg».proof.Proof.Gen.Kernel.Skeleton
import proofs.«413865_j65704409694829_2_alg».proof.Proof.Gen.Kernel.Points
import proofs.«413865_j65704409694829_2_alg».proof.Proof.K.Region1Defs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: the gated, normalised rows times the weight matrix, one block of 10000 rows per grid point -/

/-! ## Each input's buffer holds its block -/

/-- Input window 0's current staging buffer holds its block at every point, whether the point fetches it or not, for
    any proof data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether the point fetches it or not, for
    any proof data whose array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether the point fetches it or not, for
    any proof data whose array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether the point fetches it or not, for
    any proof data whose array is the entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether the point fetches it or not, for
    any proof data whose array is the entry contents and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body's triple -/

/-- The offsets of every access of the body are zero: each load and the store go through the whole buffer. -/
theorem zero_offsets1 : (![0, 0] : Fin 2 → Nat) = fun _ => 0 := funext fun a => by fin_cases a <;> rfl

set_option maxHeartbeats 1000000 in
/-- The body on whole staging memrefs: the five inputs are read and left as they were, and the output ends holding
    exactly the matrix product of the affine image of the gated rows (rows `x0` scaled by the gate column `x1`, times
    the scale row `x2`, plus the shift row `x3`) with the weights `x4`. The one store covers the whole output buffer,
    so what the buffer held before does not matter. -/
theorem sound_kernel1 (c : Dev nD) (E : Set ℕ) (i : grid1.Coords)
    (arg1 : Memref sig .tc .vmem S10000x128 .f32) (harg1 : arg1.IsWhole)
    (arg2 : Memref sig .tc .vmem S10000x1 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S128x128 .f32) (harg5 : arg5.IsWhole)
    (arg6 : Memref sig .tc .vmem S10000x128 .f32) (harg6 : arg6.IsWhole)
    (x0 : Vec F S10000x128 .f32) (x1 : Vec F S10000x1 .f32) (x2 : Vec F S1x128 .f32) (x3 : Vec F S1x128 .f32)
    (x4 : Vec F S128x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (k1_pay1 x1 x0 x2 x3 x4)) -∗ K ⟨⟩))
      ⊢ wp frame (wpE (defs₀ (F := F)) Variants.none c none) E
          (cc1__lin_kernel i arg1 harg1 arg2 harg2 arg3 harg3 arg4 harg4 arg5 harg5 arg6 harg6) K := by
  simp only [cc1__lin_kernel_eq_skeleton]; unfold cc1__lin_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  -- the one store goes through the whole output buffer, so it covers every index and leaves its payload; each load
  -- goes through a whole input buffer, so it reads that buffer's contents
  rw [View.read_writes_eq_canon _ _ _
    (fun y => ⟨_, List.mem_singleton_self _, View.mem_set_unit_zero zero_offsets1 inb_S10000x128_S10000x128_0_0 y⟩)]
  rw [View.canon_unit_zero zero_offsets1]
  simp only [View.readAt_eq_ld, View.ld_unit_zero (S := S10000x1) zero_offsets1,
    View.ld_unit_zero (S := S10000x128) zero_offsets1, View.ld_unit_zero (S := S1x128) zero_offsets1,
    View.ld_unit_zero (S := S128x128) zero_offsets1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := by
  intro t
  rw [bigSep_W1, bigSep_W1]
  exact sound_body1 V c t

end Cert.Kernel.Hand

end
-- ==== Proof.K.Region2.lean ====
import proofs.«413865_j65704409694829_2_alg».proof.Proof.Gen.Kernel.Launch
import proofs.«413865_j65704409694829_2_alg».proof.Proof.Gen.Kernel.Skeleton
import proofs.«413865_j65704409694829_2_alg».proof.Proof.Gen.Kernel.Points
import proofs.«413865_j65704409694829_2_alg».proof.Proof.K.Region2Defs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2, the body: the accumulator zeroed at a run's first point, added to at every point, stored at its last -/

/-- The body's first conditional, as it computes it from the second grid coordinate. -/
abbrev cond2_0 (i : grid2.Coords) : Prop := (Scalar.cmpi .ne (Scalar.extui (Scalar.cmpi .eq (BitVec.ofNat 32 (i 1).val) 0#32)) 0#32) = 1#1

/-! ## Whole-buffer loads and stores -/

theorem r2_hz2 : (![0, 0] : Fin 2 → Nat) = fun _ => 0 := funext fun a => by fin_cases a <;> rfl
theorem r2_hz3 : (![0, 0, 0] : Fin 3 → Nat) = fun _ => 0 := funext fun a => by fin_cases a <;> rfl

/-- A list of stores into a 512×128 buffer whose last is of the whole buffer covers it. -/
theorem r2_cover_acc (w : Vec F S512x128 .f32) (L : List (View.Piece (Elt F) S512x128 .f32)) (y : S512x128.Idx) :
    ∃ p ∈ ((⟨Rect.unit ![0, 0] S512x128.size inb_S512x128_S512x128_0_0, w⟩ : View.Piece (Elt F) S512x128 .f32) :: L), y ∈ p.1.set :=
  ⟨_, List.mem_cons_self, View.mem_set_unit_zero r2_hz2 inb_S512x128_S512x128_0_0 y⟩

/-- After stores into a 512×128 buffer whose last is of the whole buffer, it reads as what that one stored. -/
theorem r2_read_acc_stored {κ : Kind} {sp : Space} (v : View sig κ sp S512x128 .f32) (f : v.ty.Contents (Elt F)) (w : Vec F S512x128 .f32)
    (L : List (View.Piece (Elt F) S512x128 .f32)) :
    v.read (Elt F) (v.writes (Elt F) f ((⟨Rect.unit ![0, 0] S512x128.size inb_S512x128_S512x128_0_0, w⟩ : View.Piece (Elt F) S512x128 .f32) :: L)) = w := by
  rw [View.read_writes_eq_canon _ _ _ (r2_cover_acc w L), View.canon_cons_unit_zero r2_hz2]

/-- One store of the whole of a 1×512×128 buffer covers it. -/
theorem r2_cover_out (w : Vec F S1x512x128 .f32) (y : S1x512x128.Idx) :
    ∃ p ∈ ([⟨Rect.unit ![0, 0, 0] S1x512x128.size inb_S1x512x128_S1x512x128_0_0_0, w⟩] : List (View.Piece (Elt F) S1x512x128 .f32)), y ∈ p.1.set :=
  ⟨_, List.mem_cons_self, View.mem_set_unit_zero r2_hz3 inb_S1x512x128_S1x512x128_0_0_0 y⟩

/-- After one store of the whole of a 1×512×128 buffer it reads as what was stored. -/
theorem r2_read_out_stored {κ : Kind} {sp : Space} (v : View sig κ sp S1x512x128 .f32) (f : v.ty.Contents (Elt F)) (w : Vec F S1x512x128 .f32) :
    v.read (Elt F) (v.writes (Elt F) f [(⟨Rect.unit ![0, 0, 0] S1x512x128.size inb_S1x512x128_S1x512x128_0_0_0, w⟩ : View.Piece (Elt F) S1x512x128 .f32)]) = w := by
  rw [View.read_writes_eq_canon _ _ _ (r2_cover_out w), View.canon_unit_zero r2_hz3]

/-- A load of the whole of a 10000×128 buffer reads its contents. -/
theorem r2_load_rows (m : Memref sig .tc .vmem S10000x128 .f32) (h : m.IsWhole) (X : Vec F S10000x128 .f32) :
    m.view.readAt (Elt F) (Rect.unit (s := S10000x128) ![0, 0] S10000x128.size inb_S10000x128_S10000x128_0_0).toLoadRect (h.unread X) = X := by
  rw [View.readAt_eq_ld, h.read_unread, View.ld_unit_zero r2_hz2]
/-- A load of the whole of a 1×128 buffer reads its contents. -/
theorem r2_load_bias (m : Memref sig .tc .vmem S1x128 .f32) (h : m.IsWhole) (X : Vec F S1x128 .f32) :
    m.view.readAt (Elt F) (Rect.unit (s := S1x128) ![0, 0] S1x128.size inb_S1x128_S1x128_0_0).toLoadRect (h.unread X) = X := by
  rw [View.readAt_eq_ld, h.read_unread, View.ld_unit_zero r2_hz2]
/-- A load of the whole of a 10000×1 integer buffer reads its contents. -/
theorem r2_load_ids (m : Memref sig .tc .vmem S10000x1 .i32) (h : m.IsWhole) (X : Vec F S10000x1 .i32) :
    m.view.readAt (Elt F) (Rect.unit (s := S10000x1) ![0, 0] S10000x1.size inb_S10000x1_S10000x1_0_0).toLoadRect (h.unread X) = X := by
  rw [View.readAt_eq_ld, h.read_unread, View.ld_unit_zero r2_hz2]
/-- A load of the whole of a 512×128 buffer reads its contents. -/
theorem r2_load_acc (m : Memref sig .tc .vmem S512x128 .f32) (h : m.IsWhole) (X : Vec F S512x128 .f32) :
    m.view.readAt (Elt F) (Rect.unit (s := S512x128) ![0, 0] S512x128.size inb_S512x128_S512x128_0_0).toLoadRect (h.unread X) = X := by
  rw [View.readAt_eq_ld, h.read_unread, View.ld_unit_zero r2_hz2]
/-- A 512×128 buffer loaded whole after one store of the whole of it reads what was stored. -/
theorem r2_readback_acc {κ : Kind} {sp : Space} (v : View sig κ sp S512x128 .f32) (w : Vec F S512x128 .f32) :
    v.readCov [(⟨Rect.unit ![0, 0] S512x128.size inb_S512x128_S512x128_0_0, w⟩ : View.Piece (Elt F) S512x128 .f32)]
      (Rect.unit (s := S512x128) ![0, 0] S512x128.size inb_S512x128_S512x128_0_0).toLoadRect = w :=
  View.readCov_unit_zero (S := S512x128) v r2_hz2 _ w

/-! ## The body's run, case by case -/

/-- The body at a point inside a run of five, neither its first nor its last: both conditionals fail. The three input blocks
    are loaded and the accumulator is read; `k2_pay2` of the four (the block's pooled contribution added to the sums so far) is
    stored back into the accumulator. The result's buffer is not touched. -/
theorem run2_add (c : Dev nD) (i : grid2.Coords)
    (arg2 : Memref sig .tc .vmem S10000x128 .f32) (harg2 : arg2.IsWhole) (arg3 : Memref sig .tc .vmem S1x128 .f32) (harg3 : arg3.IsWhole)
    (arg4 : Memref sig .tc .vmem S10000x1 .i32) (harg4 : arg4.IsWhole) (arg5 : Memref sig .tc .vmem S1x512x128 .f32) (harg5 : arg5.IsWhole)
    (arg6 : Memref sig .tc .vmem S512x128 .f32) (harg6 : arg6.IsWhole)
    (hc1 : ¬ cond2_0 i) (hc2 : ¬ k2_cond2 i = 1#1)
    (x0 : Vec F S10000x128 .f32) (x1 : Vec F S1x128 .f32) (x2 : Vec F S10000x1 .i32) (xo : Vec F S1x512x128 .f32) (s : Vec F S512x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare s
      ∗ (iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare (k2_pay2 x0 x1 x2 s)) -∗ K ⟨⟩))
    ⊢ wp frame (wpE (defs₀ (F := F)) Variants.none c none) E (cc2__pool_kernel i arg2 harg2 arg3 harg3 arg4 harg4 arg5 harg5 arg6 harg6) K := by
  simp only [cc2__pool_kernel_eq_skeleton]; unfold cc2__pool_kernel_skel
  unfold owns
  iintro ⟨⟨%f0, %hf0, H0⟩, ⟨%f1, %hf1, H1⟩, ⟨%f2, %hf2, H2⟩, ⟨%fo, %hfo, Ho⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [Ho]
  · iexists _; isplitr; · ipureintro; exact hfo
    iexact Ho
  iexists _; isplitr
  swap; · iexact HS
  ipureintro
  rw [r2_read_acc_stored, r2_load_rows, r2_load_bias, r2_load_ids, r2_load_acc]

/-- The body at a point that starts a run: the first conditional holds, so the accumulator, whatever it held, is overwritten
    with the zeros `k2_pay1`; it is then read back as those zeros, and `k2_pay2` of the three input blocks and the zeros is
    stored into it. The result's buffer is not touched. -/
theorem run2_reset (c : Dev nD) (i : grid2.Coords)
    (arg2 : Memref sig .tc .vmem S10000x128 .f32) (harg2 : arg2.IsWhole) (arg3 : Memref sig .tc .vmem S1x128 .f32) (harg3 : arg3.IsWhole)
    (arg4 : Memref sig .tc .vmem S10000x1 .i32) (harg4 : arg4.IsWhole) (arg5 : Memref sig .tc .vmem S1x512x128 .f32) (harg5 : arg5.IsWhole)
    (arg6 : Memref sig .tc .vmem S512x128 .f32) (harg6 : arg6.IsWhole)
    (hc1 : cond2_0 i) (hc2 : ¬ k2_cond2 i = 1#1)
    (x0 : Vec F S10000x128 .f32) (x1 : Vec F S1x128 .f32) (x2 : Vec F S10000x1 .i32) (xo : Vec F S1x512x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo ∗ (∃ s, owns (c : Thread nD τ) arg6 fullShare s)
      ∗ (iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare (k2_pay2 x0 x1 x2 k2_pay1)) -∗ K ⟨⟩))
    ⊢ wp frame (wpE (defs₀ (F := F)) Variants.none c none) E (cc2__pool_kernel i arg2 harg2 arg3 harg3 arg4 harg4 arg5 harg5 arg6 harg6) K := by
  simp only [cc2__pool_kernel_eq_skeleton]; unfold cc2__pool_kernel_skel
  unfold owns
  iintro ⟨⟨%f0, %hf0, H0⟩, ⟨%f1, %hf1, H1⟩, ⟨%f2, %hf2, H2⟩, ⟨%fo, %hfo, Ho⟩, ⟨%s, %fs, %hfs, HS⟩, Hk⟩
  obtain rfl := harg2.eq_unread hf0; obtain rfl := harg3.eq_unread hf1; obtain rfl := harg4.eq_unread hf2
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [Ho]
  · iexists _; isplitr; · ipureintro; exact hfo
    iexact Ho
  iexists _; isplitr
  swap; · iexact HS
  ipureintro
  sl_unfold_words
  rw [r2_read_acc_stored, r2_load_rows, r2_load_bias, r2_load_ids, r2_readback_acc]

/-- The body at a run's last point: the accumulator is updated as at a middle point; then, the second conditional holding,
    it is read back and `k2_pay3` of it (the same sums as a one-slab array) is stored over whatever the result's buffer held. -/
theorem run2_store (c : Dev nD) (i : grid2.Coords)
    (arg2 : Memref sig .tc .vmem S10000x128 .f32) (harg2 : arg2.IsWhole) (arg3 : Memref sig .tc .vmem S1x128 .f32) (harg3 : arg3.IsWhole)
    (arg4 : Memref sig .tc .vmem S10000x1 .i32) (harg4 : arg4.IsWhole) (arg5 : Memref sig .tc .vmem S1x512x128 .f32) (harg5 : arg5.IsWhole)
    (arg6 : Memref sig .tc .vmem S512x128 .f32) (harg6 : arg6.IsWhole)
    (hc1 : ¬ cond2_0 i) (hc2 : k2_cond2 i = 1#1)
    (x0 : Vec F S10000x128 .f32) (x1 : Vec F S1x128 .f32) (x2 : Vec F S10000x1 .i32) (s : Vec F S512x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ (∃ xo, owns (c : Thread nD τ) arg5 fullShare xo) ∗ owns (c : Thread nD τ) arg6 fullShare s
      ∗ (iprop(owns (c : Thread nD τ) arg2 fullShare x0 ∗ owns (c : Thread nD τ) arg3 fullShare x1 ∗ owns (c : Thread nD τ) arg4 fullShare x2 ∗ owns (c : Thread nD τ) arg5 fullShare (k2_pay3 (k2_pay2 x0 x1 x2 s)) ∗ owns (c : Thread nD τ) arg6 fullShare (k2_pay2 x0 x1 x2 s)) -∗ K ⟨⟩))
    ⊢ wp frame (wpE (defs₀ (F := F)) Variants.none c none) E (cc2__pool_kernel i arg2 harg2 arg3 harg3 arg4 harg4 arg5 harg5 arg6 harg6) K := by
  simp only [cc2__pool_kernel_eq_skeleton]; unfold cc2__pool_kernel_skel
  unfold owns
  iintro ⟨⟨%f0, %hf0, H0⟩, ⟨%f1, %hf1, H1⟩, ⟨%f2, %hf2, H2⟩, ⟨%xo, %fo, %hfo, Ho⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [Ho]
  · iexists _; isplitr
    swap; · iexact Ho
    ipureintro
    sl_unfold_words
    rw [r2_read_out_stored, r2_readback_acc, r2_load_rows, r2_load_bias, r2_load_ids, r2_load_acc]
  iexists _; isplitr
  swap; · iexact HS
  ipureintro
  sl_unfold_words
  rw [r2_read_acc_stored, r2_load_rows, r2_load_bias, r2_load_ids, r2_load_acc]

/-! ## Entering and leaving -/

/-- The scoped buffers that no window stages are the accumulator, whole at some contents, together with all the others. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c scratch2) :=
  Pipeline.scopedRest_split_of_list spec2 c scratch2 (by decide) (by decide)

/-- Entering: the generator register and the scoped buffers no window stages make the invariant before the first point. -/
theorem Phi2_in (c : Dev nD) :
    iprop((∃ r, prngReg c r) ∗ Pipeline.scopedRest (Ix := Unit) (Name := ℕ) (U := UR sig nD τ) (Lvl := ℕ) (Val := Elt F) spec2 c)
      ⊢ (Phi2 V c 0 : sProp 𝕄) := by
  rw [scopedRest2_split]
  unfold Phi2
  simp only [owns_whole]
  iintro ⟨Hr, ⟨%f, Hs⟩, Hrest⟩
  isplitl [Hs]
  · iexists f; isplitl
    · iexact Hs
    · ipureintro; intro h; exact absurd rfl h
  isplitl [Hrest]
  · iexact Hrest
  · iexact Hr

/-- Leaving: the invariant after the last point gives them back. -/
theorem Phi2_out (c : Dev nD) :
    (Phi2 V c (Fin.last cfg2.N) : sProp 𝕄)
      ⊢ iprop((∃ r, prngReg c r) ∗ Pipeline.scopedRest (Ix := Unit) (Name := ℕ) (U := UR sig nD τ) (Lvl := ℕ) (Val := Elt F) spec2 c) := by
  rw [scopedRest2_split]
  unfold Phi2
  simp only [owns_whole]
  iintro ⟨⟨%s, Hs, -⟩, Hrest, Hr⟩
  isplitl [Hr]
  · iexact Hr
  isplitl [Hs]
  · iexists s; iexact Hs
  · iexact Hrest

/-! ## Which points take which branch, and where the result window is idle -/

/-- The first conditional holds at the points whose second coordinate is zero: every fifth point, from the first. -/
theorem hcond2_0 : ∀ t : Fin cfg2.N, cond2_0 (grid2.coords t) ↔ t.val % 5 = 0 :=
  (by decide +kernel : ∀ t : Fin grid2.N, cond2_0 (grid2.coords t) ↔ t.val % 5 = 0)
/-- The second holds at the points whose second coordinate is four: the last of each run of five. -/
theorem hcond2_1 : ∀ t : Fin cfg2.N, k2_cond2 (grid2.coords t) = 1#1 ↔ t.val % 5 = 4 :=
  (by decide +kernel : ∀ t : Fin grid2.N, k2_cond2 (grid2.coords t) = 1#1 ↔ t.val % 5 = 4)
/-- The inputs are never idle. -/
theorem liveAt2_0 (t : Fin cfg2.N) : cfg2.idle 0 (grid2.coords t) = false := rfl
theorem liveAt2_1 (t : Fin cfg2.N) : cfg2.idle 1 (grid2.coords t) = false := rfl
theorem liveAt2_2 (t : Fin cfg2.N) : cfg2.idle 2 (grid2.coords t) = false := rfl
/-- The result window is idle except at the last point of each run, -/
theorem idleAt2_3 : ∀ t : Fin cfg2.N, t.val % 5 ≠ 4 → cfg2.idle 3 (grid2.coords t) = true :=
  (by decide +kernel : ∀ t : Fin grid2.N, t.val % 5 ≠ 4 → cfg2.idle 3 (grid2.coords t) = true)
theorem liveAt2_3 : ∀ t : Fin cfg2.N, t.val % 5 = 4 → cfg2.idle 3 (grid2.coords t) = false :=
  (by decide +kernel : ∀ t : Fin grid2.N, t.val % 5 = 4 → cfg2.idle 3 (grid2.coords t) = false)
/-- and it is written back only there. -/
theorem noFlush2_3 (t : Fin cfg2.N) (h : t.val % 5 ≠ 4) : (cfg2.win 3).flush t = false := by
  cases hf : (cfg2.win 3).flush t
  · rfl
  · exact absurd ((flush2_3 t).mp hf) h

/-! ## The proof data, window by window -/

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]

/-- Each input's current buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-- The running sums one point on: this point's contribution added to the sums so far, or to zero at a point that
    starts a run. -/
theorem r2_accP2_succ (c : Dev nD) (t : Fin cfg2.N) :
    accP2 V c (t.val + 1)
      = k2_pay2 (iblk2 V c 0 t) (iblk2 V c 1 t) (iblk2 V c 2 t) (if t.val % 5 = 0 then k2_pay1 else accP2 V c t.val) := by
  rw [accP2.eq_2]; exact dif_pos t.isLt

/-! ## The body obligation -/

/-- Each window's current staging memref at point `t`, and its wholeness. -/
abbrev ms2_0 (t : Fin cfg2.N) : Memref sig .tc .vmem S10000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S10000x1 .i32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x512x128 .f32 := win2_3.stage (cfg2.slots t 3)
abbrev hs2_3 (t : Fin cfg2.N) : (ms2_3 t).IsWhole := hstage2_3 ((cfg2.slots t 3).cast nbuf2_3)
/-- The accumulator as the body is passed it. -/
abbrev accM2 : Memref sig .tc .vmem S512x128 .f32 := Memref.whole cc2_scratch0

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

theorem leaves2_0 (c : Dev nD) (t : Fin cfg2.N) :
    (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) :
    (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) :
    (dat2 V c).leavesExact 2 t = owns (c : Thread nD τ) (ms2_2 t) fullShare (iblk2 V c 2 t) := by
  unfold Dat.leavesExact; rw [liveAt2_2 t, after2_2]
theorem leaves2_3_store (c : Dev nD) (t : Fin cfg2.N) (h : t.val % 5 = 4) :
    (dat2 V c).leavesExact 3 t = owns (c : Thread nD τ) (ms2_3 t) fullShare (k2_pay3 (accP2 V c (t.val + 1))) := by
  unfold Dat.leavesExact; rw [liveAt2_3 t h, after2_3]

set_option maxHeartbeats 1600000 in
/-- The body at any point. The inputs' buffers hold their blocks. At a point that starts a run the accumulator, holding
    anything, is zeroed and the block's contribution added; at a later point the contribution is added to the running sums
    the invariant names; at a run's last point the sums are also stored, as one slab, into the result's buffer, which at
    every other point is handed back as it was found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = Phi2 V c t.succ from rfl, show (dat2 V c).Φ t.castSucc = Phi2 V c t.castSucc from rfl]
  rw [leaves2_0, leaves2_1, leaves2_2]
  unfold Phi2
  by_cases h0 : t.val % 5 = 0
  · have h4 : t.val % 5 ≠ 4 := by omega
    rw [Dat.leavesExact_idle (dat2 V c) 3 t (idleAt2_3 t h4) (noFlush2_3 t h4)]
    iintro ⟨⟨⟨%s, HS, -⟩, Hrest, Hg⟩, Ho, ⟨%d0, H0⟩, ⟨%d1, H1⟩, ⟨%d2, H2⟩, ⟨%d3, H3⟩⟩
    iapply (run2_reset c (grid2.coords t) (ms2_0 t) (hs2_0 t) (ms2_1 t) (hs2_1 t) (ms2_2 t) (hs2_2 t) (ms2_3 t) (hs2_3 t) accM2 (Memref.isWhole_whole _)
      ((hcond2_0 t).mpr h0) (fun h => h4 ((hcond2_1 t).mp h)) (iblk2 V c 0 t) (iblk2 V c 1 t) (iblk2 V c 2 t) ((dat2 V c).before 3 t d3) Set.univ _)
    isplitl [H0]; · iexact H0
    isplitl [H1]; · iexact H1
    isplitl [H2]; · iexact H2
    isplitl [H3]; · iexact H3
    isplitl [HS]; · iexists s; iexact HS
    iintro ⟨H0, H1, H2, H3, HS⟩
    isplitl [HS Hrest Hg]
    · isplitl [HS]
      · iexists _; isplitl
        · iexact HS
        · ipureintro; intro _; rw [Fin.val_succ, r2_accP2_succ, if_pos h0]
      isplitl [Hrest]; · iexact Hrest
      iexact Hg
    isplitl [Ho]; · iexact Ho
    isplitl [H0]; · iexact H0
    isplitl [H1]; · iexact H1
    isplitl [H2]; · iexact H2
    iexists d3; iexact H3
  · by_cases h4 : t.val % 5 = 4
    · rw [leaves2_3_store V c t h4]
      iintro ⟨⟨⟨%s, HS, %hs⟩, Hrest, Hg⟩, Ho, ⟨%d0, H0⟩, ⟨%d1, H1⟩, ⟨%d2, H2⟩, ⟨%d3, H3⟩⟩
      obtain rfl : s = accP2 V c t.val := hs (by rw [Fin.coe_castSucc]; exact h0)
      iapply (run2_store c (grid2.coords t) (ms2_0 t) (hs2_0 t) (ms2_1 t) (hs2_1 t) (ms2_2 t) (hs2_2 t) (ms2_3 t) (hs2_3 t) accM2 (Memref.isWhole_whole _)
        (fun h => h0 ((hcond2_0 t).mp h)) ((hcond2_1 t).mpr h4) (iblk2 V c 0 t) (iblk2 V c 1 t) (iblk2 V c 2 t) (accP2 V c t.val) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      rw [r2_accP2_succ, if_neg h0]
      isplitl [HS Hrest Hg]
      · isplitl [HS]
        · iexists _; isplitl
          · iexact HS
          · ipureintro; intro _; rw [Fin.val_succ, r2_accP2_succ, if_neg h0]
        isplitl [Hrest]; · iexact Hrest
        iexact Hg
      isplitl [Ho]; · iexact Ho
      isplitl [H0]; · iexact H0
      isplitl [H1]; · iexact H1
      isplitl [H2]; · iexact H2
      iexact H3
    · rw [Dat.leavesExact_idle (dat2 V c) 3 t (idleAt2_3 t h4) (noFlush2_3 t h4)]
      iintro ⟨⟨⟨%s, HS, %hs⟩, Hrest, Hg⟩, Ho, ⟨%d0, H0⟩, ⟨%d1, H1⟩, ⟨%d2, H2⟩, ⟨%d3, H3⟩⟩
      obtain rfl : s = accP2 V c t.val := hs (by rw [Fin.coe_castSucc]; exact h0)
      iapply (run2_add c (grid2.coords t) (ms2_0 t) (hs2_0 t) (ms2_1 t) (hs2_1 t) (ms2_2 t) (hs2_2 t) (ms2_3 t) (hs2_3 t) accM2 (Memref.isWhole_whole _)
        (fun h => h0 ((hcond2_0 t).mp h)) (fun h => h4 ((hcond2_1 t).mp h)) (iblk2 V c 0 t) (iblk2 V c 1 t) (iblk2 V c 2 t) ((dat2 V c).before 3 t d3) (accP2 V c t.val) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS]
        · iexists _; isplitl
          · iexact HS
          · ipureintro; intro _; rw [Fin.val_succ, r2_accP2_succ, if_neg h0]
        isplitl [Hrest]; · iexact Hrest
        iexact Hg
      isplitl [Ho]; · iexact Ho
      isplitl [H0]; · iexact H0
      isplitl [H1]; · iexact H1
      isplitl [H2]; · iexact H2
      iexists d3; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Run.lean ====
import proofs.«413865_j65704409694829_2_alg».proof.Proof.Gen.Kernel.Launch
import proofs.«413865_j65704409694829_2_alg».proof.Proof.Gen.Kernel.Skeleton
import proofs.«413865_j65704409694829_2_alg».proof.Proof.Gen.Kernel.Points
import proofs.«413865_j65704409694829_2_alg».proof.Proof.Gen.Kernel.Regions
import proofs.«413865_j65704409694829_2_alg».proof.Proof.K.RunDefs
import proofs.«413865_j65704409694829_2_alg».proof.Proof.K.Region0
import proofs.«413865_j65704409694829_2_alg».proof.Proof.K.Region1
import proofs.«413865_j65704409694829_2_alg».proof.Proof.K.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's six items from the launch to the return

The buffer contents at each boundary (`W0` … `W6`) are a fold from the launch memory. Here: no item writes an argument; each
region is a segment between two boundaries; the launch theorem over the six segments. -/

/-- A host stretch leaves every buffer outside its written list as it was. -/
theorem W2_of (c : Dev nD) (r : Ref sig .tc) (h : r ∉ hostOps1_W) :
    W2 m c (Proc.devRef .tc r) = W1 m c (Proc.devRef .tc r) :=
  StableHlo.after_of_writes_sub hostOps1 _ hostOps1_writes h
theorem W4_of (c : Dev nD) (r : Ref sig .tc) (h : r ∉ hostOps2_W) :
    W4 m c (Proc.devRef .tc r) = W3 m c (Proc.devRef .tc r) :=
  StableHlo.after_of_writes_sub hostOps2 _ hostOps2_writes h
theorem W6_of (c : Dev nD) (r : Ref sig .tc) (h : r ∉ hostOps3_W) :
    W6 m c (Proc.devRef .tc r) = W5 m c (Proc.devRef .tc r) :=
  StableHlo.after_of_writes_sub hostOps3 _ hostOps3_writes h

/-- A region leaves the array of an input window as it was entered. -/
theorem W1_in (c : Dev nD) (w : Fin cfg0.W) (hin : (cfg0.win w).isOut = false) :
    W1 m c (Proc.devRef .tc (Pipeline.arrRef spec0 w)) = W0 m c (Proc.devRef .tc (Pipeline.arrRef spec0 w)) :=
  (W1_arr m c w).trans (((dat0 (VR0 m) c).arrAt_in w hin _).trans (A_eq0 (VR0 m) c w))
theorem W3_in (c : Dev nD) (w : Fin cfg1.W) (hin : (cfg1.win w).isOut = false) :
    W3 m c (Proc.devRef .tc (Pipeline.arrRef spec1 w)) = W2 m c (Proc.devRef .tc (Pipeline.arrRef spec1 w)) :=
  (W3_arr m c w).trans (((dat1 (VR2 m) c).arrAt_in w hin _).trans (A_eq1 (VR2 m) c w))
theorem W5_in (c : Dev nD) (w : Fin cfg2.W) (hin : (cfg2.win w).isOut = false) :
    W5 m c (Proc.devRef .tc (Pipeline.arrRef spec2 w)) = W4 m c (Proc.devRef .tc (Pipeline.arrRef spec2 w)) :=
  (W5_arr m c w).trans (((dat2 (VR4 m) c).arrAt_in w hin _).trans (A_eq2 (VR4 m) c w))

/-- An argument that is no window of any region: every item passes it by. -/
theorem W6_bypass (c : Dev nD) (r : Ref sig .tc) (h1 : r ∉ hostOps1_W) (h2 : r ∉ hostOps2_W) (h3 : r ∉ hostOps3_W)
    (n0 : ∀ w, Pipeline.arrRef spec0 w ≠ r) (n1 : ∀ w, Pipeline.arrRef spec1 w ≠ r) (n2 : ∀ w, Pipeline.arrRef spec2 w ≠ r) :
    W6 m c (Proc.devRef .tc r) = m ((c : Thread nD τ).loc r) :=
  (W6_of m c r h3).trans <| (W5_of_ne m c r n2).trans <| (W4_of m c r h2).trans <| (W3_of_ne m c r n1).trans <|
    (W2_of m c r h1).trans <| (W1_of_ne m c r n0).trans rfl

/-- `main_arg0`: the first input window of regions 0 and 1, no window of region 2. -/
theorem W6_main_arg0 (c : Dev nD) : W6 m c (Proc.devRef .tc main_arg0) = m ((c : Thread nD τ).loc main_arg0) :=
  (W6_of m c main_arg0 (by decide)).trans <| (W5_of_ne m c main_arg0 (by decide)).trans <|
    (W4_of m c main_arg0 (by decide)).trans <| (W3_in m c 0 rfl).trans <|
    (W2_of m c main_arg0 (by decide)).trans <| (W1_in m c 0 rfl).trans rfl
/-- `main_arg4`: the second input window of regions 0 and 1, no window of region 2. -/
theorem W6_main_arg4 (c : Dev nD) : W6 m c (Proc.devRef .tc main_arg4) = m ((c : Thread nD τ).loc main_arg4) :=
  (W6_of m c main_arg4 (by decide)).trans <| (W5_of_ne m c main_arg4 (by decide)).trans <|
    (W4_of m c main_arg4 (by decide)).trans <| (W3_in m c 1 rfl).trans <|
    (W2_of m c main_arg4 (by decide)).trans <| (W1_in m c 1 rfl).trans rfl
/-- `main_arg5`: an input window of region 1 alone. -/
theorem W6_main_arg5 (c : Dev nD) : W6 m c (Proc.devRef .tc main_arg5) = m ((c : Thread nD τ).loc main_arg5) :=
  (W6_of m c main_arg5 (by decide)).trans <| (W5_of_ne m c main_arg5 (by decide)).trans <|
    (W4_of m c main_arg5 (by decide)).trans <| (W3_in m c 4 rfl).trans <|
    (W2_of m c main_arg5 (by decide)).trans <| (W1_of_ne m c main_arg5 (by decide)).trans rfl

/-- No item writes an argument: each argument's buffer holds its launch contents at the return. -/
theorem W6_args (c : Dev nD) :
    W6 m c (Proc.devRef .tc main_arg0) = m ((c : Thread nD τ).loc main_arg0)
    ∧ W6 m c (Proc.devRef .tc main_arg1) = m ((c : Thread nD τ).loc main_arg1)
    ∧ W6 m c (Proc.devRef .tc main_arg2) = m ((c : Thread nD τ).loc main_arg2)
    ∧ W6 m c (Proc.devRef .tc main_arg3) = m ((c : Thread nD τ).loc main_arg3)
    ∧ W6 m c (Proc.devRef .tc main_arg4) = m ((c : Thread nD τ).loc main_arg4)
    ∧ W6 m c (Proc.devRef .tc main_arg5) = m ((c : Thread nD τ).loc main_arg5)
    ∧ W6 m c (Proc.devRef .tc main_arg6) = m ((c : Thread nD τ).loc main_arg6)
    ∧ W6 m c (Proc.devRef .tc main_arg7) = m ((c : Thread nD τ).loc main_arg7)
    ∧ W6 m c (Proc.devRef .tc main_arg8) = m ((c : Thread nD τ).loc main_arg8) := by
  exact ⟨W6_main_arg0 m c,
    W6_bypass m c main_arg1 (by decide) (by decide) (by decide) (by decide) (by decide) (by decide),
    W6_bypass m c main_arg2 (by decide) (by decide) (by decide) (by decide) (by decide) (by decide),
    W6_bypass m c main_arg3 (by decide) (by decide) (by decide) (by decide) (by decide) (by decide),
    W6_main_arg4 m c, W6_main_arg5 m c,
    W6_bypass m c main_arg6 (by decide) (by decide) (by decide) (by decide) (by decide) (by decide),
    W6_bypass m c main_arg7 (by decide) (by decide) (by decide) (by decide) (by decide) (by decide),
    W6_bypass m c main_arg8 (by decide) (by decide) (by decide) (by decide) (by decide) (by decide)⟩

/-! ## What rides beside the buffers, the proof data, the small facts every region uses -/

/-- Beside its buffers a core carries its generator register, in whatever state, and a ledger on which it owes nothing. -/
abbrev Side (c : Dev nD) : sProp 𝕄 :=
  iprop((∃ r, prngReg c r) ∗ ∃ S, owes (c : Thread nD τ) (0 : CellTallies nD τ sig Unit) S)

/-- Core `c` at a boundary where the buffers hold `W c`: every unscoped buffer whole at those contents, and `Side c`. -/
abbrev AtB (W : Dev nD → Valuation τ sig (Elt F)) (c : Dev nD) : sProp 𝕄 :=
  iprop(StableHlo.held (c : Thread nD τ) (Pipeline.ucRefs τ sig) (W c) ∗ Side c)

/-- A valuation read at the TensorCore's references. -/
abbrev rd (c : Dev nD) (W : Valuation τ sig (Elt F)) : (b : Ref sig .tc) → Buf (Elt F) ((c : Thread nD τ).loc b) := fun b => W b

/-- The three pipelines' proof data, each over the contents its region is entered at. -/
def pdats : (p : Fin 3) → (c : Dev nD) → Dat τ (Elt F) Unit ℕ (UR sig nD τ) ℕ (Pipeline.pin (pcfgs (F := F)) adm p) c
  | ⟨0, _⟩ => fun c => dat0 (VR0 m) c
  | ⟨1, _⟩ => fun c => dat1 (VR2 m) c
  | ⟨2, _⟩ => fun c => dat2 (VR4 m) c

abbrev 𝒱₀ : Variants := Variants.none
/-- No pair of cell and index carries a level: nothing is ever owed. -/
abbrev noPairs : GSem nD τ sig → Finset Unit := fun _ => ∅
abbrev lvl0 : GSem nD τ sig → Unit → ℕ := fun _ _ => 0

/-- A ledger owing `O`, its recorded pairs forgotten, is within any bound that leaves nothing out. -/
theorem owesWithin_all (c : Dev nD) (O : CellTallies nD τ sig Unit) {B : Set (SemLoc sig × Unit)} (hB : ∀ x, x ∈ B) :
    (iprop(∃ S, owes (c : Thread nD τ) O S) : sProp 𝕄) ⊢ Pipeline.owesWithin c O B := by
  iintro ⟨%S, H⟩
  iexists S
  isplitr
  · ipureintro; exact fun x _ => hB x
  · iexact H

/-- And a ledger within a bound is a ledger. -/
theorem owes_of_within (c : Dev nD) (O : CellTallies nD τ sig Unit) (B : Set (SemLoc sig × Unit)) :
    (Pipeline.owesWithin c O B : sProp 𝕄) ⊢ iprop(∃ S, owes (c : Thread nD τ) O S) := by
  iintro ⟨%S, -, H⟩
  iexists S
  iexact H

/-- No pipeline here prefetches a table: the tables' holding is empty. -/
theorem tables_emp (p : Fin 3) (c : Dev nD) :
    (BI.emp : sProp 𝕄) ⊢ Pipeline.prefHeld (pcfgs (F := F) p).pre c (fun _ => fullShare) (adm (F := F) p).1 := by
  unfold Pipeline.prefHeld
  rw [show (Finset.univ : Finset (Fin (pcfgs (F := F) p).pre.K)) = ∅ from rfl, BI.bigSep_empty]

section Generic

variable {p : Fin 3} (c : Dev nD)
  (dats : (q : Fin 3) → (d : Dev nD) → Dat τ (Elt F) Unit ℕ (UR sig nD τ) ℕ (Pipeline.pin (pcfgs (F := F)) adm q) d)

/-- ENTERING pipeline `p` from a boundary at contents `W`: the windows' arrays come out of the unscoped buffers at the
    data's entry contents (read off `W`), the rest of those buffers goes round the region, the ledger goes in within the
    first point's bound, the register is kept for the invariant. -/
theorem enter (lf : Pipeline.LaunchFacts (nD := nD) (τ := τ) cfgs p) (W : Valuation τ sig (Elt F)) (hq : ∀ w, (dats p c).q w = fullShare)
    (hA : ∀ w, (dats p c).A w = rd c W (Pipeline.arrRef (cfgs p).spec w))
    (h0 : (dats p c).owed 0 = 0) (hB : ∀ x, x ∈ (dats p c).bound () 0) :
    iprop(StableHlo.held (c : Thread nD τ) (Pipeline.ucRefs τ sig) W ∗ Side c)
      ⊢ |={Set.univ}=> iprop((dats p c).arrays ((dats p c).arrAt · 0)
          ∗ Pipeline.prefHeld (pcfgs (F := F) p).pre c (fun _ => fullShare) (adm (F := F) p).1
          ∗ (dats p c).owesAt () 0 ∗ (∃ r, prngReg c r)
          ∗ Pipeline.unscopedRest (Ix := Unit) (Name := ℕ) (U := UR sig nD τ) (Lvl := ℕ) (cfgs p).spec c (rd c W)) := by
  have cut := Pipeline.arrays_of_unscopedBufs (p := p) (pcfgs (F := F)) adm dats lf.win lf.arr_whole c
    ((dats p c).share_full hq) (rd c W) hA
  rw [Pipeline.unscopedBufs_held] at cut
  have due : (iprop(∃ S, owes (c : Thread nD τ) (0 : CellTallies nD τ sig Unit) S) : sProp 𝕄) ⊢ (dats p c).owesAt () 0 :=
    (Entails.of_eq (by rw [h0])).trans (owesWithin_all (F := F) c ((dats p c).owed 0) hB)
  iintro ⟨Hbufs, Hreg, Hdue⟩
  imodintro
  ihave Hcut := cut $$ Hbufs
  icases Hcut with ⟨Harr, Hround⟩
  isplitl [Harr]
  · iexact Harr
  isplitr
  · iapply (tables_emp (F := F) p c); iempintro
  isplitl [Hdue]
  · iapply due; iexact Hdue
  isplitl [Hreg]
  · iexact Hreg
  · iexact Hround

/-- LEAVING pipeline `p` to a boundary at contents `W'` that has each array at what the pipeline leaves in it and agrees
    with the entry contents `W` elsewhere: arrays and the rest make the unscoped buffers at `W'`; ledger and register
    ride on. -/
theorem leave (lf : Pipeline.LaunchFacts (nD := nD) (τ := τ) cfgs p) (W W' : Valuation τ sig (Elt F)) (hq : ∀ w, (dats p c).q w = fullShare)
    (hF : ∀ w, (dats p c).arrAt w (Pipeline.pin (pcfgs (F := F)) adm p).N = rd c W' (Pipeline.arrRef (cfgs p).spec w))
    (hrest : ∀ b, b ∉ Finset.univ.image (Pipeline.arrRef (cfgs p).spec) → rd c W' b = rd c W b)
    (h0 : (dats p c).owed (Fin.last _) = 0) :
    iprop((dats p c).arrays ((dats p c).arrAt · (Pipeline.pin (pcfgs (F := F)) adm p).N)
        ∗ (dats p c).owesAt () (Fin.last (Pipeline.pin (pcfgs (F := F)) adm p).N) ∗ (∃ r, prngReg c r)
        ∗ Pipeline.unscopedRest (Ix := Unit) (Name := ℕ) (U := UR sig nD τ) (Lvl := ℕ) (cfgs p).spec c (rd c W))
      ⊢ |={Set.univ}=> iprop(StableHlo.held (c : Thread nD τ) (Pipeline.ucRefs τ sig) W' ∗ Side c) := by
  have glue := Pipeline.unscopedBufs_of_arrays (p := p) (pcfgs (F := F)) adm (Ix := Unit) (Name := ℕ) (U := UR sig nD τ) (Lvl := ℕ)
    lf.win lf.arr_whole c dats ((dats p c).share_full hq) (rd c W) (rd c W') ((dats p c).arrAt · (Pipeline.pin (pcfgs (F := F)) adm p).N) hF hrest
  rw [Pipeline.unscopedBufs_held] at glue
  have due : (dats p c).owesAt () (Fin.last (Pipeline.pin (pcfgs (F := F)) adm p).N)
      ⊢ (iprop(∃ S, owes (c : Thread nD τ) (0 : CellTallies nD τ sig Unit) S) : sProp 𝕄) :=
    (owes_of_within (F := F) c _ _).trans (Entails.of_eq (by rw [h0]))
  iintro ⟨Harr, Hdue, Hreg, Hround⟩
  imodintro
  isplitl [Harr Hround]
  · iapply glue
    isplitl [Harr]
    · iexact Harr
    · iexact Hround
  isplitl [Hreg]
  · iexact Hreg
  · iapply due; iexact Hdue

end Generic

/-! ## The three regions as segments -/

set_option backward.isDefEq.respectTransparency.types false in
/-- REGION 0, from the launch contents `W0` to `W1`. Its invariant is `Phi0`: the register and the scoped buffers no window
    stages go in by `Phi0_in` and come back by `Phi0_out`; the kernel has no semaphore of its own and no table. -/
def reg0 : Pipeline.RegionSeg (pcfgs (F := F)) adm (pdats m) () defs₀ 𝒱₀ noPairs lvl0 0 where
  win := launch0.win.to₀
  block_pos := launch0.block_pos
  stage_whole := launch0.stage_whole
  K := PEmpty
  osem k := k.elim
  ho := Pipeline.OwnSemFacts.none _
  hbody c := (body_obligation0 (VR0 m) c).loose
  hwaits := Pipeline.hwaits_of_owed_zero _ _ _ _ noPairs lvl0 0 fun _ _ => rfl
  pre := AtB (W0 m)
  post := AtB (W1 m)
  X c := iprop(∃ r, prngReg c r)
  Y c := iprop(∃ r, prngReg c r)
  Z c := Pipeline.unscopedRest (Ix := Unit) (Name := ℕ) (U := UR sig nD τ) (Lvl := ℕ) spec0 c (rd c (W0 m c))
  hentry c := by
    iintro ⟨Hpre, -, -⟩
    iapply (enter c (pdats m) launch0 (W0 m c) (fun _ => rfl) (fun _ => rfl) rfl (fun _ => Or.inl trivial))
    iexact Hpre
  hin c := by
    show _ ⊢ (Phi0 (VR0 m) c 0 : sProp 𝕄)
    iintro ⟨Hreg, -, Hscoped⟩
    iapply (Phi0_in (VR0 m) c)
    isplitl [Hreg]
    · iexact Hreg
    · iexact Hscoped
  hout c := by
    rw [Pipeline.ownSems0_none]
    refine (show (Phi0 (VR0 m) c (Fin.last cfg0.N) : sProp 𝕄) ⊢ _ from Phi0_out (VR0 m) c).trans ?_
    iintro ⟨Hreg, Hscoped⟩
    isplitl [Hreg]
    · iexact Hreg
    isplitr
    · iempintro
    · iexact Hscoped
  hexit c := leave c (pdats m) launch0 (W0 m c) (W1 m c) (fun _ => rfl) (fun w => (W1_arr m c w).symm)
    (fun b hb => W1_of_ne m c b fun w e => hb (Finset.mem_image.mpr ⟨w, Finset.mem_univ _, e⟩)) rfl

set_option backward.isDefEq.respectTransparency.types false in
/-- REGION 1, from `W2` to `W3`. Its invariant is the plain one: the scoped buffers no window stages and the register,
    as they are. -/
def reg1 : Pipeline.RegionSeg (pcfgs (F := F)) adm (pdats m) () defs₀ 𝒱₀ noPairs lvl0 1 where
  win := launch1.win.to₀
  block_pos := launch1.block_pos
  stage_whole := launch1.stage_whole
  K := PEmpty
  osem k := k.elim
  ho := Pipeline.OwnSemFacts.none _
  hbody c := (body_obligation1 (VR2 m) c).loose
  hwaits := Pipeline.hwaits_of_owed_zero _ _ _ _ noPairs lvl0 1 fun _ _ => rfl
  pre := AtB (W2 m)
  post := AtB (W3 m)
  X c := iprop(∃ r, prngReg c r)
  Y c := iprop(∃ r, prngReg c r)
  Z c := Pipeline.unscopedRest (Ix := Unit) (Name := ℕ) (U := UR sig nD τ) (Lvl := ℕ) spec1 c (rd c (W2 m c))
  hentry c := by
    iintro ⟨Hpre, -, -⟩
    iapply (enter c (pdats m) launch1 (W2 m c) (fun _ => rfl) (fun _ => rfl) rfl (fun _ => Or.inl trivial))
    iexact Hpre
  hin c := by
    show _ ⊢ (Pipeline.ΦA spec1 c : sProp 𝕄)
    unfold Pipeline.ΦA
    iintro ⟨Hreg, -, Hscoped⟩
    isplitl [Hscoped]
    · iexact Hscoped
    · iexact Hreg
  hout c := by
    rw [Pipeline.ownSems0_none]
    show (Pipeline.ΦA spec1 c : sProp 𝕄) ⊢ _
    unfold Pipeline.ΦA
    iintro ⟨Hscoped, Hreg⟩
    isplitl [Hreg]
    · iexact Hreg
    isplitr
    · iempintro
    · iexact Hscoped
  hexit c := leave c (pdats m) launch1 (W2 m c) (W3 m c) (fun _ => rfl) (fun w => (W3_arr m c w).symm)
    (fun b hb => W3_of_ne m c b fun w e => hb (Finset.mem_image.mpr ⟨w, Finset.mem_univ _, e⟩)) rfl

set_option backward.isDefEq.respectTransparency.types false in
/-- REGION 2, from `W4` to `W5`, with the invariant `Phi2` entered by `Phi2_in` and left by `Phi2_out`. -/
def reg2 : Pipeline.RegionSeg (pcfgs (F := F)) adm (pdats m) () defs₀ 𝒱₀ noPairs lvl0 2 where
  win := launch2.win.to₀
  block_pos := launch2.block_pos
  stage_whole := launch2.stage_whole
  K := PEmpty
  osem k := k.elim
  ho := Pipeline.OwnSemFacts.none _
  hbody c := (body_obligation2 (VR4 m) c).loose
  hwaits := Pipeline.hwaits_of_owed_zero _ _ _ _ noPairs lvl0 2 fun _ _ => rfl
  pre := AtB (W4 m)
  post := AtB (W5 m)
  X c := iprop(∃ r, prngReg c r)
  Y c := iprop(∃ r, prngReg c r)
  Z c := Pipeline.unscopedRest (Ix := Unit) (Name := ℕ) (U := UR sig nD τ) (Lvl := ℕ) spec2 c (rd c (W4 m c))
  hentry c := by
    iintro ⟨Hpre, -, -⟩
    iapply (enter c (pdats m) launch2 (W4 m c) (fun _ => rfl) (fun _ => rfl) rfl (fun _ => Or.inl trivial))
    iexact Hpre
  hin c := by
    show _ ⊢ (Phi2 (VR4 m) c 0 : sProp 𝕄)
    iintro ⟨Hreg, -, Hscoped⟩
    iapply (Phi2_in (VR4 m) c)
    isplitl [Hreg]
    · iexact Hreg
    · iexact Hscoped
  hout c := by
    rw [Pipeline.ownSems0_none]
    refine (show (Phi2 (VR4 m) c (Fin.last cfg2.N) : sProp 𝕄) ⊢ _ from Phi2_out (VR4 m) c).trans ?_
    iintro ⟨Hreg, Hscoped⟩
    isplitl [Hreg]
    · iexact Hreg
    isplitr
    · iempintro
    · iexact Hscoped
  hexit c := leave c (pdats m) launch2 (W4 m c) (W5 m c) (fun _ => rfl) (fun w => (W5_arr m c w).symm)
    (fun b hb => W5_of_ne m c b fun w e => hb (Finset.mem_image.mpr ⟨w, Finset.mem_univ _, e⟩)) rfl

/-! ## The host stretches, @main as its six items, and the two ends of the run -/

/-- A host stretch over the unscoped buffers from the contents `W`, `Side` beside it: it leaves the buffers at
    `StableHlo.after ops (W c)`, the next boundary's contents by definition. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ noPairs lvl0 :=
  Pipeline.HostSeg.ofOps _ _ _ _ _ (Pipeline.ucRefs τ sig) ops
    (fun op hop => Pipeline.sub_ucRefs op (List.forall_iff_forall_mem.mp hsub op hop))
    (fun op hop => List.forall_iff_forall_mem.mp hfresh op hop) W Side

/-- @main's items in order, each entered at the contents the one before it leaves. -/
abbrev items : List (Pipeline.Seg (pcfgs (F := F)) adm (pdats m) () defs₀ 𝒱₀ noPairs lvl0) :=
  [ .region (reg0 m),
    .host (stretch hostOps1 hostOps1_sub hostOps1_fresh (W1 m)),
    .region (reg1 m),
    .host (stretch hostOps2 hostOps2_sub hostOps2_fresh (W3 m)),
    .region (reg2 m),
    .host (stretch hostOps3 hostOps3_sub hostOps3_fresh (W5 m)) ]

/-- @main is the run of those items: both sides are the chain of the same six fragments. -/
theorem main_items (c : Dev nD) : main (F := F) c = Pipeline.Seg.run (items m) := by
  rw [main_chain c, Pipeline.Seg.run_eq_chain]
  rfl

/-- The element the launch starts from: the pipelines' cells, none yet used. -/
abbrev launchU : UR sig nD τ := initOf (Pipeline.cells cfgs cellOf_inj) (Pipeline.launchToks cfgs cellOf_inj)

/-- It is the pipeline library's element; no core needs a ghost resource of its own. -/
theorem launch_elem : (ownU launchU : sProp 𝕄)
    ⊢ |={Set.univ}=> iprop(BI.own (emb₁ launchU) ∗ bigSep Finset.univ fun _ : Dev nD => (BI.emp : sProp 𝕄)) := by
  rw [BI.bigSep_emp_const]
  have same : (ownU launchU : sProp 𝕄) ⊢ BI.own (emb₁ launchU) := .rfl
  iintro Hu
  imodintro
  isplitl [Hu]
  · iapply same; iexact Hu
  · iempintro

/-- What the launch deals a core makes its first boundary state: the unscoped buffers at the launch memory, the register
    at its launch state, an empty ledger. -/
theorem first_state (c : Dev nD) :
    iprop(iprop(unscopedBufs c (fun b => m ((c : Thread nD τ).loc b)) ∗ unscopedSems0 c
        ∗ owes (c : Thread nD τ) ((0 : Dev nD → CellTallies nD τ sig Unit) c) ∅ ∗ Pipeline.launchCred (0 : Dev nD → CellTallies nD τ sig Unit) c
        ∗ prngReg c (ρ c) ∗ (BI.emp : sProp 𝕄)) ∗ levAts noPairs lvl0)
      ⊢ |={Set.univ}=> AtB (W0 m) c := by
  have hb := Pipeline.unscopedBufs_held (Ix := Unit) (Name := ℕ) (U := UR sig nD τ) (Lvl := ℕ) c (W0 m c)
  iintro ⟨⟨Hbufs, -, Hdue, -, Hreg, -⟩, -⟩
  imodintro
  isplitl [Hbufs]
  · iapply (Entails.of_eq hb); iexact Hbufs
  isplitl [Hreg]
  · iexists (ρ c); iexact Hreg
  · iexists ∅; iexact Hdue

/-- The last boundary state, regrouped as the launch theorem reads it: buffers and register, beside the ledger. -/
theorem last_state (c : Dev nD) :
    AtB (W6 m) c ⊢ iprop(iprop(StableHlo.held (c : Thread nD τ) (Pipeline.ucRefs τ sig) (W6 m c) ∗ ∃ r, prngReg c r)
      ∗ ∃ S, owes (c : Thread nD τ) (0 : CellTallies nD τ sig Unit) S) := by
  iintro ⟨Hbufs, Hreg, Hdue⟩
  isplitr [Hdue]
  · isplitl [Hbufs]
    · iexact Hbufs
    · iexact Hreg
  · iexact Hdue

/-- Held beside a final state, the buffers say what its memory holds. -/
theorem read_end (c : Dev nD) (s' : Phys nD τ sig (Elt F)) :
    iprop(iprop(StableHlo.held (c : Thread nD τ) (Pipeline.ucRefs τ sig) (W6 m c) ∗ ∃ r, prngReg c r) ∗ SI s')
      ⊢ |={Set.univ}=> (iprop(⌜∀ b ∈ Pipeline.ucRefs τ sig, s'.mem.mem ((c : Thread nD τ).1, b) = W6 m c b⌝ ∗ SI s') : sProp 𝕄) := by
  have look := pointsTo_read_all (Ix := Unit) (Name := ℕ) (U := UR sig nD τ) (Lvl := ℕ) (Pipeline.ucRefs τ sig) (fun b => ((c : Thread nD τ).1, b)) (W6 m c) s'
  unfold StableHlo.held
  iintro ⟨⟨Hbufs, -⟩, Hst⟩
  imodintro
  iapply look
  isplitl [Hbufs]
  · iexact Hbufs
  · iexact Hst

set_option backward.isDefEq.respectTransparency.types false in
/-- Every weakly fair execution of @main from `m` with zero counters terminates, nothing faulting, and every final
    memory holds each unscoped buffer at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ noPairs lvl0 m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp)) (u₀ := launchU) (hu₀ := launch_elem)
    (T₀ := AtB (W0 m))
    (Tₙ := fun c => iprop(StableHlo.held (c : Thread nD τ) (Pipeline.ucRefs τ sig) (W6 m c) ∗ ∃ r, prngReg c r))
    (hch := ⟨fun _ => .rfl, fun _ => .rfl, fun _ => .rfl, fun _ => .rfl, fun _ => .rfl, fun _ => .rfl, last_state m⟩)
    (hinit := Pipeline.initEach noPairs lvl0 (first_state m ρ))
    (QY := fun c s => ∀ b ∈ Pipeline.ucRefs τ sig, s.mem (((c : Thread nD τ)).1, b) = W6 m c b)
    (hfin := read_end m)
    (hQ := fun _ h => h)

end Cert.Kernel.Hand

end
-- ==== Proof.K.Claims.lean ====
import proofs.«413865_j65704409694829_2_alg».proof.Proof.Gen.Kernel.Launch
import proofs.«413865_j65704409694829_2_alg».proof.Proof.Gen.Kernel.Skeleton
import proofs.«413865_j65704409694829_2_alg».proof.Proof.Gen.Kernel.Points
import proofs.«413865_j65704409694829_2_alg».proof.Proof.K.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run read at the result and at the arguments -/

/-- An unscoped TensorCore reference is among those the final state is read at. -/
theorem mem_ucRefs (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- Every weakly fair execution terminates, nothing faulting, with the result buffer at the fold's last contents and
    every argument array as launched. -/
theorem run_value : θ_run defs (onTc (τ := τ) (main (F := F))) ⟨m, fun _ => 0, ρ⟩ (fun r => ∀ c : Dev nD,
      r.2.mem ((c.tc : Thread nD τ).loc main_v57) = W6 m c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => by
    have a := W6_args m c
    exact ⟨h c _ (mem_ucRefs main_v57 (by decide)),
      (h c _ (mem_ucRefs main_arg0 (by decide))).trans a.1,
      (h c _ (mem_ucRefs main_arg1 (by decide))).trans a.2.1,
      (h c _ (mem_ucRefs main_arg2 (by decide))).trans a.2.2.1,
      (h c _ (mem_ucRefs main_arg3 (by decide))).trans a.2.2.2.1,
      (h c _ (mem_ucRefs main_arg4 (by decide))).trans a.2.2.2.2.1,
      (h c _ (mem_ucRefs main_arg5 (by decide))).trans a.2.2.2.2.2.1,
      (h c _ (mem_ucRefs main_arg6 (by decide))).trans a.2.2.2.2.2.2.1,
      (h c _ (mem_ucRefs main_arg7 (by decide))).trans a.2.2.2.2.2.2.2.1,
      (h c _ (mem_ucRefs main_arg8 (by decide))).trans a.2.2.2.2.2.2.2.2⟩) (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_value m ρ)

end Cert.Kernel.Hand

end
-- ==== Proof.KI.Region0Defs.lean ====
import proofs.«413865_j65704409694829_2_alg».proof.Proof.Gen.KernelIdeal.Launch
import proofs.«413865_j65704409694829_2_alg».proof.Proof.Gen.KernelIdeal.Skeleton
import proofs.«413865_j65704409694829_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the column sums of the gated rows and of their squares, accumulated over the ten row blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running column sums: what the first accumulator holds once the blocks below `n` are added (zero, then block
    by block the lane-reduced gated rows added on). -/
def accS0 (c : Dev nD) : Nat → Vec F S1x128 .f32
  | 0 => k0_pay1
  | n + 1 => if h : n < cfg0.N then k0_pay4 (iblk0 V c 1 ⟨n, h⟩) (iblk0 V c 0 ⟨n, h⟩) (accS0 c n) else accS0 c n

/-- The running column sums of squares, the second accumulator. -/
def accQ0 (c : Dev nD) : Nat → Vec F S1x128 .f32
  | 0 => k0_pay2
  | n + 1 => if h : n < cfg0.N then k0_pay5 (iblk0 V c 1 ⟨n, h⟩) (iblk0 V c 0 ⟨n, h⟩) (accQ0 c n) else accQ0 c n

/-- The two accumulators, scoped buffers no window stages. -/
abbrev scratch0 : List (Ref sig .tc) := [cc0_scratch0, cc0_scratch1]

/-- The invariant before point `t`: the two accumulators whole, holding the running sums once a point has run (anything
    before the first point, which resets them); every other scoped buffer at some contents; the generator register. -/
def Phi0 (c : Dev nD) (t : Fin (cfg0.N + 1)) : sProp 𝕄 :=
  iprop((∃ s5 : Vec F S1x128 .f32, owns (c : Thread nD τ) (Memref.whole (sig := sig) cc0_scratch0) fullShare s5 ∗ ⌜t.val ≠ 0 → s5 = accS0 V c t.val⌝)
    ∗ (∃ s6 : Vec F S1x128 .f32, owns (c : Thread nD τ) (Memref.whole (sig := sig) cc0_scratch1) fullShare s6 ∗ ⌜t.val ≠ 0 → s6 = accQ0 V c t.val⌝)
    ∗ Pipeline.scopedRestBut (Ix := Unit) (Name := ℕ) (U := UR sig nD τ) (Lvl := ℕ) (Val := Elt F) spec0 c scratch0
    ∗ ∃ r, prngReg c r)

/-- The proof data of pipeline 0 on core `c`: the inputs' buffers keep their blocks; the two result buffers, stored only
    at the last point, hold the accumulators after that point's block is added. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => accS0 V c (t.val + 1)
    | ⟨3, _⟩ => accQ0 V c (t.val + 1)
  Φ t := Phi0 V c t
  q _ := fullShare
  owed _ := 0

theorem A_eq0 (c : Dev nD) (w : Fin cfg0.W) : (dat0 V c).A w = V c (Pipeline.arrRef spec0 w) := by
  dsimp only [dat0]
theorem after0_2 (c : Dev nD) (t : Fin cfg0.N) : (dat0 V c).after 2 t = accS0 V c (t.val + 1) := by dsimp only [dat0]
theorem after0_3 (c : Dev nD) (t : Fin cfg0.N) : (dat0 V c).after 3 t = accQ0 V c (t.val + 1) := by dsimp only [dat0]

end Cert.KernelIdeal.Hand

end
-- ==== Proof.KI.Region1Defs.lean ====
import proofs.«413865_j65704409694829_2_alg».proof.Proof.Gen.KernelIdeal.Launch
import proofs.«413865_j65704409694829_2_alg».proof.Proof.Gen.KernelIdeal.Skeleton
import proofs.«413865_j65704409694829_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: the gated, normalised rows times the weight matrix, one block of 10000 rows per grid point -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of pipeline 1 on core `c`: every input's buffer keeps its block; the output's buffer holds the
    body's one stored value, the matrix product of the affine image of the gated rows with the weights. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay1 (iblk1 V c 1 t) (iblk1 V c 0 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_5 (c : Dev nD) (t : Fin cfg1.N) :
    (dat1 V c).after 5 t = k1_pay1 (iblk1 V c 1 t) (iblk1 V c 0 t) (iblk1 V c 2 t) (iblk1 V c 3 t) (iblk1 V c 4 t) := by
  dsimp only [dat1]

end Cert.KernelIdeal.Hand

end
-- ==== Proof.KI.Region2Defs.lean ====
import proofs.«413865_j65704409694829_2_alg».proof.Proof.Gen.KernelIdeal.Launch
import proofs.«413865_j65704409694829_2_alg».proof.Proof.Gen.KernelIdeal.Skeleton
import proofs.«413865_j65704409694829_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2: per core, the one-hot pooling of the rectified rows, accumulated over that core's five row blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The running pooled sums: what the accumulator holds once the points below `n` have run. A point whose second
    coordinate is zero (every fifth point) starts again from zero before it adds its block's product. -/
def accP2 (c : Dev nD) : Nat → Vec F S512x128 .f32
  | 0 => k2_pay1
  | n + 1 =>
    if h : n < cfg2.N then
      k2_pay2 (iblk2 V c 0 ⟨n, h⟩) (iblk2 V c 1 ⟨n, h⟩) (iblk2 V c 2 ⟨n, h⟩) (if n % 5 = 0 then k2_pay1 else accP2 c n)
    else accP2 c n

/-- The accumulator, a scoped buffer no window stages. -/
abbrev scratch2 : List (Ref sig .tc) := [cc2_scratch0]

/-- The invariant before point `t`: the accumulator whole, holding the running sums inside a run of five points
    (anything before a point that resets it); every other scoped buffer at some contents; the generator register. -/
def Phi2 (c : Dev nD) (t : Fin (cfg2.N + 1)) : sProp 𝕄 :=
  iprop((∃ s : Vec F S512x128 .f32, owns (c : Thread nD τ) (Memref.whole (sig := sig) cc2_scratch0) fullShare s ∗ ⌜t.val % 5 ≠ 0 → s = accP2 V c t.val⌝)
    ∗ Pipeline.scopedRestBut (Ix := Unit) (Name := ℕ) (U := UR sig nD τ) (Lvl := ℕ) (Val := Elt F) spec2 c scratch2
    ∗ ∃ r, prngReg c r)

/-- The proof data of pipeline 2 on core `c`: the inputs' buffers keep their blocks; the result buffer, stored only at
    a run's last point, holds the accumulator after that point's block is added, as a one-slab array. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (accP2 V c (t.val + 1))
  Φ t := Phi2 V c t
  q _ := fullShare
  owed _ := 0

theorem A_eq2 (c : Dev nD) (w : Fin cfg2.W) : (dat2 V c).A w = V c (Pipeline.arrRef spec2 w) := by
  dsimp only [dat2]
theorem after2_3 (c : Dev nD) (t : Fin cfg2.N) : (dat2 V c).after 3 t = k2_pay3 (accP2 V c (t.val + 1)) := by dsimp only [dat2]

end Cert.KernelIdeal.Hand

end
-- ==== Proof.KI.RunDefs.lean ====
import proofs.«413865_j65704409694829_2_alg».proof.Proof.Gen.KernelIdeal.Launch
import proofs.«413865_j65704409694829_2_alg».proof.Proof.Gen.KernelIdeal.Skeleton
import proofs.«413865_j65704409694829_2_alg».proof.Proof.Gen.KernelIdeal.Points
import proofs.«413865_j65704409694829_2_alg».proof.Proof.Gen.KernelIdeal.Regions
import proofs.«413865_j65704409694829_2_alg».proof.Proof.KI.Region0Defs
import proofs.«413865_j65704409694829_2_alg».proof.Proof.KI.Region1Defs
import proofs.«413865_j65704409694829_2_alg».proof.Proof.KI.Region2Defs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's six items from the launch to the return

The buffer contents at each boundary are a fold from the launch memory: a region leaves its arrays at what its
write-backs make of them and every other buffer as it found it; a host stretch applies its operations. -/

/-- Core `c`'s buffers at launch (region 0's entry). -/
abbrev W0 : Dev nD → Valuation τ sig (Elt F) := fun c b => m (c, b)
/-- The same read at the TensorCore's references. -/
abbrev VR0 : (c : Dev nD) → (b : Ref sig .tc) → Buf (Elt F) ((c : Thread nD τ).loc b) := fun c b => W0 m c b
/-- After region 0. -/
def W1 (c : Dev nD) : Valuation τ sig (Elt F) :=
  Pipeline.withArrays spec0 c (W0 m c) fun w => (dat0 (VR0 m) c).arrAt w cfg0.N
/-- After the first host stretch (region 1's entry). -/
abbrev W2 : Dev nD → Valuation τ sig (Elt F) := fun c => StableHlo.after hostOps1 (W1 m c)
abbrev VR2 : (c : Dev nD) → (b : Ref sig .tc) → Buf (Elt F) ((c : Thread nD τ).loc b) := fun c b => W2 m c b
/-- After region 1. -/
def W3 (c : Dev nD) : Valuation τ sig (Elt F) :=
  Pipeline.withArrays spec1 c (W2 m c) fun w => (dat1 (VR2 m) c).arrAt w cfg1.N
/-- After the second host stretch (region 2's entry). -/
abbrev W4 : Dev nD → Valuation τ sig (Elt F) := fun c => StableHlo.after hostOps2 (W3 m c)
abbrev VR4 : (c : Dev nD) → (b : Ref sig .tc) → Buf (Elt F) ((c : Thread nD τ).loc b) := fun c b => W4 m c b
/-- After region 2. -/
def W5 (c : Dev nD) : Valuation τ sig (Elt F) :=
  Pipeline.withArrays spec2 c (W4 m c) fun w => (dat2 (VR4 m) c).arrAt w cfg2.N
/-- After the last host stretch: the contents at the return. -/
abbrev W6 : Dev nD → Valuation τ sig (Elt F) := fun c => StableHlo.after hostOps3 (W5 m c)

/-- A region's array holds after the region what the write-backs make of it. -/
theorem W1_arr (c : Dev nD) (w : Fin cfg0.W) :
    W1 m c (Proc.devRef .tc (Pipeline.arrRef spec0 w)) = (dat0 (VR0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
theorem W3_arr (c : Dev nD) (w : Fin cfg1.W) :
    W3 m c (Proc.devRef .tc (Pipeline.arrRef spec1 w)) = (dat1 (VR2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
theorem W5_arr (c : Dev nD) (w : Fin cfg2.W) :
    W5 m c (Proc.devRef .tc (Pipeline.arrRef spec2 w)) = (dat2 (VR4 m) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m c (Proc.devRef .tc b) = W4 m c (Proc.devRef .tc b) := by
  unfold W5; exact Pipeline.withArrays_of_ne spec2 c _ _ b hb

end Cert.KernelIdeal.Hand

end
-- ==== Proof.KI.Region0.lean ====
import proofs.«413865_j65704409694829_2_alg».proof.Proof.Gen.KernelIdeal.Launch
import proofs.«413865_j65704409694829_2_alg».proof.Proof.Gen.KernelIdeal.Skeleton
import proofs.«413865_j65704409694829_2_alg».proof.Proof.Gen.KernelIdeal.Points
import proofs.«413865_j65704409694829_2_alg».proof.Proof.KI.Region0Defs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: the column sums of the gated rows and of their squares, accumulated over the ten row blocks -/

/-- The scoped rest split at the two accumulators, each whole at some contents, the remainder left unopened. -/
theorem scopedRest0_split (c : Dev nD) :
    (Pipeline.scopedRest (Ix := Unit) (Name := ℕ) (U := UR sig nD τ) (Lvl := ℕ) (Val := Elt F) spec0 c : sProp 𝕄)
      = iprop(iprop((∃ f : Buf (Elt F) ((c : Thread nD τ).loc cc0_scratch0), ((c : Thread nD τ).loc cc0_scratch0) ↦{fullShare} f)
            ∗ (∃ f : Buf (Elt F) ((c : Thread nD τ).loc cc0_scratch1), ((c : Thread nD τ).loc cc0_scratch1) ↦{fullShare} f))
          ∗ Pipeline.scopedRestBut (Ix := Unit) (Name := ℕ) (U := UR sig nD τ) (Lvl := ℕ) (Val := Elt F) spec0 c scratch0) :=
  Pipeline.scopedRest_split_of_list spec0 c scratch0 (by decide) (by decide)

/-- Entering: the generator register and the scoped buffers no window stages make the invariant before the first point. -/
theorem Phi0_in (c : Dev nD) :
    iprop((∃ r, prngReg c r) ∗ Pipeline.scopedRest (Ix := Unit) (Name := ℕ) (U := UR sig nD τ) (Lvl := ℕ) (Val := Elt F) spec0 c)
      ⊢ (Phi0 V c 0 : sProp 𝕄) := by
  rw [scopedRest0_split]
  unfold Phi0
  iintro ⟨Hg, ⟨⟨%f5, H5⟩, ⟨%f6, H6⟩⟩, HR⟩
  isplitl [H5]
  · iexists f5; isplitl
    · rw [owns_whole]; iexact H5
    · ipureintro; intro h; exact absurd rfl h
  isplitl [H6]
  · iexists f6; isplitl
    · rw [owns_whole]; iexact H6
    · ipureintro; intro h; exact absurd rfl h
  isplitl [HR]
  · iexact HR
  iexact Hg

/-- Leaving: the invariant after the last point gives them back. -/
theorem Phi0_out (c : Dev nD) :
    (Phi0 V c (Fin.last cfg0.N) : sProp 𝕄)
      ⊢ iprop((∃ r, prngReg c r) ∗ Pipeline.scopedRest (Ix := Unit) (Name := ℕ) (U := UR sig nD τ) (Lvl := ℕ) (Val := Elt F) spec0 c) := by
  rw [scopedRest0_split]
  unfold Phi0
  simp only [owns_whole]
  iintro ⟨⟨%s5, H5, -⟩, ⟨%s6, H6, -⟩, HR, Hg⟩
  isplitl [Hg]
  · iexact Hg
  isplitr [HR]
  · isplitl [H5]
    · iexists s5; iexact H5
    · iexists s6; iexact H6
  iexact HR

/-! ## The body's two branch conditions, decided over the ten points -/

/-- The first conditional's condition (the point is the first), from the grid coordinates. -/
abbrev cond0_1 (i : grid0.Coords) : Prop := (Scalar.cmpi .ne (Scalar.extui (Scalar.cmpi .eq (BitVec.ofNat 32 (i 0).val) 0#32)) 0#32) = 1#1

/-- It holds at the first point only. -/
theorem hcond0_1 : ∀ t : Fin cfg0.N, cond0_1 (grid0.coords t) ↔ t.val = 0 :=
  (by decide +kernel : ∀ t : Fin grid0.N, cond0_1 (grid0.coords t) ↔ t.val = 0)
/-- The second conditional's condition holds at the last point only. -/
theorem hcond0_2 : ∀ t : Fin cfg0.N, k0_cond2 (grid0.coords t) = 1#1 ↔ t.val = 9 :=
  (by decide +kernel : ∀ t : Fin grid0.N, k0_cond2 (grid0.coords t) = 1#1 ↔ t.val = 9)

/-! ## Whole-buffer rectangles -/

/-- The zero offsets of a rank-two rectangle, however spelt. -/
theorem hz2 : (![0, 0] : Fin 2 → Nat) = fun _ => 0 := by funext a; fin_cases a <;> rfl

/-- A store through the whole-buffer rectangle of an accumulator, last, covers the buffer. -/
theorem cover_acc (w : Vec F S1x128 .f32) (L : List (View.Piece (Elt F) S1x128 .f32)) (y : S1x128.Idx) :
    ∃ p ∈ (⟨Rect.unit ![0, 0] S1x128.size inb_S1x128_S1x128_0_0, w⟩ : View.Piece (Elt F) S1x128 .f32) :: L, y ∈ p.1.set :=
  ⟨_, List.mem_cons_self, View.mem_set_unit_zero hz2 inb_S1x128_S1x128_0_0 y⟩

/-! ## The body on any whole memrefs, case by case

`x0`, `x1` are what the two input memrefs hold (the rows' block and the gate column's block); the accumulators end at
the block's lane-reduced gated rows (and their squares) added to what they held. -/

set_option maxHeartbeats 1000000 in
/-- At a point that is neither first nor last: each accumulator, found at `s5` / `s6`, gets the block added; the
    result memrefs are not touched. -/
theorem run0_mid (c : Dev nD) (i : grid0.Coords)
    (arg1 : Memref sig .tc .vmem S10000x128 .f32) (harg1 : arg1.IsWhole) (arg2 : Memref sig .tc .vmem S10000x1 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc1 : ¬cond0_1 i) (hc2 : ¬k0_cond2 i = 1#1)
    (x0 : Vec F S10000x128 .f32) (x1 : Vec F S10000x1 .f32) (s5 s6 : Vec F S1x128 .f32)
    (E : Set ℕ) (K : PUnit → sProp 𝕄) :
    iprop(owns (c : Thread nD τ) arg1 fullShare x0 ∗ owns (c : Thread nD τ) arg2 fullShare x1
        ∗ owns (c : Thread nD τ) arg5 fullShare s5 ∗ owns (c : Thread nD τ) arg6 fullShare s6
        ∗ (iprop(owns (c : Thread nD τ) arg1 fullShare x0 ∗ owns (c : Thread nD τ) arg2 fullShare x1
            ∗ owns (c : Thread nD τ) arg5 fullShare (k0_pay4 x1 x0 s5) ∗ owns (c : Thread nD τ) arg6 fullShare (k0_pay5 x1 x0 s6)) -∗ K ⟨⟩))
      ⊢ wp frame (wpE (defs₀ (F := F)) Variants.none c none) E (cc0__bn_stats_kernel i arg1 harg1 arg2 harg2 arg3 harg3 arg4 harg4 arg5 harg5 arg6 harg6) K := by
  simp only [cc0__bn_stats_kernel_eq_skeleton]; unfold cc0__bn_stats_kernel_skel
  unfold owns
  iintro ⟨⟨%f0, %hf0, H0⟩, ⟨%f1, %hf1, H1⟩, ⟨%f5, %hf5, H5⟩, ⟨%f6, %hf6, H6⟩, Hk⟩
  obtain rfl := harg1.eq_unread hf0; obtain rfl := harg2.eq_unread hf1
  obtain rfl := harg5.eq_unread hf5; obtain rfl := harg6.eq_unread hf6
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H5]
  · iexists _; isplitr
    swap; · iexact H5
    ipureintro
    rw [View.read_writes_eq_canon _ _ _ (cover_acc _ _), View.canon_unit_zero hz2]
    simp only [View.readAt_eq_ld, harg1.read_unread, harg2.read_unread, harg5.read_unread, View.ld_unit_zero (S := S10000x128) hz2, View.ld_unit_zero (S := S10000x1) hz2, View.ld_unit_zero (S := S1x128) hz2]
  · iexists _; isplitr
    swap; · iexact H6
    ipureintro
    rw [View.read_writes_eq_canon _ _ _ (cover_acc _ _), View.canon_unit_zero hz2]
    simp only [View.readAt_eq_ld, harg1.read_unread, harg2.read_unread, harg6.read_unread, View.ld_unit_zero (S := S10000x128) hz2, View.ld_unit_zero (S := S10000x1) hz2, View.ld_unit_zero (S := S1x128) hz2]

set_option maxHeartbeats 1000000 in
/-- At the first point: each accumulator, whatever it held, is zeroed and gets the block added. -/
theorem run0_first (c : Dev nD) (i : grid0.Coords)
    (arg1 : Memref sig .tc .vmem S10000x128 .f32) (harg1 : arg1.IsWhole) (arg2 : Memref sig .tc .vmem S10000x1 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc1 : cond0_1 i) (hc2 : ¬k0_cond2 i = 1#1)
    (x0 : Vec F S10000x128 .f32) (x1 : Vec F S10000x1 .f32) (s5 s6 : Vec F S1x128 .f32)
    (E : Set ℕ) (K : PUnit → sProp 𝕄) :
    iprop(owns (c : Thread nD τ) arg1 fullShare x0 ∗ owns (c : Thread nD τ) arg2 fullShare x1
        ∗ owns (c : Thread nD τ) arg5 fullShare s5 ∗ owns (c : Thread nD τ) arg6 fullShare s6
        ∗ (iprop(owns (c : Thread nD τ) arg1 fullShare x0 ∗ owns (c : Thread nD τ) arg2 fullShare x1
            ∗ owns (c : Thread nD τ) arg5 fullShare (k0_pay4 x1 x0 k0_pay1) ∗ owns (c : Thread nD τ) arg6 fullShare (k0_pay5 x1 x0 k0_pay2)) -∗ K ⟨⟩))
      ⊢ wp frame (wpE (defs₀ (F := F)) Variants.none c none) E (cc0__bn_stats_kernel i arg1 harg1 arg2 harg2 arg3 harg3 arg4 harg4 arg5 harg5 arg6 harg6) K := by
  simp only [cc0__bn_stats_kernel_eq_skeleton]; unfold cc0__bn_stats_kernel_skel
  unfold owns
  iintro ⟨⟨%f0, %hf0, H0⟩, ⟨%f1, %hf1, H1⟩, ⟨%f5, %hf5, H5⟩, ⟨%f6, %hf6, H6⟩, Hk⟩
  obtain rfl := harg1.eq_unread hf0; obtain rfl := harg2.eq_unread hf1
  obtain rfl := harg5.eq_unread hf5; obtain rfl := harg6.eq_unread hf6
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H5]
  · iexists _; isplitr
    swap; · iexact H5
    ipureintro
    rw [View.read_writes_eq_canon _ _ _ (cover_acc _ _), View.canon_cons_unit_zero hz2]
    sl_unfold_words
    simp only [View.readAt_eq_ld, harg1.read_unread, harg2.read_unread, View.ld_unit_zero (S := S10000x128) hz2, View.ld_unit_zero (S := S10000x1) hz2, View.readCov_unit_zero (S := S1x128) _ hz2]
  · iexists _; isplitr
    swap; · iexact H6
    ipureintro
    rw [View.read_writes_eq_canon _ _ _ (cover_acc _ _), View.canon_cons_unit_zero hz2]
    sl_unfold_words
    simp only [View.readAt_eq_ld, harg1.read_unread, harg2.read_unread, View.ld_unit_zero (S := S10000x128) hz2, View.ld_unit_zero (S := S10000x1) hz2, View.readCov_unit_zero (S := S1x128) _ hz2]

set_option maxHeartbeats 1000000 in
/-- At the last point: each accumulator gets the block added and is then copied into its result memref, whatever that held. -/
theorem run0_last (c : Dev nD) (i : grid0.Coords)
    (arg1 : Memref sig .tc .vmem S10000x128 .f32) (harg1 : arg1.IsWhole) (arg2 : Memref sig .tc .vmem S10000x1 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (hc1 : ¬cond0_1 i) (hc2 : k0_cond2 i = 1#1)
    (x0 : Vec F S10000x128 .f32) (x1 : Vec F S10000x1 .f32) (y3 y4 s5 s6 : Vec F S1x128 .f32)
    (E : Set ℕ) (K : PUnit → sProp 𝕄) :
    iprop(owns (c : Thread nD τ) arg1 fullShare x0 ∗ owns (c : Thread nD τ) arg2 fullShare x1
        ∗ owns (c : Thread nD τ) arg3 fullShare y3 ∗ owns (c : Thread nD τ) arg4 fullShare y4
        ∗ owns (c : Thread nD τ) arg5 fullShare s5 ∗ owns (c : Thread nD τ) arg6 fullShare s6
        ∗ (iprop(owns (c : Thread nD τ) arg1 fullShare x0 ∗ owns (c : Thread nD τ) arg2 fullShare x1
            ∗ owns (c : Thread nD τ) arg3 fullShare (k0_pay4 x1 x0 s5) ∗ owns (c : Thread nD τ) arg4 fullShare (k0_pay5 x1 x0 s6)
            ∗ owns (c : Thread nD τ) arg5 fullShare (k0_pay4 x1 x0 s5) ∗ owns (c : Thread nD τ) arg6 fullShare (k0_pay5 x1 x0 s6)) -∗ K ⟨⟩))
      ⊢ wp frame (wpE (defs₀ (F := F)) Variants.none c none) E (cc0__bn_stats_kernel i arg1 harg1 arg2 harg2 arg3 harg3 arg4 harg4 arg5 harg5 arg6 harg6) K := by
  simp only [cc0__bn_stats_kernel_eq_skeleton]; unfold cc0__bn_stats_kernel_skel
  unfold owns
  iintro ⟨⟨%f0, %hf0, H0⟩, ⟨%f1, %hf1, H1⟩, ⟨%f3, %hf3, H3⟩, ⟨%f4, %hf4, H4⟩, ⟨%f5, %hf5, H5⟩, ⟨%f6, %hf6, H6⟩, Hk⟩
  obtain rfl := harg1.eq_unread hf0; obtain rfl := harg2.eq_unread hf1
  obtain rfl := harg3.eq_unread hf3; obtain rfl := harg4.eq_unread hf4
  obtain rfl := harg5.eq_unread hf5; obtain rfl := harg6.eq_unread hf6
  sl_exec (disch := first | exact hc1 | exact hc2)
  sl_step
  iapply Hk
  isplitl [H0]
  · iexists _; isplitr; · ipureintro; exact harg1.read_unread _
    iexact H0
  isplitl [H1]
  · iexists _; isplitr; · ipureintro; exact harg2.read_unread _
    iexact H1
  isplitl [H3]
  · iexists _; isplitr
    swap; · iexact H3
    ipureintro
    sl_unfold_words
    rw [View.read_writes_eq_canon _ _ _ (cover_acc _ _), View.canon_unit_zero hz2]
    simp only [View.readAt_eq_ld, harg1.read_unread, harg2.read_unread, harg5.read_unread, View.ld_unit_zero (S := S10000x128) hz2, View.ld_unit_zero (S := S10000x1) hz2, View.ld_unit_zero (S := S1x128) hz2, View.readCov_unit_zero (S := S1x128) _ hz2]
  isplitl [H4]
  · iexists _; isplitr
    swap; · iexact H4
    ipureintro
    sl_unfold_words
    rw [View.read_writes_eq_canon _ _ _ (cover_acc _ _), View.canon_unit_zero hz2]
    simp only [View.readAt_eq_ld, harg1.read_unread, harg2.read_unread, harg6.read_unread, View.ld_unit_zero (S := S10000x128) hz2, View.ld_unit_zero (S := S10000x1) hz2, View.ld_unit_zero (S := S1x128) hz2, View.readCov_unit_zero (S := S1x128) _ hz2]
  isplitl [H5]
  · iexists _; isplitr
    swap; · iexact H5
    ipureintro
    sl_unfold_words
    rw [View.read_writes_eq_canon _ _ _ (cover_acc _ _), View.canon_unit_zero hz2]
    simp only [View.readAt_eq_ld, harg1.read_unread, harg2.read_unread, harg5.read_unread, View.ld_unit_zero (S := S10000x128) hz2, View.ld_unit_zero (S := S10000x1) hz2, View.ld_unit_zero (S := S1x128) hz2]
  · iexists _; isplitr
    swap; · iexact H6
    ipureintro
    sl_unfold_words
    rw [View.read_writes_eq_canon _ _ _ (cover_acc _ _), View.canon_unit_zero hz2]
    simp only [View.readAt_eq_ld, harg1.read_unread, harg2.read_unread, harg6.read_unread, View.ld_unit_zero (S := S10000x128) hz2, View.ld_unit_zero (S := S10000x1) hz2, View.ld_unit_zero (S := S1x128) hz2]

/-! ## What the body finds and leaves, window by window -/

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]

/-- The rows' window is fetched at every point: its buffer holds the point's block. -/
theorem before0_0 (c : Dev nD) (t : Fin cfg0.N) (d) : (dat0 V c).before 0 t d = iblk0 V c 0 t :=
  ((dat0 V c).before_fetched 0 t (fetch0_0 t) d).trans (by unfold Dat.fetched Dat.blockOf iblk0; rw [A_eq0]; try rfl)
/-- So is the gate column's. -/
theorem before0_1 (c : Dev nD) (t : Fin cfg0.N) (d) : (dat0 V c).before 1 t d = iblk0 V c 1 t :=
  ((dat0 V c).before_fetched 1 t (fetch0_1 t) d).trans (by unfold Dat.fetched Dat.blockOf iblk0; rw [A_eq0]; try rfl)

/-- The inputs are never idle. -/
theorem liveAt0_0 : ∀ t : Fin cfg0.N, cfg0.idle 0 (grid0.coords t) = false := by decide +kernel
theorem liveAt0_1 : ∀ t : Fin cfg0.N, cfg0.idle 1 (grid0.coords t) = false := by decide +kernel
/-- The two results are idle, and not written back, at every point but the last, where they are stored. -/
theorem idleAt0_2 : ∀ t : Fin cfg0.N, ¬k0_cond2 (grid0.coords t) = 1#1 → cfg0.idle 2 (grid0.coords t) = true := by decide +kernel
theorem idleAt0_3 : ∀ t : Fin cfg0.N, ¬k0_cond2 (grid0.coords t) = 1#1 → cfg0.idle 3 (grid0.coords t) = true := by decide +kernel
theorem noFlush0_2 : ∀ t : Fin cfg0.N, ¬k0_cond2 (grid0.coords t) = 1#1 → (cfg0.win 2).flush t = false := by decide +kernel
theorem noFlush0_3 : ∀ t : Fin cfg0.N, ¬k0_cond2 (grid0.coords t) = 1#1 → (cfg0.win 3).flush t = false := by decide +kernel
theorem liveAt0_2 : ∀ t : Fin cfg0.N, k0_cond2 (grid0.coords t) = 1#1 → cfg0.idle 2 (grid0.coords t) = false := by decide +kernel
theorem liveAt0_3 : ∀ t : Fin cfg0.N, k0_cond2 (grid0.coords t) = 1#1 → cfg0.idle 3 (grid0.coords t) = false := by decide +kernel

/-- One more block added to the running sums. -/
theorem accS0_succ (c : Dev nD) (t : Fin cfg0.N) :
    accS0 V c (t.val + 1) = k0_pay4 (iblk0 V c 1 t) (iblk0 V c 0 t) (accS0 V c t.val) := by
  show (if h : t.val < cfg0.N then k0_pay4 (iblk0 V c 1 ⟨t.val, h⟩) (iblk0 V c 0 ⟨t.val, h⟩) (accS0 V c t.val) else accS0 V c t.val) = _
  rw [dif_pos t.isLt]
theorem accQ0_succ (c : Dev nD) (t : Fin cfg0.N) :
    accQ0 V c (t.val + 1) = k0_pay5 (iblk0 V c 1 t) (iblk0 V c 0 t) (accQ0 V c t.val) := by
  show (if h : t.val < cfg0.N then k0_pay5 (iblk0 V c 1 ⟨t.val, h⟩) (iblk0 V c 0 ⟨t.val, h⟩) (accQ0 V c t.val) else accQ0 V c t.val) = _
  rw [dif_pos t.isLt]

/-! ## The body obligation, at a generic point -/

/-- Each window's current staging memref at point `t`, as the pipeline passes it, and its wholeness. -/
abbrev ms0_0 (t : Fin cfg0.N) : Memref sig .tc .vmem S10000x128 .f32 := win0_0.stage (cfg0.slots t 0)
abbrev ms0_1 (t : Fin cfg0.N) : Memref sig .tc .vmem S10000x1 .f32 := win0_1.stage (cfg0.slots t 1)
abbrev ms0_2 (t : Fin cfg0.N) : Memref sig .tc .vmem S1x128 .f32 := win0_2.stage (cfg0.slots t 2)
abbrev ms0_3 (t : Fin cfg0.N) : Memref sig .tc .vmem S1x128 .f32 := win0_3.stage (cfg0.slots t 3)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t)

set_option maxHeartbeats 2000000 in
/-- The body at any point: the inputs' memrefs hold their blocks; by the point's place among the ten (first, last,
    between) the matching run applies, the accumulators handed over at the running sums (at anything, at the first
    point) and taken back with the block added, the results' buffers stored at the last point and untouched before. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c t.succ from rfl, show (dat0 V c).Φ t.castSucc = Phi0 V c t.castSucc from rfl]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  unfold Phi0
  simp only [Fin.val_succ, Fin.coe_castSucc]
  rw [accS0_succ V c t, accQ0_succ V c t]
  have hN : t.val < 10 := lt_of_lt_of_eq t.isLt (show cfg0.N = 10 from N_0)
  by_cases h0 : t.val = 0
  · -- the first point: the accumulators are reset, then the block is added
    have hc1 : cond0_1 (grid0.coords t) := (hcond0_1 t).mpr h0
    have hc2 : ¬k0_cond2 (grid0.coords t) = 1#1 := fun h => by have := (hcond0_2 t).mp h; omega
    rw [Dat.leavesExact_idle (dat0 V c) 2 t (idleAt0_2 t hc2) (noFlush0_2 t hc2),
      Dat.leavesExact_idle (dat0 V c) 3 t (idleAt0_3 t hc2) (noFlush0_3 t hc2)]
    have eS : accS0 V c t.val = k0_pay1 := by rw [h0]; rfl
    have eQ : accQ0 V c t.val = k0_pay2 := by rw [h0]; rfl
    rw [eS, eQ]
    iintro ⟨⟨⟨%s5, H5, -⟩, ⟨%s6, H6, -⟩, HR, Hg⟩, Ho, ⟨%d0, H0⟩, ⟨%d1, H1⟩, H2, H3⟩
    iapply (run0_first c (grid0.coords t) _ _ _ _ _ _ _ _ _ _ _ _ hc1 hc2 (iblk0 V c 0 t) (iblk0 V c 1 t) s5 s6 Set.univ _)
    isplitl [H0]; · iexact H0
    isplitl [H1]; · iexact H1
    isplitl [H5]; · iexact H5
    isplitl [H6]; · iexact H6
    iintro ⟨H0, H1, H5, H6⟩
    isplitl [H5 H6 HR Hg]
    · isplitl [H5]
      · iexists _; isplitl; · iexact H5
        ipureintro; exact fun _ => rfl
      isplitl [H6]
      · iexists _; isplitl; · iexact H6
        ipureintro; exact fun _ => rfl
      isplitl [HR]; · iexact HR
      iexact Hg
    isplitl [Ho]; · iexact Ho
    isplitl [H0]; · iexact H0
    isplitl [H1]; · iexact H1
    isplitl [H2]; · iexact H2
    iexact H3
  · by_cases h9 : t.val = 9
    · -- the last point: the block is added and the accumulators are copied into the results
      have hc1 : ¬cond0_1 (grid0.coords t) := fun h => h0 ((hcond0_1 t).mp h)
      have hc2 : k0_cond2 (grid0.coords t) = 1#1 := (hcond0_2 t).mpr h9
      rw [show (dat0 V c).leavesExact 2 t = owns (c : Thread nD τ) (ms0_2 t) fullShare ((dat0 V c).after 2 t) from by
        unfold Dat.leavesExact; rw [liveAt0_2 t hc2], after0_2, accS0_succ V c t]
      rw [show (dat0 V c).leavesExact 3 t = owns (c : Thread nD τ) (ms0_3 t) fullShare ((dat0 V c).after 3 t) from by
        unfold Dat.leavesExact; rw [liveAt0_3 t hc2], after0_3, accQ0_succ V c t]
      iintro ⟨⟨⟨%s5, H5, %h5⟩, ⟨%s6, H6, %h6⟩, HR, Hg⟩, Ho, ⟨%d0, H0⟩, ⟨%d1, H1⟩, ⟨%d2, H2⟩, ⟨%d3, H3⟩⟩
      obtain rfl := h5 h0; obtain rfl := h6 h0
      iapply (run0_last c (grid0.coords t) _ _ _ _ _ _ _ _ _ _ _ _ hc1 hc2 (iblk0 V c 0 t) (iblk0 V c 1 t)
        ((dat0 V c).before 2 t d2) ((dat0 V c).before 3 t d3) (accS0 V c t.val) (accQ0 V c t.val) Set.univ _)
      isplitl [H0]; · iexact H0
      isplitl [H1]; · iexact H1
      isplitl [H2]; · iexact H2
      isplitl [H3]; · iexact H3
      isplitl [H5]; · iexact H5
      isplitl [H6]; · iexact H6
      iintro ⟨H0, H1, H2, H3, H5, H6⟩
      isplitl [H5 H6 HR Hg]
      · isplitl [H5]
        · iexists _; isplitl; · iexact H5
          ipureintro; exact fun _ => rfl
        isplitl [H6]
        · iexists _; isplitl; · iexact H6
          ipureintro; exact fun _ => rfl
        isplitl [HR]; · iexact HR
        iexact Hg
      isplitl [Ho]; · iexact Ho
      isplitl [H0]; · iexact H0
      isplitl [H1]; · iexact H1
      isplitl [H2]; · iexact H2
      iexact H3
    · -- a point between: the block is added; the results' buffers go back as they came
      have hc1 : ¬cond0_1 (grid0.coords t) := fun h => h0 ((hcond0_1 t).mp h)
      have hc2 : ¬k0_cond2 (grid0.coords t) = 1#1 := fun h => h9 ((hcond0_2 t).mp h)
      rw [Dat.leavesExact_idle (dat0 V c) 2 t (idleAt0_2 t hc2) (noFlush0_2 t hc2),
        Dat.leavesExact_idle (dat0 V c) 3 t (idleAt0_3 t hc2) (noFlush0_3 t hc2)]
      iintro ⟨⟨⟨%s5, H5, %h5⟩, ⟨%s6, H6, %h6⟩, HR, Hg⟩, Ho, ⟨%d0, H0⟩, ⟨%d1, H1⟩, H2, H3⟩
      obtain rfl := h5 h0; obtain rfl := h6 h0
      iapply (run0_mid c (grid0.coords t) _ _ _ _ _ _ _ _ _ _ _ _ hc1 hc2 (iblk0 V c 0 t) (iblk0 V c 1 t)
        (accS0 V c t.val) (accQ0 V c t.val) Set.univ _)
      isplitl [H0]; · iexact H0
      isplitl [H1]; · iexact H1
      isplitl [H5]; · iexact H5
      isplitl [H6]; · iexact H6
      iintro ⟨H0, H1, H5, H6⟩
      isplitl [H5 H6 HR Hg]
      · isplitl [H5]
        · iexists _; isplitl; · iexact H5
          ipureintro; exact fun _ => rfl
        isplitl [H6]
        · iexists _; isplitl; · iexact H6
          ipureintro; exact fun _ => rfl
        isplitl [HR]; · iexact HR
        iexact Hg
      isplitl [Ho]; · iexact Ho
      isplitl [H0]; · iexact H0
      isplitl [H1]; · iexact H1
      isplitl [H2]; · iexact H2
      iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
import proofs.«413865_j65704409694829_2_alg».proof.Proof.Gen.KernelIdeal.Launch
import proofs.«413865_j65704409694829_2_alg».proof.Proof.Gen.KernelIdeal.Skeleton
import proofs.«413865_j65704409694829_2_alg».proof.Proof.Gen.KernelIdeal.Points
import proofs.«413865_j65704409694829_2_alg».proof.Proof.KI.Region1Defs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 1: the gated, normalised rows times the weight matrix, one block of 10000 rows per grid point -/

/-! ## Each input's buffer holds its block -/

/-- Input window 0's current staging buffer holds its block at every point, whether the point fetches it or not, for
    any proof data whose array is the entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether the point fetches it or not, for
    any proof data whose array is the entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether the point fetches it or not, for
    any proof data whose array is the entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether the point fetches it or not, for
    any proof data whose array is the entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether the point fetches it or not, for
    any proof data whose array is the entry contents and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body's triple -/

/-- The offsets of every access of the body are zero: each load and the store go through the whole buffer. -/
theorem zero_offsets1 : (![0, 0] : Fin 2 → Nat) = fun _ => 0 := funext fun a => by fin_cases a <;> rfl

set_option maxHeartbeats 1000000 in
/-- The body on whole staging memrefs: the five inputs are read and left as they were, and the output ends holding
    exactly the matrix product of the affine image of the gated rows (rows `x0` scaled by the gate column `x1`, times
    the scale row `x2`, plus the shift row `x3`) with the weights `x4`. The one store covers the whole output buffer,
    so what the buffer held before does not matter. -/
theorem sound_kernel1 (c : Dev nD) (E : Set ℕ) (i : grid1.Coords)
    (arg1 : Memref sig .tc .vmem S10000x128 .f32) (harg1 : arg1.IsWhole)
    (arg2 : Memref sig .tc .vmem S10000x1 .f32) (harg2 : arg2.IsWhole)
    (arg3 : Memref sig .tc .vmem S1x128 .f32) (harg3 : arg3.IsWhole)
    (arg4 : Memref sig .tc .vmem S1x128 .f32) (harg4 : arg4.IsWhole)
    (arg5 : Memref sig .tc .vmem S128x128 .f32) (harg5 : arg5.IsWhole)
    (arg6 : Memref sig .tc .vmem S10000x128 .f32) (harg6 : arg6.IsWhole)
    (x0 : Vec F S10000x128 .f32) (x1 : Vec F S10000x1 .f32) (x2 : Vec F S1x128 .f32) (x3 : Vec F S1x128 .f32)
    (x4 : Vec F S128x128 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (k1_pay1 x1 x0 x2 x3 x4)) -∗ K ⟨⟩))
      ⊢ wp frame (wpE (defs₀ (F := F)) Variants.none c none) E
          (cc1__lin_kernel i arg1 harg1 arg2 harg2 arg3 harg3 arg4 harg4 arg5 harg5 arg6 harg6) K := by
  simp only [cc1__lin_kernel_eq_skeleton]; unfold cc1__lin_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  -- the one store goes through the whole output buffer, so it covers every index and leaves its payload; each load
  -- goes through a whole input buffer, so it reads that buffer's contents
  rw [View.read_writes_eq_canon _ _ _
    (fun y => ⟨_, List.mem_singleton_self _, View.mem_set_unit_zero zero_offsets1 inb_S10000x128_S10000x128_0_0 y⟩)]
  rw [View.canon_unit_zero zero_offsets1]
  simp only [View.readAt_eq_ld, View.ld_unit_zero (S := S10000x1) zero_offsets1,
    View.ld_unit_zero (S := S10000x128) zero_offsets1, View.ld_unit_zero (S := S1x128) zero_offsets1,
    View.ld_unit_zero (S := S128x128) zero_offsets1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := by
  intro t
  rw [bigSep_W1, bigSep_W1]
  exact sound_body1 V c t

end Cert.KernelIdeal.Hand

end
-- ==== Proof.KI.Region2.lean ====
import proofs.«413865_j65704409694829_2_alg».proof.Proof.Gen.KernelIdeal.Launch
import proofs.«413865_j65704409694829_2_alg».proof.Proof.Gen.KernelIdeal.Skeleton
import proofs.«413865_j65704409694829_2_alg».proof.Proof.Gen.KernelIdeal.Points
import proofs.«413865_j65704409694829_2_alg».proof.Proof.KI.Region2Defs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2, the body: the accumulator zeroed at a run's first point, added to at every point, stored at its last -/

/-- The body's first conditional, as it computes it from the second grid coordinate. -/
abbrev cond2_0 (i : grid2.Coords) : Prop := (Scalar.cmpi .ne (Scalar.extui (Scalar.cmpi .eq (BitVec.ofNat 32 (i 1).val) 0#32)) 0#32) = 1#1

/-! ## Whole-buffer loads and stores -/

theorem r2_hz2 : (![0, 0] : Fin 2 → Nat) = fun _ => 0 := funext fun a => by fin_cases a <;> rfl
theorem r2_hz3 : (![0, 0, 0] : Fin 3 → Nat) = fun _ => 0 := funext fun a => by fin_cases a <;> rfl

/-- A list of stores into a 512×128 buffer whose last is of the whole buffer covers it. -/
theorem r2_cover_acc (w : Vec F S512x128 .f32) (L : List (View.Piece (Elt F) S512x128 .f32)) (y : S512x128.Idx) :
    ∃ p ∈ ((⟨Rect.unit ![0, 0] S512x128.size inb_S512x128_S512x128_0_0, w⟩ : View.Piece (Elt F) S512x128 .f32) :: L), y ∈ p.1.set :=
  ⟨_, List.mem_cons_self, View.mem_set_unit_zero r2_hz2 inb_S512x128_S512x128_0_0 y⟩

/-- After stores into a 512×128 buffer whose last is of the whole buffer, it reads as what that one stored. -/
theorem r2_read_acc_stored {κ : Kind} {sp : Space} (v : View sig κ sp S512x128 .f32) (f : v.ty.Contents (Elt F)) (w : Vec F S512x128 .f32)
    (L : List (View.Piece (Elt F) S512x128 .f32)) :
    v.read (Elt F) (v.writes (Elt F) f ((⟨Rect.unit ![0, 0] S512x128.size inb_S512x128_S512x128_0_0, w⟩ : View.Piece (Elt F) S512x128 .f32) :: L)) = w := by
  rw [View.read_writes_eq_canon _ _ _ (r2_cover_acc w L), View.canon_cons_unit_zero r2_hz2]

/-- One store of the whole of a 1×512×128 buffer covers it. -/
theorem r2_cover_out (w : Vec F S1x512x128 .f32) (y : S1x512x128.Idx) :
    ∃ p ∈ ([⟨Rect.unit ![0, 0, 0] S1x512x128.size inb_S1x512x128_S1x512x128_0_0_0, w⟩] : List (View.Piece (Elt F) S1x512x128 .f32)), y ∈ p.1.set :=
  ⟨_, List.mem_cons_self, View.mem_set_unit_zero r2_hz3 inb_S1x512x128_S1x512x128_0_0_0 y⟩

/-- After one store of the whole of a 1×512×128 buffer it reads as what was stored. -/
theorem r2_read_out_stored {κ : Kind} {sp : Space} (v : View sig κ sp S1x512x128 .f32) (f : v.ty.Contents (Elt F)) (w : Vec F S1x512x128 .f32) :
    v.read (Elt F) (v.writes (Elt F) f [(⟨Rect.unit ![0, 0, 0] S1x512x128.size inb_S1x512x128_S1x512x128_0_0_0, w⟩ : View.Piece (Elt F) S1x512x128 .f32)]) = w := by
  rw [View.read_writes_eq_canon _ _ _ (r2_cover_out w), View.canon_unit_zero r2_hz3]

/-- A load of the whole of a 10000×128 buffer reads its contents. -/
theorem r2_load_rows (m : Memref sig .tc .vmem S10000x128 .f32) (h : m.IsWhole) (X : Vec F S10000x128 .f32) :
    m.view.readAt (Elt F) (Rect.unit (s := S10000x128) ![0, 0] S10000x128.size inb_S10000x128_S10000x128_0_0).toLoadRect (h.unread X) = X := by
  rw [View.readAt_eq_ld, h.read_unread, View.ld_unit_zero r2_hz2]
/-- A load of the whole of a 1×128 buffer reads its contents. -/
theorem r2_load_bias (m : Memref sig .tc .vmem S1x128 .f32) (h : m.IsWhole) (X : Vec F S1x128 .f32) :
    m.view.readAt (Elt F) (Rect.unit (s := S1x128) ![0, 0] S1x128.size inb_S1x128_S1x128_0_0).toLoadRect (h.unread X) = X := by
  rw [View.readAt_eq_ld, h.read_unread, View.ld_unit_zero r2_hz2]
/-- A load of the whole of a 10000×1 integer buffer reads its contents. -/
theorem r2_load_ids (m : Memref sig .tc .vmem S10000x1 .i32) (h : m.IsWhole) (X : Vec F S10000x1 .i32) :
    m.view.readAt (Elt F) (Rect.unit (s := S10000x1) ![0, 0] S10000x1.size inb_S10000x1_S10000x1_0_0).toLoadRect (h.unread X) = X := by
  rw [View.readAt_eq_ld, h.read_unread, View.ld_unit_zero r2_hz2]
/-- A load of the whole of a 512×128 buffer reads its contents. -/
theorem r2_load_acc (m : Memref sig .tc .vmem S512x128 .f32) (h : m.IsWhole) (X : Vec F S512x128 .f32) :
    m.view.readAt (Elt F) (Rect.unit (s := S512x128) ![0, 0] S512x128.size inb_S512x128_S512x128_0_0).toLoadRect (h.unread X) = X := by
  rw [View.readAt_eq_ld, h.read_unread, View.ld_unit_zero r2_hz2]
/-- A 512×128 buffer loaded whole after one store of the whole of it reads what was stored. -/
theorem r2_readback_acc {κ : Kind} {sp : Space} (v : View sig κ sp S512x128 .f32) (w : Vec F S512x128 .f32) :
    v.readCov [(⟨Rect.unit ![0, 0] S512x128.size inb_S512x128_S512x128_0_0, w⟩ : View.Piece (Elt F) S512x128 .f32)]
      (Rect.unit (s := S512x128) ![0, 0] S512x128.size inb_S512x128_S512x128_0_0).toLoadRect = w :=
  View.readCov_unit_zero (S := S512x128) v r2_hz2 _ w

/-! ## The body's run, case by case -/

/-- The body at a point inside a run of five, neither its first nor its last: both conditionals fail. The three input blocks
    are loaded and the accumulator is read; `k2_pay2` of the four (the block's pooled contribution added to the sums so far) is
    stored back into the accumulator. The result's buffer is not touched. -/
theorem run2_add (c : Dev nD) (i : grid2.Coords)
    (arg2 : Memref sig .tc .vmem S10000x128 .f32) (harg2 : arg2.IsWhole) (arg3 : Memref sig .tc .vmem S1x128 .f32) (harg3 : arg3.IsWhole)
    (arg4 : Memref sig .tc .vmem S10000x1 .i32) (harg4 : arg4.IsWhole) (arg5 : Memref sig .tc .vmem S1x512x128 .f32) (harg5 : arg5.IsWhole)
    (arg6 : Memref sig .tc .vmem S512x128 .f32) (harg6 : arg6.IsWhole)
    (hc1 : ¬ cond2_0 i) (hc2 : ¬ k2_cond2 i = 1#1)
    (x0 : Vec F S10000x128 .f32) (x1 : Vec F S1x128 .f32) (x2 : Vec F S10000x1 .i32) (xo : Vec F S1x512x128 .f32) (s : Vec F S512x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare s
      ∗ (iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare (k2_pay2 x0 x1 x2 s)) -∗ K ⟨⟩))
    ⊢ wp frame (wpE (defs₀ (F := F)) Variants.none c none) E (cc2__pool_kernel i arg2 harg2 arg3 harg3 arg4 harg4 arg5 harg5 arg6 harg6) K := by
  simp only [cc2__pool_kernel_eq_skeleton]; unfold cc2__pool_kernel_skel
  unfold owns
  iintro ⟨⟨%f0, %hf0, H0⟩, ⟨%f1, %hf1, H1⟩, ⟨%f2, %hf2, H2⟩, ⟨%fo, %hfo, Ho⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [Ho]
  · iexists _; isplitr; · ipureintro; exact hfo
    iexact Ho
  iexists _; isplitr
  swap; · iexact HS
  ipureintro
  rw [r2_read_acc_stored, r2_load_rows, r2_load_bias, r2_load_ids, r2_load_acc]

/-- The body at a point that starts a run: the first conditional holds, so the accumulator, whatever it held, is overwritten
    with the zeros `k2_pay1`; it is then read back as those zeros, and `k2_pay2` of the three input blocks and the zeros is
    stored into it. The result's buffer is not touched. -/
theorem run2_reset (c : Dev nD) (i : grid2.Coords)
    (arg2 : Memref sig .tc .vmem S10000x128 .f32) (harg2 : arg2.IsWhole) (arg3 : Memref sig .tc .vmem S1x128 .f32) (harg3 : arg3.IsWhole)
    (arg4 : Memref sig .tc .vmem S10000x1 .i32) (harg4 : arg4.IsWhole) (arg5 : Memref sig .tc .vmem S1x512x128 .f32) (harg5 : arg5.IsWhole)
    (arg6 : Memref sig .tc .vmem S512x128 .f32) (harg6 : arg6.IsWhole)
    (hc1 : cond2_0 i) (hc2 : ¬ k2_cond2 i = 1#1)
    (x0 : Vec F S10000x128 .f32) (x1 : Vec F S1x128 .f32) (x2 : Vec F S10000x1 .i32) (xo : Vec F S1x512x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xo ∗ (∃ s, owns (c : Thread nD τ) arg6 fullShare s)
      ∗ (iprop(owns (c : Thread nD τ) arg2 fullShare x0 ∗ owns (c : Thread nD τ) arg3 fullShare x1 ∗ owns (c : Thread nD τ) arg4 fullShare x2 ∗ owns (c : Thread nD τ) arg5 fullShare xo ∗ owns (c : Thread nD τ) arg6 fullShare (k2_pay2 x0 x1 x2 k2_pay1)) -∗ K ⟨⟩))
    ⊢ wp frame (wpE (defs₀ (F := F)) Variants.none c none) E (cc2__pool_kernel i arg2 harg2 arg3 harg3 arg4 harg4 arg5 harg5 arg6 harg6) K := by
  simp only [cc2__pool_kernel_eq_skeleton]; unfold cc2__pool_kernel_skel
  unfold owns
  iintro ⟨⟨%f0, %hf0, H0⟩, ⟨%f1, %hf1, H1⟩, ⟨%f2, %hf2, H2⟩, ⟨%fo, %hfo, Ho⟩, ⟨%s, %fs, %hfs, HS⟩, Hk⟩
  obtain rfl := harg2.eq_unread hf0; obtain rfl := harg3.eq_unread hf1; obtain rfl := harg4.eq_unread hf2
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [Ho]
  · iexists _; isplitr; · ipureintro; exact hfo
    iexact Ho
  iexists _; isplitr
  swap; · iexact HS
  ipureintro
  sl_unfold_words
  rw [r2_read_acc_stored, r2_load_rows, r2_load_bias, r2_load_ids, r2_readback_acc]

/-- The body at a run's last point: the accumulator is updated as at a middle point; then, the second conditional holding,
    it is read back and `k2_pay3` of it (the same sums as a one-slab array) is stored over whatever the result's buffer held. -/
theorem run2_store (c : Dev nD) (i : grid2.Coords)
    (arg2 : Memref sig .tc .vmem S10000x128 .f32) (harg2 : arg2.IsWhole) (arg3 : Memref sig .tc .vmem S1x128 .f32) (harg3 : arg3.IsWhole)
    (arg4 : Memref sig .tc .vmem S10000x1 .i32) (harg4 : arg4.IsWhole) (arg5 : Memref sig .tc .vmem S1x512x128 .f32) (harg5 : arg5.IsWhole)
    (arg6 : Memref sig .tc .vmem S512x128 .f32) (harg6 : arg6.IsWhole)
    (hc1 : ¬ cond2_0 i) (hc2 : k2_cond2 i = 1#1)
    (x0 : Vec F S10000x128 .f32) (x1 : Vec F S1x128 .f32) (x2 : Vec F S10000x1 .i32) (s : Vec F S512x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ (∃ xo, owns (c : Thread nD τ) arg5 fullShare xo) ∗ owns (c : Thread nD τ) arg6 fullShare s
      ∗ (iprop(owns (c : Thread nD τ) arg2 fullShare x0 ∗ owns (c : Thread nD τ) arg3 fullShare x1 ∗ owns (c : Thread nD τ) arg4 fullShare x2 ∗ owns (c : Thread nD τ) arg5 fullShare (k2_pay3 (k2_pay2 x0 x1 x2 s)) ∗ owns (c : Thread nD τ) arg6 fullShare (k2_pay2 x0 x1 x2 s)) -∗ K ⟨⟩))
    ⊢ wp frame (wpE (defs₀ (F := F)) Variants.none c none) E (cc2__pool_kernel i arg2 harg2 arg3 harg3 arg4 harg4 arg5 harg5 arg6 harg6) K := by
  simp only [cc2__pool_kernel_eq_skeleton]; unfold cc2__pool_kernel_skel
  unfold owns
  iintro ⟨⟨%f0, %hf0, H0⟩, ⟨%f1, %hf1, H1⟩, ⟨%f2, %hf2, H2⟩, ⟨%xo, %fo, %hfo, Ho⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc1 | exact hc2)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [Ho]
  · iexists _; isplitr
    swap; · iexact Ho
    ipureintro
    sl_unfold_words
    rw [r2_read_out_stored, r2_readback_acc, r2_load_rows, r2_load_bias, r2_load_ids, r2_load_acc]
  iexists _; isplitr
  swap; · iexact HS
  ipureintro
  sl_unfold_words
  rw [r2_read_acc_stored, r2_load_rows, r2_load_bias, r2_load_ids, r2_load_acc]

/-! ## Entering and leaving -/

/-- The scoped buffers that no window stages are the accumulator, whole at some contents, together with all the others. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c scratch2) :=
  Pipeline.scopedRest_split_of_list spec2 c scratch2 (by decide) (by decide)

/-- Entering: the generator register and the scoped buffers no window stages make the invariant before the first point. -/
theorem Phi2_in (c : Dev nD) :
    iprop((∃ r, prngReg c r) ∗ Pipeline.scopedRest (Ix := Unit) (Name := ℕ) (U := UR sig nD τ) (Lvl := ℕ) (Val := Elt F) spec2 c)
      ⊢ (Phi2 V c 0 : sProp 𝕄) := by
  rw [scopedRest2_split]
  unfold Phi2
  simp only [owns_whole]
  iintro ⟨Hr, ⟨%f, Hs⟩, Hrest⟩
  isplitl [Hs]
  · iexists f; isplitl
    · iexact Hs
    · ipureintro; intro h; exact absurd rfl h
  isplitl [Hrest]
  · iexact Hrest
  · iexact Hr

/-- Leaving: the invariant after the last point gives them back. -/
theorem Phi2_out (c : Dev nD) :
    (Phi2 V c (Fin.last cfg2.N) : sProp 𝕄)
      ⊢ iprop((∃ r, prngReg c r) ∗ Pipeline.scopedRest (Ix := Unit) (Name := ℕ) (U := UR sig nD τ) (Lvl := ℕ) (Val := Elt F) spec2 c) := by
  rw [scopedRest2_split]
  unfold Phi2
  simp only [owns_whole]
  iintro ⟨⟨%s, Hs, -⟩, Hrest, Hr⟩
  isplitl [Hr]
  · iexact Hr
  isplitl [Hs]
  · iexists s; iexact Hs
  · iexact Hrest

/-! ## Which points take which branch, and where the result window is idle -/

/-- The first conditional holds at the points whose second coordinate is zero: every fifth point, from the first. -/
theorem hcond2_0 : ∀ t : Fin cfg2.N, cond2_0 (grid2.coords t) ↔ t.val % 5 = 0 :=
  (by decide +kernel : ∀ t : Fin grid2.N, cond2_0 (grid2.coords t) ↔ t.val % 5 = 0)
/-- The second holds at the points whose second coordinate is four: the last of each run of five. -/
theorem hcond2_1 : ∀ t : Fin cfg2.N, k2_cond2 (grid2.coords t) = 1#1 ↔ t.val % 5 = 4 :=
  (by decide +kernel : ∀ t : Fin grid2.N, k2_cond2 (grid2.coords t) = 1#1 ↔ t.val % 5 = 4)
/-- The inputs are never idle. -/
theorem liveAt2_0 (t : Fin cfg2.N) : cfg2.idle 0 (grid2.coords t) = false := rfl
theorem liveAt2_1 (t : Fin cfg2.N) : cfg2.idle 1 (grid2.coords t) = false := rfl
theorem liveAt2_2 (t : Fin cfg2.N) : cfg2.idle 2 (grid2.coords t) = false := rfl
/-- The result window is idle except at the last point of each run, -/
theorem idleAt2_3 : ∀ t : Fin cfg2.N, t.val % 5 ≠ 4 → cfg2.idle 3 (grid2.coords t) = true :=
  (by decide +kernel : ∀ t : Fin grid2.N, t.val % 5 ≠ 4 → cfg2.idle 3 (grid2.coords t) = true)
theorem liveAt2_3 : ∀ t : Fin cfg2.N, t.val % 5 = 4 → cfg2.idle 3 (grid2.coords t) = false :=
  (by decide +kernel : ∀ t : Fin grid2.N, t.val % 5 = 4 → cfg2.idle 3 (grid2.coords t) = false)
/-- and it is written back only there. -/
theorem noFlush2_3 (t : Fin cfg2.N) (h : t.val % 5 ≠ 4) : (cfg2.win 3).flush t = false := by
  cases hf : (cfg2.win 3).flush t
  · rfl
  · exact absurd ((flush2_3 t).mp hf) h

/-! ## The proof data, window by window -/

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]

/-- Each input's current buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

/-- The running sums one point on: this point's contribution added to the sums so far, or to zero at a point that
    starts a run. -/
theorem r2_accP2_succ (c : Dev nD) (t : Fin cfg2.N) :
    accP2 V c (t.val + 1)
      = k2_pay2 (iblk2 V c 0 t) (iblk2 V c 1 t) (iblk2 V c 2 t) (if t.val % 5 = 0 then k2_pay1 else accP2 V c t.val) := by
  rw [accP2.eq_2]; exact dif_pos t.isLt

/-! ## The body obligation -/

/-- Each window's current staging memref at point `t`, and its wholeness. -/
abbrev ms2_0 (t : Fin cfg2.N) : Memref sig .tc .vmem S10000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S10000x1 .i32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x512x128 .f32 := win2_3.stage (cfg2.slots t 3)
abbrev hs2_3 (t : Fin cfg2.N) : (ms2_3 t).IsWhole := hstage2_3 ((cfg2.slots t 3).cast nbuf2_3)
/-- The accumulator as the body is passed it. -/
abbrev accM2 : Memref sig .tc .vmem S512x128 .f32 := Memref.whole cc2_scratch0

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

theorem leaves2_0 (c : Dev nD) (t : Fin cfg2.N) :
    (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) :
    (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) :
    (dat2 V c).leavesExact 2 t = owns (c : Thread nD τ) (ms2_2 t) fullShare (iblk2 V c 2 t) := by
  unfold Dat.leavesExact; rw [liveAt2_2 t, after2_2]
theorem leaves2_3_store (c : Dev nD) (t : Fin cfg2.N) (h : t.val % 5 = 4) :
    (dat2 V c).leavesExact 3 t = owns (c : Thread nD τ) (ms2_3 t) fullShare (k2_pay3 (accP2 V c (t.val + 1))) := by
  unfold Dat.leavesExact; rw [liveAt2_3 t h, after2_3]

set_option maxHeartbeats 1600000 in
/-- The body at any point. The inputs' buffers hold their blocks. At a point that starts a run the accumulator, holding
    anything, is zeroed and the block's contribution added; at a later point the contribution is added to the running sums
    the invariant names; at a run's last point the sums are also stored, as one slab, into the result's buffer, which at
    every other point is handed back as it was found. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = Phi2 V c t.succ from rfl, show (dat2 V c).Φ t.castSucc = Phi2 V c t.castSucc from rfl]
  rw [leaves2_0, leaves2_1, leaves2_2]
  unfold Phi2
  by_cases h0 : t.val % 5 = 0
  · have h4 : t.val % 5 ≠ 4 := by omega
    rw [Dat.leavesExact_idle (dat2 V c) 3 t (idleAt2_3 t h4) (noFlush2_3 t h4)]
    iintro ⟨⟨⟨%s, HS, -⟩, Hrest, Hg⟩, Ho, ⟨%d0, H0⟩, ⟨%d1, H1⟩, ⟨%d2, H2⟩, ⟨%d3, H3⟩⟩
    iapply (run2_reset c (grid2.coords t) (ms2_0 t) (hs2_0 t) (ms2_1 t) (hs2_1 t) (ms2_2 t) (hs2_2 t) (ms2_3 t) (hs2_3 t) accM2 (Memref.isWhole_whole _)
      ((hcond2_0 t).mpr h0) (fun h => h4 ((hcond2_1 t).mp h)) (iblk2 V c 0 t) (iblk2 V c 1 t) (iblk2 V c 2 t) ((dat2 V c).before 3 t d3) Set.univ _)
    isplitl [H0]; · iexact H0
    isplitl [H1]; · iexact H1
    isplitl [H2]; · iexact H2
    isplitl [H3]; · iexact H3
    isplitl [HS]; · iexists s; iexact HS
    iintro ⟨H0, H1, H2, H3, HS⟩
    isplitl [HS Hrest Hg]
    · isplitl [HS]
      · iexists _; isplitl
        · iexact HS
        · ipureintro; intro _; rw [Fin.val_succ, r2_accP2_succ, if_pos h0]
      isplitl [Hrest]; · iexact Hrest
      iexact Hg
    isplitl [Ho]; · iexact Ho
    isplitl [H0]; · iexact H0
    isplitl [H1]; · iexact H1
    isplitl [H2]; · iexact H2
    iexists d3; iexact H3
  · by_cases h4 : t.val % 5 = 4
    · rw [leaves2_3_store V c t h4]
      iintro ⟨⟨⟨%s, HS, %hs⟩, Hrest, Hg⟩, Ho, ⟨%d0, H0⟩, ⟨%d1, H1⟩, ⟨%d2, H2⟩, ⟨%d3, H3⟩⟩
      obtain rfl : s = accP2 V c t.val := hs (by rw [Fin.coe_castSucc]; exact h0)
      iapply (run2_store c (grid2.coords t) (ms2_0 t) (hs2_0 t) (ms2_1 t) (hs2_1 t) (ms2_2 t) (hs2_2 t) (ms2_3 t) (hs2_3 t) accM2 (Memref.isWhole_whole _)
        (fun h => h0 ((hcond2_0 t).mp h)) ((hcond2_1 t).mpr h4) (iblk2 V c 0 t) (iblk2 V c 1 t) (iblk2 V c 2 t) (accP2 V c t.val) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      rw [r2_accP2_succ, if_neg h0]
      isplitl [HS Hrest Hg]
      · isplitl [HS]
        · iexists _; isplitl
          · iexact HS
          · ipureintro; intro _; rw [Fin.val_succ, r2_accP2_succ, if_neg h0]
        isplitl [Hrest]; · iexact Hrest
        iexact Hg
      isplitl [Ho]; · iexact Ho
      isplitl [H0]; · iexact H0
      isplitl [H1]; · iexact H1
      isplitl [H2]; · iexact H2
      iexact H3
    · rw [Dat.leavesExact_idle (dat2 V c) 3 t (idleAt2_3 t h4) (noFlush2_3 t h4)]
      iintro ⟨⟨⟨%s, HS, %hs⟩, Hrest, Hg⟩, Ho, ⟨%d0, H0⟩, ⟨%d1, H1⟩, ⟨%d2, H2⟩, ⟨%d3, H3⟩⟩
      obtain rfl : s = accP2 V c t.val := hs (by rw [Fin.coe_castSucc]; exact h0)
      iapply (run2_add c (grid2.coords t) (ms2_0 t) (hs2_0 t) (ms2_1 t) (hs2_1 t) (ms2_2 t) (hs2_2 t) (ms2_3 t) (hs2_3 t) accM2 (Memref.isWhole_whole _)
        (fun h => h0 ((hcond2_0 t).mp h)) (fun h => h4 ((hcond2_1 t).mp h)) (iblk2 V c 0 t) (iblk2 V c 1 t) (iblk2 V c 2 t) ((dat2 V c).before 3 t d3) (accP2 V c t.val) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hrest Hg]
      · isplitl [HS]
        · iexists _; isplitl
          · iexact HS
          · ipureintro; intro _; rw [Fin.val_succ, r2_accP2_succ, if_neg h0]
        isplitl [Hrest]; · iexact Hrest
        iexact Hg
      isplitl [Ho]; · iexact Ho
      isplitl [H0]; · iexact H0
      isplitl [H1]; · iexact H1
      isplitl [H2]; · iexact H2
      iexists d3; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Run.lean ====
import proofs.«413865_j65704409694829_2_alg».proof.Proof.Gen.KernelIdeal.Launch
import proofs.«413865_j65704409694829_2_alg».proof.Proof.Gen.KernelIdeal.Skeleton
import proofs.«413865_j65704409694829_2_alg».proof.Proof.Gen.KernelIdeal.Points
import proofs.«413865_j65704409694829_2_alg».proof.Proof.Gen.KernelIdeal.Regions
import proofs.«413865_j65704409694829_2_alg».proof.Proof.KI.RunDefs
import proofs.«413865_j65704409694829_2_alg».proof.Proof.KI.Region0
import proofs.«413865_j65704409694829_2_alg».proof.Proof.KI.Region1
import proofs.«413865_j65704409694829_2_alg».proof.Proof.KI.Region2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's six items from the launch to the return

The buffer contents at each boundary (`W0` … `W6`) are a fold from the launch memory. Here: no item writes an argument; each
region is a segment between two boundaries; the launch theorem over the six segments. -/

/-- A host stretch leaves every buffer outside its written list as it was. -/
theorem W2_of (c : Dev nD) (r : Ref sig .tc) (h : r ∉ hostOps1_W) :
    W2 m c (Proc.devRef .tc r) = W1 m c (Proc.devRef .tc r) :=
  StableHlo.after_of_writes_sub hostOps1 _ hostOps1_writes h
theorem W4_of (c : Dev nD) (r : Ref sig .tc) (h : r ∉ hostOps2_W) :
    W4 m c (Proc.devRef .tc r) = W3 m c (Proc.devRef .tc r) :=
  StableHlo.after_of_writes_sub hostOps2 _ hostOps2_writes h
theorem W6_of (c : Dev nD) (r : Ref sig .tc) (h : r ∉ hostOps3_W) :
    W6 m c (Proc.devRef .tc r) = W5 m c (Proc.devRef .tc r) :=
  StableHlo.after_of_writes_sub hostOps3 _ hostOps3_writes h

/-- A region leaves the array of an input window as it was entered. -/
theorem W1_in (c : Dev nD) (w : Fin cfg0.W) (hin : (cfg0.win w).isOut = false) :
    W1 m c (Proc.devRef .tc (Pipeline.arrRef spec0 w)) = W0 m c (Proc.devRef .tc (Pipeline.arrRef spec0 w)) :=
  (W1_arr m c w).trans (((dat0 (VR0 m) c).arrAt_in w hin _).trans (A_eq0 (VR0 m) c w))
theorem W3_in (c : Dev nD) (w : Fin cfg1.W) (hin : (cfg1.win w).isOut = false) :
    W3 m c (Proc.devRef .tc (Pipeline.arrRef spec1 w)) = W2 m c (Proc.devRef .tc (Pipeline.arrRef spec1 w)) :=
  (W3_arr m c w).trans (((dat1 (VR2 m) c).arrAt_in w hin _).trans (A_eq1 (VR2 m) c w))
theorem W5_in (c : Dev nD) (w : Fin cfg2.W) (hin : (cfg2.win w).isOut = false) :
    W5 m c (Proc.devRef .tc (Pipeline.arrRef spec2 w)) = W4 m c (Proc.devRef .tc (Pipeline.arrRef spec2 w)) :=
  (W5_arr m c w).trans (((dat2 (VR4 m) c).arrAt_in w hin _).trans (A_eq2 (VR4 m) c w))

/-- An argument that is no window of any region: every item passes it by. -/
theorem W6_bypass (c : Dev nD) (r : Ref sig .tc) (h1 : r ∉ hostOps1_W) (h2 : r ∉ hostOps2_W) (h3 : r ∉ hostOps3_W)
    (n0 : ∀ w, Pipeline.arrRef spec0 w ≠ r) (n1 : ∀ w, Pipeline.arrRef spec1 w ≠ r) (n2 : ∀ w, Pipeline.arrRef spec2 w ≠ r) :
    W6 m c (Proc.devRef .tc r) = m ((c : Thread nD τ).loc r) :=
  (W6_of m c r h3).trans <| (W5_of_ne m c r n2).trans <| (W4_of m c r h2).trans <| (W3_of_ne m c r n1).trans <|
    (W2_of m c r h1).trans <| (W1_of_ne m c r n0).trans rfl

/-- `main_arg0`: the first input window of regions 0 and 1, no window of region 2. -/
theorem W6_main_arg0 (c : Dev nD) : W6 m c (Proc.devRef .tc main_arg0) = m ((c : Thread nD τ).loc main_arg0) :=
  (W6_of m c main_arg0 (by decide)).trans <| (W5_of_ne m c main_arg0 (by decide)).trans <|
    (W4_of m c main_arg0 (by decide)).trans <| (W3_in m c 0 rfl).trans <|
    (W2_of m c main_arg0 (by decide)).trans <| (W1_in m c 0 rfl).trans rfl
/-- `main_arg4`: the second input window of regions 0 and 1, no window of region 2. -/
theorem W6_main_arg4 (c : Dev nD) : W6 m c (Proc.devRef .tc main_arg4) = m ((c : Thread nD τ).loc main_arg4) :=
  (W6_of m c main_arg4 (by decide)).trans <| (W5_of_ne m c main_arg4 (by decide)).trans <|
    (W4_of m c main_arg4 (by decide)).trans <| (W3_in m c 1 rfl).trans <|
    (W2_of m c main_arg4 (by decide)).trans <| (W1_in m c 1 rfl).trans rfl
/-- `main_arg5`: an input window of region 1 alone. -/
theorem W6_main_arg5 (c : Dev nD) : W6 m c (Proc.devRef .tc main_arg5) = m ((c : Thread nD τ).loc main_arg5) :=
  (W6_of m c main_arg5 (by decide)).trans <| (W5_of_ne m c main_arg5 (by decide)).trans <|
    (W4_of m c main_arg5 (by decide)).trans <| (W3_in m c 4 rfl).trans <|
    (W2_of m c main_arg5 (by decide)).trans <| (W1_of_ne m c main_arg5 (by decide)).trans rfl

/-- No item writes an argument: each argument's buffer holds its launch contents at the return. -/
theorem W6_args (c : Dev nD) :
    W6 m c (Proc.devRef .tc main_arg0) = m ((c : Thread nD τ).loc main_arg0)
    ∧ W6 m c (Proc.devRef .tc main_arg1) = m ((c : Thread nD τ).loc main_arg1)
    ∧ W6 m c (Proc.devRef .tc main_arg2) = m ((c : Thread nD τ).loc main_arg2)
    ∧ W6 m c (Proc.devRef .tc main_arg3) = m ((c : Thread nD τ).loc main_arg3)
    ∧ W6 m c (Proc.devRef .tc main_arg4) = m ((c : Thread nD τ).loc main_arg4)
    ∧ W6 m c (Proc.devRef .tc main_arg5) = m ((c : Thread nD τ).loc main_arg5)
    ∧ W6 m c (Proc.devRef .tc main_arg6) = m ((c : Thread nD τ).loc main_arg6)
    ∧ W6 m c (Proc.devRef .tc main_arg7) = m ((c : Thread nD τ).loc main_arg7)
    ∧ W6 m c (Proc.devRef .tc main_arg8) = m ((c : Thread nD τ).loc main_arg8) := by
  exact ⟨W6_main_arg0 m c,
    W6_bypass m c main_arg1 (by decide) (by decide) (by decide) (by decide) (by decide) (by decide),
    W6_bypass m c main_arg2 (by decide) (by decide) (by decide) (by decide) (by decide) (by decide),
    W6_bypass m c main_arg3 (by decide) (by decide) (by decide) (by decide) (by decide) (by decide),
    W6_main_arg4 m c, W6_main_arg5 m c,
    W6_bypass m c main_arg6 (by decide) (by decide) (by decide) (by decide) (by decide) (by decide),
    W6_bypass m c main_arg7 (by decide) (by decide) (by decide) (by decide) (by decide) (by decide),
    W6_bypass m c main_arg8 (by decide) (by decide) (by decide) (by decide) (by decide) (by decide)⟩

/-! ## What rides beside the buffers, the proof data, the small facts every region uses -/

/-- Beside its buffers a core carries its generator register, in whatever state, and a ledger on which it owes nothing. -/
abbrev Side (c : Dev nD) : sProp 𝕄 :=
  iprop((∃ r, prngReg c r) ∗ ∃ S, owes (c : Thread nD τ) (0 : CellTallies nD τ sig Unit) S)

/-- Core `c` at a boundary where the buffers hold `W c`: every unscoped buffer whole at those contents, and `Side c`. -/
abbrev AtB (W : Dev nD → Valuation τ sig (Elt F)) (c : Dev nD) : sProp 𝕄 :=
  iprop(StableHlo.held (c : Thread nD τ) (Pipeline.ucRefs τ sig) (W c) ∗ Side c)

/-- A valuation read at the TensorCore's references. -/
abbrev rd (c : Dev nD) (W : Valuation τ sig (Elt F)) : (b : Ref sig .tc) → Buf (Elt F) ((c : Thread nD τ).loc b) := fun b => W b

/-- The three pipelines' proof data, each over the contents its region is entered at. -/
def pdats : (p : Fin 3) → (c : Dev nD) → Dat τ (Elt F) Unit ℕ (UR sig nD τ) ℕ (Pipeline.pin (pcfgs (F := F)) adm p) c
  | ⟨0, _⟩ => fun c => dat0 (VR0 m) c
  | ⟨1, _⟩ => fun c => dat1 (VR2 m) c
  | ⟨2, _⟩ => fun c => dat2 (VR4 m) c

abbrev 𝒱₀ : Variants := Variants.none
/-- No pair of cell and index carries a level: nothing is ever owed. -/
abbrev noPairs : GSem nD τ sig → Finset Unit := fun _ => ∅
abbrev lvl0 : GSem nD τ sig → Unit → ℕ := fun _ _ => 0

/-- A ledger owing `O`, its recorded pairs forgotten, is within any bound that leaves nothing out. -/
theorem owesWithin_all (c : Dev nD) (O : CellTallies nD τ sig Unit) {B : Set (SemLoc sig × Unit)} (hB : ∀ x, x ∈ B) :
    (iprop(∃ S, owes (c : Thread nD τ) O S) : sProp 𝕄) ⊢ Pipeline.owesWithin c O B := by
  iintro ⟨%S, H⟩
  iexists S
  isplitr
  · ipureintro; exact fun x _ => hB x
  · iexact H

/-- And a ledger within a bound is a ledger. -/
theorem owes_of_within (c : Dev nD) (O : CellTallies nD τ sig Unit) (B : Set (SemLoc sig × Unit)) :
    (Pipeline.owesWithin c O B : sProp 𝕄) ⊢ iprop(∃ S, owes (c : Thread nD τ) O S) := by
  iintro ⟨%S, -, H⟩
  iexists S
  iexact H

/-- No pipeline here prefetches a table: the tables' holding is empty. -/
theorem tables_emp (p : Fin 3) (c : Dev nD) :
    (BI.emp : sProp 𝕄) ⊢ Pipeline.prefHeld (pcfgs (F := F) p).pre c (fun _ => fullShare) (adm (F := F) p).1 := by
  unfold Pipeline.prefHeld
  rw [show (Finset.univ : Finset (Fin (pcfgs (F := F) p).pre.K)) = ∅ from rfl, BI.bigSep_empty]

section Generic

variable {p : Fin 3} (c : Dev nD)
  (dats : (q : Fin 3) → (d : Dev nD) → Dat τ (Elt F) Unit ℕ (UR sig nD τ) ℕ (Pipeline.pin (pcfgs (F := F)) adm q) d)

/-- ENTERING pipeline `p` from a boundary at contents `W`: the windows' arrays come out of the unscoped buffers at the
    data's entry contents (read off `W`), the rest of those buffers goes round the region, the ledger goes in within the
    first point's bound, the register is kept for the invariant. -/
theorem enter (lf : Pipeline.LaunchFacts (nD := nD) (τ := τ) cfgs p) (W : Valuation τ sig (Elt F)) (hq : ∀ w, (dats p c).q w = fullShare)
    (hA : ∀ w, (dats p c).A w = rd c W (Pipeline.arrRef (cfgs p).spec w))
    (h0 : (dats p c).owed 0 = 0) (hB : ∀ x, x ∈ (dats p c).bound () 0) :
    iprop(StableHlo.held (c : Thread nD τ) (Pipeline.ucRefs τ sig) W ∗ Side c)
      ⊢ |={Set.univ}=> iprop((dats p c).arrays ((dats p c).arrAt · 0)
          ∗ Pipeline.prefHeld (pcfgs (F := F) p).pre c (fun _ => fullShare) (adm (F := F) p).1
          ∗ (dats p c).owesAt () 0 ∗ (∃ r, prngReg c r)
          ∗ Pipeline.unscopedRest (Ix := Unit) (Name := ℕ) (U := UR sig nD τ) (Lvl := ℕ) (cfgs p).spec c (rd c W)) := by
  have cut := Pipeline.arrays_of_unscopedBufs (p := p) (pcfgs (F := F)) adm dats lf.win lf.arr_whole c
    ((dats p c).share_full hq) (rd c W) hA
  rw [Pipeline.unscopedBufs_held] at cut
  have due : (iprop(∃ S, owes (c : Thread nD τ) (0 : CellTallies nD τ sig Unit) S) : sProp 𝕄) ⊢ (dats p c).owesAt () 0 :=
    (Entails.of_eq (by rw [h0])).trans (owesWithin_all (F := F) c ((dats p c).owed 0) hB)
  iintro ⟨Hbufs, Hreg, Hdue⟩
  imodintro
  ihave Hcut := cut $$ Hbufs
  icases Hcut with ⟨Harr, Hround⟩
  isplitl [Harr]
  · iexact Harr
  isplitr
  · iapply (tables_emp (F := F) p c); iempintro
  isplitl [Hdue]
  · iapply due; iexact Hdue
  isplitl [Hreg]
  · iexact Hreg
  · iexact Hround

/-- LEAVING pipeline `p` to a boundary at contents `W'` that has each array at what the pipeline leaves in it and agrees
    with the entry contents `W` elsewhere: arrays and the rest make the unscoped buffers at `W'`; ledger and register
    ride on. -/
theorem leave (lf : Pipeline.LaunchFacts (nD := nD) (τ := τ) cfgs p) (W W' : Valuation τ sig (Elt F)) (hq : ∀ w, (dats p c).q w = fullShare)
    (hF : ∀ w, (dats p c).arrAt w (Pipeline.pin (pcfgs (F := F)) adm p).N = rd c W' (Pipeline.arrRef (cfgs p).spec w))
    (hrest : ∀ b, b ∉ Finset.univ.image (Pipeline.arrRef (cfgs p).spec) → rd c W' b = rd c W b)
    (h0 : (dats p c).owed (Fin.last _) = 0) :
    iprop((dats p c).arrays ((dats p c).arrAt · (Pipeline.pin (pcfgs (F := F)) adm p).N)
        ∗ (dats p c).owesAt () (Fin.last (Pipeline.pin (pcfgs (F := F)) adm p).N) ∗ (∃ r, prngReg c r)
        ∗ Pipeline.unscopedRest (Ix := Unit) (Name := ℕ) (U := UR sig nD τ) (Lvl := ℕ) (cfgs p).spec c (rd c W))
      ⊢ |={Set.univ}=> iprop(StableHlo.held (c : Thread nD τ) (Pipeline.ucRefs τ sig) W' ∗ Side c) := by
  have glue := Pipeline.unscopedBufs_of_arrays (p := p) (pcfgs (F := F)) adm (Ix := Unit) (Name := ℕ) (U := UR sig nD τ) (Lvl := ℕ)
    lf.win lf.arr_whole c dats ((dats p c).share_full hq) (rd c W) (rd c W') ((dats p c).arrAt · (Pipeline.pin (pcfgs (F := F)) adm p).N) hF hrest
  rw [Pipeline.unscopedBufs_held] at glue
  have due : (dats p c).owesAt () (Fin.last (Pipeline.pin (pcfgs (F := F)) adm p).N)
      ⊢ (iprop(∃ S, owes (c : Thread nD τ) (0 : CellTallies nD τ sig Unit) S) : sProp 𝕄) :=
    (owes_of_within (F := F) c _ _).trans (Entails.of_eq (by rw [h0]))
  iintro ⟨Harr, Hdue, Hreg, Hround⟩
  imodintro
  isplitl [Harr Hround]
  · iapply glue
    isplitl [Harr]
    · iexact Harr
    · iexact Hround
  isplitl [Hreg]
  · iexact Hreg
  · iapply due; iexact Hdue

end Generic

/-! ## The three regions as segments -/

set_option backward.isDefEq.respectTransparency.types false in
/-- REGION 0, from the launch contents `W0` to `W1`. Its invariant is `Phi0`: the register and the scoped buffers no window
    stages go in by `Phi0_in` and come back by `Phi0_out`; the kernel has no semaphore of its own and no table. -/
def reg0 : Pipeline.RegionSeg (pcfgs (F := F)) adm (pdats m) () defs₀ 𝒱₀ noPairs lvl0 0 where
  win := launch0.win.to₀
  block_pos := launch0.block_pos
  stage_whole := launch0.stage_whole
  K := PEmpty
  osem k := k.elim
  ho := Pipeline.OwnSemFacts.none _
  hbody c := (body_obligation0 (VR0 m) c).loose
  hwaits := Pipeline.hwaits_of_owed_zero _ _ _ _ noPairs lvl0 0 fun _ _ => rfl
  pre := AtB (W0 m)
  post := AtB (W1 m)
  X c := iprop(∃ r, prngReg c r)
  Y c := iprop(∃ r, prngReg c r)
  Z c := Pipeline.unscopedRest (Ix := Unit) (Name := ℕ) (U := UR sig nD τ) (Lvl := ℕ) spec0 c (rd c (W0 m c))
  hentry c := by
    iintro ⟨Hpre, -, -⟩
    iapply (enter c (pdats m) launch0 (W0 m c) (fun _ => rfl) (fun _ => rfl) rfl (fun _ => Or.inl trivial))
    iexact Hpre
  hin c := by
    show _ ⊢ (Phi0 (VR0 m) c 0 : sProp 𝕄)
    iintro ⟨Hreg, -, Hscoped⟩
    iapply (Phi0_in (VR0 m) c)
    isplitl [Hreg]
    · iexact Hreg
    · iexact Hscoped
  hout c := by
    rw [Pipeline.ownSems0_none]
    refine (show (Phi0 (VR0 m) c (Fin.last cfg0.N) : sProp 𝕄) ⊢ _ from Phi0_out (VR0 m) c).trans ?_
    iintro ⟨Hreg, Hscoped⟩
    isplitl [Hreg]
    · iexact Hreg
    isplitr
    · iempintro
    · iexact Hscoped
  hexit c := leave c (pdats m) launch0 (W0 m c) (W1 m c) (fun _ => rfl) (fun w => (W1_arr m c w).symm)
    (fun b hb => W1_of_ne m c b fun w e => hb (Finset.mem_image.mpr ⟨w, Finset.mem_univ _, e⟩)) rfl

set_option backward.isDefEq.respectTransparency.types false in
/-- REGION 1, from `W2` to `W3`. Its invariant is the plain one: the scoped buffers no window stages and the register,
    as they are. -/
def reg1 : Pipeline.RegionSeg (pcfgs (F := F)) adm (pdats m) () defs₀ 𝒱₀ noPairs lvl0 1 where
  win := launch1.win.to₀
  block_pos := launch1.block_pos
  stage_whole := launch1.stage_whole
  K := PEmpty
  osem k := k.elim
  ho := Pipeline.OwnSemFacts.none _
  hbody c := (body_obligation1 (VR2 m) c).loose
  hwaits := Pipeline.hwaits_of_owed_zero _ _ _ _ noPairs lvl0 1 fun _ _ => rfl
  pre := AtB (W2 m)
  post := AtB (W3 m)
  X c := iprop(∃ r, prngReg c r)
  Y c := iprop(∃ r, prngReg c r)
  Z c := Pipeline.unscopedRest (Ix := Unit) (Name := ℕ) (U := UR sig nD τ) (Lvl := ℕ) spec1 c (rd c (W2 m c))
  hentry c := by
    iintro ⟨Hpre, -, -⟩
    iapply (enter c (pdats m) launch1 (W2 m c) (fun _ => rfl) (fun _ => rfl) rfl (fun _ => Or.inl trivial))
    iexact Hpre
  hin c := by
    show _ ⊢ (Pipeline.ΦA spec1 c : sProp 𝕄)
    unfold Pipeline.ΦA
    iintro ⟨Hreg, -, Hscoped⟩
    isplitl [Hscoped]
    · iexact Hscoped
    · iexact Hreg
  hout c := by
    rw [Pipeline.ownSems0_none]
    show (Pipeline.ΦA spec1 c : sProp 𝕄) ⊢ _
    unfold Pipeline.ΦA
    iintro ⟨Hscoped, Hreg⟩
    isplitl [Hreg]
    · iexact Hreg
    isplitr
    · iempintro
    · iexact Hscoped
  hexit c := leave c (pdats m) launch1 (W2 m c) (W3 m c) (fun _ => rfl) (fun w => (W3_arr m c w).symm)
    (fun b hb => W3_of_ne m c b fun w e => hb (Finset.mem_image.mpr ⟨w, Finset.mem_univ _, e⟩)) rfl

set_option backward.isDefEq.respectTransparency.types false in
/-- REGION 2, from `W4` to `W5`, with the invariant `Phi2` entered by `Phi2_in` and left by `Phi2_out`. -/
def reg2 : Pipeline.RegionSeg (pcfgs (F := F)) adm (pdats m) () defs₀ 𝒱₀ noPairs lvl0 2 where
  win := launch2.win.to₀
  block_pos := launch2.block_pos
  stage_whole := launch2.stage_whole
  K := PEmpty
  osem k := k.elim
  ho := Pipeline.OwnSemFacts.none _
  hbody c := (body_obligation2 (VR4 m) c).loose
  hwaits := Pipeline.hwaits_of_owed_zero _ _ _ _ noPairs lvl0 2 fun _ _ => rfl
  pre := AtB (W4 m)
  post := AtB (W5 m)
  X c := iprop(∃ r, prngReg c r)
  Y c := iprop(∃ r, prngReg c r)
  Z c := Pipeline.unscopedRest (Ix := Unit) (Name := ℕ) (U := UR sig nD τ) (Lvl := ℕ) spec2 c (rd c (W4 m c))
  hentry c := by
    iintro ⟨Hpre, -, -⟩
    iapply (enter c (pdats m) launch2 (W4 m c) (fun _ => rfl) (fun _ => rfl) rfl (fun _ => Or.inl trivial))
    iexact Hpre
  hin c := by
    show _ ⊢ (Phi2 (VR4 m) c 0 : sProp 𝕄)
    iintro ⟨Hreg, -, Hscoped⟩
    iapply (Phi2_in (VR4 m) c)
    isplitl [Hreg]
    · iexact Hreg
    · iexact Hscoped
  hout c := by
    rw [Pipeline.ownSems0_none]
    refine (show (Phi2 (VR4 m) c (Fin.last cfg2.N) : sProp 𝕄) ⊢ _ from Phi2_out (VR4 m) c).trans ?_
    iintro ⟨Hreg, Hscoped⟩
    isplitl [Hreg]
    · iexact Hreg
    isplitr
    · iempintro
    · iexact Hscoped
  hexit c := leave c (pdats m) launch2 (W4 m c) (W5 m c) (fun _ => rfl) (fun w => (W5_arr m c w).symm)
    (fun b hb => W5_of_ne m c b fun w e => hb (Finset.mem_image.mpr ⟨w, Finset.mem_univ _, e⟩)) rfl

/-! ## The host stretches, @main as its six items, and the two ends of the run -/

/-- A host stretch over the unscoped buffers from the contents `W`, `Side` beside it: it leaves the buffers at
    `StableHlo.after ops (W c)`, the next boundary's contents by definition. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ noPairs lvl0 :=
  Pipeline.HostSeg.ofOps _ _ _ _ _ (Pipeline.ucRefs τ sig) ops
    (fun op hop => Pipeline.sub_ucRefs op (List.forall_iff_forall_mem.mp hsub op hop))
    (fun op hop => List.forall_iff_forall_mem.mp hfresh op hop) W Side

/-- @main's items in order, each entered at the contents the one before it leaves. -/
abbrev items : List (Pipeline.Seg (pcfgs (F := F)) adm (pdats m) () defs₀ 𝒱₀ noPairs lvl0) :=
  [ .region (reg0 m),
    .host (stretch hostOps1 hostOps1_sub hostOps1_fresh (W1 m)),
    .region (reg1 m),
    .host (stretch hostOps2 hostOps2_sub hostOps2_fresh (W3 m)),
    .region (reg2 m),
    .host (stretch hostOps3 hostOps3_sub hostOps3_fresh (W5 m)) ]

/-- @main is the run of those items: both sides are the chain of the same six fragments. -/
theorem main_items (c : Dev nD) : main (F := F) c = Pipeline.Seg.run (items m) := by
  rw [main_chain c, Pipeline.Seg.run_eq_chain]
  rfl

/-- The element the launch starts from: the pipelines' cells, none yet used. -/
abbrev launchU : UR sig nD τ := initOf (Pipeline.cells cfgs cellOf_inj) (Pipeline.launchToks cfgs cellOf_inj)

/-- It is the pipeline library's element; no core needs a ghost resource of its own. -/
theorem launch_elem : (ownU launchU : sProp 𝕄)
    ⊢ |={Set.univ}=> iprop(BI.own (emb₁ launchU) ∗ bigSep Finset.univ fun _ : Dev nD => (BI.emp : sProp 𝕄)) := by
  rw [BI.bigSep_emp_const]
  have same : (ownU launchU : sProp 𝕄) ⊢ BI.own (emb₁ launchU) := .rfl
  iintro Hu
  imodintro
  isplitl [Hu]
  · iapply same; iexact Hu
  · iempintro

/-- What the launch deals a core makes its first boundary state: the unscoped buffers at the launch memory, the register
    at its launch state, an empty ledger. -/
theorem first_state (c : Dev nD) :
    iprop(iprop(unscopedBufs c (fun b => m ((c : Thread nD τ).loc b)) ∗ unscopedSems0 c
        ∗ owes (c : Thread nD τ) ((0 : Dev nD → CellTallies nD τ sig Unit) c) ∅ ∗ Pipeline.launchCred (0 : Dev nD → CellTallies nD τ sig Unit) c
        ∗ prngReg c (ρ c) ∗ (BI.emp : sProp 𝕄)) ∗ levAts noPairs lvl0)
      ⊢ |={Set.univ}=> AtB (W0 m) c := by
  have hb := Pipeline.unscopedBufs_held (Ix := Unit) (Name := ℕ) (U := UR sig nD τ) (Lvl := ℕ) c (W0 m c)
  iintro ⟨⟨Hbufs, -, Hdue, -, Hreg, -⟩, -⟩
  imodintro
  isplitl [Hbufs]
  · iapply (Entails.of_eq hb); iexact Hbufs
  isplitl [Hreg]
  · iexists (ρ c); iexact Hreg
  · iexists ∅; iexact Hdue

/-- The last boundary state, regrouped as the launch theorem reads it: buffers and register, beside the ledger. -/
theorem last_state (c : Dev nD) :
    AtB (W6 m) c ⊢ iprop(iprop(StableHlo.held (c : Thread nD τ) (Pipeline.ucRefs τ sig) (W6 m c) ∗ ∃ r, prngReg c r)
      ∗ ∃ S, owes (c : Thread nD τ) (0 : CellTallies nD τ sig Unit) S) := by
  iintro ⟨Hbufs, Hreg, Hdue⟩
  isplitr [Hdue]
  · isplitl [Hbufs]
    · iexact Hbufs
    · iexact Hreg
  · iexact Hdue

/-- Held beside a final state, the buffers say what its memory holds. -/
theorem read_end (c : Dev nD) (s' : Phys nD τ sig (Elt F)) :
    iprop(iprop(StableHlo.held (c : Thread nD τ) (Pipeline.ucRefs τ sig) (W6 m c) ∗ ∃ r, prngReg c r) ∗ SI s')
      ⊢ |={Set.univ}=> (iprop(⌜∀ b ∈ Pipeline.ucRefs τ sig, s'.mem.mem ((c : Thread nD τ).1, b) = W6 m c b⌝ ∗ SI s') : sProp 𝕄) := by
  have look := pointsTo_read_all (Ix := Unit) (Name := ℕ) (U := UR sig nD τ) (Lvl := ℕ) (Pipeline.ucRefs τ sig) (fun b => ((c : Thread nD τ).1, b)) (W6 m c) s'
  unfold StableHlo.held
  iintro ⟨⟨Hbufs, -⟩, Hst⟩
  imodintro
  iapply look
  isplitl [Hbufs]
  · iexact Hbufs
  · iexact Hst

set_option backward.isDefEq.respectTransparency.types false in
/-- Every weakly fair execution of @main from `m` with zero counters terminates, nothing faulting, and every final
    memory holds each unscoped buffer at the fold's last contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ noPairs lvl0 m ρ main (items m)
    (fun c Q => by rw [main_items m c])
    (by simp only [items, Pipeline.Seg.pipes_host, Pipeline.Seg.pipes_region, Pipeline.Seg.pipes_nil]; decide)
    (O₀ := 0) (hL := fun _ _ => rfl) (G := fun _ => iprop(emp)) (u₀ := launchU) (hu₀ := launch_elem)
    (T₀ := AtB (W0 m))
    (Tₙ := fun c => iprop(StableHlo.held (c : Thread nD τ) (Pipeline.ucRefs τ sig) (W6 m c) ∗ ∃ r, prngReg c r))
    (hch := ⟨fun _ => .rfl, fun _ => .rfl, fun _ => .rfl, fun _ => .rfl, fun _ => .rfl, fun _ => .rfl, last_state m⟩)
    (hinit := Pipeline.initEach noPairs lvl0 (first_state m ρ))
    (QY := fun c s => ∀ b ∈ Pipeline.ucRefs τ sig, s.mem (((c : Thread nD τ)).1, b) = W6 m c b)
    (hfin := read_end m)
    (hQ := fun _ h => h)

end Cert.KernelIdeal.Hand

end
-- ==== Proof.KI.Claims.lean ====
import proofs.«413865_j65704409694829_2_alg».proof.Proof.Gen.KernelIdeal.Launch
import proofs.«413865_j65704409694829_2_alg».proof.Proof.Gen.KernelIdeal.Skeleton
import proofs.«413865_j65704409694829_2_alg».proof.Proof.Gen.KernelIdeal.Points
import proofs.«413865_j65704409694829_2_alg».proof.Proof.KI.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run read at the result and at the arguments -/

/-- An unscoped TensorCore reference is among those the final state is read at. -/
theorem mem_ucRefs (b : Ref sig .tc) (h : ¬ (Proc.devRef .tc b : DevRef τ sig).isScoped) :
    Proc.devRef .tc b ∈ Pipeline.ucRefs τ sig :=
  Finset.mem_filter.mpr ⟨StableHlo.devRef_mem_tcRefs b, h⟩

/-- Every weakly fair execution terminates, nothing faulting, with the result buffer at the fold's last contents and
    every argument array as launched. -/
theorem run_value : θ_run defs (onTc (τ := τ) (main (F := F))) ⟨m, fun _ => 0, ρ⟩ (fun r => ∀ c : Dev nD,
      r.2.mem ((c.tc : Thread nD τ).loc main_v57) = W6 m c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => by
    have a := W6_args m c
    exact ⟨h c _ (mem_ucRefs main_v57 (by decide)),
      (h c _ (mem_ucRefs main_arg0 (by decide))).trans a.1,
      (h c _ (mem_ucRefs main_arg1 (by decide))).trans a.2.1,
      (h c _ (mem_ucRefs main_arg2 (by decide))).trans a.2.2.1,
      (h c _ (mem_ucRefs main_arg3 (by decide))).trans a.2.2.2.1,
      (h c _ (mem_ucRefs main_arg4 (by decide))).trans a.2.2.2.2.1,
      (h c _ (mem_ucRefs main_arg5 (by decide))).trans a.2.2.2.2.2.1,
      (h c _ (mem_ucRefs main_arg6 (by decide))).trans a.2.2.2.2.2.2.1,
      (h c _ (mem_ucRefs main_arg7 (by decide))).trans a.2.2.2.2.2.2.2.1,
      (h c _ (mem_ucRefs main_arg8 (by decide))).trans a.2.2.2.2.2.2.2.2⟩) (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_value m ρ)

end Cert.KernelIdeal.Hand

end
-- ==== Proof.Spec.lean ====
import Idealize.ShloMosaic.PureOps.Ideal
import Mathlib.Algebra.BigOperators.Group.Finset.Basic
import Mathlib.Data.Fintype.BigOperators

/-!
# The two programs' results as closed formulas over the extended reals

Both programs take node features `x` (100000 rows of 128), a gate `natt` per node, weights `W`, a bias `b`, the
normalisation's `gamma` and `beta`, 1600000 weighted edges (`src`, `dst` words and `ew`), and a graph id `batch` per
node. A row word addresses a table of 100000 rows the way the host gather does: a negative word has 100000 added,
and the result, read signed, is clamped into the table (`rowOf`). A scatter adds an update to row `i` exactly when
its word, read signed, is `i` (`lands`); other updates are dropped.

* the kernel (`kOut`): column sums `kS`, `kQ` of the gated rows and of their squares; mean, mean square and variance
  from them; the normalisation folded into one scale and shift per column; `kLin` the affine image times `W`; degrees
  `kDeg` (edge weights landing on a node, plus one), `kDinv` their clamped inverse square roots; messages weighted by
  the source's `kDinv` BEFORE the scatter and by the target's AFTER it, the self loop as a separate dense term; then
  bias, rectification, and the pooling as a sum over ALL nodes of a 0/1 indicator times the row, in two halves.
* the reference (`rOut`): mean and the centred mean square; the normalisation applied row by row; `rLin`; the edge
  list EXTENDED by one self loop of weight one per node (`srcC`, `dstC`, `ewC` over 1700000 entries); the symmetric
  weight `rNrm` per extended edge; the scatter; bias, rectification, and the pooling as a sum over the nodes whose
  graph id lands on the graph.
-/

noncomputable section

namespace Cert.Spec

open Idealize.ShloMosaic

/-- The float literals of both programs, by their words. -/
abbrev cN : EReal := Ideal.ofBits .f32 0x47C35000#32
abbrev cEps : EReal := Ideal.ofBits .f32 0x3727C5AC#32
abbrev cTiny : EReal := Ideal.ofBits .f32 0x2B8CBCCC#32
abbrev cOne : EReal := Ideal.ofBits .f32 0x3F800000#32
abbrev cZero : EReal := Ideal.ofBits .f32 0x00000000#32

/-- A negative row word has the table's length added. -/
def wrap (w : BitVec 32) : BitVec 32 := if w.slt 0#32 then w + 100000#32 else w

/-- The row a word addresses in a table of 100000 rows: wrapped, read signed, clamped. -/
def rowOf (w : BitVec 32) : Fin 100000 := ⟨min (wrap w).toInt.toNat 99999, by omega⟩

/-- An update whose word is `w` lands on row `i`. -/
def lands {N : Nat} (w : BitVec 32) (i : Fin N) : Prop := w.toInt = (i.val : ℤ)

instance {N : Nat} (w : BitVec 32) (i : Fin N) : Decidable (lands w i) := by unfold lands; infer_instance

section

variable (x : Fin 100000 → Fin 128 → EReal) (natt : Fin 100000 → EReal) (W : Fin 128 → Fin 128 → EReal)
  (b gamma beta : Fin 128 → EReal) (ew : Fin 1600000 → EReal) (src dst : Fin 1600000 → BitVec 32)
  (batch : Fin 100000 → BitVec 32)

/-- The gated features. -/
def gate (n : Fin 100000) (k : Fin 128) : EReal := natt n * x n k

/-! ## The kernel -/

def kS (k : Fin 128) : EReal := ∑ n : Fin 100000, gate x natt n k
def kQ (k : Fin 128) : EReal := ∑ n : Fin 100000, gate x natt n k * gate x natt n k
def kMu (k : Fin 128) : EReal := Ideal.div (kS x natt k) cN
def kMsq (k : Fin 128) : EReal := Ideal.div (kQ x natt k) cN
def kVar (k : Fin 128) : EReal := kMsq x natt k - kMu x natt k * kMu x natt k
def kScale (k : Fin 128) : EReal := gamma k * Ideal.rsqrt (kVar x natt k + cEps)
def kShift (k : Fin 128) : EReal := beta k - kMu x natt k * kScale x natt gamma k
def kLin (n : Fin 100000) (j : Fin 128) : EReal :=
  ∑ k : Fin 128, (gate x natt n k * kScale x natt gamma k + kShift x natt gamma beta k) * W k j
def kDeg (i : Fin 100000) : EReal := (cZero + ∑ e ∈ Finset.univ.filter (fun e => lands (dst e) i), ew e) + cOne
def kDinv (i : Fin 100000) : EReal := Ideal.rsqrt (max (kDeg ew dst i) cTiny)
def kScaled (n : Fin 100000) (j : Fin 128) : EReal := kDinv ew dst n * kLin x natt W gamma beta n j
def kMsg (e : Fin 1600000) (j : Fin 128) : EReal := ew e * kScaled x natt W gamma beta ew dst (rowOf (src e)) j
def kAggR (i : Fin 100000) (j : Fin 128) : EReal :=
  cZero + ∑ e ∈ Finset.univ.filter (fun e => lands (dst e) i), kMsg x natt W gamma beta ew src dst e j
def kAgg (i : Fin 100000) (j : Fin 128) : EReal :=
  kDinv ew dst i * kAggR x natt W gamma beta ew src dst i j
    + (kDinv ew dst i * kDinv ew dst i) * kLin x natt W gamma beta i j
def kRelu (n : Fin 100000) (j : Fin 128) : EReal := max (kAgg x natt W gamma beta ew src dst n j + b j) cZero
/-- The 0/1 indicator that a graph-id word is the graph `g`. -/
def oneHot (w : BitVec 32) (g : Fin 512) : EReal := if w = BitVec.ofNat 32 g.val then 1 else 0
/-- Node `r` of half `h`. -/
def halfNode (h : Fin 2) (r : Fin 50000) : Fin 100000 := ⟨50000 * h.val + r.val, by omega⟩
def kPool (h : Fin 2) (g : Fin 512) (j : Fin 128) : EReal :=
  ∑ r : Fin 50000, oneHot (batch (halfNode h r)) g * kRelu x natt W b gamma beta ew src dst (halfNode h r) j
def kOut (g : Fin 512) (j : Fin 128) : EReal := cZero + ∑ h : Fin 2, kPool x natt W b gamma beta ew src dst batch h g j

/-! ## The reference -/

def rMu (k : Fin 128) : EReal := Ideal.div (cZero + ∑ n : Fin 100000, gate x natt n k) cN
def rVar (k : Fin 128) : EReal :=
  Ideal.div (cZero + ∑ n : Fin 100000, (gate x natt n k - rMu x natt k) * (gate x natt n k - rMu x natt k)) cN
def rNorm (n : Fin 100000) (k : Fin 128) : EReal :=
  (gate x natt n k - rMu x natt k) * Ideal.rsqrt (rVar x natt k + cEps) * gamma k + beta k
def rLin (n : Fin 100000) (j : Fin 128) : EReal := ∑ k : Fin 128, rNorm x natt gamma beta n k * W k j
/-- The extended edge list: the given edges, then one self loop per node. -/
def srcC (e : Fin 1700000) : BitVec 32 := if h : e.val < 1600000 then src ⟨e.val, h⟩ else BitVec.ofNat 32 (e.val - 1600000)
def dstC (e : Fin 1700000) : BitVec 32 := if h : e.val < 1600000 then dst ⟨e.val, h⟩ else BitVec.ofNat 32 (e.val - 1600000)
def ewC (e : Fin 1700000) : EReal := if h : e.val < 1600000 then ew ⟨e.val, h⟩ else cOne
def rDeg (i : Fin 100000) : EReal := cZero + ∑ e ∈ Finset.univ.filter (fun e => lands (dstC dst e) i), ewC ew e
def rDinv (i : Fin 100000) : EReal := Ideal.rsqrt (max (rDeg ew dst i) cTiny)
def rNrm (e : Fin 1700000) : EReal := rDinv ew dst (rowOf (srcC src e)) * ewC ew e * rDinv ew dst (rowOf (dstC dst e))
def rMsg (e : Fin 1700000) (j : Fin 128) : EReal := rNrm ew src dst e * rLin x natt W gamma beta (rowOf (srcC src e)) j
def rAgg (i : Fin 100000) (j : Fin 128) : EReal :=
  (cZero + ∑ e ∈ Finset.univ.filter (fun e => lands (dstC dst e) i), rMsg x natt W gamma beta ew src dst e j) + b j
def rRelu (n : Fin 100000) (j : Fin 128) : EReal := max (rAgg x natt W b gamma beta ew src dst n j) cZero
def rOut (g : Fin 512) (j : Fin 128) : EReal :=
  cZero + ∑ n ∈ Finset.univ.filter (fun n => lands (batch n) g), rRelu x natt W b gamma beta ew src dst n j

end

end Cert.Spec

end
-- ==== Proof.KI.Args.lean ====
import proofs.«413865_j65704409694829_2_alg».proof.Proof.KI.RunDefs
import proofs.«413865_j65704409694829_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (m : (ℓ : Loc nD τ sig) → Buf (Elt Ideal) ℓ)

/-! # The argument arrays of the kernel program read at plain coordinates -/

abbrev xOf (c : Dev nD) : Fin 100000 → Fin 128 → EReal := fun n k => (m ((c.tc : Thread nD τ).loc main_arg0) : S100000x128.Idx → EReal) (ix2 n k)
abbrev srcOf (c : Dev nD) : Fin 1600000 → BitVec 32 := fun e => (m ((c.tc : Thread nD τ).loc main_arg1) : S2x1600000.Idx → BitVec 32) (ix2 (0 : Fin 2) e)
abbrev dstOf (c : Dev nD) : Fin 1600000 → BitVec 32 := fun e => (m ((c.tc : Thread nD τ).loc main_arg1) : S2x1600000.Idx → BitVec 32) (ix2 (1 : Fin 2) e)
abbrev batchOf (c : Dev nD) : Fin 100000 → BitVec 32 := fun n => (m ((c.tc : Thread nD τ).loc main_arg2) : S100000.Idx → BitVec 32) (ix1 n)
abbrev ewOf (c : Dev nD) : Fin 1600000 → EReal := fun e => (m ((c.tc : Thread nD τ).loc main_arg3) : S1600000.Idx → EReal) (ix1 e)
abbrev nattOf (c : Dev nD) : Fin 100000 → EReal := fun n => (m ((c.tc : Thread nD τ).loc main_arg4) : S100000x1.Idx → EReal) (ix2 n (0 : Fin 1))
abbrev wOf (c : Dev nD) : Fin 128 → Fin 128 → EReal := fun k j => (m ((c.tc : Thread nD τ).loc main_arg5) : S128x128.Idx → EReal) (ix2 k j)
abbrev bOf (c : Dev nD) : Fin 128 → EReal := fun j => (m ((c.tc : Thread nD τ).loc main_arg6) : S128.Idx → EReal) (ix1 j)
abbrev gammaOf (c : Dev nD) : Fin 128 → EReal := fun j => (m ((c.tc : Thread nD τ).loc main_arg7) : S128.Idx → EReal) (ix1 j)
abbrev betaOf (c : Dev nD) : Fin 128 → EReal := fun j => (m ((c.tc : Thread nD τ).loc main_arg8) : S128.Idx → EReal) (ix1 j)

/-! # The buffers the later items read, at plain coordinates, at each boundary of the fold -/

/-- After the first host stretch: the folded scale and shift rows, and the arguments region 1 reads. -/
abbrev scale2 (c : Dev nD) : Fin 128 → EReal := fun k => (W2 (F := Ideal) m c (Proc.devRef .tc main_v15) : S1x128.Idx → EReal) (ix2 (0 : Fin 1) k)
abbrev shift2 (c : Dev nD) : Fin 128 → EReal := fun k => (W2 (F := Ideal) m c (Proc.devRef .tc main_v16) : S1x128.Idx → EReal) (ix2 (0 : Fin 1) k)
/-- After region 1: the linear image. -/
abbrev lin3 (c : Dev nD) : Fin 100000 → Fin 128 → EReal := fun n j => (W3 (F := Ideal) m c (Proc.devRef .tc main_v17) : S100000x128.Idx → EReal) (ix2 n j)
/-- After the second host stretch: the aggregated rows, the bias row and the graph-id column region 2 reads. -/
abbrev agg4 (c : Dev nD) : Fin 100000 → Fin 128 → EReal := fun n j => (W4 (F := Ideal) m c (Proc.devRef .tc main_v53) : S100000x128.Idx → EReal) (ix2 n j)
abbrev bias4 (c : Dev nD) : Fin 128 → EReal := fun j => (W4 (F := Ideal) m c (Proc.devRef .tc main_v54) : S1x128.Idx → EReal) (ix2 (0 : Fin 1) j)
abbrev batch4 (c : Dev nD) : Fin 100000 → BitVec 32 := fun n => (W4 (F := Ideal) m c (Proc.devRef .tc main_v55) : S100000x1.Idx → BitVec 32) (ix2 n (0 : Fin 1))
/-- At the return: the result. -/
abbrev out6 (c : Dev nD) : Fin 512 → Fin 128 → EReal := fun g j => (W6 (F := Ideal) m c (Proc.devRef .tc main_v57) : S512x128.Idx → EReal) (ix2 g j)

end Cert.KernelIdeal.Hand

end
-- ==== Proof.LibIdealReal.lean ====
/-
  The float operations at the ideal values — a float is an extended real — on arguments that are coerced reals:
  each gives the coerced real operation. The arithmetic of coerced reals, the absolute value, minimum and
  maximum; the exponential and the logarithm; the quotient by a nonzero real; the extended reals that six
  32-bit patterns denote; the conversions of a one-bit word and of a signed word; the comparison of two
  coerced reals; a finite sum of coerced reals; and the maximum of finitely many coerced reals, folded from
  the bottom element.
-/
import Idealize.ShloMosaic.PureOps.Ideal
import Idealize.ShloMosaic.PureOps.Ideal.Laws
import Mathlib.Data.EReal.Basic
import Mathlib.Data.EReal.Operations
import Mathlib.Data.EReal.Inv
import Mathlib.Analysis.SpecialFunctions.Log.Basic
import Mathlib.Algebra.BigOperators.Group.Finset.Basic
import Mathlib.Data.Finset.Lattice.Fold

noncomputable section

namespace Cert.LibIdealReal

open Idealize.ShloMosaic
open scoped BigOperators

variable {φ : FTy}

/-! ## Arithmetic of coerced reals -/

/-- The product of two coerced reals is the coerced product. -/
theorem mul_coe (a b : ℝ) : (a : EReal) * (b : EReal) = ((a * b : ℝ) : EReal) := (EReal.coe_mul a b).symm

/-- The sum of two coerced reals is the coerced sum. -/
theorem add_coe (a b : ℝ) : (a : EReal) + (b : EReal) = ((a + b : ℝ) : EReal) := (EReal.coe_add a b).symm

/-- The difference of two coerced reals is the coerced difference. -/
theorem sub_coe (a b : ℝ) : (a : EReal) - (b : EReal) = ((a - b : ℝ) : EReal) := (EReal.coe_sub a b).symm

/-- The negation of a coerced real is the coerced negation. -/
theorem neg_coe (a : ℝ) : -(a : EReal) = ((-a : ℝ) : EReal) := (EReal.coe_neg a).symm

/-- The maximum of two coerced reals is the coerced maximum. -/
theorem max_coe (a b : ℝ) : max (a : EReal) (b : EReal) = ((max a b : ℝ) : EReal) :=
  (EReal.coe_strictMono.monotone.map_max (a := a) (b := b)).symm

/-- The minimum of two coerced reals is the coerced minimum. -/
theorem min_coe (a b : ℝ) : min (a : EReal) (b : EReal) = ((min a b : ℝ) : EReal) :=
  (EReal.coe_strictMono.monotone.map_min (a := a) (b := b)).symm

/-- The larger of a coerced real and its negation is the coerced absolute value. -/
theorem abs_coe (a : ℝ) : max (a : EReal) (-(a : EReal)) = ((|a| : ℝ) : EReal) := by
  rw [neg_coe, max_coe, abs_eq_max_neg]

/-- The coerced real zero is the extended real zero. -/
theorem zero_coe : (0 : EReal) = ((0 : ℝ) : EReal) := EReal.coe_zero.symm

/-- The coerced real one is the extended real one. -/
theorem one_coe : (1 : EReal) = ((1 : ℝ) : EReal) := EReal.coe_one.symm

/-! ## Exponential, logarithm, quotient -/

/-- The exponential of a coerced real is the coerced real exponential. -/
theorem exp_coe (a : ℝ) : Ideal.exp (a : EReal) = ((Real.exp a : ℝ) : EReal) := rfl

/-- The logarithm of a coerced positive real is the coerced real logarithm. -/
theorem log_coe {a : ℝ} (h : 0 < a) : Ideal.log (a : EReal) = ((Real.log a : ℝ) : EReal) := by
  rw [Ideal.log_coe, if_neg (not_le.mpr h)]

/-- The logarithm of a coerced real that is not positive is the bottom element. -/
theorem log_coe_nonpos {a : ℝ} (h : a ≤ 0) : Ideal.log (a : EReal) = ⊥ := by
  rw [Ideal.log_coe, if_pos h]

/-- The quotient of a coerced real by a coerced nonzero real is the coerced quotient. -/
theorem div_coe (a : ℝ) {b : ℝ} (h : b ≠ 0) : Ideal.div (a : EReal) (b : EReal) = ((a / b : ℝ) : EReal) := by
  rw [Ideal.div_coe h, mul_coe, mul_one_div]

/-! ## Six patterns -/

/-- The all-zero pattern denotes zero. -/
theorem ofBits_zero : Ideal.ofBits .f32 0x00000000#32 = 0 := Ideal.ofBits_zero_f32

/-- The all-zero pattern denotes the coerced real zero. -/
theorem ofBits_zero_coe : Ideal.ofBits .f32 0x00000000#32 = ((0 : ℝ) : EReal) := by
  rw [ofBits_zero, zero_coe]

/-- The pattern of one denotes the coerced real one. -/
theorem ofBits_one_coe : Ideal.ofBits .f32 0x3F800000#32 = ((1 : ℝ) : EReal) := by
  simp [Ideal.ofBits, Ideal.ieee, -EReal.coe_mul]; norm_num

/-- The pattern of one denotes one. -/
theorem ofBits_one : Ideal.ofBits .f32 0x3F800000#32 = 1 := by
  rw [ofBits_one_coe, one_coe]

/-- The pattern of one half denotes the coerced real one half. -/
theorem ofBits_half : Ideal.ofBits .f32 0x3F000000#32 = ((1 / 2 : ℝ) : EReal) := by
  simp [Ideal.ofBits, Ideal.ieee, -EReal.coe_mul]; norm_num

/-- The pattern of 4096 denotes the coerced real 4096. -/
theorem ofBits_4096 : Ideal.ofBits .f32 0x45800000#32 = ((4096 : ℝ) : EReal) := by
  simp [Ideal.ofBits, Ideal.ieee, -EReal.coe_mul]; norm_num

/-- The pattern of 32 denotes the coerced real 32. -/
theorem ofBits_32 : Ideal.ofBits .f32 0x42000000#32 = ((32 : ℝ) : EReal) := by
  simp [Ideal.ofBits, Ideal.ieee, -EReal.coe_mul]; norm_num

/-- The pattern of minus infinity denotes the bottom element. -/
theorem ofBits_neg_inf : Ideal.ofBits .f32 0xFF800000#32 = ⊥ := by
  simp [Ideal.ofBits, Ideal.ieee]

/-! ## Conversions of words -/

/-- A one-bit word is zero or one. -/
theorem bit_cases (b : BitVec 1) : b = 0#1 ∨ b = 1#1 := by
  have h := b.isLt
  rcases (by omega : b.toNat = 0 ∨ b.toNat = 1) with h0 | h1
  · left; exact BitVec.eq_of_toNat_eq (by simpa using h0)
  · right; exact BitVec.eq_of_toNat_eq (by simpa using h1)

/-- The signed conversion of a word is the coerced real of its signed value. -/
theorem sitofp_def {w : Nat} (b : BitVec w) : FloatOps.sitofp (F := Ideal) φ b = (((b.toInt : ℤ) : ℝ) : EReal) := rfl

/-- The unsigned conversion of a word is the coerced real of its unsigned value. -/
theorem uitofp_def {w : Nat} (b : BitVec w) : FloatOps.uitofp (F := Ideal) φ b = (((b.toNat : ℕ) : ℝ) : EReal) := rfl

/-- The signed conversion of a word whose signed value is `n` is the coerced real `n`. -/
theorem sitofp_of_toInt {w : Nat} (b : BitVec w) (n : ℤ) (h : b.toInt = n) :
    FloatOps.sitofp (F := Ideal) φ b = ((n : ℝ) : EReal) := by
  rw [sitofp_def, h]

/-- The unsigned conversion of the one-bit word one is the coerced real one. -/
theorem uitofp_bit_one : FloatOps.uitofp (F := Ideal) φ (1#1) = ((1 : ℝ) : EReal) := by
  rw [uitofp_def]; norm_num

/-- The unsigned conversion of the one-bit word zero is the coerced real zero. -/
theorem uitofp_bit_zero : FloatOps.uitofp (F := Ideal) φ (0#1) = ((0 : ℝ) : EReal) := by
  rw [uitofp_def]; norm_num

/-- The unsigned conversion of a one-bit word is one or zero as the word is one or not. -/
theorem uitofp_bit (b : BitVec 1) :
    FloatOps.uitofp (F := Ideal) φ b = ((if b = 1#1 then (1 : ℝ) else 0 : ℝ) : EReal) := by
  rcases bit_cases b with rfl | rfl
  · rw [uitofp_bit_zero, if_neg (by decide)]
  · rw [uitofp_bit_one, if_pos rfl]

/-- The signed conversion of the one-bit word one, zero-extended to 32 bits, is the coerced real one. -/
theorem sitofp_extui_bit_one : FloatOps.sitofp (F := Ideal) φ ((1#1 : BitVec 1).setWidth 32) = ((1 : ℝ) : EReal) := by
  rw [sitofp_of_toInt _ 1 (by decide)]; norm_num

/-- The signed conversion of the one-bit word zero, zero-extended to 32 bits, is the coerced real zero. -/
theorem sitofp_extui_bit_zero : FloatOps.sitofp (F := Ideal) φ ((0#1 : BitVec 1).setWidth 32) = ((0 : ℝ) : EReal) := by
  rw [sitofp_of_toInt _ 0 (by decide)]; norm_num

/-- The signed conversion of a zero-extended one-bit word is one or zero as the word is one or not. -/
theorem sitofp_extui_bit (b : BitVec 1) :
    FloatOps.sitofp (F := Ideal) φ (b.setWidth 32) = ((if b = 1#1 then (1 : ℝ) else 0 : ℝ) : EReal) := by
  rcases bit_cases b with rfl | rfl
  · rw [sitofp_extui_bit_zero, if_neg (by decide)]
  · rw [sitofp_extui_bit_one, if_pos rfl]

/-! ## Comparison -/

/-- The strict comparison of two coerced reals is the one-bit word one exactly when the first is below the second. -/
theorem cmp_olt_coe (a b : ℝ) : Ideal.cmp .olt (a : EReal) (b : EReal) = if a < b then 1#1 else 0#1 := by
  by_cases h : a < b
  · simp [Ideal.cmp, h]
  · simp [Ideal.cmp, h]

/-- A choice by the strict comparison of two coerced reals is the choice by the comparison of the reals. -/
theorem select_cmp_olt_coe {α : Type} (a b : ℝ) (x y : α) :
    Scalar.select (Ideal.cmp .olt (a : EReal) (b : EReal)) x y = if a < b then x else y := by
  rw [cmp_olt_coe]
  by_cases h : a < b
  · rw [if_pos h, if_pos h]; exact if_pos rfl
  · rw [if_neg h, if_neg h]; exact if_neg (by decide)

/-! ## Finite sums -/

/-- A finite sum of coerced reals is the coerced sum. -/
theorem sum_coe {ι : Type*} (s : Finset ι) (f : ι → ℝ) :
    ∑ i ∈ s, ((f i : ℝ) : EReal) = ((∑ i ∈ s, f i : ℝ) : EReal) := by
  classical
  refine Finset.induction_on s (by simp) ?_
  intro i s hi ih
  rw [Finset.sum_insert hi, Finset.sum_insert hi, ih, EReal.coe_add]

/-- A sum over a finite type of coerced reals is the coerced sum. -/
theorem sum_univ_coe {ι : Type*} [Fintype ι] (f : ι → ℝ) :
    ∑ i, ((f i : ℝ) : EReal) = ((∑ i, f i : ℝ) : EReal) := sum_coe Finset.univ f

/-- A finite sum of extended reals, each a coerced real, is the coerced sum of the reals. -/
theorem sum_of_eq {ι : Type*} (s : Finset ι) (g : ι → EReal) (f : ι → ℝ) (hg : ∀ i ∈ s, g i = ((f i : ℝ) : EReal)) :
    ∑ i ∈ s, g i = ((∑ i ∈ s, f i : ℝ) : EReal) := by
  rw [Finset.sum_congr rfl hg, sum_coe]

/-! ## Finite maxima from the bottom element -/

/-- The maximum of finitely many coerced reals over a nonempty set, folded from the bottom element, is the
coerced maximum of the reals. -/
theorem fold_max_bot_coe {ι : Type*} (s : Finset ι) (H : s.Nonempty) (f : ι → ℝ) :
    s.fold max (⊥ : EReal) (fun i => ((f i : ℝ) : EReal)) = ((s.sup' H f : ℝ) : EReal) := by
  have h1 : s.fold max (⊥ : EReal) (fun i => ((f i : ℝ) : EReal)) = s.sup (fun i => ((f i : ℝ) : EReal)) := rfl
  rw [h1, ← Finset.sup'_eq_sup H]
  exact (Finset.comp_sup'_eq_sup'_comp H (fun r : ℝ => (r : EReal)) (fun x y => (max_coe x y).symm)).symm

/-- The same for extended reals each known to be a coerced real. -/
theorem fold_max_bot_of_eq {ι : Type*} (s : Finset ι) (H : s.Nonempty) (g : ι → EReal) (f : ι → ℝ)
    (hg : ∀ i, g i = ((f i : ℝ) : EReal)) :
    s.fold max (⊥ : EReal) g = ((s.sup' H f : ℝ) : EReal) := by
  have : g = fun i => ((f i : ℝ) : EReal) := funext hg
  rw [this, fold_max_bot_coe]

/-- The same with the float maximum as the folded operation. -/
theorem fold_maximumf_bot_of_eq {ι : Type*} (s : Finset ι) (H : s.Nonempty) (g : ι → EReal) (f : ι → ℝ)
    (hg : ∀ i, g i = ((f i : ℝ) : EReal)) :
    s.fold (FloatOps.maximumf (F := Ideal) (φ := φ)) (⊥ : EReal) g = ((s.sup' H f : ℝ) : EReal) :=
  fold_max_bot_of_eq s H g f hg

end Cert.LibIdealReal

end
-- ==== Proof.LibBlockSum.lean ====
/-
  Sums over blocks of consecutive indices, and running sums: a sum over B blocks of S consecutive indices is the sum
  over all B·S indices; a sequence that starts at its first term and adds one more term at each step is the partial sum.
-/
import Mathlib.Algebra.BigOperators.Fin
import Mathlib.Data.Fintype.BigOperators
import Mathlib.Logic.Equiv.Fin.Basic

namespace Cert.BlockSum

open scoped BigOperators

/-- The `r`-th index of the `b`-th block of `S` consecutive indices, among `B` blocks, is below `B * S`. -/
theorem block_lt {B S : ℕ} (b : Fin B) (r : Fin S) : S * b.val + r.val < B * S :=
  calc S * b.val + r.val < S * b.val + S := Nat.add_lt_add_left r.isLt _
    _ = S * (b.val + 1) := (Nat.mul_succ _ _).symm
    _ ≤ S * B := Nat.mul_le_mul_left _ b.isLt
    _ = B * S := Nat.mul_comm _ _

/-- A sum over `B` blocks of `S` consecutive indices is the sum over all `B * S` indices: every index below
    `B * S` is `S * b + r` for exactly one block `b` and one offset `r`. -/
theorem sum_blocks {M : Type*} [AddCommMonoid M] (B S : ℕ) (f : Fin (B * S) → M) :
    ∑ b : Fin B, ∑ r : Fin S, f ⟨S * b.val + r.val, block_lt b r⟩ = ∑ n : Fin (B * S), f n := by
  rw [← finProdFinEquiv.sum_comp, Fintype.sum_prod_type]
  refine Finset.sum_congr rfl fun b _ => Finset.sum_congr rfl fun r _ => ?_
  exact congrArg f (Fin.ext (Nat.add_comm _ _))

/-- Twelve blocks of 1024 consecutive indices make up the 12288 indices. -/
theorem sum_12x1024 {M : Type*} [AddCommMonoid M] (f : Fin 12288 → M) :
    ∑ b : Fin 12, ∑ r : Fin 1024, f ⟨1024 * b.val + r.val, by omega⟩ = ∑ n : Fin 12288, f n :=
  sum_blocks 12 1024 f

/-- Four blocks of 1536 consecutive indices make up the 6144 indices. -/
theorem sum_4x1536 {M : Type*} [AddCommMonoid M] (f : Fin 6144 → M) :
    ∑ b : Fin 4, ∑ r : Fin 1536, f ⟨1536 * b.val + r.val, by omega⟩ = ∑ n : Fin 6144, f n :=
  sum_blocks 4 1536 f

/-- A running sum from its first term: if `a 0 = g 0` and `a (j + 1) = a j + g (j + 1)` for every `j`, then
    `a j` is the sum of `g` over the first `j + 1` indices. -/
theorem running_sum {M : Type*} [AddCommMonoid M] (a g : ℕ → M) (h0 : a 0 = g 0)
    (hs : ∀ j, a (j + 1) = a j + g (j + 1)) (j : ℕ) : a j = ∑ i ∈ Finset.range (j + 1), g i := by
  induction j with
  | zero => rw [h0, Finset.sum_range_one]
  | succ j ih => rw [hs, ih, Finset.sum_range_succ _ (j + 1)]

/-- The sum over the first twelve naturals is the sum over `Fin 12`. -/
theorem sum_range_12 {M : Type*} [AddCommMonoid M] (g : ℕ → M) :
    ∑ i ∈ Finset.range 12, g i = ∑ b : Fin 12, g b.val :=
  Finset.sum_range g

/-- The sum over the first four naturals is the sum over `Fin 4`. -/
theorem sum_range_4 {M : Type*} [AddCommMonoid M] (g : ℕ → M) :
    ∑ i ∈ Finset.range 4, g i = ∑ b : Fin 4, g b.val :=
  Finset.sum_range g

end Cert.BlockSum
-- ==== Proof.KI.Value2.lean ====
import proofs.«413865_j65704409694829_2_alg».proof.Proof.KI.Region2Defs
import proofs.«413865_j65704409694829_2_alg».proof.Proof.Spec
import proofs.«413865_j65704409694829_2_alg».proof.Proof.LibIdealReal
import proofs.«413865_j65704409694829_2_alg».proof.Proof.LibBlockSum
import Idealize.ShloMosaic.Lib.ValueIdx
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! # What region 2 leaves in its result array, at the ideal instance: per half of the nodes, the sum over the
half's 50000 rows of the 0/1 indicator of the row's graph id times the rectified, biased row -/

/-- The region's three operands and its result, read at plain coordinates. -/
abbrev agg2At (c : Dev nD) : Fin 100000 → Fin 128 → EReal := fun n j => (V c main_v53 : S100000x128.Idx → EReal) (ix2 n j)
abbrev b2At (c : Dev nD) : Fin 128 → EReal := fun j => (V c main_v54 : S1x128.Idx → EReal) (ix2 (0 : Fin 1) j)
abbrev batch2At (c : Dev nD) : Fin 100000 → BitVec 32 := fun n => (V c main_v55 : S100000x1.Idx → BitVec 32) (ix2 n (0 : Fin 1))
abbrev pool2At (c : Dev nD) : Fin 2 → Fin 512 → Fin 128 → EReal := fun h g j =>
  ((dat2 (F := Ideal) V c).arrAt 3 cfg2.N : S2x512x128.Idx → EReal) (ix3 h g j)

/-! ## The payload at an index

The product contracts the row axis of both operands; its left operand is the 0/1 indicator matrix of the rows' graph ids. -/

theorem pool2_lhs_0 (i : S512x128.Idx) (q : dot_S10000x512_S10000x128_S512x128_0_0_1_1_n_n.contr.Idx) :
    (dot_S10000x512_S10000x128_S512x128_0_0_1_1_n_n.lhsIdx i q 0).val = (q ⟨0, by decide⟩).val :=
  dot_S10000x512_S10000x128_S512x128_0_0_1_1_n_n.lhsIdx_val_of_single rfl i q
theorem pool2_lhs_1 (i : S512x128.Idx) (q : dot_S10000x512_S10000x128_S512x128_0_0_1_1_n_n.contr.Idx) :
    (dot_S10000x512_S10000x128_S512x128_0_0_1_1_n_n.lhsIdx i q 1).val = (i 0).val := by
  unfold DotDims.lhsIdx
  rw [dif_neg (show ¬(1 : Fin S10000x512.rank) ∈ dot_S10000x512_S10000x128_S512x128_0_0_1_1_n_n.lhsBatch by decide), dif_pos (show (1 : Fin S10000x512.rank) ∈ dot_S10000x512_S10000x128_S512x128_0_0_1_1_n_n.lhsNonContracting by decide)]
  rfl
theorem pool2_rhs_0 (i : S512x128.Idx) (q : dot_S10000x512_S10000x128_S512x128_0_0_1_1_n_n.contr.Idx) :
    (dot_S10000x512_S10000x128_S512x128_0_0_1_1_n_n.rhsIdx i q 0).val = (q ⟨0, by decide⟩).val :=
  dot_S10000x512_S10000x128_S512x128_0_0_1_1_n_n.rhsIdx_val_of_single rfl i q
theorem pool2_rhs_1 (i : S512x128.Idx) (q : dot_S10000x512_S10000x128_S512x128_0_0_1_1_n_n.contr.Idx) :
    (dot_S10000x512_S10000x128_S512x128_0_0_1_1_n_n.rhsIdx i q 1).val = (i 1).val := by
  unfold DotDims.rhsIdx
  rw [dif_neg (show ¬(1 : Fin S10000x128.rank) ∈ dot_S10000x512_S10000x128_S512x128_0_0_1_1_n_n.rhsBatch by decide), dif_pos (show (1 : Fin S10000x128.rank) ∈ dot_S10000x512_S10000x128_S512x128_0_0_1_1_n_n.rhsNonContracting by decide)]
  rfl

/-- The product that contracts the row axis of both operands into a zero accumulator, at (g, j): the sum over the rows. -/
theorem pool2_matmul_apply (L : FVec Ideal S10000x512 .f32) (R : FVec Ideal S10000x128 .f32) (g : Fin 512) (j : Fin 128) :
    matmul (F := Ideal) dot_S10000x512_S10000x128_S512x128_0_0_1_1_n_n none L R (constant (F := Ideal) S512x128 .f32 0x00000000#32) (ix2 g j)
      = ∑ r : Fin 10000, L (ix2 r g) * R (ix2 r j) := by
  show FloatOps.matmul dot_S10000x512_S10000x128_S512x128_0_0_1_1_n_n none L R (constant (F := Ideal) S512x128 .f32 0x00000000#32) (ix2 g j) = _
  rw [Ideal.matmul_constant_zero_apply, ← Equiv.sum_comp (contrEquiv1 dot_S10000x512_S10000x128_S512x128_0_0_1_1_n_n 10000 rfl rfl).symm]
  refine Finset.sum_congr rfl fun k _ => ?_
  have hk := contrEquiv1_symm_val dot_S10000x512_S10000x128_S512x128_0_0_1_1_n_n 10000 rfl rfl k
  have el : dot_S10000x512_S10000x128_S512x128_0_0_1_1_n_n.lhsIdx (ix2 g j) ((contrEquiv1 dot_S10000x512_S10000x128_S512x128_0_0_1_1_n_n 10000 rfl rfl).symm k) = ix2 k g := funext fun a => Fin.ext (by
    match a with
    | ⟨0, _⟩ => exact (pool2_lhs_0 _ _).trans hk
    | ⟨1, _⟩ => exact pool2_lhs_1 _ _)
  have er : dot_S10000x512_S10000x128_S512x128_0_0_1_1_n_n.rhsIdx (ix2 g j) ((contrEquiv1 dot_S10000x512_S10000x128_S512x128_0_0_1_1_n_n 10000 rfl rfl).symm k) = ix2 k j := funext fun a => Fin.ext (by
    match a with
    | ⟨0, _⟩ => exact (pool2_rhs_0 _ _).trans hk
    | ⟨1, _⟩ => exact pool2_rhs_1 _ _)
  rw [el, er]

/-- The comparison word of two words is one exactly when they are the same word. -/
theorem pool2_cmpi_eq_one_iff (a b : BitVec 32) : IntOp.cmpi .eq a b = 1#1 ↔ a = b := by
  show BitVec.ofBool (a == b) = 1#1 ↔ a = b
  by_cases h : a = b
  · rw [beq_iff_eq.mpr h]; exact ⟨fun _ => h, fun _ => rfl⟩
  · rw [beq_eq_false_iff_ne.mpr h]; exact ⟨fun e => absurd e (by decide), fun e => absurd e h⟩

/-- The 0/1 entry of the indicator matrix at row r, graph g: the row's id word against the graph's number. -/
theorem pool2_onehot_entry (w : IVec S10000x1 32) (r : Fin 10000) (g : Fin 512) :
    (sitofp (F := Ideal) .f32 (extui 32 (cmpi .eq (broadcastTo S10000x512 (shapeCast S10000x1 w shapeCasts_S10000x1_S10000x1) broadcasts_S10000x1_S10000x512)
        (broadcastTo S10000x512 (iota .tc S1x512 32 [1] iota_S1x512_d1_w32) broadcasts_S1x512_S10000x512)) natLt_1_32) : FVec Ideal S10000x512 .f32) (ix2 r g)
      = Cert.Spec.oneHot (w (ix2 r (0 : Fin 1))) g := by
  rw [sitofp_apply, extui_apply, shapeCast_self]
  show FloatOps.sitofp (F := Ideal) .f32 ((IntOp.cmpi .eq (broadcastTo S10000x512 w broadcasts_S10000x1_S10000x512 (ix2 r g))
      (broadcastTo S10000x512 (iota .tc S1x512 32 [1] iota_S1x512_d1_w32) broadcasts_S1x512_S10000x512 (ix2 r g))).setWidth 32) = _
  rw [broadcastTo_apply w broadcasts_S10000x1_S10000x512 (ix2 r g) (ix2 r (0 : Fin 1)) (fun a => by
        match a with
        | ⟨0, _⟩ => rfl
        | ⟨1, _⟩ => rfl),
      broadcastTo_apply (iota .tc S1x512 32 [1] iota_S1x512_d1_w32) broadcasts_S1x512_S10000x512 (ix2 r g) (ix2 (0 : Fin 1) g) (fun a => by
        match a with
        | ⟨0, _⟩ => rfl
        | ⟨1, _⟩ => rfl),
      iota_single_apply]
  show FloatOps.sitofp (F := Ideal) .f32 ((IntOp.cmpi .eq (w (ix2 r (0 : Fin 1))) (BitVec.ofNat 32 g.val)).setWidth 32) = _
  rw [Cert.LibIdealReal.sitofp_extui_bit]
  unfold Cert.Spec.oneHot
  by_cases h : w (ix2 r (0 : Fin 1)) = BitVec.ofNat 32 g.val
  · rw [if_pos h, if_pos ((pool2_cmpi_eq_one_iff _ _).mpr h), EReal.coe_one]
  · rw [if_neg h, if_neg (fun e => h ((pool2_cmpi_eq_one_iff _ _).mp e)), EReal.coe_zero]

/-- One point's step of the accumulator at (g, j): what it held plus, over the block's 10000 rows, the indicator of
    the row's graph id times the rectified, biased row. -/
theorem pool2_pay2_apply (a : Vec Ideal S10000x128 .f32) (b : Vec Ideal S1x128 .f32) (w : Vec Ideal S10000x1 .i32) (acc : Vec Ideal S512x128 .f32)
    (g : Fin 512) (j : Fin 128) :
    k2_pay2 (F := Ideal) a b w acc (ix2 g j)
      = acc (ix2 g j) + ∑ r : Fin 10000, Cert.Spec.oneHot (w (ix2 r (0 : Fin 1))) g
          * max (a (ix2 r j) + b (ix2 (0 : Fin 1) j)) Cert.Spec.cZero := by
  unfold k2_pay2
  rw [shapeCast_self, addf_apply, pool2_matmul_apply]
  refine congrArg (acc (ix2 g j) + ·) (Finset.sum_congr rfl fun r _ => ?_)
  rw [pool2_onehot_entry, maximumf_apply, addf_apply, shapeCast_self, shapeCast_self, broadcast_apply,
    broadcastTo_apply b broadcasts_S1x128_S10000x128 (ix2 r j) (ix2 (0 : Fin 1) j) (fun a => by
        match a with
        | ⟨0, _⟩ => rfl
        | ⟨1, _⟩ => rfl)]
  rfl

/-- The starting accumulator is zero everywhere. -/
theorem pool2_pay1_apply (i : S512x128.Idx) : k2_pay1 (F := Ideal) i = 0 := by
  unfold k2_pay1
  rw [shapeCast_self, broadcast_apply]
  exact Ideal.ofBits_zero_f32

/-- The accumulator stored as a one-slab block reads, at (0, g, j), the accumulator at (g, j). -/
theorem pool2_pay3_apply (v : Vec Ideal S512x128 .f32) (z : Fin 1) (g : Fin 512) (j : Fin 128) :
    k2_pay3 (F := Ideal) v (ix3 z g j) = v (ix2 g j) := by
  unfold k2_pay3
  refine shapeCast_apply v shapeCasts_S512x128_S1x512x128 (ix3 z g j) (ix2 g j) ?_
  rw [Shape.rowMajor_val_two, Shape.rowMajor_val_three]
  show g.val * 128 + j.val = (z.val * 512 + g.val) * 128 + j.val
  have hz : z.val = 0 := by have := z.isLt; omega
  rw [hz]; omega

/-- The printed index maps over the grid's ten points: the row-block windows are at block t, the bias window at its one
    block, the result window at slab t / 5. -/
theorem pool2_idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 3) = t.val / 5 ∧ win2_3.index t (1 : Fin 3) = 0 ∧ win2_3.index t (2 : Fin 3) = 0 :=
  (by decide +kernel : ∀ t : Fin grid2.N, _)

/-! ## Blocks as rows of the arrays, the running sums over a half's five points, and the final array -/

/-- A point's row r is row 10000 t + r of the 100000. -/
theorem pool2_blockRow_lt (t : Fin cfg2.N) (r : Fin 10000) : 10000 * t.val + r.val < 100000 := by
  have ht : t.val < 10 := N_2 ▸ t.isLt
  have hr := r.isLt
  omega

/-- The block of rectified-input rows at point t, at (r, j): the array's row 10000 t + r. -/
theorem pool2_iblk0_apply (c : Dev nD) (t : Fin cfg2.N) (r : Fin 10000) (j : Fin 128) :
    (iblk2 V c 0 t : S10000x128.Idx → EReal) (ix2 r j) = agg2At V c ⟨10000 * t.val + r.val, pool2_blockRow_lt t r⟩ j := by
  obtain ⟨e0, e1, -⟩ := pool2_idx_facts t
  show V c main_v53 (((cfg2.win 0).blk t).view.emb (ix2 r j)) = V c main_v53 (ix2 _ j)
  refine congrArg _ (funext fun a => Fin.ext ?_)
  match a with
  | ⟨0, _⟩ => show win2_0.index t (0 : Fin 2) * 10000 + 1 * r.val = 10000 * t.val + r.val; omega
  | ⟨1, _⟩ => show win2_0.index t (1 : Fin 2) * 128 + 1 * j.val = j.val; omega

/-- The bias block at any point is the whole bias row. -/
theorem pool2_iblk1_apply (c : Dev nD) (t : Fin cfg2.N) (j : Fin 128) :
    (iblk2 V c 1 t : S1x128.Idx → EReal) (ix2 (0 : Fin 1) j) = b2At V c j := by
  obtain ⟨-, -, e2, e3, -⟩ := pool2_idx_facts t
  show V c main_v54 (((cfg2.win 1).blk t).view.emb (ix2 (0 : Fin 1) j)) = V c main_v54 (ix2 _ j)
  refine congrArg _ (funext fun a => Fin.ext ?_)
  match a with
  | ⟨0, _⟩ => show win2_1.index t (0 : Fin 2) * 1 + 1 * 0 = 0; omega
  | ⟨1, _⟩ => show win2_1.index t (1 : Fin 2) * 128 + 1 * j.val = j.val; omega

/-- The block of graph ids at point t, at row r: the array's row 10000 t + r. -/
theorem pool2_iblk2_apply (c : Dev nD) (t : Fin cfg2.N) (r : Fin 10000) :
    (iblk2 V c 2 t : S10000x1.Idx → BitVec 32) (ix2 r (0 : Fin 1)) = batch2At V c ⟨10000 * t.val + r.val, pool2_blockRow_lt t r⟩ := by
  obtain ⟨-, -, -, -, e4, e5, -⟩ := pool2_idx_facts t
  show V c main_v55 (((cfg2.win 2).blk t).view.emb (ix2 r (0 : Fin 1))) = V c main_v55 (ix2 _ _)
  refine congrArg _ (funext fun a => Fin.ext ?_)
  match a with
  | ⟨0, _⟩ => show win2_2.index t (0 : Fin 2) * 10000 + 1 * r.val = 10000 * t.val + r.val; omega
  | ⟨1, _⟩ => show win2_2.index t (1 : Fin 2) * 1 + 1 * 0 = 0; omega

/-- What row n of the 100000 contributes at (g, j): the indicator of its graph id times its rectified, biased entry. -/
def pool2_rowTerm (c : Dev nD) (g : Fin 512) (j : Fin 128) (n : Fin 100000) : EReal :=
  Cert.Spec.oneHot (batch2At V c n) g * max (agg2At V c n j + b2At V c j) Cert.Spec.cZero

/-- What the block of rows of point t contributes at (g, j). -/
def pool2_blockTerm (c : Dev nD) (g : Fin 512) (j : Fin 128) (t : Fin cfg2.N) : EReal :=
  ∑ r : Fin 10000, pool2_rowTerm V c g j ⟨10000 * t.val + r.val, pool2_blockRow_lt t r⟩

/-- One point's step of the running sums at (g, j): a point that opens a run of five starts from zero, any other from
    what the point before left; each adds its block's contribution. -/
theorem pool2_acc_succ_apply (c : Dev nD) (n : Nat) (hn : n < cfg2.N) (g : Fin 512) (j : Fin 128) :
    accP2 V c (n + 1) (ix2 g j)
      = (if n % 5 = 0 then 0 else accP2 V c n (ix2 g j)) + pool2_blockTerm V c g j ⟨n, hn⟩ := by
  rw [accP2, dif_pos hn]
  refine (pool2_pay2_apply _ _ _ _ g j).trans ?_
  congr 1
  · by_cases h5 : n % 5 = 0
    · rw [if_pos h5, if_pos h5, pool2_pay1_apply]
    · rw [if_neg h5, if_neg h5]
  · unfold pool2_blockTerm pool2_rowTerm
    refine Finset.sum_congr rfl fun r _ => ?_
    rw [pool2_iblk0_apply V c ⟨n, hn⟩ r j, pool2_iblk1_apply V c ⟨n, hn⟩ j, pool2_iblk2_apply V c ⟨n, hn⟩ r]

/-- A point number below ten is a point of the grid. -/
theorem pool2_lt_N {n : Nat} (h : n < 10) : n < cfg2.N := by
  show n < grid2.N
  rw [N_2]; exact h

/-- After the five points of half h the accumulator holds, at (g, j), the five blocks' contributions. -/
theorem pool2_acc_run (c : Dev nD) (h : Fin 2) (g : Fin 512) (j : Fin 128) :
    accP2 V c (5 * h.val + 4 + 1) (ix2 g j)
      = ∑ s : Fin 5, pool2_blockTerm V c g j ⟨5 * h.val + s.val, pool2_lt_N (by have := h.isLt; have := s.isLt; omega)⟩ := by
  have hh := h.isLt
  have e1 := pool2_acc_succ_apply V c (5 * h.val) (pool2_lt_N (by omega)) g j
  have e2 := pool2_acc_succ_apply V c (5 * h.val + 1) (pool2_lt_N (by omega)) g j
  have e3 := pool2_acc_succ_apply V c (5 * h.val + 2) (pool2_lt_N (by omega)) g j
  have e4 := pool2_acc_succ_apply V c (5 * h.val + 3) (pool2_lt_N (by omega)) g j
  have e5 := pool2_acc_succ_apply V c (5 * h.val + 4) (pool2_lt_N (by omega)) g j
  rw [if_pos (by omega), zero_add] at e1
  rw [if_neg (by omega)] at e2 e3 e4 e5
  rw [e1] at e2
  rw [e2] at e3
  rw [e3] at e4
  rw [e4] at e5
  rw [Fin.sum_univ_five]
  exact e5

/-- Five blocks of 10000 consecutive rows make up the 50000 rows of a half. -/
theorem pool2_sum_5x10000 {M : Type*} [AddCommMonoid M] (f : Fin 50000 → M) :
    ∑ b : Fin 5, ∑ r : Fin 10000, f ⟨10000 * b.val + r.val, by omega⟩ = ∑ n : Fin 50000, f n :=
  Cert.BlockSum.sum_blocks 5 10000 f

/-- The five blocks of half h are the half's 50000 rows. -/
theorem pool2_half_sum (c : Dev nD) (h : Fin 2) (g : Fin 512) (j : Fin 128) :
    ∑ s : Fin 5, pool2_blockTerm V c g j ⟨5 * h.val + s.val, pool2_lt_N (by have := h.isLt; have := s.isLt; omega)⟩
      = ∑ r : Fin 50000, pool2_rowTerm V c g j (Cert.Spec.halfNode h r) := by
  rw [← pool2_sum_5x10000 (fun n => pool2_rowTerm V c g j (Cert.Spec.halfNode h n))]
  refine Finset.sum_congr rfl fun s _ => ?_
  unfold pool2_blockTerm
  refine Finset.sum_congr rfl fun r _ => ?_
  refine congrArg _ (Fin.ext ?_)
  show 10000 * (5 * h.val + s.val) + r.val = 50000 * h.val + (10000 * s.val + r.val)
  omega

/-- The accumulator stored as a one-slab block reads, at y, the accumulator at y's last two coordinates. -/
theorem pool2_pay3_idx_apply (v : Vec Ideal S512x128 .f32) (y : S1x512x128.Idx) :
    k2_pay3 (F := Ideal) v y = v (ix2 (y 1) (y 2)) := by
  rw [eq_ix3 y]
  exact pool2_pay3_apply v (y 0) (y 1) (y 2)

/-- The array the region leaves, as one function of its three operands: at (h, g, j) the sum over the 50000 rows of half h. -/
def pool2_G (c : Dev nD) : S2x512x128.Idx → EReal :=
  fun i => ∑ r : Fin 50000, pool2_rowTerm V c (i 1) (i 2) (Cert.Spec.halfNode (i 0) r)

/-- What a flushing point writes back is its slab of that array. -/
theorem pool2_flushed_eq (c : Dev nD) (t : Fin cfg2.N) (hf : (cfg2.win 3).flush t = true) :
    (dat2 V c).flushed 3 t = ((cfg2.win 3).blk t).view.read (Elt Ideal) (pool2_G V c) := by
  have h4 : t.val % 5 = 4 := (flush2_3 t).mp hf
  have ht : t.val < 10 := N_2 ▸ t.isLt
  obtain ⟨-, -, -, -, -, -, e6, e7, e8⟩ := pool2_idx_facts t
  -- the accumulator after the last point of the half, at (g, j), is the half's sum
  have key : ∀ (g : Fin 512) (j : Fin 128),
      accP2 V c (t.val + 1) (ix2 g j) = pool2_G V c (ix3 (⟨t.val / 5, by omega⟩ : Fin 2) g j) := by
    intro g j
    have hrun := pool2_acc_run V c (⟨t.val / 5, by omega⟩ : Fin 2) g j
    have hpt : 5 * (t.val / 5) + 4 + 1 = t.val + 1 := by omega
    rw [show 5 * (⟨t.val / 5, by omega⟩ : Fin 2).val + 4 + 1 = t.val + 1 from hpt] at hrun
    rw [hrun, pool2_half_sum]
    rfl
  show (cfg2.win 3).cut (grid2.coords t) ((dat2 V c).after 3 t) = _
  rw [after2_3]
  funext y
  rw [View.read_apply, cast_eq]
  refine (pool2_pay3_idx_apply (accP2 V c (t.val + 1)) ((cfg2.win 3).xinj (grid2.coords t) y)).trans ?_
  have hemb : ((cfg2.win 3).blk t).view.emb y
      = ix3 (⟨t.val / 5, by omega⟩ : Fin 2) ((cfg2.win 3).xinj (grid2.coords t) y 1) ((cfg2.win 3).xinj (grid2.coords t) y 2) := by
    funext a; apply Fin.ext
    match a with
    | ⟨0, _⟩ => show win2_3.index t (0 : Fin 3) * 1 + 1 * (y 0).val = t.val / 5; have hy : (y 0).val < 1 := (y 0).isLt; omega
    | ⟨1, _⟩ => show win2_3.index t (1 : Fin 3) * 512 + 1 * (y 1).val = (y 1).val; omega
    | ⟨2, _⟩ => show win2_3.index t (2 : Fin 3) * 128 + 1 * (y 2).val = (y 2).val; omega
  rw [hemb]
  exact key _ _

/-- An index of the array is in point t's slab iff each coordinate is in the slab's range on its axis. -/
theorem pool2_mem_blk (t : Fin cfg2.N) (i : S2x512x128.Idx) :
    i ∈ ((cfg2.win 3).blk t).view.set ↔ ∀ a : Fin 3, win2_3.index t a * S1x512x128.size a ≤ (i a).val ∧ (i a).val < win2_3.index t a * S1x512x128.size a + S1x512x128.size a := by
  show i ∈ ((View.whole main_v56).slice (win2_3.rect t)).set ↔ _
  rw [View.set_slice_whole, Rect.mem_set_unit]
  exact Iff.rfl

/-- Every index of the array is in the slab of the last point of its half. -/
theorem pool2_cover (i : S2x512x128.Idx) :
    ∃ t : Fin cfg2.N, (cfg2.win 3).flush t = true ∧ i ∈ ((cfg2.win 3).blk t).view.set := by
  have h0 : (i 0).val < 2 := (i 0).isLt
  have h1 : (i 1).val < 512 := (i 1).isLt
  have h2 : (i 2).val < 128 := (i 2).isLt
  obtain ⟨-, -, -, -, -, -, e6, e7, e8⟩ := pool2_idx_facts ⟨5 * (i 0).val + 4, pool2_lt_N (by omega)⟩
  have e6' : win2_3.index ⟨5 * (i 0).val + 4, pool2_lt_N (by omega)⟩ (0 : Fin 3) = (i 0).val := by
    rw [e6]; show (5 * (i 0).val + 4) / 5 = _; omega
  refine ⟨⟨5 * (i 0).val + 4, pool2_lt_N (by omega)⟩, (flush2_3 _).mpr (by show (5 * (i 0).val + 4) % 5 = 4; omega), ?_⟩
  rw [pool2_mem_blk]
  intro a
  match a with
  | ⟨0, _⟩ =>
    show win2_3.index ⟨5 * (i 0).val + 4, pool2_lt_N (by omega)⟩ (0 : Fin 3) * 1 ≤ (i 0).val
      ∧ (i 0).val < win2_3.index ⟨5 * (i 0).val + 4, pool2_lt_N (by omega)⟩ (0 : Fin 3) * 1 + 1
    omega
  | ⟨1, _⟩ =>
    show win2_3.index ⟨5 * (i 0).val + 4, pool2_lt_N (by omega)⟩ (1 : Fin 3) * 512 ≤ (i 1).val
      ∧ (i 1).val < win2_3.index ⟨5 * (i 0).val + 4, pool2_lt_N (by omega)⟩ (1 : Fin 3) * 512 + 512
    omega
  | ⟨2, _⟩ =>
    show win2_3.index ⟨5 * (i 0).val + 4, pool2_lt_N (by omega)⟩ (2 : Fin 3) * 128 ≤ (i 2).val
      ∧ (i 2).val < win2_3.index ⟨5 * (i 0).val + 4, pool2_lt_N (by omega)⟩ (2 : Fin 3) * 128 + 128
    omega

/-- The result array after the region is that function of the operands. -/
theorem pool2_final (c : Dev nD) : (dat2 V c).arrAt 3 cfg2.N = pool2_G V c :=
  (dat2 V c).arrAt_eq_of_cover 3 (pool2_G V c) (fun t hf => pool2_flushed_eq V c t hf) pool2_cover

/-! ## The result -/

theorem pool_val (c : Dev nD) (h : Fin 2) (g : Fin 512) (j : Fin 128) :
    pool2At V c h g j
      = ∑ r : Fin 50000,
          Cert.Spec.oneHot (batch2At V c (Cert.Spec.halfNode h r)) g
            * max (agg2At V c (Cert.Spec.halfNode h r) j + b2At V c j) Cert.Spec.cZero := by
  show ((dat2 V c).arrAt 3 cfg2.N : S2x512x128.Idx → EReal) (ix3 h g j) = _
  rw [pool2_final]
  rfl

end Cert.KernelIdeal.Hand

end
-- ==== Proof.LibPlainDot.lean ====
/-
  A matrix product contracted over ONE axis, read at an index.

  For an `A × K` left operand and a `K × B` right operand whose dimension numbers contract the left operand's
  second axis against the right operand's first (no batch axes), the contraction index has one coordinate
  `k : Fin K`, the left operand is read at `(p, k)` and the right one at `(k, q)`. So the sum over the contraction
  index that the product's value is stated with is the textbook `∑ k, f (p, k) · g (k, q)`, whatever the sizes.
  `eq_plain` identifies any record with these dimension numbers with the library's `DotDims.plain`, for which the
  two operand indices compute.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx
open scoped BigOperators

variable {A K B : Nat}

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

/-- The contraction shape has one axis … -/
theorem plain_rank : (DotDims.plain A K B).contr.rank = 1 := rfl
/-- … of extent `K`. -/
theorem plain_size : (DotDims.plain A K B).contr.size ⟨0, by rw [plain_rank]; exact Nat.one_pos⟩ = K := rfl

/-- At result index `(p, q)` and contraction coordinate `k` the left operand is read at `(p, k)`. -/
theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

/-- At result index `(p, q)` and contraction coordinate `k` the right operand is read at `(k, q)`. -/
theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A block product into the zero accumulator, at `(p, q)`: `∑ k, lhs (p, k) · rhs (k, q)`. -/
theorem matmul_zero_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ .f32) (rhs : FVec Ideal ⟨2, ![K, B]⟩ .f32)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-- The host's product at `(p, q)`, whatever its schedule key: the same sum. -/
theorem dotGeneral_apply (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![A, K]⟩ .f32) (rhs : FVec Ideal ⟨2, ![K, B]⟩ .f32)
    (p : Fin A) (q : Fin B) :
    FloatOps.dotGeneral d prec sched lhs rhs (ix2 p q) = ∑ k : Fin K, lhs (ix2 p k) * rhs (ix2 k q) := by
  rw [eq_plain d hlc hrc hln hrn hlb hrb, Ideal.dotGeneral_apply]
  exact plain_sum lhs rhs p q

end Cert.LibPlainDot

end
-- ==== Proof.LibColumn.lean ====
/-
  A column of row values read at an index.

  A row reduction that keeps its reduced axis produces an `[a]` array given a trailing unit axis, `[a, 1]`, and then
  spread along that axis to `[a, b]`: entry `(i, 0)` of the cast is the array's entry `i`, and entry `(i, j)` of the
  spread column is the column's entry `(i, 0)`, whatever the sizes and the element type.
-/
import Idealize.ShloMosaic.Lib.ValueIdx
import Idealize.ShloMosaic.Lib.Pipeline.Value

namespace Cert.LibColumn

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.KI.Value1.lean ====
import proofs.«413865_j65704409694829_2_alg».proof.Proof.KI.Region1Defs
import proofs.«413865_j65704409694829_2_alg».proof.Proof.Spec
import proofs.«413865_j65704409694829_2_alg».proof.Proof.LibPlainDot
import proofs.«413865_j65704409694829_2_alg».proof.Proof.LibColumn
import Idealize.ShloMosaic.Lib.ValueIdx
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! # What region 1 leaves in its result array, at the ideal instance: row by row the affine image of the gated
row (scale and shift per column) times the weight matrix -/

/-- The region's five operands and its result, read at plain coordinates. -/
abbrev x1At (c : Dev nD) : Fin 100000 → Fin 128 → EReal := fun n k => (V c main_arg0 : S100000x128.Idx → EReal) (ix2 n k)
abbrev natt1At (c : Dev nD) : Fin 100000 → EReal := fun n => (V c main_arg4 : S100000x1.Idx → EReal) (ix2 n (0 : Fin 1))
abbrev scale1At (c : Dev nD) : Fin 128 → EReal := fun k => (V c main_v15 : S1x128.Idx → EReal) (ix2 (0 : Fin 1) k)
abbrev shift1At (c : Dev nD) : Fin 128 → EReal := fun k => (V c main_v16 : S1x128.Idx → EReal) (ix2 (0 : Fin 1) k)
abbrev w1At (c : Dev nD) : Fin 128 → Fin 128 → EReal := fun k j => (V c main_arg5 : S128x128.Idx → EReal) (ix2 k j)
abbrev lin1At (c : Dev nD) : Fin 100000 → Fin 128 → EReal := fun n j =>
  ((dat1 (F := Ideal) V c).arrAt 5 cfg1.N : S100000x128.Idx → EReal) (ix2 n j)

/-- A row of 128 spread over 10000 rows reads, at (p, k), the row at (0, k). -/
theorem lin1_rowSpread_apply {α : Type} {a b : ℕ} (v : (⟨2, ![1, b]⟩ : Shape).Idx → α) (h : (⟨2, ![1, b]⟩ : Shape).Broadcasts ⟨2, ![a, b]⟩)
    (i : Fin a) (j : Fin b) : broadcastTo ⟨2, ![a, b]⟩ v h (ix2 i j) = v (ix2 (0 : Fin 1) j) := by
  refine broadcastTo_apply v h (ix2 i j) (ix2 (0 : Fin 1) j) fun ax => ?_
  match ax with
  | ⟨0, _⟩ => rfl
  | ⟨1, _⟩ =>
    show j.val = if b = 1 then 0 else j.val
    split
    · have := j.isLt; omega
    · rfl

/-- The body's stored value at (p, q), over any five operand blocks: the product into the zero accumulator is the plain
    sum over k; the gate column is spread along the row, the scale and shift rows down the rows. -/
theorem lin1_pay_apply (g : Vec Ideal S10000x1 .f32) (x : Vec Ideal S10000x128 .f32) (sc : Vec Ideal S1x128 .f32)
    (sh : Vec Ideal S1x128 .f32) (w : Vec Ideal S128x128 .f32) (p : Fin 10000) (q : Fin 128) :
    (k1_pay1 g x sc sh w : S10000x128.Idx → EReal) (ix2 p q)
      = ∑ k : Fin 128, ((g : S10000x1.Idx → EReal) (ix2 p (0 : Fin 1)) * (x : S10000x128.Idx → EReal) (ix2 p k) * (sc : S1x128.Idx → EReal) (ix2 (0 : Fin 1) k)
          + (sh : S1x128.Idx → EReal) (ix2 (0 : Fin 1) k)) * (w : S128x128.Idx → EReal) (ix2 k q) := by
  unfold k1_pay1
  refine (Cert.LibPlainDot.matmul_zero_apply (A := 10000) (K := 128) (B := 128) dot_S10000x128_S128x128_S10000x128_1_0_0_1_n_n rfl rfl rfl rfl rfl rfl none _ _ p q).trans ?_
  refine Finset.sum_congr rfl fun k _ => ?_
  rw [addf_apply, mulf_apply, mulf_apply, Cert.LibColumn.broadcastTo_a1_ab_apply, lin1_rowSpread_apply, lin1_rowSpread_apply,
    shapeCast_self, shapeCast_self]

/-- What the result array ends holding: at (n, j) the sum over k of (gate n · x (n, k) · scale k + shift k) · W (k, j). -/
def lin1G (c : Dev nD) : S100000x128.Idx → EReal := fun i =>
  ∑ k : Fin 128, (natt1At V c (i 0) * x1At V c (i 0) k * scale1At V c k + shift1At V c k) * w1At V c k (i 1)

/-- The printed index maps over the ten points: the row windows (the rows, the gate column, the result) sit at block
    (t, 0), the whole-array windows (scale, shift, weights) at block (0, 0). -/
theorem lin1_idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Entry (p, k) of the block of rows at point t is the array's entry (10000 t + p, k). -/
theorem lin1_iblk_0_apply (c : Dev nD) (t : Fin cfg1.N) (y : S10000x128.Idx) (i : S100000x128.Idx)
    (h0 : (i 0).val = 10000 * t.val + (y 0).val) (h1 : (i 1).val = (y 1).val) :
    (iblk1 V c 0 t : S10000x128.Idx → EReal) y = (V c main_arg0 : S100000x128.Idx → EReal) i := by
  obtain ⟨e0, e1, -⟩ := lin1_idx_facts t
  unfold iblk1
  rw [View.read_apply]
  show V c main_arg0 _ = V c main_arg0 _
  congr 1
  funext a
  apply Fin.ext
  match a with
  | ⟨0, _⟩ => show win1_0.index t (0 : Fin 2) * 10000 + 1 * (y 0).val = (i 0).val; rw [e0, h0]; omega
  | ⟨1, _⟩ => show win1_0.index t (1 : Fin 2) * 128 + 1 * (y 1).val = (i 1).val; rw [e1, h1]; omega

/-- Entry (p, 0) of the block of the gate column at point t is the column's entry (10000 t + p, 0). -/
theorem lin1_iblk_1_apply (c : Dev nD) (t : Fin cfg1.N) (y : S10000x1.Idx) (i : S100000x1.Idx)
    (h0 : (i 0).val = 10000 * t.val + (y 0).val) (h1 : (i 1).val = (y 1).val) :
    (iblk1 V c 1 t : S10000x1.Idx → EReal) y = (V c main_arg4 : S100000x1.Idx → EReal) i := by
  obtain ⟨-, -, e0, e1, -⟩ := lin1_idx_facts t
  unfold iblk1
  rw [View.read_apply]
  show V c main_arg4 _ = V c main_arg4 _
  congr 1
  funext a
  apply Fin.ext
  match a with
  | ⟨0, _⟩ => show win1_1.index t (0 : Fin 2) * 10000 + 1 * (y 0).val = (i 0).val; rw [e0, h0]; omega
  | ⟨1, _⟩ => show win1_1.index t (1 : Fin 2) * 1 + 1 * (y 1).val = (i 1).val; rw [e1, h1]; omega

/-- The scale row's block is the whole row at every point. -/
theorem lin1_iblk_2_apply (c : Dev nD) (t : Fin cfg1.N) (y : S1x128.Idx) :
    (iblk1 V c 2 t : S1x128.Idx → EReal) y = (V c main_v15 : S1x128.Idx → EReal) y := by
  obtain ⟨-, -, -, -, e0, e1, -⟩ := lin1_idx_facts t
  unfold iblk1
  rw [View.read_apply]
  show V c main_v15 _ = V c main_v15 _
  congr 1
  funext a
  apply Fin.ext
  match a with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

/-- The shift row's block is the whole row at every point. -/
theorem lin1_iblk_3_apply (c : Dev nD) (t : Fin cfg1.N) (y : S1x128.Idx) :
    (iblk1 V c 3 t : S1x128.Idx → EReal) y = (V c main_v16 : S1x128.Idx → EReal) y := by
  obtain ⟨-, -, -, -, -, -, e0, e1, -⟩ := lin1_idx_facts t
  unfold iblk1
  rw [View.read_apply]
  show V c main_v16 _ = V c main_v16 _
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

/-- The weight matrix's block is the whole matrix at every point. -/
theorem lin1_iblk_4_apply (c : Dev nD) (t : Fin cfg1.N) (y : S128x128.Idx) :
    (iblk1 V c 4 t : S128x128.Idx → EReal) y = (V c main_arg5 : S128x128.Idx → EReal) y := by
  obtain ⟨-, -, -, -, -, -, -, -, e0, e1, -⟩ := lin1_idx_facts t
  unfold iblk1
  rw [View.read_apply]
  show V c main_arg5 _ = V c main_arg5 _
  congr 1
  funext a
  apply Fin.ext
  match a with
  | ⟨0, _⟩ => show win1_4.index t (0 : Fin 2) * 128 + 1 * (y 0).val = (y 0).val; rw [e0]; omega
  | ⟨1, _⟩ => show win1_4.index t (1 : Fin 2) * 128 + 1 * (y 1).val = (y 1).val; rw [e1]; omega

/-- What point t writes back is block t of the closed form: the body's payload at (p, q) is the plain sum over k, and
    each block entry it reads is the array's entry at row 10000 t + p (rows, gate), or the array's own entry (scale,
    shift, weights). -/
theorem lin1_flushed (c : Dev nD) (t : Fin cfg1.N) :
    (dat1 V c).flushed 5 t = ((cfg1.win 5).blk t).view.read (Elt Ideal) (lin1G V c) := by
  show (cfg1.win 5).cut (grid1.coords t) ((dat1 V c).after 5 t) = _
  rw [after1_5]
  obtain ⟨-, -, -, -, -, -, -, -, -, -, e0, e1⟩ := lin1_idx_facts t
  have htN : t.val < 10 := lt_of_lt_of_eq t.isLt N_1
  funext y
  obtain ⟨p, q, rfl⟩ : ∃ (p : Fin 10000) (q : Fin 128), y = ix2 p q := ⟨y 0, y 1, eq_ix2 (n0 := 10000) (n1 := 128) y⟩
  have hr : (((cfg1.win 5).blk t).view.emb (ix2 p q) : S100000x128.Idx) = ix2 (⟨10000 * t.val + p.val, by have := p.isLt; omega⟩ : Fin 100000) q := by
    funext a
    apply Fin.ext
    match a with
    | ⟨0, _⟩ => show win1_5.index t (0 : Fin 2) * 10000 + 1 * p.val = 10000 * t.val + p.val; rw [e0]; omega
    | ⟨1, _⟩ => show win1_5.index t (1 : Fin 2) * 128 + 1 * q.val = q.val; rw [e1]; omega
  show (k1_pay1 (iblk1 V c 1 t) (iblk1 V c 0 t) (iblk1 V c 2 t) (iblk1 V c 3 t) (iblk1 V c 4 t) : S10000x128.Idx → EReal) (ix2 p q)
    = lin1G V c (((cfg1.win 5).blk t).view.emb (ix2 p q))
  rw [lin1_pay_apply, hr]
  unfold lin1G
  refine Finset.sum_congr rfl fun k _ => ?_
  rw [lin1_iblk_0_apply V c t (ix2 p k) (ix2 ⟨10000 * t.val + p.val, _⟩ k) rfl rfl,
    lin1_iblk_1_apply V c t (ix2 p (0 : Fin 1)) (ix2 ⟨10000 * t.val + p.val, _⟩ (0 : Fin 1)) rfl rfl,
    lin1_iblk_2_apply, lin1_iblk_3_apply, lin1_iblk_4_apply]

/-- An index of the result array is in point t's block iff each coordinate is in the block's range on its axis. -/
theorem lin1_mem_blk (t : Fin cfg1.N) (i : S100000x128.Idx) :
    i ∈ ((cfg1.win 5).blk t).view.set ↔ ∀ a : Fin 2, win1_5.index t a * S10000x128.size a ≤ (i a).val ∧ (i a).val < win1_5.index t a * S10000x128.size a + S10000x128.size a := by
  show i ∈ ((View.whole main_v17).slice (win1_5.rect t)).set ↔ _
  rw [View.set_slice_whole, Rect.mem_set_unit]
  exact Iff.rfl

/-- Every index of the result array is in some point's block: row n is in block n / 10000. -/
theorem lin1_cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 10 := N_1
  let t : Fin cfg1.N := ⟨(i 0).val / 10000, by rw [hN]; omega⟩
  obtain ⟨-, -, -, -, -, -, -, -, -, -, e0, e1⟩ := lin1_idx_facts t
  have ht : t.val = (i 0).val / 10000 := rfl
  refine ⟨t, flush1_5 t, ?_⟩
  rw [lin1_mem_blk]
  intro a
  match a with
  | ⟨0, _⟩ => show win1_5.index t (0 : Fin 2) * 10000 ≤ (i 0).val ∧ (i 0).val < win1_5.index t (0 : Fin 2) * 10000 + 10000; rw [e0, ht]; omega
  | ⟨1, _⟩ => show win1_5.index t (1 : Fin 2) * 128 ≤ (i 1).val ∧ (i 1).val < win1_5.index t (1 : Fin 2) * 128 + 128; rw [e1]; omega

/-- So the result array ends holding the closed form. -/
theorem lin1_final (c : Dev nD) : (dat1 V c).arrAt 5 cfg1.N = lin1G V c :=
  (dat1 V c).arrAt_eq_of_cover 5 (lin1G V c) (fun t _ => lin1_flushed V c t) lin1_cover

/-- The result array at (n, j): the sum over k of (gate n · x (n, k) · scale k + shift k) · W (k, j). -/
theorem lin_val (c : Dev nD) (n : Fin 100000) (j : Fin 128) :
    lin1At V c n j
      = ∑ k : Fin 128, (natt1At V c n * x1At V c n k * scale1At V c k + shift1At V c k) * w1At V c k j := by
  show (dat1 V c).arrAt 5 cfg1.N (ix2 n j) = _
  rw [lin1_final]
  rfl

end Cert.KernelIdeal.Hand

end
-- ==== Proof.KI.Value0.lean ====
import proofs.«413865_j65704409694829_2_alg».proof.Proof.KI.Region0Defs
import proofs.«413865_j65704409694829_2_alg».proof.Proof.Spec
import proofs.«413865_j65704409694829_2_alg».proof.Proof.LibColumn
import proofs.«413865_j65704409694829_2_alg».proof.Proof.LibBlockSum
import Idealize.ShloMosaic.Lib.ValueIdx
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! # What region 0 leaves in its two result arrays, at the ideal instance: the column sums of the gated rows and of
their squares over all 100000 rows -/

/-- The features and the gate as the region finds them. -/
abbrev x0At (c : Dev nD) : Fin 100000 → Fin 128 → EReal := fun n k => (V c main_arg0 : S100000x128.Idx → EReal) (ix2 n k)
abbrev natt0At (c : Dev nD) : Fin 100000 → EReal := fun n => (V c main_arg4 : S100000x1.Idx → EReal) (ix2 n (0 : Fin 1))

abbrev sum0At (c : Dev nD) : Fin 128 → EReal := fun k => ((dat0 (F := Ideal) V c).arrAt 2 cfg0.N : S1x128.Idx → EReal) (ix2 (0 : Fin 1) k)
abbrev sumsq0At (c : Dev nD) : Fin 128 → EReal := fun k => ((dat0 (F := Ideal) V c).arrAt 3 cfg0.N : S1x128.Idx → EReal) (ix2 (0 : Fin 1) k)

/-! ## One step of each accumulator, entry by entry

The first accumulator starts at zero and at each point gains, in column `k`, the sum over the block's 10000 rows of
gate × feature; the second gains the sum of the squares of those products. -/

/-- The zero the first accumulator starts from. -/
theorem zeroS_apply (k : Fin 128) : ((k0_pay1 (F := Ideal)) : S1x128.Idx → EReal) (ix2 (0 : Fin 1) k) = 0 := by
  unfold k0_pay1
  rw [shapeCast_self]
  exact Ideal.ofBits_zero_f32

/-- The zero the second accumulator starts from. -/
theorem zeroQ_apply (k : Fin 128) : ((k0_pay2 (F := Ideal)) : S1x128.Idx → EReal) (ix2 (0 : Fin 1) k) = 0 := by
  unfold k0_pay2
  rw [shapeCast_self]
  exact Ideal.ofBits_zero_f32

/-- The gated block at row `r`, column `k`: the gate column's entry of that row times the feature. -/
theorem gated_apply (g : FVec Ideal S10000x1 .f32) (x : FVec Ideal S10000x128 .f32) (r : Fin 10000) (k : Fin 128) :
    (k0_pay3 (F := Ideal) g x : S10000x128.Idx → EReal) (ix2 r k) = g (ix2 r (0 : Fin 1)) * x (ix2 r k) := by
  unfold k0_pay3
  rw [mulf_apply, Cert.LibColumn.broadcastTo_a1_ab_apply]

/-- The sum of a [10000,128] block over its rows, given a leading unit axis, at column `k`. -/
theorem colsum_apply (src : FVec Ideal S10000x128 .f32) (hacc : (0x00000000#32 : BitVec 32) = 0x00000000#32) (k : Fin 128) :
    (shapeCast S1x128 (multiReduction (F := Ideal) .add [0] S128 src 0x00000000#32 reduces_S10000x128_S128 (.inl rfl) hacc)
        shapeCasts_S128_S1x128 : S1x128.Idx → EReal) (ix2 (0 : Fin 1) k)
      = ∑ r : Fin 10000, src (ix2 r k) := by
  rw [shapeCast_apply _ shapeCasts_S128_S1x128 (ix2 (0 : Fin 1) k) (ix1 k)
    (by rw [Shape.rowMajor_val_two, Shape.rowMajor_val_one]; show k.val = 0 * 128 + k.val; omega)]
  refine (Ideal.multiReduction_add_single src 0x00000000#32 reduces_S10000x128_S128 (.inl rfl) hacc (ix1 k)).trans ?_
  refine Finset.sum_congr rfl fun r _ => congrArg src ?_
  funext a
  match a with
  | ⟨0, _⟩ => rfl
  | ⟨1, _⟩ => rfl

/-- One step of the first accumulator at column `k`. -/
theorem stepS_apply (g : FVec Ideal S10000x1 .f32) (x : FVec Ideal S10000x128 .f32) (acc : FVec Ideal S1x128 .f32) (k : Fin 128) :
    (k0_pay4 (F := Ideal) g x acc : S1x128.Idx → EReal) (ix2 (0 : Fin 1) k)
      = acc (ix2 (0 : Fin 1) k) + ∑ r : Fin 10000, g (ix2 r (0 : Fin 1)) * x (ix2 r k) := by
  unfold k0_pay4
  rw [shapeCast_self, addf_apply, colsum_apply]
  exact congrArg _ (Finset.sum_congr rfl fun r _ => gated_apply g x r k)

/-- One step of the second accumulator at column `k`. -/
theorem stepQ_apply (g : FVec Ideal S10000x1 .f32) (x : FVec Ideal S10000x128 .f32) (acc : FVec Ideal S1x128 .f32) (k : Fin 128) :
    (k0_pay5 (F := Ideal) g x acc : S1x128.Idx → EReal) (ix2 (0 : Fin 1) k)
      = acc (ix2 (0 : Fin 1) k)
        + ∑ r : Fin 10000, (g (ix2 r (0 : Fin 1)) * x (ix2 r k)) * (g (ix2 r (0 : Fin 1)) * x (ix2 r k)) := by
  unfold k0_pay5
  rw [shapeCast_self, addf_apply, colsum_apply]
  refine congrArg _ (Finset.sum_congr rfl fun r _ => ?_)
  rw [mulf_apply, gated_apply]

/-! ## The blocks as rows of the arrays

Point `t` reads rows `10000 t … 10000 t + 9999` of the features and of the gate. -/

theorem rows_x : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

theorem rows_g : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- The feature block of point `t` at `(r, k)` is the feature array at row `10000 t + r`. -/
theorem xblk_apply (c : Dev nD) (t : Fin cfg0.N) (r : Fin 10000) (k : Fin 128) (n : Fin 100000)
    (hn : n.val = 10000 * t.val + r.val) :
    (iblk0 V c 0 t : S10000x128.Idx → EReal) (ix2 r k) = x0At V c n k := by
  obtain ⟨e0, e1⟩ := rows_x t
  unfold iblk0
  rw [View.read_apply]
  show V c main_arg0 _ = V c main_arg0 _
  congr 1
  funext a
  apply Fin.ext
  match a with
  | ⟨0, _⟩ => show win0_0.index t 0 * 10000 + 1 * r.val = n.val; rw [e0, hn]; omega
  | ⟨1, _⟩ => show win0_0.index t 1 * 128 + 1 * k.val = k.val; rw [e1]; omega

/-- The gate block of point `t` at `(r, 0)` is the gate array at row `10000 t + r`. -/
theorem gblk_apply (c : Dev nD) (t : Fin cfg0.N) (r : Fin 10000) (n : Fin 100000)
    (hn : n.val = 10000 * t.val + r.val) :
    (iblk0 V c 1 t : S10000x1.Idx → EReal) (ix2 r (0 : Fin 1)) = natt0At V c n := by
  obtain ⟨e0, e1⟩ := rows_g t
  unfold iblk0
  rw [View.read_apply]
  show V c main_arg4 _ = V c main_arg4 _
  congr 1
  funext a
  apply Fin.ext
  match a with
  | ⟨0, _⟩ => show win0_1.index t 0 * 10000 + 1 * r.val = n.val; rw [e0, hn]; omega
  | ⟨1, _⟩ => show win0_1.index t 1 * 1 + 1 * 0 = 0; rw [e1]

/-! ## The accumulators as partial sums over row blocks -/

/-- Adding block `n` to the first accumulator. -/
theorem val0_accS0_succ (c : Dev nD) (k : Fin 128) (n : ℕ) (h : n < 10) :
    (accS0 V c (n + 1) : S1x128.Idx → EReal) (ix2 (0 : Fin 1) k)
      = (accS0 V c n : S1x128.Idx → EReal) (ix2 (0 : Fin 1) k)
        + ∑ r : Fin 10000, Cert.Spec.gate (x0At V c) (natt0At V c) ⟨10000 * n + r.val, by have := r.isLt; omega⟩ k := by
  have h' : n < cfg0.N := by rw [show cfg0.N = 10 from N_0]; exact h
  rw [accS0, dif_pos h']
  refine (stepS_apply _ _ _ k).trans (congrArg _ (Finset.sum_congr rfl fun r _ => ?_))
  unfold Cert.Spec.gate
  rw [gblk_apply V c ⟨n, h'⟩ r ⟨10000 * n + r.val, by have := r.isLt; omega⟩ rfl,
    xblk_apply V c ⟨n, h'⟩ r k ⟨10000 * n + r.val, by have := r.isLt; omega⟩ rfl]

/-- Adding block `n` to the second accumulator. -/
theorem val0_accQ0_succ (c : Dev nD) (k : Fin 128) (n : ℕ) (h : n < 10) :
    (accQ0 V c (n + 1) : S1x128.Idx → EReal) (ix2 (0 : Fin 1) k)
      = (accQ0 V c n : S1x128.Idx → EReal) (ix2 (0 : Fin 1) k)
        + ∑ r : Fin 10000, Cert.Spec.gate (x0At V c) (natt0At V c) ⟨10000 * n + r.val, by have := r.isLt; omega⟩ k
            * Cert.Spec.gate (x0At V c) (natt0At V c) ⟨10000 * n + r.val, by have := r.isLt; omega⟩ k := by
  have h' : n < cfg0.N := by rw [show cfg0.N = 10 from N_0]; exact h
  rw [accQ0, dif_pos h']
  refine (stepQ_apply _ _ _ k).trans (congrArg _ (Finset.sum_congr rfl fun r _ => ?_))
  unfold Cert.Spec.gate
  rw [gblk_apply V c ⟨n, h'⟩ r ⟨10000 * n + r.val, by have := r.isLt; omega⟩ rfl,
    xblk_apply V c ⟨n, h'⟩ r k ⟨10000 * n + r.val, by have := r.isLt; omega⟩ rfl]

/-- The first accumulator after `n` blocks: the gated features summed over those blocks' rows. -/
theorem accS0_sum (c : Dev nD) (k : Fin 128) : ∀ (n : ℕ) (hn : n ≤ 10),
    (accS0 V c n : S1x128.Idx → EReal) (ix2 (0 : Fin 1) k)
      = ∑ b : Fin n, ∑ r : Fin 10000,
          Cert.Spec.gate (x0At V c) (natt0At V c) ⟨10000 * b.val + r.val, by have := b.isLt; have := r.isLt; omega⟩ k
  | 0, _ => by
    rw [accS0, zeroS_apply, Finset.univ_eq_empty, Finset.sum_empty]
  | n + 1, hn => by
    rw [Fin.sum_univ_castSucc, val0_accS0_succ V c k n (by omega), accS0_sum c k n (by omega)]
    rfl

/-- The second accumulator after `n` blocks: the squares of the gated features summed over those blocks' rows. -/
theorem accQ0_sum (c : Dev nD) (k : Fin 128) : ∀ (n : ℕ) (hn : n ≤ 10),
    (accQ0 V c n : S1x128.Idx → EReal) (ix2 (0 : Fin 1) k)
      = ∑ b : Fin n, ∑ r : Fin 10000,
          Cert.Spec.gate (x0At V c) (natt0At V c) ⟨10000 * b.val + r.val, by have := b.isLt; have := r.isLt; omega⟩ k
            * Cert.Spec.gate (x0At V c) (natt0At V c) ⟨10000 * b.val + r.val, by have := b.isLt; have := r.isLt; omega⟩ k
  | 0, _ => by
    rw [accQ0, zeroQ_apply, Finset.univ_eq_empty, Finset.sum_empty]
  | n + 1, hn => by
    rw [Fin.sum_univ_castSucc, val0_accQ0_succ V c k n (by omega), accQ0_sum c k n (by omega)]
    rfl

/-! ## From the one written block to the arrays

Each result window has one [1,128] block, the whole array, at the origin at every point, written back at the last point
only; so the array ends holding what the accumulator holds after the last point. -/

theorem origin_S : ∀ (t : Fin cfg0.N) (a : Fin 2), win0_2.index t a = 0 :=
  (by decide +kernel : ∀ (t : Fin grid0.N) (a : Fin 2), win0_2.index t a = 0)

theorem origin_Q : ∀ (t : Fin cfg0.N) (a : Fin 2), win0_3.index t a = 0 :=
  (by decide +kernel : ∀ (t : Fin grid0.N) (a : Fin 2), win0_3.index t a = 0)

/-- What a writing point writes into the first result array is the first accumulator after all ten blocks, whole. -/
theorem writtenS_eq (c : Dev nD) (t : Fin cfg0.N) (hf : (cfg0.win 2).flush t = true) :
    (dat0 (F := Ideal) V c).flushed 2 t = ((cfg0.win 2).blk t).view.read (Elt Ideal) (accS0 V c 10) := by
  have hN : cfg0.N = 10 := N_0
  have h9 : t.val + 1 = 10 := by have := (flush0_2 t).mp hf; have := t.isLt; omega
  have hz : (fun a => win0_2.index t a * main_v0_0.ty.shape.size a) = fun _ => 0 :=
    funext fun a => by rw [origin_S t a, Nat.zero_mul]
  show (cfg0.win 2).cut (grid0.coords t) ((dat0 V c).after 2 t) = _
  rw [after0_2, h9]
  exact (Memref.read_access_unit_zero (Elt Ideal) main_v0_0 hz (fun a => by rw [congrFun hz a]; simp) (accS0 V c 10)).symm

theorem writtenQ_eq (c : Dev nD) (t : Fin cfg0.N) (hf : (cfg0.win 3).flush t = true) :
    (dat0 (F := Ideal) V c).flushed 3 t = ((cfg0.win 3).blk t).view.read (Elt Ideal) (accQ0 V c 10) := by
  have hN : cfg0.N = 10 := N_0
  have h9 : t.val + 1 = 10 := by have := (flush0_3 t).mp hf; have := t.isLt; omega
  have hz : (fun a => win0_3.index t a * main_v0_1.ty.shape.size a) = fun _ => 0 :=
    funext fun a => by rw [origin_Q t a, Nat.zero_mul]
  show (cfg0.win 3).cut (grid0.coords t) ((dat0 V c).after 3 t) = _
  rw [after0_3, h9]
  exact (Memref.read_access_unit_zero (Elt Ideal) main_v0_1 hz (fun a => by rw [congrFun hz a]; simp) (accQ0 V c 10)).symm

/-- An index of the first result array is in point `t`'s block iff each coordinate is in the block's range. -/
theorem mem_blkS (t : Fin cfg0.N) (i : S1x128.Idx) :
    i ∈ ((cfg0.win 2).blk t).view.set
      ↔ ∀ a : Fin 2, win0_2.index t a * S1x128.size a ≤ (i a).val ∧ (i a).val < win0_2.index t a * S1x128.size a + S1x128.size a := by
  show i ∈ ((View.whole main_v0_0).slice (win0_2.rect t)).set ↔ _
  rw [View.set_slice_whole, Rect.mem_set_unit]
  exact Iff.rfl

theorem mem_blkQ (t : Fin cfg0.N) (i : S1x128.Idx) :
    i ∈ ((cfg0.win 3).blk t).view.set
      ↔ ∀ a : Fin 2, win0_3.index t a * S1x128.size a ≤ (i a).val ∧ (i a).val < win0_3.index t a * S1x128.size a + S1x128.size a := by
  show i ∈ ((View.whole main_v0_1).slice (win0_3.rect t)).set ↔ _
  rw [View.set_slice_whole, Rect.mem_set_unit]
  exact Iff.rfl

/-- The first result array after the region. -/
theorem arrS_eq (c : Dev nD) : (dat0 (F := Ideal) V c).arrAt 2 cfg0.N = accS0 V c 10 :=
  (dat0 V c).arrAt_eq_of_cover 2 (accS0 V c 10) (writtenS_eq V c) fun i =>
    ⟨t0_9, (flush0_2 t0_9).mpr rfl, by
      rw [mem_blkS]
      intro a
      rw [origin_S t0_9 a, Nat.zero_mul, Nat.zero_add]
      exact ⟨Nat.zero_le _, (i a).isLt⟩⟩

/-- The second result array after the region. -/
theorem arrQ_eq (c : Dev nD) : (dat0 (F := Ideal) V c).arrAt 3 cfg0.N = accQ0 V c 10 :=
  (dat0 V c).arrAt_eq_of_cover 3 (accQ0 V c 10) (writtenQ_eq V c) fun i =>
    ⟨t0_9, (flush0_3 t0_9).mpr rfl, by
      rw [mem_blkQ]
      intro a
      rw [origin_Q t0_9 a, Nat.zero_mul, Nat.zero_add]
      exact ⟨Nat.zero_le _, (i a).isLt⟩⟩

/-! ## The two results -/

theorem sum_val (c : Dev nD) (k : Fin 128) : sum0At V c k = Cert.Spec.kS (x0At V c) (natt0At V c) k := by
  show ((dat0 (F := Ideal) V c).arrAt 2 cfg0.N : S1x128.Idx → EReal) (ix2 (0 : Fin 1) k) = _
  rw [arrS_eq V c, accS0_sum V c k 10 (le_refl _)]
  unfold Cert.Spec.kS
  exact Cert.BlockSum.sum_blocks 10 10000 (fun n => Cert.Spec.gate (x0At V c) (natt0At V c) n k)

theorem sumsq_val (c : Dev nD) (k : Fin 128) : sumsq0At V c k = Cert.Spec.kQ (x0At V c) (natt0At V c) k := by
  show ((dat0 (F := Ideal) V c).arrAt 3 cfg0.N : S1x128.Idx → EReal) (ix2 (0 : Fin 1) k) = _
  rw [arrQ_eq V c, accQ0_sum V c k 10 (le_refl _)]
  unfold Cert.Spec.kQ
  exact Cert.BlockSum.sum_blocks 10 10000
    (fun n => Cert.Spec.gate (x0At V c) (natt0At V c) n k * Cert.Spec.gate (x0At V c) (natt0At V c) n k)

end Cert.KernelIdeal.Hand

end
-- ==== Proof.KI.Host1.lean ====
import proofs.«413865_j65704409694829_2_alg».proof.Proof.KI.Args
import proofs.«413865_j65704409694829_2_alg».proof.Proof.KI.Value0
import Idealize.ShloMosaic.Lib.StableHlo.Run
import proofs.«413865_j65704409694829_2_alg».proof.Proof.Spec
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (m : (ℓ : Loc nD τ sig) → Buf (Elt Ideal) ℓ)

/-! # The first host stretch: from region 0's column sums to the folded scale and shift rows -/

/-! ## The stretch's operations as functions of the rows they read -/

/-- A row of column sums divided by the row count 100000, as a vector of 128. -/
def meanRow (s : FVec Ideal S1x128 .f32) : FVec Ideal S128 .f32 :=
  Host.divf (shapeCast S128 s shapeCasts_S1x128_S128)
    (broadcastInDim S128 ![] bcast_S_S128 (constant (F := Ideal) S_ .f32 0x47C35000#32))

/-- The folded scale: the normalisation's gain times the inverse square root of variance plus epsilon, the variance
    being the mean square less the squared mean. -/
def scaleRow (s q : FVec Ideal S1x128 .f32) (g : FVec Ideal S128 .f32) : FVec Ideal S128 .f32 :=
  mulf g (Host.rsqrt (addf (subf (meanRow q) (mulf (meanRow s) (meanRow s)))
    (broadcastInDim S128 ![] bcast_S_S128 (constant (F := Ideal) S_ .f32 0x3727C5AC#32))))

/-- The folded shift: the normalisation's offset less the mean times the folded scale. -/
def shiftRow (s q : FVec Ideal S1x128 .f32) (g b : FVec Ideal S128 .f32) : FVec Ideal S128 .f32 :=
  subf b (mulf (meanRow s) (scaleRow s q g))

theorem meanRow_apply (s : FVec Ideal S1x128 .f32) (k : Fin 128) :
    meanRow s (ix1 k) = Ideal.div (s (ix2 (0 : Fin 1) k)) Cert.Spec.cN := by
  unfold meanRow Host.divf
  show FloatOps.hostDivf (shapeCast S128 s shapeCasts_S1x128_S128 (ix1 k))
    (broadcastInDim S128 ![] bcast_S_S128 (constant (F := Ideal) S_ .f32 0x47C35000#32) (ix1 k)) = _
  rw [Ideal.hostDivf_def, shapeCast_1a_a_apply, broadcastInDim_apply ![] bcast_S_S128 _ _ ix0 (fun a => a.elim0), constant_apply]

theorem scaleRow_apply (s q : FVec Ideal S1x128 .f32) (g : FVec Ideal S128 .f32) (k : Fin 128) :
    scaleRow s q g (ix1 k) = g (ix1 k) * Ideal.rsqrt ((meanRow q (ix1 k) - meanRow s (ix1 k) * meanRow s (ix1 k)) + Cert.Spec.cEps) := by
  unfold scaleRow Host.rsqrt
  rw [mulf_apply]
  show g (ix1 k) * FloatOps.hostUnary .rsqrt (addf (subf (meanRow q) (mulf (meanRow s) (meanRow s)))
    (broadcastInDim S128 ![] bcast_S_S128 (constant (F := Ideal) S_ .f32 0x3727C5AC#32)) (ix1 k)) = _
  rw [Ideal.hostUnary_rsqrt_def, addf_apply, subf_apply, mulf_apply,
    broadcastInDim_apply ![] bcast_S_S128 _ _ ix0 (fun a => a.elim0), constant_apply]

theorem shiftRow_apply (s q : FVec Ideal S1x128 .f32) (g b : FVec Ideal S128 .f32) (k : Fin 128) :
    shiftRow s q g b (ix1 k) = b (ix1 k) - meanRow s (ix1 k) * scaleRow s q g (ix1 k) := by
  unfold shiftRow
  rw [subf_apply, mulf_apply]

/-! ## What the stretch reads: region 0's two results and two arguments region 0 leaves alone -/

theorem W1_sum (c : Dev nD) (k : Fin 128) :
    (W1 (F := Ideal) m c (Proc.devRef .tc main_v0_0) : S1x128.Idx → EReal) (ix2 (0 : Fin 1) k)
      = Cert.Spec.kS (xOf m c) (nattOf m c) k := by
  have h : W1 (F := Ideal) m c (Proc.devRef .tc main_v0_0) = (dat0 (VR0 m) c).arrAt 2 cfg0.N := W1_arr m c 2
  rw [h]
  exact sum_val (VR0 m) c k

theorem W1_sumsq (c : Dev nD) (k : Fin 128) :
    (W1 (F := Ideal) m c (Proc.devRef .tc main_v0_1) : S1x128.Idx → EReal) (ix2 (0 : Fin 1) k)
      = Cert.Spec.kQ (xOf m c) (nattOf m c) k := by
  have h : W1 (F := Ideal) m c (Proc.devRef .tc main_v0_1) = (dat0 (VR0 m) c).arrAt 3 cfg0.N := W1_arr m c 3
  rw [h]
  exact sumsq_val (VR0 m) c k

theorem W1_gamma (c : Dev nD) (k : Fin 128) :
    (W1 (F := Ideal) m c (Proc.devRef .tc main_arg7) : S128.Idx → EReal) (ix1 k) = gammaOf m c k := by
  rw [W1_of_ne m c main_arg7 (by decide)]

theorem W1_beta (c : Dev nD) (k : Fin 128) :
    (W1 (F := Ideal) m c (Proc.devRef .tc main_arg8) : S128.Idx → EReal) (ix1 k) = betaOf m c k := by
  rw [W1_of_ne m c main_arg8 (by decide)]

/-! ## The two rows the stretch leaves -/

theorem scale2_eq (c : Dev nD) :
    (W2 (F := Ideal) m c (Proc.devRef .tc main_v15) : S1x128.Idx → EReal) =
      shapeCast S1x128 (scaleRow (W1 (F := Ideal) m c (Proc.devRef .tc main_v0_0)) (W1 (F := Ideal) m c (Proc.devRef .tc main_v0_1))
        (W1 (F := Ideal) m c (Proc.devRef .tc main_arg7))) shapeCasts_S128_S1x128 := by
  show StableHlo.after hostOps1 _ (Proc.devRef .tc main_v15) = _
  after_results
  rfl

set_option maxHeartbeats 1000000 in
theorem shift2_eq (c : Dev nD) :
    (W2 (F := Ideal) m c (Proc.devRef .tc main_v16) : S1x128.Idx → EReal) =
      shapeCast S1x128 (shiftRow (W1 (F := Ideal) m c (Proc.devRef .tc main_v0_0)) (W1 (F := Ideal) m c (Proc.devRef .tc main_v0_1))
        (W1 (F := Ideal) m c (Proc.devRef .tc main_arg7)) (W1 (F := Ideal) m c (Proc.devRef .tc main_arg8))) shapeCasts_S128_S1x128 := by
  show StableHlo.after hostOps1 _ (Proc.devRef .tc main_v16) = _
  after_results_simp
  rfl

theorem scale2_val (c : Dev nD) (k : Fin 128) :
    scale2 m c k = Cert.Spec.kScale (xOf m c) (nattOf m c) (gammaOf m c) k := by
  show (W2 (F := Ideal) m c (Proc.devRef .tc main_v15) : S1x128.Idx → EReal) (ix2 (0 : Fin 1) k) = _
  rw [scale2_eq, shapeCast_a_1a_apply, scaleRow_apply, meanRow_apply, meanRow_apply, W1_sum, W1_sumsq, W1_gamma]
  rfl

theorem shift2_val (c : Dev nD) (k : Fin 128) :
    shift2 m c k = Cert.Spec.kShift (xOf m c) (nattOf m c) (gammaOf m c) (betaOf m c) k := by
  show (W2 (F := Ideal) m c (Proc.devRef .tc main_v16) : S1x128.Idx → EReal) (ix2 (0 : Fin 1) k) = _
  rw [shift2_eq, shapeCast_a_1a_apply, shiftRow_apply, scaleRow_apply, meanRow_apply, meanRow_apply, W1_sum, W1_sumsq,
    W1_gamma, W1_beta]
  rfl

end Cert.KernelIdeal.Hand

end
-- ==== Proof.LibCells.lean ====
/-
  Host scatters and gathers whose every update (or result) element is ONE scalar placed by index words, read at an
  index; and two columns of words joined side by side, read at an index.

    • A table of `N` entries and an `M × 1` column of index words, one scalar update per word: the accumulating scatter
      leaves at entry `u` its old value plus the sum of the updates whose word, read signed, is `u` (an update whose
      word names no entry is dropped).
    • A table of `N` rows and `C` columns and an `M × 2` array of index words (row word, column word), one scalar update
      per pair: the accumulating scatter leaves at cell `(u, v)` its old value plus the sum of the updates whose two
      words, read signed, are `u` and `v`.
    • The gather by such an `M × 2` array reads, at `e`, the table at the two words of `e`, each read signed and clamped
      into the table.
    • Two `M × 1` columns joined along the second axis: entry `(e, 0)` is the first column's, `(e, 1)` the second's.
  Nothing here depends on the sizes.
-/
import Idealize.ShloMosaic.PureOps.Ideal
import Idealize.ShloMosaic.PureOps.ShapeOps
import Idealize.ShloMosaic.PureOps.Contract
import Idealize.ShloMosaic.Lib.ValueIdx
import Idealize.ShloMosaic.Lib.Pipeline.Value

noncomputable section

namespace Cert.LibCells

open Idealize.ShloMosaic Idealize.ShloMosaic.ValueIdx
open scoped BigOperators

/-! ## Where an update lands, for any dimension numbers -/

/-- An update index lands on element `i` exactly when, on every operand axis, its start plus its window coordinate is
    `i`'s coordinate: the sum is then inside the operand because `i` is, and the landing index is read off it. -/
theorem resultIdx?_eq_some_iff {s si su : Shape} {w : Nat} (d : ScatterDims s si su) (idx : IVec si w) (jj : su.Idx)
    (i : s.Idx) :
    d.resultIdx? jj idx = some i ↔ ∀ a, d.start jj idx a + (d.window jj a : ℤ) = ((i a).val : ℤ) := by
  unfold ScatterDims.resultIdx?
  constructor
  · intro h a
    split at h
    · rename_i hin
      have hcoord : (d.start jj idx a + (d.window jj a : ℤ)).toNat = (i a).val :=
        congrArg (fun f => (f a).val) (Option.some.inj h)
      have hpos := (hin a).1
      omega
    · exact absurd h (by simp)
  · intro h
    have hin : ∀ a, 0 ≤ d.start jj idx a + (d.window jj a : ℤ)
        ∧ d.start jj idx a + (d.window jj a : ℤ) < (s.size a : ℤ) := by
      intro a
      have hlt := (i a).isLt
      rw [h a]
      constructor <;> omega
    rw [dif_pos hin]
    refine congrArg some (funext fun a => Fin.ext ?_)
    show (d.start jj idx a + (d.window jj a : ℤ)).toNat = (i a).val
    rw [h a]
    simp

/-- A sum over the rank-one indices below `M` that satisfy `p` is the sum over the positions `e < M` whose index
    `ix1 e` satisfies it: an index of rank one is its one coordinate. -/
theorem sum_filter_ix1 {M : Nat} {β : Type} [AddCommMonoid β] (p : (⟨1, ![M]⟩ : Shape).Idx → Prop) [DecidablePred p]
    (q : Fin M → Prop) [DecidablePred q] (hpq : ∀ e, p (ix1 e) ↔ q e) (f : (⟨1, ![M]⟩ : Shape).Idx → β) :
    ∑ jj ∈ Finset.univ.filter p, f jj = ∑ e ∈ Finset.univ.filter q, f (ix1 e) := by
  -- an index satisfies `p` exactly when its coordinate satisfies `q`
  have hp : ∀ jj : (⟨1, ![M]⟩ : Shape).Idx, p jj ↔ q (jj 0) := fun jj =>
    (iff_of_eq (congrArg p (eq_ix1 jj))).trans (hpq (jj 0))
  refine Finset.sum_nbij' (fun jj => (jj 0 : Fin M)) (fun e => ix1 e) ?_ ?_ ?_ ?_ ?_
  · intro jj hjj
    exact Finset.mem_filter.mpr ⟨Finset.mem_univ _, (hp jj).mp (Finset.mem_filter.mp hjj).2⟩
  · intro e he
    exact Finset.mem_filter.mpr ⟨Finset.mem_univ _, (hpq e).mpr (Finset.mem_filter.mp he).2⟩
  · intro jj _
    exact (eq_ix1 jj).symm
  · intro e _
    rfl
  · intro jj _
    exact congrArg f (eq_ix1 jj)

/-! ## One word per update: a table of entries -/

section Scatter1

variable {N M w : Nat}

/-- With the table's one axis inserted and named by the one word of a row: the start of update `jj` is the word of row
    `jj`, read signed, and its window coordinate is zero. -/
theorem start_window1 (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1) (idx : IVec ⟨2, ![M, 1]⟩ w) (jj : (⟨1, ![M]⟩ : Shape).Idx) :
    d.start jj idx 0 = (idx (ix2 (n0 := M) (n1 := 1) (jj 0) 0)).toInt ∧ d.window jj 0 = 0 := by
  cases d with
  | mk uw iw sd iv wf =>
    obtain rfl : uw = [] := huw
    obtain rfl : iw = [0] := hiw
    obtain rfl : sd = [0] := hsd
    obtain rfl : iv = 1 := hivd
    constructor
    · unfold ScatterDims.start
      rw [dif_pos (List.mem_singleton.mpr rfl)]
      refine congrArg (fun k => (idx k).toInt) (funext fun b => ?_)
      match b with
      | ⟨0, _⟩ => exact Fin.ext rfl
      | ⟨1, _⟩ => exact Fin.ext rfl
    · unfold ScatterDims.window
      exact dif_neg (by decide : (0 : Fin 1) ∉ (List.finRange 1).filter (· ∉ [0]))

/-- Update `jj` lands on entry `i` exactly when its word, read signed, is `i`'s position. -/
theorem lands1_iff (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1) (idx : IVec ⟨2, ![M, 1]⟩ w) (jj : (⟨1, ![M]⟩ : Shape).Idx)
    (i : (⟨1, ![N]⟩ : Shape).Idx) :
    d.resultIdx? jj idx = some i ↔ (idx (ix2 (n0 := M) (n1 := 1) (jj 0) 0)).toInt = ((i 0).val : ℤ) := by
  obtain ⟨hs, hw⟩ := start_window1 d huw hiw hsd hivd idx jj
  rw [resultIdx?_eq_some_iff]
  constructor
  · intro h
    have h0 := h 0
    rw [hs, hw] at h0
    simpa using h0
  · intro h a
    match a with
    | ⟨0, _⟩ =>
      show d.start jj idx 0 + (d.window jj 0 : ℤ) = ((i 0).val : ℤ)
      rw [hs, hw, h]
      simp

end Scatter1

/-- The accumulating scatter of scalars into a table of `N` entries by an `M × 1` column of words. -/
theorem scatterAdd1_apply {N M w : Nat} {φ : FTy} (d : ScatterDims ⟨1, ![N]⟩ ⟨2, ![M, 1]⟩ ⟨1, ![M]⟩)
    (huw : d.updateWindowDims = []) (hiw : d.insertedWindowDims = [0]) (hsd : d.scatterDimsToOperandDims = [0])
    (hivd : d.indexVectorDim = 1)
    (x : FVec Ideal ⟨1, ![N]⟩ φ) (idx : IVec ⟨2, ![M, 1]⟩ w) (upd : FVec Ideal ⟨1, ![M]⟩ φ) (u : Fin N) :
    Host.scatterAdd (F := Ideal) d x idx upd (ix1 u)
      = x (ix1 u) + ∑ e ∈ Finset.univ.filter (fun e : Fin M => (idx (ix2 e (0 : Fin 1))).toInt = (u.val : ℤ)),
          upd (ix1 e) := by
  show Ideal.hostScatterAdd d x idx upd (ix1 u) = _
  unfold Ideal.hostScatterAdd
  refine congrArg (x (ix1 u) + ·) ?_
  exact sum_filter_ix1 _ _ (fun e => lands1_iff d huw hiw hsd hivd idx (ix1 e) (ix1 u)) upd

/-! ## Two words per update: a table of cells -/

section Scatter2

variable {N C M w : Nat}

/-- With both of the table's axes inserted, the row axis named by a pair's first word and the column axis by its
    second: the starts of update `jj` are the two words of row `jj`, read signed, and both window coordinates are
    zero. -/
theorem start_window2 (d : ScatterDims ⟨2, ![N, C]⟩ ⟨2, ![M, 2]⟩ ⟨1, ![M]⟩)
    (huw : d.updateWindowDims = []) (hiw : d.insertedWindowDims = [0, 1])
    (hsd : d.scatterDimsToOperandDims = [0, 1]) (hivd : d.indexVectorDim = 1)
    (idx : IVec ⟨2, ![M, 2]⟩ w) (jj : (⟨1, ![M]⟩ : Shape).Idx) :
    d.start jj idx 0 = (idx (ix2 (n0 := M) (n1 := 2) (jj 0) 0)).toInt
      ∧ d.start jj idx 1 = (idx (ix2 (n0 := M) (n1 := 2) (jj 0) 1)).toInt
      ∧ d.window jj 0 = 0 ∧ d.window jj 1 = 0 := by
  cases d with
  | mk uw iw sd iv wf =>
    obtain rfl : uw = [] := huw
    obtain rfl : iw = [0, 1] := hiw
    obtain rfl : sd = [0, 1] := hsd
    obtain rfl : iv = 1 := hivd
    refine ⟨?_, ?_, ?_, ?_⟩
    · unfold ScatterDims.start
      rw [dif_pos (by decide : (0 : Fin 2) ∈ [(0 : Fin 2), 1])]
      refine congrArg (fun k => (idx k).toInt) (funext fun b => ?_)
      match b with
      | ⟨0, _⟩ => exact Fin.ext rfl
      | ⟨1, _⟩ => exact Fin.ext rfl
    · unfold ScatterDims.start
      rw [dif_pos (by decide : (1 : Fin 2) ∈ [(0 : Fin 2), 1])]
      refine congrArg (fun k => (idx k).toInt) (funext fun b => ?_)
      match b with
      | ⟨0, _⟩ => exact Fin.ext rfl
      | ⟨1, _⟩ => exact Fin.ext rfl
    · unfold ScatterDims.window
      exact dif_neg (by decide : (0 : Fin 2) ∉ (List.finRange 2).filter (· ∉ [(0 : Fin 2), 1]))
    · unfold ScatterDims.window
      exact dif_neg (by decide : (1 : Fin 2) ∉ (List.finRange 2).filter (· ∉ [(0 : Fin 2), 1]))

/-- Update `jj` lands on cell `i` exactly when its two words, read signed, are `i`'s row and column. -/
theorem lands2_iff (d : ScatterDims ⟨2, ![N, C]⟩ ⟨2, ![M, 2]⟩ ⟨1, ![M]⟩)
    (huw : d.updateWindowDims = []) (hiw : d.insertedWindowDims = [0, 1])
    (hsd : d.scatterDimsToOperandDims = [0, 1]) (hivd : d.indexVectorDim = 1)
    (idx : IVec ⟨2, ![M, 2]⟩ w) (jj : (⟨1, ![M]⟩ : Shape).Idx) (i : (⟨2, ![N, C]⟩ : Shape).Idx) :
    d.resultIdx? jj idx = some i
      ↔ (idx (ix2 (n0 := M) (n1 := 2) (jj 0) 0)).toInt = ((i 0).val : ℤ)
        ∧ (idx (ix2 (n0 := M) (n1 := 2) (jj 0) 1)).toInt = ((i 1).val : ℤ) := by
  obtain ⟨hs0, hs1, hw0, hw1⟩ := start_window2 d huw hiw hsd hivd idx jj
  rw [resultIdx?_eq_some_iff]
  constructor
  · intro h
    have h0 := h 0
    have h1 := h 1
    rw [hs0, hw0] at h0
    rw [hs1, hw1] at h1
    exact ⟨by simpa using h0, by simpa using h1⟩
  · rintro ⟨h0, h1⟩ a
    match a with
    | ⟨0, _⟩ =>
      show d.start jj idx 0 + (d.window jj 0 : ℤ) = ((i 0).val : ℤ)
      rw [hs0, hw0, h0]
      simp
    | ⟨1, _⟩ =>
      show d.start jj idx 1 + (d.window jj 1 : ℤ) = ((i 1).val : ℤ)
      rw [hs1, hw1, h1]
      simp

end Scatter2

/-- The accumulating scatter of scalars into a table of `N × C` cells by an `M × 2` array of (row, column) words. -/
theorem scatterAdd2_apply {N C M w : Nat} {φ : FTy} (d : ScatterDims ⟨2, ![N, C]⟩ ⟨2, ![M, 2]⟩ ⟨1, ![M]⟩)
    (huw : d.updateWindowDims = []) (hiw : d.insertedWindowDims = [0, 1])
    (hsd : d.scatterDimsToOperandDims = [0, 1]) (hivd : d.indexVectorDim = 1)
    (x : FVec Ideal ⟨2, ![N, C]⟩ φ) (idx : IVec ⟨2, ![M, 2]⟩ w) (upd : FVec Ideal ⟨1, ![M]⟩ φ) (u : Fin N) (v : Fin C) :
    Host.scatterAdd (F := Ideal) d x idx upd (ix2 u v)
      = x (ix2 u v) + ∑ e ∈ Finset.univ.filter (fun e : Fin M =>
            (idx (ix2 e (0 : Fin 2))).toInt = (u.val : ℤ) ∧ (idx (ix2 e (1 : Fin 2))).toInt = (v.val : ℤ)),
          upd (ix1 e) := by
  show Ideal.hostScatterAdd d x idx upd (ix2 u v) = _
  unfold Ideal.hostScatterAdd
  refine congrArg (x (ix2 u v) + ·) ?_
  exact sum_filter_ix1 _ _ (fun e => lands2_iff d huw hiw hsd hivd idx (ix1 e) (ix2 u v)) upd

/-! ## The gather by two words -/

/-- The gather of scalars from a table of `N × C` cells by an `M × 2` array of (row, column) words: each word read
    signed and clamped into the table. -/
theorem gather2_apply {α : Type} {N C M w : Nat} (d : GatherDims ⟨2, ![N, C]⟩ ⟨2, ![M, 2]⟩ ⟨1, ![M]⟩)
    (hoff : d.offsetDims = []) (hcoll : d.collapsedSliceDims = [0, 1]) (hob : d.operandBatchingDims = [])
    (hsim : d.startIndexMap = [0, 1]) (hivd : d.indexVectorDim = 1)
    (x : (⟨2, ![N, C]⟩ : Shape).Idx → α) (idx : IVec ⟨2, ![M, 2]⟩ w) (e : Fin M) (hN : 0 < N) (hC : 0 < C) :
    Host.gather d x idx (ix1 e)
      = x (ix2 ⟨min (idx (ix2 e (0 : Fin 2))).toInt.toNat (N - 1), by omega⟩
               ⟨min (idx (ix2 e (1 : Fin 2))).toInt.toNat (C - 1), by omega⟩) := by
  -- both axes are collapsed, so the slice taken along each is one element
  have hsl0 : d.sliceSizes 0 = 1 := d.slice_collapsed 0 (by rw [hcoll]; exact List.mem_cons.mpr (Or.inl rfl))
  have hsl1 : d.sliceSizes 1 = 1 :=
    d.slice_collapsed 1 (by rw [hcoll]; exact List.mem_cons.mpr (Or.inr (List.mem_singleton.mpr rfl)))
  unfold Host.gather
  refine congrArg x ?_
  cases d with
  | mk od cd ob sb sm iv ss wf =>
    obtain rfl : od = [] := hoff
    obtain rfl : cd = [0, 1] := hcoll
    obtain rfl : ob = [] := hob
    obtain rfl : sm = [0, 1] := hsim
    obtain rfl : iv = 1 := hivd
    replace hsl0 : ss 0 = 1 := hsl0
    replace hsl1 : ss 1 = 1 := hsl1
    funext a
    match a with
    | ⟨0, _⟩ =>
      apply Fin.ext
      show GatherDims.start _ (ix1 e) idx 0 + GatherDims.batchCoord _ (ix1 e) 0 + GatherDims.offCoord _ (ix1 e) 0
        = min (idx (ix2 e (0 : Fin 2))).toInt.toNat (N - 1)
      rw [GatherDims.batchCoord_eq_zero _ _ _ List.not_mem_nil,
        GatherDims.offCoord_eq_zero _ _ _
          (by decide : (0 : Fin 2) ∉ (List.finRange 2).filter (· ∉ [(0 : Fin 2), 1] ++ []))]
      simp only [Nat.add_zero]
      unfold GatherDims.start
      rw [dif_pos (by decide : (0 : Fin 2) ∈ [(0 : Fin 2), 1])]
      show min (idx _).toInt.toNat (N - ss 0) = _
      rw [hsl0]
      refine congrArg (fun k => min (idx k).toInt.toNat (N - 1)) (funext fun b => ?_)
      match b with
      | ⟨0, _⟩ => exact Fin.ext rfl
      | ⟨1, _⟩ => exact Fin.ext rfl
    | ⟨1, _⟩ =>
      apply Fin.ext
      show GatherDims.start _ (ix1 e) idx 1 + GatherDims.batchCoord _ (ix1 e) 1 + GatherDims.offCoord _ (ix1 e) 1
        = min (idx (ix2 e (1 : Fin 2))).toInt.toNat (C - 1)
      rw [GatherDims.batchCoord_eq_zero _ _ _ List.not_mem_nil,
        GatherDims.offCoord_eq_zero _ _ _
          (by decide : (1 : Fin 2) ∉ (List.finRange 2).filter (· ∉ [(0 : Fin 2), 1] ++ []))]
      simp only [Nat.add_zero]
      unfold GatherDims.start
      rw [dif_pos (by decide : (1 : Fin 2) ∈ [(0 : Fin 2), 1])]
      show min (idx _).toInt.toNat (C - ss 1) = _
      rw [hsl1]
      refine congrArg (fun k => min (idx k).toInt.toNat (C - 1)) (funext fun b => ?_)
      match b with
      | ⟨0, _⟩ => exact Fin.ext rfl
      | ⟨1, _⟩ => exact Fin.ext rfl

/-! ## Two columns side by side -/

/-- Two `M × 1` columns joined along the second axis, at the first column. -/
theorem concat_cols_apply0 {α : Type} {M : Nat} (a b : (⟨2, ![M, 1]⟩ : Shape).Idx → α)
    (h : Shape.Concatenates [(⟨2, ![M, 1]⟩ : Shape), ⟨2, ![M, 1]⟩] ⟨2, ![M, 2]⟩ 1) (e : Fin M) :
    concatenate ⟨2, ![M, 2]⟩ 1 [⟨⟨2, ![M, 1]⟩, a⟩, ⟨⟨2, ![M, 1]⟩, b⟩] h (ix2 e (0 : Fin 2)) = a (ix2 e (0 : Fin 1)) := by
  -- position 0 along the joined axis is below the first column's extent 1: the first column, same coordinates
  refine concatenate_pair_apply_left 1 a b h (ix2 e (0 : Fin 2)) rfl (ix2 e (0 : Fin 1)) ?_
  intro c
  match c with
  | ⟨0, _⟩ => rfl
  | ⟨1, _⟩ => rfl

/-- Two `M × 1` columns joined along the second axis, at the second column. -/
theorem concat_cols_apply1 {α : Type} {M : Nat} (a b : (⟨2, ![M, 1]⟩ : Shape).Idx → α)
    (h : Shape.Concatenates [(⟨2, ![M, 1]⟩ : Shape), ⟨2, ![M, 1]⟩] ⟨2, ![M, 2]⟩ 1) (e : Fin M) :
    concatenate ⟨2, ![M, 2]⟩ 1 [⟨⟨2, ![M, 1]⟩, a⟩, ⟨⟨2, ![M, 1]⟩, b⟩] h (ix2 e (1 : Fin 2)) = b (ix2 e (0 : Fin 1)) := by
  -- position 1 along the joined axis is past the first column's extent 1: the second column at 1 − 1 = 0
  refine concatenate_pair_apply_right 1 a b h (ix2 e (1 : Fin 2)) rfl rfl (ix2 e (0 : Fin 1)) ?_ ?_
  · intro c hc
    match c with
    | ⟨0, _⟩ => rfl
    | ⟨1, _⟩ => exact absurd rfl hc
  · rfl

end Cert.LibCells

end
-- ==== Proof.LibScatterGather2.lean ====
/-
  The accumulating scatter and the gather of a table of rows by a column of index words, read at an index.

  Both operations here take an operand of `N` rows and `C` columns and an `M × 1` column of index words, one word per
  update (or result) row: row `e` names row `idx[e, 0]` of the operand, the word read as a SIGNED integer, and the
  columns go straight across.
    • The scatter adds update row `e` into the operand row its word names, column by column, and drops it when the
      word names no row; so element `(u, j)` ends as its old value plus the sum, over the update rows whose word read
      signed is `u`, of their column `j`.
    • The gather reads, at `(e, j)`, column `j` of the operand row `e`'s word names, the word clamped into
      `[0, N − 1]`; when the word is already below `N` (and `N` is at most half the word range, so that the signed
      reading is the unsigned one) that is the row at the word itself.
  Nothing here depends on the sizes: every step is about the two axes, never about the `N`, `M` or `C` positions.
-/
import Idealize.ShloMosaic.PureOps.Ideal
import Idealize.ShloMosaic.PureOps.ShapeOps
import Idealize.ShloMosaic.PureOps.Contract
import Idealize.ShloMosaic.Lib.ValueIdx

noncomputable section

namespace Cert.LibScatterGather2

open Idealize.ShloMosaic Idealize.ShloMosaic.ValueIdx

/-! ## The scatter -/

section Scatter

variable {N C M w : Nat}

/-- Where update index `jj` starts and how far into its window it sits, axis by axis: on the row axis the start is
    the index word of `jj`'s row, read signed, and the window coordinate is zero (the axis is inserted); on the column
    axis the start is zero (no word names it) and the window coordinate is `jj`'s column. -/
theorem start_window (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (idx : IVec ⟨2, ![M, 1]⟩ w) (jj : (⟨2, ![M, C]⟩ : Shape).Idx) :
    d.start jj idx 0 = (idx (ix2 (n0 := M) (n1 := 1) (jj 0) 0)).toInt ∧ d.start jj idx 1 = 0
      ∧ d.window jj 0 = 0 ∧ d.window jj 1 = (jj 1).val := by
  cases d with
  | mk uw iw sd iv wf =>
    obtain rfl : uw = [1] := huw
    obtain rfl : iw = [0] := hiw
    obtain rfl : sd = [0] := hsd
    obtain rfl : iv = 1 := hivd
    refine ⟨?_, ?_, ?_, ?_⟩
    · unfold ScatterDims.start
      rw [dif_pos (List.mem_singleton.mpr rfl)]
      refine congrArg (fun k => (idx k).toInt) ?_
      funext b
      match b with
      | ⟨0, _⟩ => exact Fin.ext rfl
      | ⟨1, _⟩ => exact Fin.ext rfl
    · unfold ScatterDims.start
      rw [dif_neg (by decide : (1 : Fin 2) ∉ [0])]
    · unfold ScatterDims.window
      exact dif_neg (by decide : (0 : Fin 2) ∉ (List.finRange 2).filter (· ∉ [0]))
    · unfold ScatterDims.window
      refine (dif_pos (by decide : (1 : Fin 2) ∈ (List.finRange 2).filter (· ∉ [0]))).trans ?_
      rfl

/-- Update index `jj` lands on element `i` exactly when its row's index word, read signed, is `i`'s row and its
    column is `i`'s column. -/
theorem resultIdx?_iff (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (idx : IVec ⟨2, ![M, 1]⟩ w) (jj : (⟨2, ![M, C]⟩ : Shape).Idx) (i : (⟨2, ![N, C]⟩ : Shape).Idx) :
    d.resultIdx? jj idx = some i
      ↔ (idx (ix2 (n0 := M) (n1 := 1) (jj 0) 0)).toInt = ((i 0).val : ℤ) ∧ (jj 1).val = (i 1).val := by
  obtain ⟨hs0, hs1, hw0, hw1⟩ := start_window d huw hiw hsd hivd idx jj
  have hi0 : (i 0).val < N := (i 0).isLt
  have hi1 : (i 1).val < C := (i 1).isLt
  have hj1 : (jj 1).val < C := (jj 1).isLt
  unfold ScatterDims.resultIdx?
  constructor
  · intro h
    split at h
    · rename_i hc
      have hf := Option.some.inj h
      have h0 : (d.start jj idx 0 + (d.window jj 0 : ℤ)).toNat = (i 0).val := congrArg (fun f => (f 0).val) hf
      have h1 : (d.start jj idx 1 + (d.window jj 1 : ℤ)).toNat = (i 1).val := congrArg (fun f => (f 1).val) hf
      have hc0 := (hc 0).1
      rw [hs0, hw0] at hc0 h0
      rw [hs1, hw1] at h1
      constructor
      · omega
      · omega
    · exact absurd h (by simp)
  · rintro ⟨h, h'⟩
    have hc : ∀ a : Fin 2, 0 ≤ d.start jj idx a + (d.window jj a : ℤ)
        ∧ d.start jj idx a + (d.window jj a : ℤ) < ((⟨2, ![N, C]⟩ : Shape).size a : ℤ) := by
      intro a
      match a with
      | ⟨0, _⟩ =>
        show 0 ≤ d.start jj idx 0 + (d.window jj 0 : ℤ) ∧ d.start jj idx 0 + (d.window jj 0 : ℤ) < (N : ℤ)
        rw [hs0, hw0, h]
        constructor <;> omega
      | ⟨1, _⟩ =>
        show 0 ≤ d.start jj idx 1 + (d.window jj 1 : ℤ) ∧ d.start jj idx 1 + (d.window jj 1 : ℤ) < (C : ℤ)
        rw [hs1, hw1]
        constructor <;> omega
    rw [dif_pos hc]
    refine congrArg some ?_
    funext a
    match a with
    | ⟨0, _⟩ =>
      apply Fin.ext
      show (d.start jj idx 0 + (d.window jj 0 : ℤ)).toNat = (i 0).val
      rw [hs0, hw0, h]; simp
    | ⟨1, _⟩ =>
      apply Fin.ext
      show (d.start jj idx 1 + (d.window jj 1 : ℤ)).toNat = (i 1).val
      rw [hs1, hw1]; simpa using h'

/-- The accumulating scatter at element `(u, j)`: the old value plus column `j` of the update rows whose word,
    read signed, is `u`. -/
theorem scatterAdd_apply {φ : FTy} (d : ScatterDims ⟨2, ![N, C]⟩ ⟨2, ![M, 1]⟩ ⟨2, ![M, C]⟩)
    (huw : d.updateWindowDims = [1]) (hiw : d.insertedWindowDims = [0]) (hsd : d.scatterDimsToOperandDims = [0])
    (hivd : d.indexVectorDim = 1)
    (x : FVec Ideal ⟨2, ![N, C]⟩ φ) (idx : IVec ⟨2, ![M, 1]⟩ w) (upd : FVec Ideal ⟨2, ![M, C]⟩ φ)
    (u : Fin N) (j : Fin C) :
    Host.scatterAdd (F := Ideal) d x idx upd (ix2 u j)
      = x (ix2 u j) + ∑ e ∈ Finset.univ.filter (fun e : Fin M => (idx (ix2 e (0 : Fin 1))).toInt = (u.val : ℤ)),
          upd (ix2 e j) := by
  show Ideal.hostScatterAdd d x idx upd (ix2 u j) = _
  unfold Ideal.hostScatterAdd
  refine congrArg (x (ix2 u j) + ·) ?_
  symm
  refine Finset.sum_bij (fun e _ => ix2 e j) ?_ ?_ ?_ (fun _ _ => rfl)
  · intro e he
    rw [Finset.mem_filter] at he ⊢
    exact ⟨Finset.mem_univ _, (resultIdx?_iff d huw hiw hsd hivd idx (ix2 e j) (ix2 u j)).mpr ⟨he.2, rfl⟩⟩
  · intro e _ e' _ h
    exact congrFun h 0
  · intro jj hjj
    rw [Finset.mem_filter] at hjj
    obtain ⟨h, h'⟩ := (resultIdx?_iff d huw hiw hsd hivd idx jj (ix2 u j)).mp hjj.2
    refine ⟨jj 0, Finset.mem_filter.mpr ⟨Finset.mem_univ _, h⟩, ?_⟩
    rw [eq_ix2 jj]
    refine congrArg (ix2 (jj 0)) (Fin.ext ?_)
    exact h'.symm

end Scatter

/-! ## The gather -/

section Gather

variable {α : Type} {N C M w : Nat}

/-- The gather at `(e, j)`, whatever the word: column `j` of the row at the word read signed and clamped. -/
theorem gather_apply_clamp (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ w) (e : Fin M) (j : Fin C) (hN : 0 < N) :
    Host.gather d x idx (ix2 e j)
      = x (ix2 ⟨min (idx (ix2 e (0 : Fin 1))).toInt.toNat (N - 1), by omega⟩ j) := by
  have hsl : d.sliceSizes 0 = 1 := d.slice_collapsed 0 (by rw [hcoll]; exact List.mem_singleton.mpr rfl)
  unfold Host.gather
  refine congrArg x ?_
  cases d with
  | mk od cd ob sb sm iv ss wf =>
    obtain rfl : od = [1] := hoff
    obtain rfl : cd = [0] := hcoll
    obtain rfl : ob = [] := hob
    obtain rfl : sm = [0] := hsim
    obtain rfl : iv = 1 := hivd
    replace hsl : ss 0 = 1 := hsl
    funext a
    match a with
    | ⟨0, _⟩ =>
      apply Fin.ext
      show GatherDims.start _ (ix2 e j) idx 0 + GatherDims.batchCoord _ (ix2 e j) 0 + GatherDims.offCoord _ (ix2 e j) 0
        = min (idx (ix2 e (0 : Fin 1))).toInt.toNat (N - 1)
      rw [GatherDims.batchCoord_eq_zero _ _ _ List.not_mem_nil,
        GatherDims.offCoord_eq_zero _ _ _ (by decide : (0 : Fin 2) ∉ (List.finRange 2).filter (· ∉ [0] ++ []))]
      simp only [Nat.add_zero]
      unfold GatherDims.start
      rw [dif_pos (List.mem_singleton.mpr rfl)]
      show min (idx _).toInt.toNat (N - ss 0) = _
      rw [hsl]
      refine congrArg (fun k => min (idx k).toInt.toNat (N - 1)) ?_
      funext b
      match b with
      | ⟨0, _⟩ => exact Fin.ext rfl
      | ⟨1, _⟩ => exact Fin.ext rfl
    | ⟨1, _⟩ =>
      apply Fin.ext
      show GatherDims.start _ (ix2 e j) idx 1 + GatherDims.batchCoord _ (ix2 e j) 1 + GatherDims.offCoord _ (ix2 e j) 1
        = j.val
      rw [GatherDims.batchCoord_eq_zero _ _ _ List.not_mem_nil]
      simp only [Nat.add_zero]
      unfold GatherDims.start
      rw [dif_neg (by decide : (1 : Fin 2) ∉ [0]), Nat.zero_add]
      unfold GatherDims.offCoord
      refine (dif_pos (by decide : (1 : Fin 2) ∈ (List.finRange 2).filter (· ∉ [0] ++ []))).trans ?_
      rfl

/-- The gather at `(e, j)` when the word is a row's position: column `j` of that row. -/
theorem gather_apply (d : GatherDims ⟨2, ![N, C]⟩ ⟨2, ![M, 1]⟩ ⟨2, ![M, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![M, 1]⟩ w) (e : Fin M) (j : Fin C)
    (hN : 2 * N ≤ 2 ^ w) (h : (idx (ix2 e (0 : Fin 1))).toNat < N) :
    Host.gather d x idx (ix2 e j) = x (ix2 ⟨(idx (ix2 e (0 : Fin 1))).toNat, h⟩ j) := by
  have hN0 : 0 < N := by omega
  rw [gather_apply_clamp d hoff hcoll hob hsim hivd x idx e j hN0]
  refine congrArg x (congrArg (fun r => ix2 r j) (Fin.ext ?_))
  show min (idx (ix2 e (0 : Fin 1))).toInt.toNat (N - 1) = (idx (ix2 e (0 : Fin 1))).toNat
  rw [BitVec.toInt_eq_toNat_of_lt (by omega), Int.toNat_natCast]
  omega

end Gather

end Cert.LibScatterGather2

end
-- ==== Proof.KI.Host2.lean ====
import proofs.«413865_j65704409694829_2_alg».proof.Proof.KI.Args
import proofs.«413865_j65704409694829_2_alg».proof.Proof.KI.Value1
import proofs.«413865_j65704409694829_2_alg».proof.Proof.KI.Host1
import Idealize.ShloMosaic.Lib.StableHlo.Run
import proofs.«413865_j65704409694829_2_alg».proof.Proof.Spec
import proofs.«413865_j65704409694829_2_alg».proof.Proof.LibCells
import proofs.«413865_j65704409694829_2_alg».proof.Proof.LibScatterGather2
import proofs.«413865_j65704409694829_2_alg».proof.Proof.LibColumn
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (m : (ℓ : Loc nD τ sig) → Buf (Elt Ideal) ℓ)

/-! # Region 1's result and the second host stretch: the linear image, then degrees, inverse square roots, the
gather, the weighting, the scatter and the dense self-loop term -/

namespace Host2

/-! ## The arguments at the boundaries of the fold -/

/-- The first host stretch leaves every buffer outside its written list as it was. -/
theorem keep2 (c : Dev nD) (r : Ref sig .tc) (h : r ∉ hostOps1_W) :
    W2 (F := Ideal) m c (Proc.devRef .tc r) = W1 m c (Proc.devRef .tc r) :=
  StableHlo.after_of_writes_sub hostOps1 _ hostOps1_writes h

/-- Region 0 leaves the array of an input window as it was entered. -/
theorem input1 (c : Dev nD) (w : Fin cfg0.W) (hin : (cfg0.win w).isOut = false) :
    W1 (F := Ideal) m c (Proc.devRef .tc (Pipeline.arrRef spec0 w)) = W0 m c (Proc.devRef .tc (Pipeline.arrRef spec0 w)) :=
  (W1_arr m c w).trans (((dat0 (VR0 m) c).arrAt_in w hin _).trans (A_eq0 (VR0 m) c w))

theorem W2_arg0 (c : Dev nD) : W2 (F := Ideal) m c (Proc.devRef .tc main_arg0) = m ((c.tc : Thread nD τ).loc main_arg0) :=
  (keep2 m c main_arg0 (by decide)).trans <| (input1 m c 0 rfl).trans rfl
theorem W2_arg4 (c : Dev nD) : W2 (F := Ideal) m c (Proc.devRef .tc main_arg4) = m ((c.tc : Thread nD τ).loc main_arg4) :=
  (keep2 m c main_arg4 (by decide)).trans <| (input1 m c 1 rfl).trans rfl
theorem W2_arg5 (c : Dev nD) : W2 (F := Ideal) m c (Proc.devRef .tc main_arg5) = m ((c.tc : Thread nD τ).loc main_arg5) :=
  (keep2 m c main_arg5 (by decide)).trans <| (W1_of_ne m c main_arg5 (by decide)).trans rfl

/-- An argument that is a window of neither region 0 nor region 1 is, after region 1, as launched. -/
theorem W3_bypass (c : Dev nD) (r : Ref sig .tc) (h1 : r ∉ hostOps1_W)
    (n0 : ∀ w, Pipeline.arrRef spec0 w ≠ r) (n1 : ∀ w, Pipeline.arrRef spec1 w ≠ r) :
    W3 (F := Ideal) m c (Proc.devRef .tc r) = m ((c.tc : Thread nD τ).loc r) :=
  (W3_of_ne m c r n1).trans <| (keep2 m c r h1).trans <| (W1_of_ne m c r n0).trans rfl

theorem W3_arg1 (c : Dev nD) : W3 (F := Ideal) m c (Proc.devRef .tc main_arg1) = m ((c.tc : Thread nD τ).loc main_arg1) :=
  W3_bypass m c main_arg1 (by decide) (by decide) (by decide)
theorem W3_arg2 (c : Dev nD) : W3 (F := Ideal) m c (Proc.devRef .tc main_arg2) = m ((c.tc : Thread nD τ).loc main_arg2) :=
  W3_bypass m c main_arg2 (by decide) (by decide) (by decide)
theorem W3_arg3 (c : Dev nD) : W3 (F := Ideal) m c (Proc.devRef .tc main_arg3) = m ((c.tc : Thread nD τ).loc main_arg3) :=
  W3_bypass m c main_arg3 (by decide) (by decide) (by decide)
theorem W3_arg6 (c : Dev nD) : W3 (F := Ideal) m c (Proc.devRef .tc main_arg6) = m ((c.tc : Thread nD τ).loc main_arg6) :=
  W3_bypass m c main_arg6 (by decide) (by decide) (by decide)

/-! ## Layout operations read at plain coordinates -/

section Layout
variable {α : Type}

/-- A vector kept as a column reads, at (p, 0), the vector at p. -/
theorem col_apply {n : ℕ} (h : (⟨1, ![n]⟩ : Shape).BroadcastsInDim ⟨2, ![n, 1]⟩ ![0]) (v : (⟨1, ![n]⟩ : Shape).Idx → α)
    (p : Fin n) (u : Fin 1) : broadcastInDim ⟨2, ![n, 1]⟩ ![0] h v (ix2 p u) = v (ix1 p) :=
  broadcastInDim_apply _ h v _ (ix1 p) fun a => by
    match a with
    | ⟨0, _⟩ =>
      show p.val = if n = 1 then 0 else p.val
      have := p.isLt
      split <;> omega

/-- A column spread along the rows reads, at (p, q), the column at (p, 0). -/
theorem spread_apply {n k : ℕ} (h : (⟨2, ![n, 1]⟩ : Shape).BroadcastsInDim ⟨2, ![n, k]⟩ ![0, 1])
    (v : (⟨2, ![n, 1]⟩ : Shape).Idx → α) (p : Fin n) (q : Fin k) :
    broadcastInDim ⟨2, ![n, k]⟩ ![0, 1] h v (ix2 p q) = v (ix2 p (0 : Fin 1)) :=
  broadcastInDim_apply _ h v _ (ix2 p (0 : Fin 1)) fun a => by
    match a with
    | ⟨0, _⟩ =>
      show p.val = if n = 1 then 0 else p.val
      have := p.isLt
      split <;> omega
    | ⟨1, _⟩ =>
      show (0 : ℕ) = if (1 : ℕ) = 1 then 0 else q.val
      rfl

/-- Row k of a two-row array, cut out and flattened, reads at e the array at (k, e). -/
theorem edgeRow_apply {M : ℕ} (o : ℕ) (E : (⟨2, ![2, M]⟩ : Shape).Idx → α)
    (hs : (⟨2, ![2, M]⟩ : Shape).Slices ![o, 0] ⟨2, ![1, M]⟩) (hc : (⟨2, ![1, M]⟩ : Shape).ShapeCasts ⟨1, ![M]⟩)
    (k : Fin 2) (hk : k.val = o) (e : Fin M) :
    shapeCast ⟨1, ![M]⟩ (extractStridedSlice ⟨2, ![1, M]⟩ ![o, 0] E hs) hc (ix1 e) = E (ix2 k e) :=
  (shapeCast_1a_a_apply _ hc e).trans (slice2_axis0_apply o E hs (0 : Fin 1) e k (by rw [hk]; rfl))

end Layout

/-! ## Words -/

/-- The select of the shifted word under the sign test is the wrapped word. -/
theorem wrap_word (w : BitVec 32) :
    Scalar.select (IntOp.cmpi .slt w 0#32) (IntOp.addi w 100000#32) w = Cert.Spec.wrap w := by
  show (if BitVec.ofBool (w.slt 0#32) = 1 then w + 100000#32 else w) = if w.slt 0#32 then w + 100000#32 else w
  generalize w.slt 0#32 = b
  cases b <;> rfl

/-- A sum over the updates whose word read signed is the row is the sum over the updates that land on it. -/
theorem sum_lands {M N : ℕ} (idx : Fin M → BitVec 32) (u : Fin N) (f : Fin M → EReal) :
    ∑ e ∈ Finset.univ.filter (fun e : Fin M => (idx e).toInt = (u.val : ℤ)), f e
      = ∑ e ∈ Finset.univ.filter (fun e : Fin M => Cert.Spec.lands (idx e) u), f e := by
  refine Finset.sum_congr (Finset.ext fun e => ?_) (fun _ _ => rfl)
  rw [Finset.mem_filter, Finset.mem_filter]
  exact Iff.rfl

/-! ## Pointwise operations read at an index -/

section Pointwise
variable {s : Shape} {φ : FTy}

theorem addf_at (a b : FVec Ideal s φ) (i : s.Idx) : addf a b i = a i + b i := rfl
theorem mulf_at (a b : FVec Ideal s φ) (i : s.Idx) : mulf a b i = a i * b i := rfl
theorem maximumf_at (a b : FVec Ideal s φ) (i : s.Idx) : maximumf a b i = max (a i) (b i) := rfl
theorem hostRsqrt_at (a : FVec Ideal s φ) (i : s.Idx) : Host.rsqrt a i = Ideal.rsqrt (a i) := rfl
theorem select_at {α : Type} (k : IVec s 1) (a b : s.Idx → α) (i : s.Idx) : select k a b i = Scalar.select (k i) (a i) (b i) := rfl
theorem cmpi_at {w : ℕ} (p : CmpIPredicate) (a b : IVec s w) (i : s.Idx) : cmpi p a b i = IntOp.cmpi p (a i) (b i) := rfl
theorem addi_at {w : ℕ} (a b : IVec s w) (i : s.Idx) : addi a b i = IntOp.addi (a i) (b i) := rfl
/-- A float literal spread to any shape reads the literal everywhere. -/
theorem lit_at (h : S_.BroadcastsInDim s ![]) (b : BitVec φ.bits) (i : s.Idx) :
    broadcastInDim s ![] h (constant (F := Ideal) S_ φ b) i = Ideal.ofBits φ b := rfl
/-- A word literal likewise. -/
theorem litI_at {w : ℕ} (h : S_.BroadcastsInDim s ![]) (b : BitVec w) (i : s.Idx) :
    broadcastInDim s ![] h (constantI S_ w b) i = b := rfl

end Pointwise

/-! ## The second host stretch over abstract operands: the edge words E, the edge weights ew, the linear image L -/

section Stretch

variable (E : IVec S2x1600000 32) (ew : FVec Ideal S1600000 .f32) (L : FVec Ideal S100000x128 .f32)

/-- The source and target words of the edges. -/
def srcT : IVec S1600000 32 :=
  shapeCast S1600000 (extractStridedSlice S1x1600000 ![0, 0] E slices_S2x1600000_S1x1600000_0_0) shapeCasts_S1x1600000_S1600000
def dstT : IVec S1600000 32 :=
  shapeCast S1600000 (extractStridedSlice S1x1600000 ![1, 0] E slices_S2x1600000_S1x1600000_1_0) shapeCasts_S1x1600000_S1600000
def dstColT : IVec S1600000x1 32 := broadcastInDim S1600000x1 ![0] bcast_S1600000_S1600000x1_0 (dstT E)
/-- The degrees: the edge weights scattered by target, plus one. -/
def degT : FVec Ideal S100000 .f32 :=
  addf (Host.scatterAdd (F := Ideal) scatter_S100000_S1600000x1_S1600000_n_0_0_1
      (broadcastInDim S100000 ![] bcast_S_S100000 (constant (F := Ideal) S_ .f32 0x00000000#32)) (dstColT E) ew)
    (broadcastInDim S100000 ![] bcast_S_S100000 (constant (F := Ideal) S_ .f32 0x3F800000#32))
/-- Their clamped inverse square roots. -/
def dinvT : FVec Ideal S100000 .f32 :=
  Host.rsqrt (F := Ideal) (maximumf (degT E ew) (broadcastInDim S100000 ![] bcast_S_S100000 (constant (F := Ideal) S_ .f32 0x2B8CBCCC#32)))
/-- A per-node value spread over the 128 columns. -/
def rowsT (d : FVec Ideal S100000 .f32) : FVec Ideal S100000x128 .f32 :=
  broadcastInDim S100000x128 ![0, 1] bcast_S100000x1_S100000x128_0_1 (broadcastInDim S100000x1 ![0] bcast_S100000_S100000x1_0 d)
def scaledT : FVec Ideal S100000x128 .f32 := mulf (rowsT (dinvT E ew)) L
/-- The wrapped source words. -/
def wrapT : IVec S1600000 32 :=
  select (cmpi .slt (srcT E) (broadcastInDim S1600000 ![] bcast_S_S1600000 (constantI S_ 32 0#32)))
    (addi (srcT E) (broadcastInDim S1600000 ![] bcast_S_S1600000 (constantI S_ 32 100000#32))) (srcT E)
def gatherT : FVec Ideal S1600000x128 .f32 :=
  Host.gather gather_S100000x128_S1600000x1_S1600000x128_1_0_n_n_0_1_1128 (scaledT E ew L)
    (broadcastInDim S1600000x1 ![0] bcast_S1600000_S1600000x1_0 (wrapT E))
def msgT : FVec Ideal S1600000x128 .f32 :=
  mulf (broadcastInDim S1600000x128 ![0, 1] bcast_S1600000x1_S1600000x128_0_1
      (broadcastInDim S1600000x1 ![0] bcast_S1600000_S1600000x1_0 ew)) (gatherT E ew L)
def aggRT : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32)) (dstColT E) (msgT E ew L)
def aggT : FVec Ideal S100000x128 .f32 :=
  addf (mulf (rowsT (dinvT E ew)) (aggRT E ew L)) (mulf (rowsT (mulf (dinvT E ew) (dinvT E ew))) L)

/-- The operands at plain coordinates. -/
abbrev srcA : Fin 1600000 → BitVec 32 := fun e => E (ix2 (0 : Fin 2) e)
abbrev dstA : Fin 1600000 → BitVec 32 := fun e => E (ix2 (1 : Fin 2) e)
abbrev ewA : Fin 1600000 → EReal := fun e => ew (ix1 e)

theorem srcT_apply (e : Fin 1600000) : srcT E (ix1 e) = srcA E e := by
  unfold srcT; exact edgeRow_apply 0 E _ _ 0 rfl e
theorem dstT_apply (e : Fin 1600000) : dstT E (ix1 e) = dstA E e := by
  unfold dstT; exact edgeRow_apply 1 E _ _ 1 rfl e
theorem dstColT_apply (e : Fin 1600000) : dstColT E (ix2 e (0 : Fin 1)) = dstA E e := by
  unfold dstColT; exact (col_apply _ _ e 0).trans (dstT_apply E e)

theorem degT_apply (i : Fin 100000) : degT E ew (ix1 i) = Cert.Spec.kDeg (ewA ew) (dstA E) i := by
  unfold degT Cert.Spec.kDeg
  rw [addf_at, Cert.LibCells.scatterAdd1_apply _ rfl rfl rfl rfl, lit_at, lit_at]
  simp only [dstColT_apply]
  rw [sum_lands (dstA E) i (ewA ew)]

theorem dinvT_apply (i : Fin 100000) : dinvT E ew (ix1 i) = Cert.Spec.kDinv (ewA ew) (dstA E) i := by
  unfold dinvT Cert.Spec.kDinv
  rw [hostRsqrt_at, maximumf_at, degT_apply, lit_at]

theorem rowsT_apply (d : FVec Ideal S100000 .f32) (n : Fin 100000) (j : Fin 128) : rowsT d (ix2 n j) = d (ix1 n) := by
  unfold rowsT; exact (spread_apply _ _ n j).trans (col_apply _ _ n 0)

theorem scaledT_apply (n : Fin 100000) (j : Fin 128) :
    scaledT E ew L (ix2 n j) = Cert.Spec.kDinv (ewA ew) (dstA E) n * L (ix2 n j) := by
  unfold scaledT
  rw [mulf_at, rowsT_apply, dinvT_apply]

theorem wrapT_apply (e : Fin 1600000) : wrapT E (ix1 e) = Cert.Spec.wrap (srcA E e) := by
  unfold wrapT
  rw [select_at, cmpi_at, addi_at, litI_at, litI_at, srcT_apply]
  exact wrap_word _

theorem gatherT_apply (e : Fin 1600000) (j : Fin 128) :
    gatherT E ew L (ix2 e j) = scaledT E ew L (ix2 (Cert.Spec.rowOf (srcA E e)) j) := by
  unfold gatherT
  rw [Cert.LibScatterGather2.gather_apply_clamp _ rfl rfl rfl rfl rfl _ _ e j (by omega)]
  refine congrArg (scaledT E ew L) (congrArg (fun r => ix2 r j) (Fin.ext ?_))
  show min ((broadcastInDim S1600000x1 ![0] bcast_S1600000_S1600000x1_0 (wrapT E)) (ix2 e (0 : Fin 1))).toInt.toNat (100000 - 1)
    = min (Cert.Spec.wrap (srcA E e)).toInt.toNat 99999
  rw [col_apply, wrapT_apply]

theorem msgT_apply (e : Fin 1600000) (j : Fin 128) : msgT E ew L (ix2 e j) = ewA ew e * gatherT E ew L (ix2 e j) := by
  unfold msgT
  rw [mulf_at, spread_apply, col_apply]

theorem aggRT_apply (i : Fin 100000) (j : Fin 128) :
    aggRT E ew L (ix2 i j)
      = Cert.Spec.cZero + ∑ e ∈ Finset.univ.filter (fun e => Cert.Spec.lands (dstA E e) i), msgT E ew L (ix2 e j) := by
  unfold aggRT
  rw [Cert.LibScatterGather2.scatterAdd_apply _ rfl rfl rfl rfl, lit_at]
  simp only [dstColT_apply]
  rw [sum_lands (dstA E) i (fun e => msgT E ew L (ix2 e j))]

theorem aggT_apply (n : Fin 100000) (j : Fin 128) :
    aggT E ew L (ix2 n j)
      = Cert.Spec.kDinv (ewA ew) (dstA E) n * aggRT E ew L (ix2 n j)
        + (Cert.Spec.kDinv (ewA ew) (dstA E) n * Cert.Spec.kDinv (ewA ew) (dstA E) n) * L (ix2 n j) := by
  unfold aggT
  rw [addf_at, mulf_at, mulf_at, rowsT_apply, rowsT_apply, mulf_at, dinvT_apply]

end Stretch

/-! ## The second host stretch on the run -/

set_option maxHeartbeats 2000000 in
theorem W4_v53 (c : Dev nD) :
    (W4 (F := Ideal) m c (Proc.devRef .tc main_v53) : S100000x128.Idx → EReal)
      = aggT (W3 (F := Ideal) m c (Proc.devRef .tc main_arg1)) (W3 (F := Ideal) m c (Proc.devRef .tc main_arg3))
          (W3 (F := Ideal) m c (Proc.devRef .tc main_v17)) := by
  show StableHlo.after hostOps2 _ (Proc.devRef .tc main_v53) = _
  after_results_simp
  rfl

end Host2

open Host2

/-! ## Region 1's result -/

theorem lin3_val (c : Dev nD) (n : Fin 100000) (j : Fin 128) :
    lin3 m c n j = Cert.Spec.kLin (xOf m c) (nattOf m c) (wOf m c) (gammaOf m c) (betaOf m c) n j := by
  have h0 : lin3 m c n j = lin1At (VR2 m) c n j := by
    show (W3 (F := Ideal) m c (Proc.devRef .tc main_v17) : S100000x128.Idx → EReal) (ix2 n j) = _
    exact congrFun (W3_arr m c 5) (ix2 n j)
  rw [h0, lin_val]
  unfold Cert.Spec.kLin Cert.Spec.gate
  refine Finset.sum_congr rfl fun k _ => ?_
  have hx : x1At (VR2 m) c n k = xOf m c n k := congrFun (W2_arg0 m c) (ix2 n k)
  have hn : natt1At (VR2 m) c n = nattOf m c n := congrFun (W2_arg4 m c) (ix2 n (0 : Fin 1))
  have hw : w1At (VR2 m) c k j = wOf m c k j := congrFun (W2_arg5 m c) (ix2 k j)
  have hs : scale1At (VR2 m) c k = Cert.Spec.kScale (xOf m c) (nattOf m c) (gammaOf m c) k := scale2_val m c k
  have ht : shift1At (VR2 m) c k = Cert.Spec.kShift (xOf m c) (nattOf m c) (gammaOf m c) (betaOf m c) k := shift2_val m c k
  rw [hx, hn, hw, hs, ht]

/-! ## The second host stretch's three results -/

theorem agg4_val (c : Dev nD) (n : Fin 100000) (j : Fin 128) :
    agg4 m c n j
      = Cert.Spec.kAgg (xOf m c) (nattOf m c) (wOf m c) (gammaOf m c) (betaOf m c) (ewOf m c) (srcOf m c) (dstOf m c) n j := by
  have hL : ∀ (r : Fin 100000) (q : Fin 128), (W3 (F := Ideal) m c (Proc.devRef .tc main_v17) : S100000x128.Idx → EReal) (ix2 r q)
      = Cert.Spec.kLin (xOf m c) (nattOf m c) (wOf m c) (gammaOf m c) (betaOf m c) r q := fun r q => lin3_val m c r q
  show (W4 (F := Ideal) m c (Proc.devRef .tc main_v53) : S100000x128.Idx → EReal) (ix2 n j) = _
  rw [W4_v53, aggT_apply, aggRT_apply]
  simp only [msgT_apply, gatherT_apply, scaledT_apply, hL]
  rw [W3_arg1, W3_arg3]
  unfold Cert.Spec.kAgg Cert.Spec.kAggR Cert.Spec.kMsg Cert.Spec.kScaled
  rfl

theorem bias4_val (c : Dev nD) (j : Fin 128) : bias4 m c j = bOf m c j := by
  have e : (W4 (F := Ideal) m c (Proc.devRef .tc main_v54) : S1x128.Idx → EReal)
      = shapeCast S1x128 (W3 (F := Ideal) m c (Proc.devRef .tc main_arg6)) shapeCasts_S128_S1x128 := by
    show StableHlo.after hostOps2 _ (Proc.devRef .tc main_v54) = _
    after_results_simp
    rfl
  show (W4 (F := Ideal) m c (Proc.devRef .tc main_v54) : S1x128.Idx → EReal) (ix2 (0 : Fin 1) j) = _
  rw [e, shapeCast_a_1a_apply, W3_arg6]

theorem batch4_val (c : Dev nD) (n : Fin 100000) : batch4 m c n = batchOf m c n := by
  have e : (W4 (F := Ideal) m c (Proc.devRef .tc main_v55) : S100000x1.Idx → BitVec 32)
      = shapeCast S100000x1 (W3 (F := Ideal) m c (Proc.devRef .tc main_arg2)) shapeCasts_S100000_S100000x1 := by
    show StableHlo.after hostOps2 _ (Proc.devRef .tc main_v55) = _
    after_results_simp
    rfl
  show (W4 (F := Ideal) m c (Proc.devRef .tc main_v55) : S100000x1.Idx → BitVec 32) (ix2 n (0 : Fin 1)) = _
  rw [e, Cert.LibColumn.shapeCast_a_a1_apply, W3_arg2]

end Cert.KernelIdeal.Hand

end
-- ==== Proof.KI.Host.lean ====
import proofs.«413865_j65704409694829_2_alg».proof.Proof.KI.Args
import proofs.«413865_j65704409694829_2_alg».proof.Proof.KI.Value2
import proofs.«413865_j65704409694829_2_alg».proof.Proof.KI.Host2
import Idealize.ShloMosaic.Lib.StableHlo.Run
import proofs.«413865_j65704409694829_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (m : (ℓ : Loc nD τ sig) → Buf (Elt Ideal) ℓ)

/-! # Region 2's result and the last host stretch: the two halves' pooled sums added -/

/-- The host's sum over the leading axis of a [2, 512, 128] array, read at (g, j): the initial value plus the sum
    over the two slabs of their entries at (g, j). -/
theorem hostSum0 (y : (⟨S2x512x128, .f32⟩ : BufTy).Contents (Elt Ideal)) (init : (⟨S_, .f32⟩ : BufTy).Contents (Elt Ideal))
    (g : Fin 512) (j : Fin 128) :
    Host.reduceAdd (F := Ideal) (φ := .f32) y init reducesTo_S2x512x128_S512x128_d0 h_S_ (ix2 g j)
      = init (Shape.Idx.first h_S_) + ∑ h : Fin 2, y (ix3 h g j) := by
  simp only [Host.reduceAdd, Ideal.hostReduceAdd_def]
  rw [Ideal.hostReduceAdd_single reducesTo_S2x512x128_S512x128_d0 (by decide)]
  refine congrArg (_ + ·) (Finset.sum_congr rfl fun k _ => ?_)
  exact congrArg y (funext fun a => Fin.ext (by match a with | ⟨0, _⟩ => rfl | ⟨1, _⟩ => rfl | ⟨2, _⟩ => rfl))

theorem out_val (c : Dev nD) (g : Fin 512) (j : Fin 128) :
    out6 m c g j
      = Cert.Spec.kOut (xOf m c) (nattOf m c) (wOf m c) (bOf m c) (gammaOf m c) (betaOf m c) (ewOf m c) (srcOf m c) (dstOf m c)
          (batchOf m c) g j := by
  have e : (W6 m c (Proc.devRef .tc main_v57) : S512x128.Idx → EReal)
      = Host.reduceAdd (F := Ideal) (W5 m c (Proc.devRef .tc main_v56)) (constant (F := Ideal) S_ .f32 0x00000000#32)
          reducesTo_S2x512x128_S512x128_d0 h_S_ := by
    show StableHlo.after hostOps3 _ (Proc.devRef .tc main_v57) = _
    after_results
  -- each slab of the summed array is region 2's result: the half's pooled sum of the rectified, biased rows
  have hp : ∀ h : Fin 2, (W5 m c (Proc.devRef .tc main_v56) : S2x512x128.Idx → EReal) (ix3 h g j)
      = Cert.Spec.kPool (xOf m c) (nattOf m c) (wOf m c) (bOf m c) (gammaOf m c) (betaOf m c) (ewOf m c) (srcOf m c)
          (dstOf m c) (batchOf m c) h g j := fun h => by
    refine (congrFun (W5_arr m c 3) (ix3 h g j)).trans ?_
    refine (pool_val (VR4 m) c h g j).trans ?_
    unfold Cert.Spec.kPool Cert.Spec.kRelu
    refine Finset.sum_congr rfl fun r _ => ?_
    show Cert.Spec.oneHot (batch4 m c (Cert.Spec.halfNode h r)) g
        * max (agg4 m c (Cert.Spec.halfNode h r) j + bias4 m c j) Cert.Spec.cZero = _
    rw [batch4_val, agg4_val, bias4_val]
  show (W6 m c (Proc.devRef .tc main_v57) : S512x128.Idx → EReal) (ix2 g j) = _
  rw [e, hostSum0]
  unfold Cert.Spec.kOut
  exact congrArg (Cert.Spec.cZero + ·) (Finset.sum_congr rfl fun h _ => hp h)

end Cert.KernelIdeal.Hand

end
-- ==== Proof.RefRead.lean ====
import proofs.«413865_j65704409694829_2_alg».proof.Proof.Gen.ReferenceIdeal.Run
import proofs.«413865_j65704409694829_2_alg».proof.Proof.Gen.ReferenceIdeal.Read
import proofs.«413865_j65704409694829_2_alg».proof.Proof.Spec
import proofs.«413865_j65704409694829_2_alg».proof.Proof.LibScatterGather2
import proofs.«413865_j65704409694829_2_alg».proof.Proof.LibCells
import Idealize.ShloMosaic.Lib.ValueIdx
import Idealize.ShloMosaic.Lib.Pipeline.Value
import Idealize.ShloMosaic.PureOps.Ideal.Laws

set_option maxRecDepth 16384

noncomputable section

namespace Cert.ReferenceIdeal.RefRead

open Idealize.ShloMosaic Idealize.ShloMosaic.TcCoe Idealize.ShloMosaic.ValueIdx
open Idealize.SL.Sem
open Cert.ReferenceIdeal Cert.ReferenceIdeal.Gen

/-! # The stages of the reference program read at an index, over arbitrary argument arrays -/

section Stages

open Cert.ReferenceIdeal.Read Cert.Spec

variable (x0 : (⟨S100000x128, .f32⟩ : BufTy).Contents (Elt Ideal))
  (x1 : (⟨S2x1600000, .i32⟩ : BufTy).Contents (Elt Ideal))
  (x2 : (⟨S100000, .i32⟩ : BufTy).Contents (Elt Ideal))
  (x3 : (⟨S1600000, .f32⟩ : BufTy).Contents (Elt Ideal))
  (x4 : (⟨S100000x1, .f32⟩ : BufTy).Contents (Elt Ideal))
  (x5 : (⟨S128x128, .f32⟩ : BufTy).Contents (Elt Ideal))
  (x6 x7 x8 : (⟨S128, .f32⟩ : BufTy).Contents (Elt Ideal))

/-- The argument arrays at plain coordinates. -/
abbrev aX : Fin 100000 → Fin 128 → EReal := fun n k => (x0 : S100000x128.Idx → EReal) (ix2 n k)
abbrev aSrc : Fin 1600000 → BitVec 32 := fun e => (x1 : S2x1600000.Idx → BitVec 32) (ix2 (0 : Fin 2) e)
abbrev aDst : Fin 1600000 → BitVec 32 := fun e => (x1 : S2x1600000.Idx → BitVec 32) (ix2 (1 : Fin 2) e)
abbrev aBatch : Fin 100000 → BitVec 32 := fun n => (x2 : S100000.Idx → BitVec 32) (ix1 n)
abbrev aEw : Fin 1600000 → EReal := fun e => (x3 : S1600000.Idx → EReal) (ix1 e)
abbrev aNatt : Fin 100000 → EReal := fun n => (x4 : S100000x1.Idx → EReal) (ix2 n (0 : Fin 1))
abbrev aW : Fin 128 → Fin 128 → EReal := fun k j => (x5 : S128x128.Idx → EReal) (ix2 k j)
abbrev aB : Fin 128 → EReal := fun j => (x6 : S128.Idx → EReal) (ix1 j)
abbrev aGamma : Fin 128 → EReal := fun j => (x7 : S128.Idx → EReal) (ix1 j)
abbrev aBeta : Fin 128 → EReal := fun j => (x8 : S128.Idx → EReal) (ix1 j)

/-- Two rank-2 indices with the same coordinates are equal; likewise rank-1. -/
local macro "idx2" : tactic =>
  `(tactic| exact funext fun a => Fin.ext (by match a with | ⟨0, _⟩ => rfl | ⟨1, _⟩ => rfl))
local macro "idx1" : tactic =>
  `(tactic| exact funext fun a => Fin.ext (by match a with | ⟨0, _⟩ => rfl))

/-! ## The normalisation and the linear layer -/

/-- The gated features. -/
theorem v1_at (n : Fin 100000) (k : Fin 128) :
    val_main_v1 (F := Ideal) x0 x4 (ix2 n k) = gate (aX x0) (aNatt x4) n k := by
  rw [val_main_v1_apply, val_main_v0_apply]
  have e : idx_main_v0 (ix2 n k) = ix2 n (0 : Fin 1) := by idx2
  rw [e]
  rfl

/-- The column means. -/
theorem v4_at (k : Fin 128) :
    val_main_v4 (F := Ideal) x0 x4 (ix1 k) = rMu (aX x0) (aNatt x4) k := by
  rw [val_main_v4_apply, val_main_v2_apply, val_main_v3_apply, val_main_cst_0_apply, val_main_cst_apply]
  have e : ∀ n : Fin 100000, idx_main_v2 (ix1 k) n = ix2 n k := fun n => by idx2
  simp only [e, v1_at]
  rfl

/-- The column means laid under every row. -/
theorem v6_at (n : Fin 100000) (k : Fin 128) :
    val_main_v6 (F := Ideal) x0 x4 (ix2 n k) = rMu (aX x0) (aNatt x4) k := by
  rw [val_main_v6_apply, val_main_v5_apply]
  have e : idx_main_v5 (idx_main_v6 (ix2 n k)) = ix1 k := by idx1
  rw [e, v4_at]

theorem v13_at (n : Fin 100000) (k : Fin 128) :
    val_main_v13 (F := Ideal) x0 x4 (ix2 n k) = rMu (aX x0) (aNatt x4) k := by
  rw [val_main_v13_apply, val_main_v12_apply]
  have e : idx_main_v12 (idx_main_v13 (ix2 n k)) = ix1 k := by idx1
  rw [e, v4_at]

/-- The centred mean squares. -/
theorem v11_at (k : Fin 128) :
    val_main_v11 (F := Ideal) x0 x4 (ix1 k) = rVar (aX x0) (aNatt x4) k := by
  rw [val_main_v11_apply, val_main_v9_apply, val_main_v10_apply, val_main_cst_2_apply, val_main_cst_1_apply]
  have e : ∀ n : Fin 100000, idx_main_v9 (ix1 k) n = ix2 n k := fun n => by idx2
  simp only [e, val_main_v8_apply, val_main_v7_apply, v1_at, v6_at]
  rfl

/-- The inverse deviations laid under every row. -/
theorem v19_at (n : Fin 100000) (k : Fin 128) :
    val_main_v19 (F := Ideal) x0 x4 (ix2 n k) = Ideal.rsqrt (rVar (aX x0) (aNatt x4) k + cEps) := by
  rw [val_main_v19_apply, val_main_v18_apply]
  have e : idx_main_v18 (idx_main_v19 (ix2 n k)) = ix1 k := by idx1
  rw [e, val_main_v17_apply, val_main_v16_apply, v11_at, val_main_v15_apply, val_main_cst_3_apply]
  rfl

/-- The normalised rows. -/
theorem v26_at (n : Fin 100000) (k : Fin 128) :
    val_main_v26 (F := Ideal) x0 x4 x7 x8 (ix2 n k) = rNorm (aX x0) (aNatt x4) (aGamma x7) (aBeta x8) n k := by
  rw [val_main_v26_apply, val_main_v23_apply, val_main_v20_apply, val_main_v14_apply, v1_at, v13_at, v19_at,
    val_main_v22_apply, val_main_v21_apply, val_main_v25_apply, val_main_v24_apply]
  have e7 : idx_main_v21 (idx_main_v22 (ix2 n k)) = ix1 k := by idx1
  have e8 : idx_main_v24 (idx_main_v25 (ix2 n k)) = ix1 k := by idx1
  rw [e7, e8]
  rfl

/-- The linear layer. -/
theorem v27_at (n : Fin 100000) (j : Fin 128) :
    val_main_v27 (F := Ideal) x0 x4 x5 x7 x8 (ix2 n j)
      = rLin (aX x0) (aNatt x4) (aW x5) (aGamma x7) (aBeta x8) n j := by
  rw [val_main_v27_apply]
  have el : ∀ k : Fin 128, lidx_main_v27 (ix2 n j) k = ix2 n k := fun k => by idx2
  have er : ∀ k : Fin 128, ridx_main_v27 (ix2 n j) k = ix2 k j := fun k => by idx2
  simp only [el, er, v26_at]
  rfl

/-! ## The extended edge list -/

/-- The sources: the given ones, then each node's own position. -/
theorem v31_at (e : Fin 1700000) : val_main_v31 (F := Ideal) x1 (ix1 e) = srcC (aSrc x1) e := by
  unfold val_main_v31 srcC
  by_cases h : e.val < 1600000
  · rw [dif_pos h]
    refine (concatenate_pair_apply_left (s₁ := S1600000) (s₂ := S100000) (0 : Fin S1700000.rank) _ _ _ (ix1 e) rfl (ix1 ⟨e.val, h⟩)
      (fun b => by match b with | ⟨0, _⟩ => rfl)).trans ?_
    rw [val_main_v30_apply, val_main_v29_apply]
    have e0 : idx_main_v29 (idx_main_v30 (ix1 (⟨e.val, h⟩ : Fin 1600000))) = ix2 (0 : Fin 2) ⟨e.val, h⟩ :=
      funext fun a => Fin.ext (by
        match a with
        | ⟨0, _⟩ => rfl
        | ⟨1, _⟩ => exact Nat.mod_eq_of_lt h)
    rw [e0]
  · rw [dif_neg h]
    refine (concatenate_pair_apply_right (s₁ := S1600000) (s₂ := S100000) (0 : Fin S1700000.rank) _ _ _ (ix1 e) rfl rfl
      (ix1 (⟨e.val - 1600000, by omega⟩ : Fin 100000))
      (fun b hb => by match b with | ⟨0, _⟩ => exact absurd rfl hb)
      (by show e.val - 1600000 + 1600000 = e.val; omega)).trans ?_
    rfl

/-- The targets: the given ones, then each node's own position. -/
theorem v34_at (e : Fin 1700000) : val_main_v34 (F := Ideal) x1 (ix1 e) = dstC (aDst x1) e := by
  unfold val_main_v34 dstC
  by_cases h : e.val < 1600000
  · rw [dif_pos h]
    refine (concatenate_pair_apply_left (s₁ := S1600000) (s₂ := S100000) (0 : Fin S1700000.rank) _ _ _ (ix1 e) rfl (ix1 ⟨e.val, h⟩)
      (fun b => by match b with | ⟨0, _⟩ => rfl)).trans ?_
    rw [val_main_v33_apply, val_main_v32_apply]
    have e0 : idx_main_v32 (idx_main_v33 (ix1 (⟨e.val, h⟩ : Fin 1600000))) = ix2 (1 : Fin 2) ⟨e.val, h⟩ :=
      funext fun a => Fin.ext (by
        match a with
        | ⟨0, _⟩ => rfl
        | ⟨1, _⟩ => exact Nat.mod_eq_of_lt h)
    rw [e0]
  · rw [dif_neg h]
    refine (concatenate_pair_apply_right (s₁ := S1600000) (s₂ := S100000) (0 : Fin S1700000.rank) _ _ _ (ix1 e) rfl rfl
      (ix1 (⟨e.val - 1600000, by omega⟩ : Fin 100000))
      (fun b hb => by match b with | ⟨0, _⟩ => exact absurd rfl hb)
      (by show e.val - 1600000 + 1600000 = e.val; omega)).trans ?_
    rfl

/-- The weights: the given ones, then one per node. -/
theorem v36_at (e : Fin 1700000) : val_main_v36 (F := Ideal) x3 (ix1 e) = ewC (aEw x3) e := by
  unfold val_main_v36 ewC
  by_cases h : e.val < 1600000
  · rw [dif_pos h]
    exact concatenate_pair_apply_left (s₁ := S1600000) (s₂ := S100000) (0 : Fin S1700000.rank) _ _ _ (ix1 e) rfl (ix1 ⟨e.val, h⟩)
      (fun b => by match b with | ⟨0, _⟩ => rfl)
  · rw [dif_neg h]
    refine (concatenate_pair_apply_right (s₁ := S1600000) (s₂ := S100000) (0 : Fin S1700000.rank) _ _ _ (ix1 e) rfl rfl
      (ix1 (⟨e.val - 1600000, by omega⟩ : Fin 100000))
      (fun b hb => by match b with | ⟨0, _⟩ => exact absurd rfl hb)
      (by show e.val - 1600000 + 1600000 = e.val; omega)).trans ?_
    rw [val_main_v35_apply, val_main_cst_4_apply]
    rfl

/-! ## Row words -/

/-- The compare, add and select of the program is the wrap of a row word. -/
theorem select_wrap (w : BitVec 32) :
    Scalar.select (IntOp.cmpi .slt w 0#32) (IntOp.addi w 100000#32) w = wrap w := by
  show (if BitVec.ofBool (w.slt 0#32) = 1 then w + 100000#32 else w) = if w.slt 0#32 then w + 100000#32 else w
  cases w.slt 0#32 <;> rfl

theorem v47_at (e : Fin 1700000) : val_main_v47 (F := Ideal) x1 (ix1 e) = wrap (srcC (aSrc x1) e) := by
  rw [val_main_v47_apply, val_main_v44_apply, val_main_v46_apply, val_main_v43_apply, val_main_c_apply,
    val_main_v45_apply, val_main_c_7_apply, v31_at]
  exact select_wrap _

theorem v55_at (e : Fin 1700000) : val_main_v55 (F := Ideal) x1 (ix1 e) = wrap (dstC (aDst x1) e) := by
  rw [val_main_v55_apply, val_main_v52_apply, val_main_v54_apply, val_main_v51_apply, val_main_c_8_apply,
    val_main_v53_apply, val_main_c_9_apply, v34_at]
  exact select_wrap _

theorem v64_at (e : Fin 1700000) : val_main_v64 (F := Ideal) x1 (ix1 e) = wrap (srcC (aSrc x1) e) := by
  rw [val_main_v64_apply, val_main_v61_apply, val_main_v63_apply, val_main_v60_apply, val_main_c_10_apply,
    val_main_v62_apply, val_main_c_11_apply, v31_at]
  exact select_wrap _

/-- The gather of a table of `N` entries by an `M × 1` column of words, at `e`: the entry at `e`'s word, read signed and
    clamped into the table. -/
theorem gather1_apply_clamp {α : Type} {N M w : Nat} (d : GatherDims ⟨1, ![N]⟩ ⟨2, ![M, 1]⟩ ⟨1, ![M]⟩)
    (hoff : d.offsetDims = []) (hcoll : d.collapsedSliceDims = [0]) (hob : d.operandBatchingDims = [])
    (hsim : d.startIndexMap = [0]) (hivd : d.indexVectorDim = 1)
    (x : (⟨1, ![N]⟩ : Shape).Idx → α) (idx : IVec ⟨2, ![M, 1]⟩ w) (e : Fin M) (hN : 0 < N) :
    Host.gather d x idx (ix1 e) = x (ix1 ⟨min (idx (ix2 e (0 : Fin 1))).toInt.toNat (N - 1), by omega⟩) := by
  -- the table's one axis is collapsed, so the slice taken along it is one entry
  have hsl : d.sliceSizes 0 = 1 := d.slice_collapsed 0 (by rw [hcoll]; exact List.mem_singleton.mpr rfl)
  unfold Host.gather
  refine congrArg x ?_
  cases d with
  | mk od cd ob sb sm iv ss wf =>
    obtain rfl : od = [] := hoff
    obtain rfl : cd = [0] := hcoll
    obtain rfl : ob = [] := hob
    obtain rfl : sm = [0] := hsim
    obtain rfl : iv = 1 := hivd
    replace hsl : ss 0 = 1 := hsl
    funext a
    match a with
    | ⟨0, _⟩ =>
      apply Fin.ext
      show GatherDims.start _ (ix1 e) idx 0 + GatherDims.batchCoord _ (ix1 e) 0 + GatherDims.offCoord _ (ix1 e) 0
        = min (idx (ix2 e (0 : Fin 1))).toInt.toNat (N - 1)
      rw [GatherDims.batchCoord_eq_zero _ _ _ List.not_mem_nil,
        GatherDims.offCoord_eq_zero _ _ _ (by decide : (0 : Fin 1) ∉ (List.finRange 1).filter (· ∉ [0] ++ []))]
      simp only [Nat.add_zero]
      unfold GatherDims.start
      rw [dif_pos (List.mem_singleton.mpr rfl)]
      show min (idx _).toInt.toNat (N - ss 0) = _
      rw [hsl]
      refine congrArg (fun k => min (idx k).toInt.toNat (N - 1)) ?_
      funext b
      match b with
      | ⟨0, _⟩ => exact Fin.ext rfl
      | ⟨1, _⟩ => exact Fin.ext rfl

/-! ## Degrees and the symmetric weights -/

/-- The degrees: the extended weights landing on a node. -/
theorem v39_at (i : Fin 100000) : val_main_v39 (F := Ideal) x1 x3 (ix1 i) = rDeg (aEw x3) (aDst x1) i := by
  unfold val_main_v39
  rw [Cert.LibCells.scatterAdd1_apply scatter_S100000_S1700000x1_S1700000_n_0_0_1 rfl rfl rfl rfl,
    val_main_v37_apply, val_main_cst_5_apply]
  unfold rDeg
  refine congrArg₂ (· + ·) rfl ?_
  refine Finset.sum_congr (Finset.filter_congr fun e _ => ?_) (fun e _ => v36_at x3 e)
  rw [val_main_v38_apply]
  have e0 : idx_main_v38 (ix2 e (0 : Fin 1)) = ix1 e := by idx1
  rw [e0, v34_at]
  exact Iff.rfl

/-- Their clamped inverse square roots. -/
theorem v42_at (i : Fin 100000) : val_main_v42 (F := Ideal) x1 x3 (ix1 i) = rDinv (aEw x3) (aDst x1) i := by
  rw [val_main_v42_apply, val_main_v41_apply, v39_at, val_main_v40_apply, val_main_cst_6_apply,
    Ideal.hostUnary_rsqrt_def, Ideal.maximumf_def, Ideal.ofBits_def]
  rfl

theorem v49_at (e : Fin 1700000) :
    val_main_v49 (F := Ideal) x1 x3 (ix1 e) = rDinv (aEw x3) (aDst x1) (rowOf (srcC (aSrc x1) e)) := by
  unfold val_main_v49
  refine (gather1_apply_clamp gather_S100000_S1700000x1_S1700000_n_0_n_n_0_1_1 rfl rfl rfl rfl rfl
    (val_main_v42 (F := Ideal) x1 x3) (val_main_v48 (F := Ideal) x1) e (by omega)).trans ?_
  have hw : val_main_v48 (F := Ideal) x1 (ix2 e (0 : Fin 1)) = wrap (srcC (aSrc x1) e) := by
    rw [val_main_v48_apply]
    have e0 : idx_main_v48 (ix2 e (0 : Fin 1)) = ix1 e := by idx1
    rw [e0, v47_at]
  refine (congrArg (val_main_v42 (F := Ideal) x1 x3) (congrArg (ix1 (n := 100000)) (Fin.ext ?_))).trans
    (v42_at x1 x3 (rowOf (srcC (aSrc x1) e)))
  exact congrArg (fun w : BitVec 32 => min w.toInt.toNat 99999) hw

theorem v57_at (e : Fin 1700000) :
    val_main_v57 (F := Ideal) x1 x3 (ix1 e) = rDinv (aEw x3) (aDst x1) (rowOf (dstC (aDst x1) e)) := by
  unfold val_main_v57
  refine (gather1_apply_clamp gather_S100000_S1700000x1_S1700000_n_0_n_n_0_1_1 rfl rfl rfl rfl rfl
    (val_main_v42 (F := Ideal) x1 x3) (val_main_v56 (F := Ideal) x1) e (by omega)).trans ?_
  have hw : val_main_v56 (F := Ideal) x1 (ix2 e (0 : Fin 1)) = wrap (dstC (aDst x1) e) := by
    rw [val_main_v56_apply]
    have e0 : idx_main_v56 (ix2 e (0 : Fin 1)) = ix1 e := by idx1
    rw [e0, v55_at]
  refine (congrArg (val_main_v42 (F := Ideal) x1 x3) (congrArg (ix1 (n := 100000)) (Fin.ext ?_))).trans
    (v42_at x1 x3 (rowOf (dstC (aDst x1) e)))
  exact congrArg (fun w : BitVec 32 => min w.toInt.toNat 99999) hw

/-- The symmetric weight of an extended edge. -/
theorem v58_at (e : Fin 1700000) :
    val_main_v58 (F := Ideal) x1 x3 (ix1 e) = rNrm (aEw x3) (aSrc x1) (aDst x1) e := by
  rw [val_main_v58_apply, val_main_v50_apply, v49_at, v36_at, v57_at]
  rfl

/-! ## Messages, aggregation, pooling -/

/-- The source's row of the linear layer. -/
theorem v66_at (e : Fin 1700000) (j : Fin 128) :
    val_main_v66 (F := Ideal) x0 x1 x4 x5 x7 x8 (ix2 e j)
      = rLin (aX x0) (aNatt x4) (aW x5) (aGamma x7) (aBeta x8) (rowOf (srcC (aSrc x1) e)) j := by
  unfold val_main_v66
  refine (Cert.LibScatterGather2.gather_apply_clamp gather_S100000x128_S1700000x1_S1700000x128_1_0_n_n_0_1_1128
    rfl rfl rfl rfl rfl (val_main_v27 (F := Ideal) x0 x4 x5 x7 x8) (val_main_v65 (F := Ideal) x1) e j (by omega)).trans ?_
  have hw : val_main_v65 (F := Ideal) x1 (ix2 e (0 : Fin 1)) = wrap (srcC (aSrc x1) e) := by
    rw [val_main_v65_apply]
    have e0 : idx_main_v65 (ix2 e (0 : Fin 1)) = ix1 e := by idx1
    rw [e0, v64_at]
  refine (congrArg (val_main_v27 (F := Ideal) x0 x4 x5 x7 x8)
    (congrArg (fun r : Fin 100000 => ix2 r j) (Fin.ext ?_))).trans
    (v27_at x0 x4 x5 x7 x8 (rowOf (srcC (aSrc x1) e)) j)
  exact congrArg (fun w : BitVec 32 => min w.toInt.toNat 99999) hw

/-- The message along an extended edge. -/
theorem v68_at (e : Fin 1700000) (j : Fin 128) :
    val_main_v68 (F := Ideal) x0 x1 x3 x4 x5 x7 x8 (ix2 e j)
      = rMsg (aX x0) (aNatt x4) (aW x5) (aGamma x7) (aBeta x8) (aEw x3) (aSrc x1) (aDst x1) e j := by
  rw [val_main_v68_apply, val_main_v67_apply, val_main_v59_apply]
  have e0 : idx_main_v59 (idx_main_v67 (ix2 e j)) = ix1 e := by idx1
  rw [e0, v58_at, v66_at]
  rfl

/-- The messages landing on a node, plus the bias. -/
theorem v74_at (i : Fin 100000) (j : Fin 128) :
    val_main_v74 (F := Ideal) x0 x1 x3 x4 x5 x6 x7 x8 (ix2 i j)
      = rAgg (aX x0) (aNatt x4) (aW x5) (aB x6) (aGamma x7) (aBeta x8) (aEw x3) (aSrc x1) (aDst x1) i j := by
  rw [val_main_v74_apply, val_main_v73_apply, val_main_v72_apply]
  have eb : idx_main_v72 (idx_main_v73 (ix2 i j)) = ix1 j := by idx1
  rw [eb]
  unfold val_main_v71
  rw [Cert.LibScatterGather2.scatterAdd_apply scatter_S100000x128_S1700000x1_S1700000x128_1_0_0_1 rfl rfl rfl rfl,
    val_main_v69_apply, val_main_cst_12_apply, Ideal.addf_def]
  unfold rAgg
  refine congrArg₂ (· + ·) (congrArg₂ (· + ·) rfl ?_) rfl
  refine Finset.sum_congr (Finset.filter_congr fun e _ => ?_) (fun e _ => v68_at x0 x1 x3 x4 x5 x7 x8 e j)
  rw [val_main_v70_apply]
  have e0 : idx_main_v70 (ix2 e (0 : Fin 1)) = ix1 e := by idx1
  rw [e0, v34_at]
  exact Iff.rfl

/-- The rectified rows. -/
theorem v75_at (n : Fin 100000) (j : Fin 128) :
    val_main_v75 (F := Ideal) x0 x1 x3 x4 x5 x6 x7 x8 (ix2 n j)
      = rRelu (aX x0) (aNatt x4) (aW x5) (aB x6) (aGamma x7) (aBeta x8) (aEw x3) (aSrc x1) (aDst x1) n j := by
  rw [val_main_v75_apply, v74_at, val_main_call0_v0_apply, val_main_call0_cst_apply]
  rfl

/-- The pooling: the rectified rows of the nodes whose graph id lands on the graph. -/
theorem v78_at (g : Fin 512) (j : Fin 128) :
    val_main_v78 (F := Ideal) x0 x1 x2 x3 x4 x5 x6 x7 x8 (ix2 g j)
      = rOut (aX x0) (aNatt x4) (aW x5) (aB x6) (aGamma x7) (aBeta x8) (aEw x3) (aSrc x1) (aDst x1) (aBatch x2) g j := by
  unfold val_main_v78
  rw [Cert.LibScatterGather2.scatterAdd_apply scatter_S512x128_S100000x1_S100000x128_1_0_0_1 rfl rfl rfl rfl,
    val_main_v76_apply, val_main_cst_13_apply]
  unfold rOut
  refine congrArg₂ (· + ·) rfl ?_
  refine Finset.sum_congr (Finset.filter_congr fun n _ => ?_) (fun n _ => v75_at x0 x1 x3 x4 x5 x6 x7 x8 n j)
  rw [val_main_v77_apply]
  have e0 : idx_main_v77 (ix2 n (0 : Fin 1)) = ix1 n := by idx1
  rw [e0]
  exact Iff.rfl

end Stages

variable (m : (ℓ : Loc nD τ sig) → Buf (Elt Ideal) ℓ)

/-! # The reference program's result, at the ideal instance, as the closed formula `Cert.Spec.rOut` of the argument
arrays: its run's composed term read one operation at a time -/

/-- The argument arrays read at plain coordinates. -/
abbrev xOf (c : Dev nD) : Fin 100000 → Fin 128 → EReal := fun n k => (m ((c.tc : Thread nD τ).loc main_arg0) : S100000x128.Idx → EReal) (ix2 n k)
abbrev srcOf (c : Dev nD) : Fin 1600000 → BitVec 32 := fun e => (m ((c.tc : Thread nD τ).loc main_arg1) : S2x1600000.Idx → BitVec 32) (ix2 (0 : Fin 2) e)
abbrev dstOf (c : Dev nD) : Fin 1600000 → BitVec 32 := fun e => (m ((c.tc : Thread nD τ).loc main_arg1) : S2x1600000.Idx → BitVec 32) (ix2 (1 : Fin 2) e)
abbrev batchOf (c : Dev nD) : Fin 100000 → BitVec 32 := fun n => (m ((c.tc : Thread nD τ).loc main_arg2) : S100000.Idx → BitVec 32) (ix1 n)
abbrev ewOf (c : Dev nD) : Fin 1600000 → EReal := fun e => (m ((c.tc : Thread nD τ).loc main_arg3) : S1600000.Idx → EReal) (ix1 e)
abbrev nattOf (c : Dev nD) : Fin 100000 → EReal := fun n => (m ((c.tc : Thread nD τ).loc main_arg4) : S100000x1.Idx → EReal) (ix2 n (0 : Fin 1))
abbrev wOf (c : Dev nD) : Fin 128 → Fin 128 → EReal := fun k j => (m ((c.tc : Thread nD τ).loc main_arg5) : S128x128.Idx → EReal) (ix2 k j)
abbrev bOf (c : Dev nD) : Fin 128 → EReal := fun j => (m ((c.tc : Thread nD τ).loc main_arg6) : S128.Idx → EReal) (ix1 j)
abbrev gammaOf (c : Dev nD) : Fin 128 → EReal := fun j => (m ((c.tc : Thread nD τ).loc main_arg7) : S128.Idx → EReal) (ix1 j)
abbrev betaOf (c : Dev nD) : Fin 128 → EReal := fun j => (m ((c.tc : Thread nD τ).loc main_arg8) : S128.Idx → EReal) (ix1 j)
/-- The run's result read at plain coordinates. -/
abbrev resAt (c : Dev nD) : Fin 512 → Fin 128 → EReal := fun g j =>
  (Cert.ReferenceIdeal.Value.res_main_v78 (F := Ideal) m c : S512x128.Idx → EReal) (ix2 g j)

theorem ref_val (c : Dev nD) (g : Fin 512) (j : Fin 128) :
    resAt m c g j
      = Cert.Spec.rOut (xOf m c) (nattOf m c) (wOf m c) (bOf m c) (gammaOf m c) (betaOf m c) (ewOf m c) (srcOf m c) (dstOf m c)
          (batchOf m c) g j := by
  show (Cert.ReferenceIdeal.Value.res_main_v78 (F := Ideal) m c : S512x128.Idx → EReal) (ix2 g j) = _
  rw [Cert.ReferenceIdeal.Read.val_main_v78_eq]
  exact v78_at _ _ _ _ _ _ _ _ _ g j

end Cert.ReferenceIdeal.RefRead

end
-- ==== Proof.AlgBN.lean ====
import proofs.«413865_j65704409694829_2_alg».proof.Proof.Spec
import proofs.«413865_j65704409694829_2_alg».proof.Proof.LibIdealReal
import Mathlib.Data.EReal.Basic
import Mathlib.Data.EReal.Operations
import Mathlib.Data.EReal.Inv
import Mathlib.Analysis.SpecialFunctions.Sqrt
import Mathlib.Algebra.BigOperators.Field
import Mathlib.Algebra.BigOperators.Ring.Finset
import Mathlib.Algebra.Order.BigOperators.Ring.Finset
import Mathlib.Tactic.Ring
import Mathlib.Tactic.FieldSimp
import Mathlib.Tactic.Linarith
import Mathlib.Tactic.NormNum

/-!
# The normalisation, folded or not, gives the same linear image

For finite inputs every quantity below is a real number. With `g` the gated features, `S` and `Q` the column sums of
`g` and `g²`, `N` = 100000: the variance computed as `Q/N − (S/N)²` is the centred mean square `(∑ (g − S/N)²)/N`,
which is nonnegative, so adding the positive `ε` gives a positive number whose inverse square root is a real; and
`g·(γ·r) + (β − μ·(γ·r)) = (g − μ)·r·γ + β` for every real `r`. Hence the two linear images agree entry by entry,
and each is a real.
-/

noncomputable section

namespace Cert.Alg

open Idealize.ShloMosaic Cert.Spec Cert.LibIdealReal

namespace BN

/-! ## The literals as reals -/

/-- The pattern of the row count denotes the coerced real 100000. -/
theorem cN_coe : cN = ((100000 : ℝ) : EReal) := by
  simp [Ideal.ofBits, Ideal.ieee, -EReal.coe_mul]; norm_num

/-- The all-zero pattern denotes zero. -/
theorem cZero_eq : cZero = 0 := ofBits_zero

/-- The real that the pattern of `ε` denotes. -/
def eps : ℝ := 10995116 / 2 ^ 40

/-- The pattern of `ε` denotes the coerced `eps`. -/
theorem cEps_coe : cEps = ((eps : ℝ) : EReal) := by
  unfold eps
  simp [Ideal.ofBits, Ideal.ieee, -EReal.coe_mul]; norm_num

/-- `eps` is positive. -/
theorem eps_pos : 0 < eps := by unfold eps; positivity

/-! ## The variance identity over the reals -/

/-- Over a finite set of `N` elements the mean square less the squared mean is the centred mean square. -/
theorem var_eq_centred {ι : Type*} (s : Finset ι) (g : ι → ℝ) (N : ℝ) (hN : N ≠ 0) (hcard : (s.card : ℝ) = N) :
    (∑ i ∈ s, g i * g i) / N - (∑ i ∈ s, g i) / N * ((∑ i ∈ s, g i) / N)
      = (∑ i ∈ s, (g i - (∑ i ∈ s, g i) / N) * (g i - (∑ i ∈ s, g i) / N)) / N := by
  set S := ∑ i ∈ s, g i with hS
  have h : ∑ i ∈ s, (g i - S / N) * (g i - S / N)
      = (∑ i ∈ s, g i * g i) - 2 * (S / N) * S + N * (S / N * (S / N)) := by
    have h1 : ∀ i ∈ s, (g i - S / N) * (g i - S / N) = g i * g i - 2 * (S / N) * g i + S / N * (S / N) :=
      fun i _ => by ring
    rw [Finset.sum_congr rfl h1, Finset.sum_add_distrib, Finset.sum_sub_distrib, ← Finset.mul_sum,
      Finset.sum_const, nsmul_eq_mul, hcard]
  rw [h]
  field_simp
  ring

/-- The centred mean square is nonnegative. -/
theorem centred_nonneg {ι : Type*} (s : Finset ι) (g : ι → ℝ) (m N : ℝ) (hN : 0 < N) :
    0 ≤ (∑ i ∈ s, (g i - m) * (g i - m)) / N :=
  div_nonneg (Finset.sum_nonneg fun i _ => mul_self_nonneg _) hN.le

/-! ## The real mirrors of the two programs' quantities -/

section Mirror

variable (xr : Fin 100000 → Fin 128 → ℝ) (nr : Fin 100000 → ℝ) (Wr : Fin 128 → Fin 128 → ℝ) (gr br : Fin 128 → ℝ)

/-- The gated features. -/
def G (n : Fin 100000) (k : Fin 128) : ℝ := nr n * xr n k
/-- The column sum. -/
def S (k : Fin 128) : ℝ := ∑ n : Fin 100000, G xr nr n k
/-- The column sum of squares. -/
def Q (k : Fin 128) : ℝ := ∑ n : Fin 100000, G xr nr n k * G xr nr n k
/-- The mean. -/
def mu (k : Fin 128) : ℝ := S xr nr k / 100000
/-- The variance as mean square less squared mean. -/
def var (k : Fin 128) : ℝ := Q xr nr k / 100000 - mu xr nr k * mu xr nr k
/-- The variance as the centred mean square. -/
def var' (k : Fin 128) : ℝ := (∑ n : Fin 100000, (G xr nr n k - mu xr nr k) * (G xr nr n k - mu xr nr k)) / 100000
/-- The inverse square root of the variance plus `ε`. -/
def rs (k : Fin 128) : ℝ := (√(var xr nr k + eps))⁻¹

/-- The two forms of the variance agree. -/
theorem var_eq_var' (k : Fin 128) : var xr nr k = var' xr nr k := by
  unfold var var' mu S Q
  exact var_eq_centred Finset.univ (fun n => G xr nr n k) 100000 (by norm_num)
    (by rw [Finset.card_univ, Fintype.card_fin]; norm_num)

/-- The variance is nonnegative. -/
theorem var_nonneg (k : Fin 128) : 0 ≤ var xr nr k := by
  rw [var_eq_var']
  exact centred_nonneg Finset.univ (fun n => G xr nr n k) (mu xr nr k) 100000 (by norm_num)

/-- The variance plus `ε` is positive. -/
theorem var_eps_pos (k : Fin 128) : 0 < var xr nr k + eps := add_pos_of_nonneg_of_pos (var_nonneg xr nr k) eps_pos

local notation "xE" => (fun (n : Fin 100000) (k : Fin 128) => ((xr n k : ℝ) : EReal))
local notation "nE" => (fun (n : Fin 100000) => ((nr n : ℝ) : EReal))
local notation "WE" => (fun (k j : Fin 128) => ((Wr k j : ℝ) : EReal))
local notation "gE" => (fun (k : Fin 128) => ((gr k : ℝ) : EReal))
local notation "bE" => (fun (k : Fin 128) => ((br k : ℝ) : EReal))

theorem gate_coe (n : Fin 100000) (k : Fin 128) : gate xE nE n k = ((G xr nr n k : ℝ) : EReal) := by
  simp only [gate, G, mul_coe]

theorem kS_coe (k : Fin 128) : kS xE nE k = ((S xr nr k : ℝ) : EReal) := by
  unfold kS S
  exact sum_of_eq _ _ _ fun n _ => gate_coe xr nr n k

theorem kQ_coe (k : Fin 128) : kQ xE nE k = ((Q xr nr k : ℝ) : EReal) := by
  unfold kQ Q
  exact sum_of_eq _ _ _ fun n _ => by rw [gate_coe, mul_coe]

theorem kMu_coe (k : Fin 128) : kMu xE nE k = ((mu xr nr k : ℝ) : EReal) := by
  unfold kMu mu
  rw [kS_coe, cN_coe, div_coe _ (by norm_num)]

theorem kMsq_coe (k : Fin 128) : kMsq xE nE k = ((Q xr nr k / 100000 : ℝ) : EReal) := by
  unfold kMsq
  rw [kQ_coe, cN_coe, div_coe _ (by norm_num)]

theorem kVar_coe (k : Fin 128) : kVar xE nE k = ((var xr nr k : ℝ) : EReal) := by
  unfold kVar var
  rw [kMsq_coe, kMu_coe, mul_coe, sub_coe]

theorem rMu_coe (k : Fin 128) : rMu xE nE k = ((mu xr nr k : ℝ) : EReal) := by
  unfold rMu mu S
  rw [cZero_eq, zero_add, sum_of_eq _ _ _ fun n _ => gate_coe xr nr n k, cN_coe, div_coe _ (by norm_num)]

theorem rVar_coe (k : Fin 128) : rVar xE nE k = ((var xr nr k : ℝ) : EReal) := by
  rw [var_eq_var']
  unfold rVar var'
  rw [cZero_eq, zero_add,
    sum_of_eq _ _ (fun n => (G xr nr n k - mu xr nr k) * (G xr nr n k - mu xr nr k))
      fun n _ => by rw [gate_coe, rMu_coe, sub_coe, mul_coe],
    cN_coe, div_coe _ (by norm_num)]

/-- The inverse square root of the variance plus `ε` is the coerced real one. -/
theorem rsqrt_var_coe (k : Fin 128) : Ideal.rsqrt (((var xr nr k : ℝ) : EReal) + cEps) = ((rs xr nr k : ℝ) : EReal) := by
  have hp := var_eps_pos xr nr k
  rw [cEps_coe, add_coe, Ideal.rsqrt_coe, if_neg (not_lt.mpr hp.le), if_neg hp.ne']
  rfl

theorem kScale_coe (k : Fin 128) : kScale xE nE gE k = ((gr k * rs xr nr k : ℝ) : EReal) := by
  unfold kScale
  rw [kVar_coe, rsqrt_var_coe, mul_coe]

theorem kShift_coe (k : Fin 128) :
    kShift xE nE gE bE k = ((br k - mu xr nr k * (gr k * rs xr nr k) : ℝ) : EReal) := by
  unfold kShift
  rw [kMu_coe, kScale_coe, mul_coe, sub_coe]

theorem kLin_coe (n : Fin 100000) (j : Fin 128) :
    kLin xE nE WE gE bE n j
      = ((∑ k : Fin 128, (G xr nr n k * (gr k * rs xr nr k) + (br k - mu xr nr k * (gr k * rs xr nr k))) * Wr k j : ℝ) :
          EReal) := by
  unfold kLin
  exact sum_of_eq _ _ _ fun k _ => by rw [gate_coe, kScale_coe, kShift_coe, mul_coe, add_coe, mul_coe]

theorem rNorm_coe (n : Fin 100000) (k : Fin 128) :
    rNorm xE nE gE bE n k = (((G xr nr n k - mu xr nr k) * rs xr nr k * gr k + br k : ℝ) : EReal) := by
  unfold rNorm
  rw [gate_coe, rMu_coe, rVar_coe, rsqrt_var_coe, sub_coe, mul_coe, mul_coe, add_coe]

theorem rLin_coe (n : Fin 100000) (j : Fin 128) :
    rLin xE nE WE gE bE n j
      = ((∑ k : Fin 128, ((G xr nr n k - mu xr nr k) * rs xr nr k * gr k + br k) * Wr k j : ℝ) : EReal) := by
  unfold rLin
  exact sum_of_eq _ _ _ fun k _ => by rw [rNorm_coe, mul_coe]

/-- Over coerced reals the two linear images agree. -/
theorem kLin_eq_rLin_coe (n : Fin 100000) (j : Fin 128) : kLin xE nE WE gE bE n j = rLin xE nE WE gE bE n j := by
  rw [kLin_coe, rLin_coe]
  congr 1
  exact Finset.sum_congr rfl fun k _ => by ring

end Mirror

end BN

variable (x : Fin 100000 → Fin 128 → EReal) (natt : Fin 100000 → EReal) (W : Fin 128 → Fin 128 → EReal)
  (gamma beta : Fin 128 → EReal)

/-- The folded normalisation's linear image is the unfolded one's. -/
theorem kLin_eq_rLin (hx : ∀ n k, ∃ r : ℝ, x n k = (r : EReal)) (hn : ∀ n, ∃ r : ℝ, natt n = (r : EReal))
    (hW : ∀ k j, ∃ r : ℝ, W k j = (r : EReal)) (hg : ∀ k, ∃ r : ℝ, gamma k = (r : EReal))
    (hbt : ∀ k, ∃ r : ℝ, beta k = (r : EReal)) (n : Fin 100000) (j : Fin 128) :
    kLin x natt W gamma beta n j = rLin x natt W gamma beta n j := by
  choose xr hxr using hx
  choose nr hnr using hn
  choose Wr hWr using hW
  choose gr hgr using hg
  choose br hbr using hbt
  obtain rfl : x = fun n k => ((xr n k : ℝ) : EReal) := funext fun n => funext fun k => hxr n k
  obtain rfl : natt = fun n => ((nr n : ℝ) : EReal) := funext hnr
  obtain rfl : W = fun k j => ((Wr k j : ℝ) : EReal) := funext fun k => funext fun j => hWr k j
  obtain rfl : gamma = fun k => ((gr k : ℝ) : EReal) := funext hgr
  obtain rfl : beta = fun k => ((br k : ℝ) : EReal) := funext hbr
  exact BN.kLin_eq_rLin_coe xr nr Wr gr br n j

/-- and it is a real number. -/
theorem kLin_real (hx : ∀ n k, ∃ r : ℝ, x n k = (r : EReal)) (hn : ∀ n, ∃ r : ℝ, natt n = (r : EReal))
    (hW : ∀ k j, ∃ r : ℝ, W k j = (r : EReal)) (hg : ∀ k, ∃ r : ℝ, gamma k = (r : EReal))
    (hbt : ∀ k, ∃ r : ℝ, beta k = (r : EReal)) (n : Fin 100000) (j : Fin 128) :
    ∃ r : ℝ, kLin x natt W gamma beta n j = (r : EReal) := by
  choose xr hxr using hx
  choose nr hnr using hn
  choose Wr hWr using hW
  choose gr hgr using hg
  choose br hbr using hbt
  obtain rfl : x = fun n k => ((xr n k : ℝ) : EReal) := funext fun n => funext fun k => hxr n k
  obtain rfl : natt = fun n => ((nr n : ℝ) : EReal) := funext hnr
  obtain rfl : W = fun k j => ((Wr k j : ℝ) : EReal) := funext fun k => funext fun j => hWr k j
  obtain rfl : gamma = fun k => ((gr k : ℝ) : EReal) := funext hgr
  obtain rfl : beta = fun k => ((br k : ℝ) : EReal) := funext hbr
  exact ⟨_, BN.kLin_coe xr nr Wr gr br n j⟩

end Cert.Alg

end
-- ==== Proof.AlgGCN.lean ====
import proofs.«413865_j65704409694829_2_alg».proof.Proof.Spec
import proofs.«413865_j65704409694829_2_alg».proof.Proof.AlgBN
import Mathlib.Data.EReal.Basic
import Mathlib.Data.EReal.Operations
import Mathlib.Data.EReal.Inv
import Mathlib.Analysis.SpecialFunctions.Sqrt
import Mathlib.Algebra.BigOperators.Ring.Finset
import Mathlib.Tactic.Ring
import Mathlib.Tactic.Linarith
import Mathlib.Tactic.NormNum
import Mathlib.Algebra.BigOperators.Fin
import proofs.«413865_j65704409694829_2_alg».proof.Proof.LibIdealReal
import proofs.«413865_j65704409694829_2_alg».proof.Proof.LibBlockSum

/-!
# The two aggregations and poolings agree

Given that the linear images agree and are real (AlgBN): the extended edge list's sums split into the given edges' sums
and the self loops' single terms, so the degrees agree (edge weights landing on a node, plus one) and so do their
clamped inverse square roots, which are positive reals because the clamp keeps the argument above a positive
literal; a factor common to all terms of a finite sum of reals comes out of the sum, so weighting by the target's
factor after the scatter is weighting each message before it, and the self loop's message is the dense term; and
a sum over all nodes of a 0/1 indicator times a value is the sum of the values over the nodes the indicator marks.
-/

noncomputable section

namespace Cert.Alg

open Idealize.ShloMosaic Cert.Spec Cert.LibIdealReal

namespace GCN

/-! ## The literals as reals -/

/-- The pattern of one denotes one. -/
theorem cOne_eq : cOne = 1 := ofBits_one

/-- The real that the pattern of the clamp denotes. -/
def tiny : ℝ := 9223372 / 2 ^ 63

/-- The pattern of the clamp denotes the coerced `tiny`. -/
theorem cTiny_coe : cTiny = ((tiny : ℝ) : EReal) := by
  unfold tiny
  simp [Ideal.ofBits, Ideal.ieee, -EReal.coe_mul]; norm_num

/-- `tiny` is positive. -/
theorem tiny_pos : 0 < tiny := by unfold tiny; positivity

/-! ## Splitting a sum over the extended edge list -/

/-- A filtered sum over the 1700000 extended edges is the filtered sum over the first 1600000 plus the filtered sum
over the last 100000. -/
theorem sum_filter_split {M : Type*} [AddCommMonoid M] (p : Fin 1700000 → Prop) [DecidablePred p]
    (f : Fin 1700000 → M) :
    ∑ e ∈ Finset.univ.filter p, f e
      = ∑ e ∈ (Finset.univ : Finset (Fin 1600000)).filter (fun e => p ⟨e.val, by omega⟩), f ⟨e.val, by omega⟩
        + ∑ i ∈ (Finset.univ : Finset (Fin 100000)).filter (fun i => p ⟨1600000 + i.val, by omega⟩),
            f ⟨1600000 + i.val, by omega⟩ := by
  rw [Finset.sum_filter, Finset.sum_filter, Finset.sum_filter]
  exact Fin.sum_univ_add (a := 1600000) (b := 100000) (fun e => if p e then f e else 0)

/-! ## Words of small naturals -/

/-- The word of a natural below `2 ^ 31`, read signed, is that natural. -/
theorem toInt_ofNat_small (n : ℕ) (h : n < 2 ^ 31) : (BitVec.ofNat 32 n).toInt = (n : ℤ) := by
  rw [BitVec.toInt_eq_toNat_of_lt, BitVec.toNat_ofNat, Nat.mod_eq_of_lt (by omega)]
  rw [BitVec.toNat_ofNat, Nat.mod_eq_of_lt (by omega)]; omega

/-- The word of node `i'` lands on node `i` exactly when they are the same node. -/
theorem lands_ofNat (i' i : Fin 100000) : lands (BitVec.ofNat 32 i'.val) i ↔ i' = i := by
  unfold lands
  rw [toInt_ofNat_small _ (by omega)]
  constructor
  · intro h; exact Fin.ext (by exact_mod_cast h)
  · rintro rfl; rfl

/-- A word that lands on node `i` addresses row `i`. -/
theorem rowOf_of_lands (w : BitVec 32) (i : Fin 100000) (h : lands w i) : rowOf w = i := by
  unfold lands at h
  have hs : w.slt 0#32 = false := by
    rw [BitVec.slt_eq_decide, BitVec.toInt_zero, h]; simp
  have hw : wrap w = w := by unfold wrap; rw [hs]; rfl
  apply Fin.ext
  show min (wrap w).toInt.toNat 99999 = i.val
  rw [hw, h]
  have := i.isLt
  omega

/-- The word of node `i` addresses row `i`. -/
theorem rowOf_ofNat (i : Fin 100000) : rowOf (BitVec.ofNat 32 i.val) = i :=
  rowOf_of_lands _ i ((lands_ofNat i i).mpr rfl)

/-- The indicator of graph `g` times a value is the value when the word lands on `g`, and zero otherwise. -/
theorem oneHot_mul (w : BitVec 32) (g : Fin 512) (v : EReal) : oneHot w g * v = if lands w g then v else 0 := by
  unfold oneHot
  have hiff : w = BitVec.ofNat 32 g.val ↔ lands w g := by
    unfold lands
    constructor
    · rintro rfl; exact toInt_ofNat_small _ (by omega)
    · intro h; exact BitVec.eq_of_toInt_eq (by rw [h, toInt_ofNat_small _ (by omega)])
  by_cases h : lands w g
  · rw [if_pos (hiff.mpr h), if_pos h, one_mul]
  · rw [if_neg (mt hiff.mp h), if_neg h, zero_mul]

/-! ## The extended edge list on its two parts -/

section Ext

variable (ew : Fin 1600000 → EReal) (src dst : Fin 1600000 → BitVec 32)

theorem srcC_edge (e : Fin 1600000) (h : e.val < 1700000) : srcC src ⟨e.val, h⟩ = src e := by
  unfold srcC; rw [dif_pos e.isLt]

theorem dstC_edge (e : Fin 1600000) (h : e.val < 1700000) : dstC dst ⟨e.val, h⟩ = dst e := by
  unfold dstC; rw [dif_pos e.isLt]

theorem ewC_edge (e : Fin 1600000) (h : e.val < 1700000) : ewC ew ⟨e.val, h⟩ = ew e := by
  unfold ewC; rw [dif_pos e.isLt]

theorem srcC_loop (i : Fin 100000) (h : 1600000 + i.val < 1700000) :
    srcC src ⟨1600000 + i.val, h⟩ = BitVec.ofNat 32 i.val := by
  unfold srcC; rw [dif_neg (by simp)]; simp

theorem dstC_loop (i : Fin 100000) (h : 1600000 + i.val < 1700000) :
    dstC dst ⟨1600000 + i.val, h⟩ = BitVec.ofNat 32 i.val := by
  unfold dstC; rw [dif_neg (by simp)]; simp

theorem ewC_loop (i : Fin 100000) (h : 1600000 + i.val < 1700000) : ewC ew ⟨1600000 + i.val, h⟩ = cOne := by
  unfold ewC; rw [dif_neg (by simp)]

/-- Among the self loops exactly node `i`'s lands on node `i`. -/
theorem loop_filter (i : Fin 100000) :
    (Finset.univ : Finset (Fin 100000)).filter (fun i' => lands (dstC dst ⟨1600000 + i'.val, by omega⟩) i) = {i} := by
  ext i'
  simp only [Finset.mem_filter, Finset.mem_univ, true_and, Finset.mem_singleton, dstC_loop, lands_ofNat]

/-- A sum over the extended edges landing on node `i` is the sum over the given edges landing on it plus the term
of its self loop. -/
theorem sum_landing_split {M : Type*} [AddCommMonoid M] (f : Fin 1700000 → M) (i : Fin 100000) :
    ∑ e ∈ Finset.univ.filter (fun e => lands (dstC dst e) i), f e
      = ∑ e ∈ (Finset.univ : Finset (Fin 1600000)).filter (fun e => lands (dst e) i), f ⟨e.val, by omega⟩
        + f ⟨1600000 + i.val, by omega⟩ := by
  rw [sum_filter_split, loop_filter, Finset.sum_singleton]
  simp only [dstC_edge]

/-- In a sum over the edges landing on node `i`, the row that an edge's target word addresses is `i`. -/
theorem sum_landing_row {M : Type*} [AddCommMonoid M] (F : Fin 1600000 → Fin 100000 → M) (i : Fin 100000) :
    ∑ e ∈ (Finset.univ : Finset (Fin 1600000)).filter (fun e => lands (dst e) i), F e (rowOf (dst e))
      = ∑ e ∈ (Finset.univ : Finset (Fin 1600000)).filter (fun e => lands (dst e) i), F e i :=
  Finset.sum_congr rfl fun e he => by rw [rowOf_of_lands _ _ (Finset.mem_filter.mp he).2]

/-- The degrees agree. -/
theorem rDeg_eq_kDeg (i : Fin 100000) : rDeg ew dst i = kDeg ew dst i := by
  unfold rDeg kDeg
  rw [sum_landing_split dst (fun e => ewC ew e) i]
  simp only [ewC_edge, ewC_loop, add_assoc]

/-- The clamped inverse square roots of the degrees agree. -/
theorem rDinv_eq_kDinv (i : Fin 100000) : rDinv ew dst i = kDinv ew dst i := by
  unfold rDinv kDinv; rw [rDeg_eq_kDeg]

end Ext

/-! ## The degree factor is a real -/

section Real

variable (ewr : Fin 1600000 → ℝ) (src dst : Fin 1600000 → BitVec 32)

/-- The degree over the reals. -/
def degr (i : Fin 100000) : ℝ := ∑ e ∈ Finset.univ.filter (fun e => lands (dst e) i), ewr e + 1

/-- The clamped inverse square root of the degree over the reals. -/
def dr (i : Fin 100000) : ℝ := (√(max (degr ewr dst i) tiny))⁻¹

theorem kDeg_coe (i : Fin 100000) : kDeg (fun e => ((ewr e : ℝ) : EReal)) dst i = ((degr ewr dst i : ℝ) : EReal) := by
  unfold kDeg degr
  rw [BN.cZero_eq, zero_add, cOne_eq, one_coe, sum_coe, add_coe]

theorem kDinv_coe (i : Fin 100000) : kDinv (fun e => ((ewr e : ℝ) : EReal)) dst i = ((dr ewr dst i : ℝ) : EReal) := by
  unfold kDinv dr
  have hp : 0 < max (degr ewr dst i) tiny := lt_max_of_lt_right tiny_pos
  rw [kDeg_coe, cTiny_coe, max_coe, Ideal.rsqrt_coe, if_neg (not_lt.mpr hp.le), if_neg hp.ne']

end Real

/-! ## The aggregations -/

section Agg

variable (x : Fin 100000 → Fin 128 → EReal) (natt : Fin 100000 → EReal) (W : Fin 128 → Fin 128 → EReal)
  (b gamma beta : Fin 128 → EReal) (ew : Fin 1600000 → EReal) (src dst : Fin 1600000 → BitVec 32)

/-- The reference aggregation with its sum split into the given edges and the self loop, every landing edge's
target row being the node. -/
theorem rAgg_split (i : Fin 100000) (j : Fin 128) :
    rAgg x natt W b gamma beta ew src dst i j
      = (cZero + (∑ e ∈ (Finset.univ : Finset (Fin 1600000)).filter (fun e => lands (dst e) i),
            kDinv ew dst (rowOf (src e)) * ew e * kDinv ew dst i * rLin x natt W gamma beta (rowOf (src e)) j
          + kDinv ew dst i * cOne * kDinv ew dst i * rLin x natt W gamma beta i j)) + b j := by
  unfold rAgg
  rw [sum_landing_split dst _ i]
  unfold rMsg rNrm
  simp only [srcC_edge, dstC_edge, ewC_edge, srcC_loop, dstC_loop, ewC_loop, rowOf_ofNat, rDinv_eq_kDinv]
  have hA := sum_landing_row dst
    (fun e r => kDinv ew dst (rowOf (src e)) * ew e * kDinv ew dst r * rLin x natt W gamma beta (rowOf (src e)) j) i
  beta_reduce at hA
  rw [hA]

variable (ewr : Fin 1600000 → ℝ) (lr : Fin 100000 → Fin 128 → ℝ) (br : Fin 128 → ℝ)

/-- With real weights, bias and linear images, the kernel's aggregation plus the bias is the reference's. -/
theorem kAgg_add_eq_rAgg (hL : ∀ n j, kLin x natt W gamma beta n j = ((lr n j : ℝ) : EReal))
    (hR : ∀ n j, rLin x natt W gamma beta n j = ((lr n j : ℝ) : EReal)) (i : Fin 100000) (j : Fin 128) :
    kAgg x natt W gamma beta (fun e => ((ewr e : ℝ) : EReal)) src dst i j + ((br j : ℝ) : EReal)
      = rAgg x natt W (fun j => ((br j : ℝ) : EReal)) gamma beta (fun e => ((ewr e : ℝ) : EReal)) src dst i j := by
  rw [rAgg_split]
  unfold kAgg kAggR kMsg kScaled
  simp only [kDinv_coe, hL, hR, BN.cZero_eq, cOne_eq, zero_add, one_coe, mul_coe, sum_coe, add_coe]
  refine congrArg (fun r : ℝ => (r : EReal)) ?_
  rw [Finset.mul_sum]
  refine congrArg₂ (· + ·) (congrArg₂ (· + ·) (Finset.sum_congr rfl fun e _ => ?_) ?_) rfl <;> ring

/-- Hence the rectified values agree. -/
theorem kRelu_eq_rRelu (hL : ∀ n j, kLin x natt W gamma beta n j = ((lr n j : ℝ) : EReal))
    (hR : ∀ n j, rLin x natt W gamma beta n j = ((lr n j : ℝ) : EReal)) (n : Fin 100000) (j : Fin 128) :
    kRelu x natt W (fun j => ((br j : ℝ) : EReal)) gamma beta (fun e => ((ewr e : ℝ) : EReal)) src dst n j
      = rRelu x natt W (fun j => ((br j : ℝ) : EReal)) gamma beta (fun e => ((ewr e : ℝ) : EReal)) src dst n j := by
  unfold kRelu rRelu
  rw [kAgg_add_eq_rAgg x natt W gamma beta src dst ewr lr br hL hR n j]

end Agg

/-! ## The pooling -/

/-- The two halves' sums of the indicator times a value make up the sum of the values over the nodes whose graph
id lands on the graph. -/
theorem pool_eq (batch : Fin 100000 → BitVec 32) (v : Fin 100000 → EReal) (g : Fin 512) :
    ∑ h : Fin 2, ∑ r : Fin 50000, oneHot (batch (halfNode h r)) g * v (halfNode h r)
      = ∑ n ∈ Finset.univ.filter (fun n => lands (batch n) g), v n := by
  rw [Finset.sum_filter]
  refine Eq.trans (Cert.BlockSum.sum_blocks 2 50000 (fun n : Fin 100000 => oneHot (batch n) g * v n)) ?_
  exact Finset.sum_congr rfl fun n _ => oneHot_mul _ _ _

end GCN

variable (x : Fin 100000 → Fin 128 → EReal) (natt : Fin 100000 → EReal) (W : Fin 128 → Fin 128 → EReal)
  (b gamma beta : Fin 128 → EReal) (ew : Fin 1600000 → EReal) (src dst : Fin 1600000 → BitVec 32)
  (batch : Fin 100000 → BitVec 32)

/-- For finite inputs the two closed formulas are one function. -/
theorem kOut_eq_rOut (hx : ∀ n k, ∃ r : ℝ, x n k = (r : EReal)) (hn : ∀ n, ∃ r : ℝ, natt n = (r : EReal))
    (hW : ∀ k j, ∃ r : ℝ, W k j = (r : EReal)) (hb : ∀ k, ∃ r : ℝ, b k = (r : EReal))
    (hg : ∀ k, ∃ r : ℝ, gamma k = (r : EReal)) (hbt : ∀ k, ∃ r : ℝ, beta k = (r : EReal))
    (hew : ∀ e, ∃ r : ℝ, ew e = (r : EReal)) (g : Fin 512) (j : Fin 128) :
    kOut x natt W b gamma beta ew src dst batch g j = rOut x natt W b gamma beta ew src dst batch g j := by
  choose ewr hewr using hew
  choose br hbr using hb
  obtain rfl : ew = fun e => ((ewr e : ℝ) : EReal) := funext hewr
  obtain rfl : b = fun j => ((br j : ℝ) : EReal) := funext hbr
  have hreal := fun n j => kLin_real x natt W gamma beta hx hn hW hg hbt n j
  choose lr hL using hreal
  have hR : ∀ n j, rLin x natt W gamma beta n j = ((lr n j : ℝ) : EReal) := fun n j => by
    rw [← kLin_eq_rLin x natt W gamma beta hx hn hW hg hbt n j, hL]
  unfold kOut rOut kPool
  rw [GCN.pool_eq batch
    (fun n => kRelu x natt W (fun j => ((br j : ℝ) : EReal)) gamma beta (fun e => ((ewr e : ℝ) : EReal)) src dst n j) g]
  refine congrArg (cZero + ·) ?_
  exact Finset.sum_congr rfl fun n _ => GCN.kRelu_eq_rRelu x natt W gamma beta src dst ewr lr br hL hR n j

end Cert.Alg

end
-- ==== Proof.Finite.lean ====
import proofs.«413865_j65704409694829_2_alg».proof.Pre_finite_inputs
import proofs.«413865_j65704409694829_2_alg».proof.Proof.Gen.Pre_finite_inputs
import Idealize.ShloMosaic.PureOps.Ideal
import Idealize.ShloMosaic.Lib.ReduceAll
import Idealize.ShloMosaic.Lib.ValueIdx

/-!
# The precondition says every float input is a real number

The predicate is a conjunction, one conjunct per float input, that every entry's absolute value is below plus
infinity; at the ideal instance an extended real whose absolute value is below plus infinity is a real number.
-/

set_option maxRecDepth 16384

noncomputable section

namespace Cert.Finite

open Idealize.ShloMosaic Cert.Pre_finite_inputs

/-- The scalar shape has one index. -/
instance : Subsingleton S_.Idx := ⟨fun a b => funext fun d => d.elim0⟩

/-- The pattern of plus infinity denotes the top extended real. -/
theorem inf_eq_top : Ideal.ofBits .f32 0x7F800000#32 = (⊤ : EReal) := by simp [Ideal.ofBits, Ideal.ieee]

/-- An extended real whose absolute value is below plus infinity is a real number: the absolute value of either
infinity is plus infinity, which is not below itself. -/
theorem real_of_abs_lt (v : EReal)
    (h : Ideal.cmp .olt (max v (-v)) (Ideal.ofBits .f32 0x7F800000#32) = 1#1) : ∃ r : ℝ, v = (r : EReal) := by
  rw [inf_eq_top] at h
  induction v using EReal.rec with
  | bot => simp [Ideal.cmp] at h
  | coe r => exact ⟨r, rfl⟩
  | top => simp [Ideal.cmp] at h

/-- An array of any shape, every entry of which passes the test "absolute value below plus infinity" (the conjunction
over all axes being true), has real entries. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
      (constantI S_ 1 1#1) hr hu ValueIdx.ix0 = 1#1) (i : s.Idx) : ∃ r : ℝ, x i = (r : EReal) :=
  real_of_abs_lt (x i) (Host.reduce_andi_all _ _ hr hu ValueIdx.ix0 e i)

theorem of_pre (x : FVec Ideal S100000x128 .f32) (ei : IVec S2x1600000 32) (batch : IVec S100000 32)
    (ew : FVec Ideal S1600000 .f32) (natt : FVec Ideal S100000x1 .f32) (W : FVec Ideal S128x128 .f32)
    (b gamma beta : FVec Ideal S128 .f32)
    (h : Cert.Pre_finite_inputs.fn (F := Ideal) x ei batch ew natt W b gamma beta = fun _ => 1#1) :
    (∀ i, ∃ r : ℝ, x i = (r : EReal)) ∧ (∀ i, ∃ r : ℝ, ew i = (r : EReal)) ∧ (∀ i, ∃ r : ℝ, natt i = (r : EReal))
      ∧ (∀ i, ∃ r : ℝ, W i = (r : EReal)) ∧ (∀ i, ∃ r : ℝ, b i = (r : EReal)) ∧ (∀ i, ∃ r : ℝ, gamma i = (r : EReal))
      ∧ (∀ i, ∃ r : ℝ, beta i = (r : EReal)) := by
  -- the predicate at its one index is a conjunction of seven all-entries tests, one per float input
  have h0 := congrFun h ValueIdx.ix0
  dsimp only [fn, fn_part1, andi] at h0
  simp only [IntOp.andi_eq_one] at h0
  obtain ⟨⟨⟨⟨⟨⟨h1, h2⟩, h3⟩, h4⟩, h5⟩, h6⟩, h7⟩ := h0
  exact ⟨real_of_all x _ _ _ h1, real_of_all ew _ _ _ h2, real_of_all natt _ _ _ h3, real_of_all W _ _ _ h4,
    real_of_all b _ _ _ h5, real_of_all gamma _ _ _ h6, real_of_all beta _ _ _ h7⟩

end Cert.Finite

end
-- ==== Proof.lean ====
/-
  The certificate of the graph-convolution block against its reference (see Proof/Spec.lean for the two closed
  formulas): the normalisation's statistics from one pass of column sums and sums of squares, the normalisation folded
  into one scale and shift per column, the edge messages weighted by the source's factor before the scatter and by the
  target's after it with the self loops as a dense term, and the graph pooling as a 0/1 matrix product split in two
  halves — equal, over the reals, to centring row by row, extending the edge list by self loops, weighting each message
  symmetrically and pooling by a scatter. The two frames of the kernel program run its three regions over the
  pipeline library's several-regions launch; the reference's frame is its run; nothing was rewritten by the ideal
  pass, so `preserves` has no conjunct.
-/
import proofs.«413865_j65704409694829_2_alg».proof.Defs
import proofs.«413865_j65704409694829_2_alg».proof.Proof.Gen.Kernel
import proofs.«413865_j65704409694829_2_alg».proof.Proof.Gen.KernelIdeal
import proofs.«413865_j65704409694829_2_alg».proof.Proof.Gen.ReferenceIdeal
import proofs.«413865_j65704409694829_2_alg».proof.Proof.Gen.ReferenceIdeal.Run
import proofs.«413865_j65704409694829_2_alg».proof.Proof.Gen.Pre_finite_inputs
import proofs.«413865_j65704409694829_2_alg».proof.Proof.K.Claims
import proofs.«413865_j65704409694829_2_alg».proof.Proof.KI.Claims
import proofs.«413865_j65704409694829_2_alg».proof.Proof.KI.Host
import proofs.«413865_j65704409694829_2_alg».proof.Proof.RefRead
import proofs.«413865_j65704409694829_2_alg».proof.Proof.AlgGCN
import proofs.«413865_j65704409694829_2_alg».proof.Proof.Finite
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The word-level kernel program runs and leaves its arguments as launched. -/
theorem frame_k : Cert.frame_Kernel := fun m ρ _ => Cert.Kernel.Hand.frame (F := Bits) m ρ

/-- The idealized kernel program runs and leaves its arguments as launched. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result: the kernel's is `Cert.Spec.kOut`
    of its arguments, the reference's `Cert.Spec.rOut` of the same arrays, and for finite inputs these are one function. -/
theorem algebraic : Cert.algebraic_KernelIdeal_ReferenceIdeal := by
  intro m ρ m' ρ' hpre hagree
  refine ⟨fun c => Cert.KernelIdeal.Hand.W6 (F := Ideal) m c (Proc.devRef .tc Cert.KernelIdeal.main_v57),
    Cert.KernelIdeal.Hand.run_value (F := Ideal) m ρ, ?_⟩
  refine (θ_run Cert.ReferenceIdeal.defs _ _).mono (fun r h c => ⟨(h c).1.trans ?_, (h c).2⟩)
    (Cert.ReferenceIdeal.Value.run (F := Ideal) m' ρ')
  funext i
  obtain ⟨g, j, rfl⟩ : ∃ (g : Fin 512) (j : Fin 128), i = ix2 g j := ⟨i 0, i 1, eq_ix2 i⟩
  have hk := Cert.KernelIdeal.Hand.out_val m c g j
  have hr := Cert.ReferenceIdeal.RefRead.ref_val m' c g j
  obtain ⟨fx, few, fn, fW, fb, fg, fbt⟩ := Cert.Finite.of_pre _ _ _ _ _ _ _ _ _ (hpre c)
  have e0 : Cert.ReferenceIdeal.RefRead.xOf m' c = Cert.KernelIdeal.Hand.xOf m c :=
    funext fun n => funext fun k => congrFun (hagree c).1 (ix2 n k)
  have e1s : Cert.ReferenceIdeal.RefRead.srcOf m' c = Cert.KernelIdeal.Hand.srcOf m c :=
    funext fun e => congrFun (hagree c).2.1 (ix2 (0 : Fin 2) e)
  have e1d : Cert.ReferenceIdeal.RefRead.dstOf m' c = Cert.KernelIdeal.Hand.dstOf m c :=
    funext fun e => congrFun (hagree c).2.1 (ix2 (1 : Fin 2) e)
  have e2 : Cert.ReferenceIdeal.RefRead.batchOf m' c = Cert.KernelIdeal.Hand.batchOf m c :=
    funext fun n => congrFun (hagree c).2.2.1 (ix1 n)
  have e3 : Cert.ReferenceIdeal.RefRead.ewOf m' c = Cert.KernelIdeal.Hand.ewOf m c :=
    funext fun e => congrFun (hagree c).2.2.2.1 (ix1 e)
  have e4 : Cert.ReferenceIdeal.RefRead.nattOf m' c = Cert.KernelIdeal.Hand.nattOf m c :=
    funext fun n => congrFun (hagree c).2.2.2.2.1 (ix2 n (0 : Fin 1))
  have e5 : Cert.ReferenceIdeal.RefRead.wOf m' c = Cert.KernelIdeal.Hand.wOf m c :=
    funext fun k => funext fun j => congrFun (hagree c).2.2.2.2.2.1 (ix2 k j)
  have e6 : Cert.ReferenceIdeal.RefRead.bOf m' c = Cert.KernelIdeal.Hand.bOf m c :=
    funext fun j => congrFun (hagree c).2.2.2.2.2.2.1 (ix1 j)
  have e7 : Cert.ReferenceIdeal.RefRead.gammaOf m' c = Cert.KernelIdeal.Hand.gammaOf m c :=
    funext fun j => congrFun (hagree c).2.2.2.2.2.2.2.1 (ix1 j)
  have e8 : Cert.ReferenceIdeal.RefRead.betaOf m' c = Cert.KernelIdeal.Hand.betaOf m c :=
    funext fun j => congrFun (hagree c).2.2.2.2.2.2.2.2 (ix1 j)
  rw [e0, e1s, e1d, e2, e3, e4, e5, e6, e7, e8] at hr
  refine hr.trans (Eq.trans ?_ hk.symm)
  exact (Cert.Alg.kOut_eq_rOut _ _ _ _ _ _ _ _ _ _ (fun n k => fx (ix2 n k)) (fun n => fn (ix2 n (0 : Fin 1)))
    (fun k j => fW (ix2 k j)) (fun j => fb (ix1 j)) (fun j => fg (ix1 j)) (fun j => fbt (ix1 j)) (fun e => few (ix1 e)) g j).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
